-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  bcast_S_S2x800000 : S_.BroadcastsInDim S2x800000 (![] : Fin 0 → Fin S2x800000.rank)
  reducesTo_S2x800000_S_d0_1 : S2x800000.ReducesTo [0, 1] S_

variable [Facts]

def fn_part2 {F : FTy → Type} [FloatOps F] (main_arg1 : IVec S2x800000 32) (main_arg8 : FVec F S32x1 .f32) (main_arg9 : FVec F S1 .f32) (main_v33 : IVec S_ 1) : IVec S_ 1 :=
  let main_v34 : FVec F S32x1 .f32 := Host.absf main_arg8
  let main_cst_12 : FVec F S_ .f32 := constant S_ .f32 0x7F800000#32
  let main_v35 : FVec F S32x1 .f32 := broadcastInDim S32x1 ![] bcast_S_S32x1 main_cst_12
  let main_v36 : IVec S32x1 1 := cmpf .olt main_v34 main_v35
  let main_c_13 : IVec S_ 1 := constantI S_ 1 1#1
  let main_v37 : IVec S_ 1 := (fun x v => Host.reduce IntOp.andi x v reducesTo_S32x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_c_16 : IVec S_ 32 := constantI S_ 32 0#32
  let main_v44 : IVec S2x800000 32 := broadcastInDim S2x800000 ![] bcast_S_S2x800000 main_c_16
  let main_v45 : IVec S2x800000 1 := cmpi .sge main_arg1 main_v44
  let main_c_17 : IVec S_ 32 := constantI S_ 32 50000#32
  let main_v46 : IVec S2x800000 32 := broadcastInDim S2x800000 ![] bcast_S_S2x800000 main_c_17
  let main_v47 : IVec S2x800000 1 := cmpi .slt main_arg1 main_v46
  let main_v48 : IVec S2x800000 1 := andi main_v45 main_v47
  let main_c_18 : IVec S_ 1 := constantI S_ 1 1#1
  let main_v49 : IVec S_ 1 := (fun x v => Host.reduce IntOp.andi x v reducesTo_S2x800000_S_d0_1 h_S_) main_v48 main_c_18
  let main_v50 : IVec S_ 1 := andi main_v43 main_v49
  main_v50

def fn_part1 {F : FTy → Type} [FloatOps F] (main_arg1 : IVec S2x800000 32) (main_arg5 : FVec F S64 .f32) (main_arg6 : FVec F S64x32 .f32) (main_arg7 : FVec F S32 .f32) (main_arg8 : FVec F S32x1 .f32) (main_arg9 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg1 main_arg8 main_arg9 main_v33

def fn {F : FTy → Type} [FloatOps F] (main_arg0 : FVec F S50000x128 .f32) (main_arg1 : IVec S2x800000 32) (main_arg2 : FVec F S128x64 .f32) (main_arg3 : FVec F S64 .f32) (main_arg4 : FVec F S64x64 .f32) (main_arg5 : FVec F S64 .f32) (main_arg6 : FVec F S64x32 .f32) (main_arg7 : FVec F S32 .f32) (main_arg8 : FVec F S32x1 .f32) (main_arg9 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩
abbrev S50048x128 : Shape := ⟨2, ![50048, 128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S50048 : Shape := ⟨1, ![50048]⟩
abbrev S850000x1 : Shape := ⟨2, ![850000, 1]⟩
abbrev S50048x64 : Shape := ⟨2, ![50048, 64]⟩
abbrev S3128x128 : Shape := ⟨2, ![3128, 128]⟩
abbrev S3128x64 : Shape := ⟨2, ![3128, 64]⟩
abbrev S850000x64 : Shape := ⟨2, ![850000, 64]⟩
abbrev S2000x1 : Shape := ⟨2, ![2000, 1]⟩
abbrev S2000x64 : Shape := ⟨2, ![2000, 64]⟩
abbrev S2000 : Shape := ⟨1, ![2000]⟩
abbrev S2000x3128 : Shape := ⟨2, ![2000, 3128]⟩
abbrev S3128x2000 : Shape := ⟨2, ![3128, 2000]⟩
abbrev S1x2000 : Shape := ⟨2, ![1, 2000]⟩
abbrev S1x64 : Shape := ⟨2, ![1, 64]⟩
abbrev S50048x1 : Shape := ⟨2, ![50048, 1]⟩
abbrev S3128x1 : Shape := ⟨2, ![3128, 1]⟩
abbrev S3128x32 : Shape := ⟨2, ![3128, 32]⟩
abbrev S1x32 : Shape := ⟨2, ![1, 32]⟩
abbrev S1x1 : Shape := ⟨2, ![1, 1]⟩
abbrev S50000x1 : Shape := ⟨2, ![50000, 1]⟩

abbrev nBuf : Space → Nat
  | .hbm => 64
  | .vmem => 52
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S32x1, .f32⟩
  | .hbm, ⟨9, _⟩ => ⟨S1, .f32⟩
  | .hbm, ⟨10, _⟩ => ⟨S_, .i32⟩
  | .hbm, ⟨11, _⟩ => ⟨S_, .f32⟩
  | .hbm, ⟨12, _⟩ => ⟨S50048x128, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S50000, .i32⟩
  | .hbm, ⟨18, _⟩ => ⟨S850000, .i32⟩
  | .hbm, ⟨19, _⟩ => ⟨S850000, .i32⟩
  | .hbm, ⟨20, _⟩ => ⟨S_, .f32⟩
  | .hbm, ⟨21, _⟩ => ⟨S850000, .f32⟩
  | .hbm, ⟨22, _⟩ => ⟨S_, .f32⟩
  | .hbm, ⟨23, _⟩ => ⟨S50048, .f32⟩
  | .hbm, ⟨24, _⟩ => ⟨S850000x1, .i32⟩
  | .hbm, ⟨25, _⟩ => ⟨S50048, .f32⟩
  | .hbm, ⟨26, _⟩ => ⟨S_, .f32⟩
  | .hbm, ⟨27, _⟩ => ⟨S50048, .f32⟩
  | .hbm, ⟨28, _⟩ => ⟨S50048, .i1⟩
  | .hbm, ⟨29, _⟩ => ⟨S50048, .f32⟩
  | .hbm, ⟨30, _⟩ => ⟨S_, .f32⟩
  | .hbm, ⟨31, _⟩ => ⟨S_, .f32⟩
  | .hbm, ⟨32, _⟩ => ⟨S50048, .f32⟩
  | .hbm, ⟨33, _⟩ => ⟨S50048, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000, .f32⟩
  | .hbm, ⟨52, _⟩ => ⟨S850000, .f32⟩
  | .hbm, ⟨53, _⟩ => ⟨S850000x1, .i32⟩
  | .hbm, ⟨54, _⟩ => ⟨S850000x1, .i32⟩
  | .hbm, ⟨55, _⟩ => ⟨S850000x1, .f32⟩
  | .hbm, ⟨56, _⟩ => ⟨S50048x64, .f32⟩
  | .hbm, ⟨57, _⟩ => ⟨S850000x64, .f32⟩
  | .hbm, ⟨58, _⟩ => ⟨S50048x64, .f32⟩
  | .hbm, ⟨59, _⟩ => ⟨S50048x64, .f32⟩
  | .hbm, ⟨60, _⟩ => ⟨S850000x64, .f32⟩
  | .hbm, ⟨61, _⟩ => ⟨S50048x64, .f32⟩
  | .hbm, ⟨62, _⟩ => ⟨S50048x1, .f32⟩
  | .hbm, ⟨63, _⟩ => ⟨S50000x1, .f32⟩
  | .local _ .vmem, ⟨0, _⟩ => ⟨S3128x128, .f32⟩
  | .local _ .vmem, ⟨1, _⟩ => ⟨S3128x128, .f32⟩
  | .local _ .vmem, ⟨2, _⟩ => ⟨S128x64, .f32⟩
  | .local _ .vmem, ⟨3, _⟩ => ⟨S3128x64, .f32⟩
  | .local _ .vmem, ⟨4, _⟩ => ⟨S3128x64, .f32⟩
  | .local _ .vmem, ⟨5, _⟩ => ⟨S2000x1, .i32⟩
  | .local _ .vmem, ⟨6, _⟩ => ⟨S2000x1, .i32⟩
  | .local _ .vmem, ⟨7, _⟩ => ⟨S2000x1, .f32⟩
  | .local _ .vmem, ⟨8, _⟩ => ⟨S2000x1, .f32⟩
  | .local _ .vmem, ⟨9, _⟩ => ⟨S3128x64, .f32⟩
  | .local _ .vmem, ⟨10, _⟩ => ⟨S3128x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S2000x1, .i32⟩
  | .local _ .vmem, ⟨15, _⟩ => ⟨S2000x1, .i32⟩
  | .local _ .vmem, ⟨16, _⟩ => ⟨S2000x64, .f32⟩
  | .local _ .vmem, ⟨17, _⟩ => ⟨S2000x64, .f32⟩
  | .local _ .vmem, ⟨18, _⟩ => ⟨S64, .f32⟩
  | .local _ .vmem, ⟨19, _⟩ => ⟨S3128x64, .f32⟩
  | .local _ .vmem, ⟨20, _⟩ => ⟨S3128x64, .f32⟩
  | .local _ .vmem, ⟨21, _⟩ => ⟨S3128x64, .f32⟩
  | .local _ .vmem, ⟨22, _⟩ => ⟨S3128x64, .f32⟩
  | .local _ .vmem, ⟨23, _⟩ => ⟨S3128x64, .f32⟩
  | .local _ .vmem, ⟨24, _⟩ => ⟨S64x64, .f32⟩
  | .local _ .vmem, ⟨25, _⟩ => ⟨S3128x64, .f32⟩
  | .local _ .vmem, ⟨26, _⟩ => ⟨S3128x64, .f32⟩
  | .local _ .vmem, ⟨27, _⟩ => ⟨S2000x1, .i32⟩
  | .local _ .vmem, ⟨28, _⟩ => ⟨S2000x1, .i32⟩
  | .local _ .vmem, ⟨29, _⟩ => ⟨S2000x1, .f32⟩
  | .local _ .vmem, ⟨30, _⟩ => ⟨S2000x1, .f32⟩
  | .local _ .vmem, ⟨31, _⟩ => ⟨S3128x64, .f32⟩
  | .local _ .vmem, ⟨32, _⟩ => ⟨S3128x64, .f32⟩
  | .local _ .vmem, ⟨33, _⟩ => ⟨S2000x64, .f32⟩
  | .local _ .vmem, ⟨34, _⟩ => ⟨S2000x64, .f32⟩
  | .local _ .vmem, ⟨35, _⟩ => ⟨S2000x64, .f32⟩
  | .local _ .vmem, ⟨36, _⟩ => ⟨S2000x1, .i32⟩
  | .local _ .vmem, ⟨37, _⟩ => ⟨S2000x1, .i32⟩
  | .local _ .vmem, ⟨38, _⟩ => ⟨S2000x64, .f32⟩
  | .local _ .vmem, ⟨39, _⟩ => ⟨S2000x64, .f32⟩
  | .local _ .vmem, ⟨40, _⟩ => ⟨S64, .f32⟩
  | .local _ .vmem, ⟨41, _⟩ => ⟨S3128x64, .f32⟩
  | .local _ .vmem, ⟨42, _⟩ => ⟨S3128x64, .f32⟩
  | .local _ .vmem, ⟨43, _⟩ => ⟨S3128x64, .f32⟩
  | .local _ .vmem, ⟨44, _⟩ => ⟨S3128x64, .f32⟩
  | .local _ .vmem, ⟨45, _⟩ => ⟨S3128x64, .f32⟩
  | .local _ .vmem, ⟨46, _⟩ => ⟨S64x32, .f32⟩
  | .local _ .vmem, ⟨47, _⟩ => ⟨S32, .f32⟩
  | .local _ .vmem, ⟨48, _⟩ => ⟨S32x1, .f32⟩
  | .local _ .vmem, ⟨49, _⟩ => ⟨S1, .f32⟩
  | .local _ .vmem, ⟨50, _⟩ => ⟨S3128x1, .f32⟩
  | .local _ .vmem, ⟨51, _⟩ => ⟨S3128x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_call1_v0 : Ref sig .tc := ⟨.hbm, 31, rfl⟩
abbrev main_call1_v1 : Ref sig .tc := ⟨.hbm, 32, rfl⟩
abbrev main_v15 : Ref sig .tc := ⟨.hbm, 33, rfl⟩
abbrev main_c_3 : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_c_6 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_scratch0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc4_scratch0 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg3_0 : Ref sig .tc := ⟨.vmem, 41, rfl⟩
abbrev cc5_stg3_1 : Ref sig .tc := ⟨.vmem, 42, rfl⟩
abbrev cc5_scratch0 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg2_0 : Ref sig .tc := ⟨.vmem, 47, rfl⟩
abbrev cc6_stg3_0 : Ref sig .tc := ⟨.vmem, 48, rfl⟩
abbrev cc6_stg4_0 : Ref sig .tc := ⟨.vmem, 49, rfl⟩
abbrev cc6_stg5_0 : Ref sig .tc := ⟨.vmem, 50, rfl⟩
abbrev cc6_stg5_1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem2_1 : DmaSem sig := 30
abbrev cc4_sem3_0 : DmaSem sig := 31
abbrev cc4_sem3_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem3_0 : DmaSem sig := 38
abbrev cc5_sem3_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem3_0 : DmaSem sig := 44
abbrev cc6_sem4_0 : DmaSem sig := 45
abbrev cc6_sem5_0 : DmaSem sig := 46
abbrev cc6_sem5_1 : DmaSem sig := 47

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![425, 16], ![false, false]⟩

def k1_cond2 (i : grid1.Coords) : BitVec 1 :=
  let arg1 : BitVec 32 := BitVec.ofNat 32 (i 1).val
  let c15_i32 : BitVec 32 := 15#32
  let v24 : BitVec 1 := Scalar.cmpi .eq arg1 c15_i32
  let v25 : BitVec 32 := Scalar.extui v24
  let c0_i32_8 : BitVec 32 := 0#32
  let v26 : BitVec 1 := Scalar.cmpi .ne v25 c0_i32_8
  v26

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2000x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S3128x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![16, 425], ![false, false]⟩

def k2_cond2 (i : grid2.Coords) : BitVec 1 :=
  let arg1 : BitVec 32 := BitVec.ofNat 32 (i 1).val
  let c424_i32 : BitVec 32 := 424#32
  let v24 : BitVec 1 := Scalar.cmpi .eq arg1 c424_i32
  let v25 : BitVec 32 := Scalar.extui v24
  let c0_i32_8 : BitVec 32 := 0#32
  let v26 : BitVec 1 := Scalar.cmpi .ne v25 c0_i32_8
  v26

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2000x1 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S3128x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S3128x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S3128x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨2, ![425, 16], ![false, false]⟩

def k4_cond2 (i : grid4.Coords) : BitVec 1 :=
  let arg1 : BitVec 32 := BitVec.ofNat 32 (i 1).val
  let c15_i32 : BitVec 32 := 15#32
  let v24 : BitVec 1 := Scalar.cmpi .eq arg1 c15_i32
  let v25 : BitVec 32 := Scalar.extui v24
  let c0_i32_8 : BitVec 32 := 0#32
  let v26 : BitVec 1 := Scalar.cmpi .ne v25 c0_i32_8
  v26

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S2000x1 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S2000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S3128x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S2000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨2, ![16, 425], ![false, false]⟩

def k5_cond2 (i : grid5.Coords) : BitVec 1 :=
  let arg1 : BitVec 32 := BitVec.ofNat 32 (i 1).val
  let c424_i32 : BitVec 32 := 424#32
  let v24 : BitVec 1 := Scalar.cmpi .eq arg1 c424_i32
  let v25 : BitVec 32 := Scalar.extui v24
  let c0_i32_8 : BitVec 32 := 0#32
  let v26 : BitVec 1 := Scalar.cmpi .ne v25 c0_i32_8
  v26

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S2000x1 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S2000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 1 → Memref sig .tc .vmem S64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 2 → Memref sig .tc .vmem S3128x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev grid6 : Pipeline.Grid := ⟨1, ![16], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S3128x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S32 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S32x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S3128x1 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

class Facts₀ : Prop where
  pads_S50000x128_S50048x128_0480_000 : S50000x128.Pads (![0, 0] : Fin 2 → Nat) ![48, 0] ![0, 0] S50048x128
  h_S_ : 0 < S_.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50048 : S_.BroadcastsInDim S50048 (![] : Fin 0 → Fin S50048.rank)
  bcast_S850000_S850000x1_0 : S850000.BroadcastsInDim S850000x1 (![0] : Fin 1 → Fin S850000x1.rank)
  shapeCasts_S850000_S850000x1 : S850000.ShapeCasts S850000x1
  inb_S3128x128_S3128x128_0_0 : ∀ a, (![0, 0] : Fin 2 → Nat) a + S3128x128.size a ≤ S3128x128.size a
  h_S3128x128 : 0 < S3128x128.numel
  shapeCasts_S3128x128_S3128x128 : S3128x128.ShapeCasts S3128x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S3128x64_S3128x64_0_0 : ∀ a, (![0, 0] : Fin 2 → Nat) a + S3128x64.size a ≤ S3128x64.size a
  h_S3128x64 : 0 < S3128x64.numel
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000 : S2000x1.ShapeCasts S2000
  iota_S2000x3128_d1_w32 : S2000x3128.Iotas .tc 32 [1]
  shapeCasts_S2000_S2000x1 : S2000.ShapeCasts S2000x1
  broadcasts_S2000x1_S2000x3128 : S2000x1.Broadcasts S2000x3128
  natLt_1_32 : 1 < 32
  shapeCasts_S3128x64_S3128x64 : S3128x64.ShapeCasts S3128x64
  broadcasts_S2000x1_S2000x64 : S2000x1.Broadcasts S2000x64
  iota_S3128x2000_d0_w32 : S3128x2000.Iotas .tc 32 [0]
  shapeCasts_S2000_S1x2000 : S2000.ShapeCasts S1x2000
  broadcasts_S1x2000_S3128x2000 : S1x2000.Broadcasts S3128x2000
  inb_S64_S64_0 : ∀ a, (![0] : Fin 1 → Nat) a + S64.size a ≤ S64.size a
  h_S64 : 0 < S64.numel
  shapeCasts_S64_S1x64 : S64.ShapeCasts S1x64
  broadcasts_S1x64_S3128x64 : S1x64.Broadcasts S3128x64
  inb_S64x64_S64x64_0_0 : ∀ a, (![0, 0] : Fin 2 → Nat) a + S64x64.size a ≤ S64x64.size a
  h_S64x64 : 0 < S64x64.numel
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S3128x32 : S1x32.Broadcasts S3128x32
  inb_S32x1_S32x1_0_0 : ∀ a, (![0, 0] : Fin 2 → Nat) a + S32x1.size a ≤ S32x1.size a
  h_S32x1 : 0 < S32x1.numel
  inb_S1_S1_0 : ∀ a, (![0] : Fin 1 → Nat) a + S1.size a ≤ S1.size a
  h_S1 : 0 < S1.numel
  shapeCasts_S1_S1x1 : S1.ShapeCasts S1x1
  broadcasts_S1x1_S3128x1 : S1x1.Broadcasts S3128x1
  inb_S3128x1_S3128x1_0_0 : ∀ a, (![0, 0] : Fin 2 → Nat) a + S3128x1.size a ≤ S3128x1.size a
  h_S3128x1 : 0 < S3128x1.numel
  slices_S50048x1_S50000x1_0_0 : S50048x1.Slices ![0, 0] S50000x1
  scatter_S50048_S850000x1_S850000_n_0_0_1_wf : ScatterDims.WF S50048 S850000x1 S850000 [] [0] [0] 1
  gather_S50048_S850000x1_S850000_n_0_n_n_0_1_1_wf : GatherDims.WF S50048 S850000x1 S850000 [] [0] [] [0] [] 1 ![1]
  dot_S3128x128_S128x64_S3128x64_1_0_0_1_n_n_wf : DotDims.WF S3128x128 S128x64 S3128x64 [1] [0] [0] [1] [] []
  dot_S2000x3128_S3128x64_S2000x64_1_0_0_1_n_n_wf : DotDims.WF S2000x3128 S3128x64 S2000x64 [1] [0] [0] [1] [] []
  dot_S3128x2000_S2000x64_S3128x64_1_0_0_1_n_n_wf : DotDims.WF S3128x2000 S2000x64 S3128x64 [1] [0] [0] [1] [] []
  dot_S3128x64_S64x64_S3128x64_1_0_0_1_n_n_wf : DotDims.WF S3128x64 S64x64 S3128x64 [1] [0] [0] [1] [] []
  dot_S3128x64_S64x32_S3128x32_1_0_0_1_n_n_wf : DotDims.WF S3128x64 S64x32 S3128x32 [1] [0] [0] [1] [] []
  dot_S3128x32_S32x1_S3128x1_1_0_0_1_n_n_wf : DotDims.WF S3128x32 S32x1 S3128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3128x128.size a ≤ S50048x128.size a
  hwx0_0 : ∀ i : grid0.Coords, EltTy.bits .f32 = 32 ∨ (Rect.block (s := S50048x128) S3128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3128x64.size a ≤ S50048x64.size a
  hwx0_2 : ∀ i : grid0.Coords, EltTy.bits .f32 = 32 ∨ (Rect.block (s := S50048x64) S3128x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x1.size a ≤ S850000x1.size a
  hwx1_0 : ∀ i : grid1.Coords, EltTy.bits .i32 = 32 ∨ (Rect.block (s := S850000x1) S2000x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S850000x1.size a
  hwx1_1 : ∀ i : grid1.Coords, EltTy.bits .f32 = 32 ∨ (Rect.block (s := S850000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3128x64.size a ≤ S50048x64.size a
  hwx1_2 : ∀ i : grid1.Coords, EltTy.bits .f32 = 32 ∨ (Rect.block (s := S50048x64) S3128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S850000x64.size a
  hwx1_3 : ∀ i : grid1.Coords, EltTy.bits .f32 = 32 ∨ (Rect.block (s := S850000x64) S2000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x1.size a ≤ S850000x1.size a
  hwx2_0 : ∀ i : grid2.Coords, EltTy.bits .i32 = 32 ∨ (Rect.block (s := S850000x1) S2000x1.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S850000x64.size a
  hwx2_1 : ∀ i : grid2.Coords, EltTy.bits .f32 = 32 ∨ (Rect.block (s := S850000x64) S2000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S3128x64.size a ≤ S50048x64.size a
  hwx2_3 : ∀ i : grid2.Coords, EltTy.bits .f32 = 32 ∨ (Rect.block (s := S50048x64) S3128x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S3128x64.size a ≤ S50048x64.size a
  hwx3_0 : ∀ i : grid3.Coords, EltTy.bits .f32 = 32 ∨ (Rect.block (s := S50048x64) S3128x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S3128x64.size a ≤ S50048x64.size a
  hwx3_2 : ∀ i : grid3.Coords, EltTy.bits .f32 = 32 ∨ (Rect.block (s := S50048x64) S3128x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x1.size a ≤ S850000x1.size a
  hwx4_0 : ∀ i : grid4.Coords, EltTy.bits .i32 = 32 ∨ (Rect.block (s := S850000x1) S2000x1.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S850000x1.size a
  hwx4_1 : ∀ i : grid4.Coords, EltTy.bits .f32 = 32 ∨ (Rect.block (s := S850000x1) S2000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S3128x64.size a ≤ S50048x64.size a
  hwx4_2 : ∀ i : grid4.Coords, EltTy.bits .f32 = 32 ∨ (Rect.block (s := S50048x64) S3128x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x64.size a ≤ S850000x64.size a
  hwx4_3 : ∀ i : grid4.Coords, EltTy.bits .f32 = 32 ∨ (Rect.block (s := S850000x64) S2000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x1.size a ≤ S850000x1.size a
  hwx5_0 : ∀ i : grid5.Coords, EltTy.bits .i32 = 32 ∨ (Rect.block (s := S850000x1) S2000x1.size (cc5_transform_0 i) (hinb5_0 i)).WholeWords (EltTy.packing .i32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x64.size a ≤ S850000x64.size a
  hwx5_1 : ∀ i : grid5.Coords, EltTy.bits .f32 = 32 ∨ (Rect.block (s := S850000x64) S2000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64.size a ≤ S64.size a
  hwx5_2 : ∀ i : grid5.Coords, EltTy.bits .f32 = 32 ∨ (Rect.block (s := S64) S64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S3128x64.size a ≤ S50048x64.size a
  hwx5_3 : ∀ i : grid5.Coords, EltTy.bits .f32 = 32 ∨ (Rect.block (s := S50048x64) S3128x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S3128x64.size a ≤ S50048x64.size a
  hwx6_0 : ∀ i : grid6.Coords, EltTy.bits .f32 = 32 ∨ (Rect.block (s := S50048x64) S3128x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x32.size a ≤ S64x32.size a
  hwx6_1 : ∀ i : grid6.Coords, EltTy.bits .f32 = 32 ∨ (Rect.block (s := S64x32) S64x32.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S32.size a ≤ S32.size a
  hwx6_2 : ∀ i : grid6.Coords, EltTy.bits .f32 = 32 ∨ (Rect.block (s := S32) S32.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S32x1.size a ≤ S32x1.size a
  hwx6_3 : ∀ i : grid6.Coords, EltTy.bits .f32 = 32 ∨ (Rect.block (s := S32x1) S32x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1.size a ≤ S1.size a
  hwx6_4 : ∀ i : grid6.Coords, EltTy.bits .f32 = 32 ∨ (Rect.block (s := S1) S1.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S3128x1.size a ≤ S50048x1.size a
  hwx6_5 : ∀ i : grid6.Coords, EltTy.bits .f32 = 32 ∨ (Rect.block (s := S50048x1) S3128x1.size (cc6_transform_5 i) (hinb6_5 i)).WholeWords (EltTy.packing .f32)

variable [Facts₀]

def scatter_S50048_S850000x1_S850000_n_0_0_1 : ScatterDims S50048 S850000x1 S850000 where
  updateWindowDims := []
  insertedWindowDims := [0]
  scatterDimsToOperandDims := [0]
  indexVectorDim := 1
  wf := scatter_S50048_S850000x1_S850000_n_0_0_1_wf
def gather_S50048_S850000x1_S850000_n_0_n_n_0_1_1 : GatherDims S50048 S850000x1 S850000 where
  offsetDims := []
  collapsedSliceDims := [0]
  operandBatchingDims := []
  startIndicesBatchingDims := []
  startIndexMap := [0]
  indexVectorDim := 1
  sliceSizes := ![1]
  wf := gather_S50048_S850000x1_S850000_n_0_n_n_0_1_1_wf
def dot_S3128x128_S128x64_S3128x64_1_0_0_1_n_n : DotDims S3128x128 S128x64 S3128x64 where
  lhsContracting := [1]
  rhsContracting := [0]
  lhsNonContracting := [0]
  rhsNonContracting := [1]
  lhsBatch := []
  rhsBatch := []
  wf := dot_S3128x128_S128x64_S3128x64_1_0_0_1_n_n_wf
def dot_S2000x3128_S3128x64_S2000x64_1_0_0_1_n_n : DotDims S2000x3128 S3128x64 S2000x64 where
  lhsContracting := [1]
  rhsContracting := [0]
  lhsNonContracting := [0]
  rhsNonContracting := [1]
  lhsBatch := []
  rhsBatch := []
  wf := dot_S2000x3128_S3128x64_S2000x64_1_0_0_1_n_n_wf
def dot_S3128x2000_S2000x64_S3128x64_1_0_0_1_n_n : DotDims S3128x2000 S2000x64 S3128x64 where
  lhsContracting := [1]
  rhsContracting := [0]
  lhsNonContracting := [0]
  rhsNonContracting := [1]
  lhsBatch := []
  rhsBatch := []
  wf := dot_S3128x2000_S2000x64_S3128x64_1_0_0_1_n_n_wf
def dot_S3128x64_S64x64_S3128x64_1_0_0_1_n_n : DotDims S3128x64 S64x64 S3128x64 where
  lhsContracting := [1]
  rhsContracting := [0]
  lhsNonContracting := [0]
  rhsNonContracting := [1]
  lhsBatch := []
  rhsBatch := []
  wf := dot_S3128x64_S64x64_S3128x64_1_0_0_1_n_n_wf
def dot_S3128x64_S64x32_S3128x32_1_0_0_1_n_n : DotDims S3128x64 S64x32 S3128x32 where
  lhsContracting := [1]
  rhsContracting := [0]
  lhsNonContracting := [0]
  rhsNonContracting := [1]
  lhsBatch := []
  rhsBatch := []
  wf := dot_S3128x64_S64x32_S3128x32_1_0_0_1_n_n_wf
def dot_S3128x32_S32x1_S3128x1_1_0_0_1_n_n : DotDims S3128x32 S32x1 S3128x1 where
  lhsContracting := [1]
  rhsContracting := [0]
  lhsNonContracting := [0]
  rhsNonContracting := [1]
  lhsBatch := []
  rhsBatch := []
  wf := dot_S3128x32_S32x1_S3128x1_1_0_0_1_n_n_wf

abbrev win0_0 : Pipeline.Window sig grid0 :=
  Pipeline.Window.ofSpec (Memref.whole main_v0) S3128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S3128x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v31) S2000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S3128x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v35) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v32) S2000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v36) S3128x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v36) S3128x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v37) S3128x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v31) S2000x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v33) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v37) S3128x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v38) S2000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v32) S2000x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v38) S2000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg5) S64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v39) S3128x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

abbrev win6_0 : Pipeline.Window sig grid6 :=
  Pipeline.Window.ofSpec (Memref.whole main_v39) S3128x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg6) S64x32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg7) S32.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg8) S32x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg9) S1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v40) S3128x1.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S850000x64 : Shape := ⟨2, ![850000, 64]⟩
abbrev S1x64 : Shape := ⟨2, ![1, 64]⟩
abbrev S50000x32 : Shape := ⟨2, ![50000, 32]⟩
abbrev S1x32 : Shape := ⟨2, ![1, 32]⟩
abbrev S50000x1 : Shape := ⟨2, ![50000, 1]⟩
abbrev S1x1 : Shape := ⟨2, ![1, 1]⟩

abbrev nBuf : Space → Nat
  | .hbm => 137
  | .vmem => 0
  | .smem => 0
  | _ => 0

abbrev hbmTy0_0 (i : Nat) : BufTy := match i % 128 with
  | 0 => ⟨S50000x128, .f32⟩
  | 1 => ⟨S2x800000, .i32⟩
  | 2 => ⟨S128x64, .f32⟩
  | 3 => ⟨S64, .f32⟩
  | 4 => ⟨S64x64, .f32⟩
  | 5 => ⟨S64, .f32⟩
  | 6 => ⟨S64x32, .f32⟩
  | 7 => ⟨S32, .f32⟩
  | 8 => ⟨S32x1, .f32⟩
  | 9 => ⟨S1, .f32⟩
  | 10 => ⟨S1x800000, .i32⟩
  | 11 => ⟨S800000, .i32⟩
  | 12 => ⟨S1x800000, .i32⟩
  | 13 => ⟨S800000, .i32⟩
  | 14 => ⟨S50000, .i32⟩
  | 15 => ⟨S850000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S50000x64, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000x64, .f32⟩
  | 60 => ⟨S850000x1, .f32⟩
  | 61 => ⟨S850000x64, .f32⟩
  | 62 => ⟨S850000x64, .f32⟩
  | 63 => ⟨S_, .f32⟩
  | 64 => ⟨S50000x64, .f32⟩
  | 65 => ⟨S850000x1, .i32⟩
  | 66 => ⟨S50000x64, .f32⟩
  | 67 => ⟨S1x64, .f32⟩
  | 68 => ⟨S50000x64, .f32⟩
  | 69 => ⟨S50000x64, .f32⟩
  | 70 => ⟨S50000x64, .f32⟩
  | 71 => ⟨S50000, .i32⟩
  | 72 => ⟨S850000, .i32⟩
  | 73 => ⟨S850000, .i32⟩
  | 74 => ⟨S_, .f32⟩
  | 75 => ⟨S850000, .f32⟩
  | 76 => ⟨S_, .f32⟩
  | 77 => ⟨S50000, .f32⟩
  | 78 => ⟨S850000x1, .i32⟩
  | 79 => ⟨S50000, .f32⟩
  | 80 => ⟨S_, .f32⟩
  | 81 => ⟨S50000, .f32⟩
  | 82 => ⟨S50000, .i1⟩
  | 83 => ⟨S50000, .f32⟩
  | 84 => ⟨S_, .f32⟩
  | 85 => ⟨S_, .f32⟩
  | 86 => ⟨S50000, .f32⟩
  | 87 => ⟨S50000, .f32⟩
  | 88 => ⟨S_, .i32⟩
  | 89 => ⟨S850000, .i32⟩
  | 90 => ⟨S850000, .i1⟩
  | 91 => ⟨S_, .i32⟩
  | 92 => ⟨S850000, .i32⟩
  | 93 => ⟨S850000, .i32⟩
  | 94 => ⟨S850000, .i32⟩
  | 95 => ⟨S850000x1, .i32⟩
  | 96 => ⟨S850000, .f32⟩
  | 97 => ⟨S_, .i32⟩
  | 98 => ⟨S850000, .i32⟩
  | 99 => ⟨S850000, .i1⟩
  | 100 => ⟨S_, .i32⟩
  | 101 => ⟨S850000, .i32⟩
  | 102 => ⟨S850000, .i32⟩
  | 103 => ⟨S850000, .i32⟩
  | 104 => ⟨S850000x1, .i32⟩
  | 105 => ⟨S850000, .f32⟩
  | 106 => ⟨S850000, .f32⟩
  | 107 => ⟨S50000x64, .f32⟩
  | 108 => ⟨S_, .i32⟩
  | 109 => ⟨S850000, .i32⟩
  | 110 => ⟨S850000, .i1⟩
  | 111 => ⟨S_, .i32⟩
  | 112 => ⟨S850000, .i32⟩
  | 113 => ⟨S850000, .i32⟩
  | 114 => ⟨S850000, .i32⟩
  | 115 => ⟨S850000x1, .i32⟩
  | 116 => ⟨S850000x64, .f32⟩
  | 117 => ⟨S850000x1, .f32⟩
  | 118 => ⟨S850000x64, .f32⟩
  | 119 => ⟨S850000x64, .f32⟩
  | 120 => ⟨S_, .f32⟩
  | 121 => ⟨S50000x64, .f32⟩
  | 122 => ⟨S850000x1, .i32⟩
  | 123 => ⟨S50000x64, .f32⟩
  | 124 => ⟨S1x64, .f32⟩
  | 125 => ⟨S50000x64, .f32⟩
  | 126 => ⟨S50000x64, .f32⟩
  | 127 => ⟨S50000x64, .f32⟩
  | _ => ⟨S50000x128, .f32⟩

abbrev hbmTy0_1 (i : Nat) : BufTy := match i % 128 with
  | 0 => ⟨S50000x32, .f32⟩
  | 1 => ⟨S1x32, .f32⟩
  | 2 => ⟨S50000x32, .f32⟩
  | 3 => ⟨S50000x32, .f32⟩
  | 4 => ⟨S50000x32, .f32⟩
  | 5 => ⟨S50000x1, .f32⟩
  | 6 => ⟨S1x1, .f32⟩
  | 7 => ⟨S50000x1, .f32⟩
  | 8 => ⟨S50000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_9 : Ref sig .tc := ⟨.hbm, 74, rfl⟩
abbrev main_v51 : Ref sig .tc := ⟨.hbm, 75, rfl⟩
abbrev main_cst_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_12 : Ref sig .tc := ⟨.hbm, 84, rfl⟩
abbrev main_call1_v0 : Ref sig .tc := ⟨.hbm, 85, rfl⟩
abbrev main_call1_v1 : Ref sig .tc := ⟨.hbm, 86, rfl⟩
abbrev main_v58 : Ref sig .tc := ⟨.hbm, 87, rfl⟩
abbrev main_c_13 : Ref sig .tc := ⟨.hbm, 88, rfl⟩
abbrev main_v59 : Ref sig .tc := ⟨.hbm, 89, rfl⟩
abbrev main_v60 : Ref sig .tc := ⟨.hbm, 90, rfl⟩
abbrev main_c_14 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c_15 : Ref sig .tc := ⟨.hbm, 97, rfl⟩
abbrev main_v66 : Ref sig .tc := ⟨.hbm, 98, rfl⟩
abbrev main_v67 : Ref sig .tc := ⟨.hbm, 99, rfl⟩
abbrev main_c_16 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_17 : Ref sig .tc := ⟨.hbm, 108, rfl⟩
abbrev main_v75 : Ref sig .tc := ⟨.hbm, 109, rfl⟩
abbrev main_v76 : Ref sig .tc := ⟨.hbm, 110, rfl⟩
abbrev main_c_18 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_19 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []
  dot_S50000x64_S64x32_S50000x32_1_0_0_1_n_n_wf : DotDims.WF S50000x64 S64x32 S50000x32 [1] [0] [0] [1] [] []
  dot_S50000x32_S32x1_S50000x1_1_0_0_1_n_n_wf : DotDims.WF S50000x32 S32x1 S50000x1 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def dot_S50000x32_S32x1_S50000x1_1_0_0_1_n_n : DotDims S50000x32 S32x1 S50000x1 where
  lhsContracting := [1]
  rhsContracting := [0]
  lhsNonContracting := [0]
  rhsNonContracting := [1]
  lhsBatch := []
  rhsBatch := []
  wf := dot_S50000x32_S32x1_S50000x1_1_0_0_1_n_n_wf

class Facts : Prop extends Facts₀ where

variable [Facts]
-- ==== Proof.K.Vals.lean ====
/-
  The buffer contents of the idealized kernel's @main at the boundaries of its five leading stretches of host
  operations, as a fold from the launch memory: `W5` is what the first kernel region is entered from. Stated for any
  float family.
-/
import proofs.«401039_j68436008894831_1_alg».proof.Proof.Gen.Kernel.Launch
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
abbrev W5 : Dev nD → Valuation τ sig (Elt F) := fun c => StableHlo.after hostOps0_4 (W4 m ρ c)
abbrev V5 : (c : Dev nD) → (b : Ref sig .tc) → Buf (Elt F) ((c : Thread nD τ).loc b) := fun c b => W5 m ρ c b

end Cert.Kernel.Hand

end
-- ==== Proof.K.R0.lean ====
/-
  Region 0 of the idealized kernel's @main: the dense row-tiled product `x_pad · W₁`, one 3128-row tile per grid
  point. The body reads the tile of `x_pad` and the whole of `W₁`, multiplies them on the matrix unit into a zero
  accumulator and stores the 3128×64 result: the output block at a point is one pure function of the two input
  blocks there. Stated for any float family and any region-entry contents `V`.
-/
import proofs.«401039_j68436008894831_1_alg».proof.Proof.Gen.Kernel.Launch
import proofs.«401039_j68436008894831_1_alg».proof.Proof.Gen.Kernel.Skeleton
import proofs.«401039_j68436008894831_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_x : Rect S3128x128 := Rect.unit (s := S3128x128) ![0, 0] S3128x128.size inb_S3128x128_S3128x128_0_0
abbrev r0_w : Rect S128x64 := Rect.unit (s := S128x64) ![0, 0] S128x64.size inb_S128x64_S128x64_0_0
abbrev r0_o : Rect S3128x64 := Rect.unit (s := S3128x64) ![0, 0] S3128x64.size inb_S3128x64_S3128x64_0_0

/-- What the body leaves in the output block: its one whole-block store of the product of the two loaded blocks. -/
def out0_2 (x0 : Vec F S3128x128 .f32) (x1 : Vec F S128x64 .f32) : Vec F S3128x64 .f32 :=
  View.canon [⟨r0_o, k0_pay1 (View.ld x0 r0_x) (View.ld x1 r0_w)⟩]

theorem cover0_2 (p0 : Vec F S3128x64 .f32) (y : S3128x64.Idx) :
    ∃ pc ∈ ([⟨r0_o, p0⟩] : List (View.Piece (Elt F) S3128x64 .f32)), y ∈ pc.1.set :=
  View.cover_of_tiled [⟨r0_o, p0⟩] S3128x64.size (by rfl) y

set_option maxHeartbeats 1000000 in
/-- The body on whole staging memrefs: the inputs kept, the output at the product. -/
theorem sound_kernel0 (c : Dev nD) (E : Set ℕ) (i : grid0.Coords) (arg1 : Memref sig .tc .vmem S3128x128 .f32) (harg1 : arg1.IsWhole) (arg2 : Memref sig .tc .vmem S128x64 .f32) (harg2 : arg2.IsWhole)
    (arg3 : Memref sig .tc .vmem S3128x64 .f32) (harg3 : arg3.IsWhole)
    (x0 : Vec F S3128x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

/-- The invariant is the region's own at both ends. -/
theorem hin0 (c : Dev nD) : Pipeline.ΦA spec0 c ⊢ (dat0 V c).Φ 0 := BI.Entails.refl _
theorem hout0 (c : Dev nD) : (dat0 V c).Φ (Fin.last cfg0.N) ⊢ Pipeline.ΦA spec0 c := BI.Entails.refl _

end

end Cert.Kernel.Hand

end
-- ==== Proof.K.R1Runs.lean ====
/-
  Region 1 of the idealized kernel's @main, the part its three control cases share. The grid is 425 × 16, the
  inner axis a reduction over sixteen node blocks: point t has inner coordinate t mod 16. At inner coordinate 0 the
  body zeroes a 2000×64 accumulator kept in scratch memory; at every point it adds the product of a one-hot
  2000×3128 selector with the current 3128×64 node block into the accumulator; at inner coordinate 15 it scales the
  accumulator row by row and stores the result as the output block. Here: the inner coordinate and the two branch
  conditions as functions of it, where the output window is idle and not written back, the scratch memref, the
  region invariant of the class opened at the scratch, the input blocks, and two facts about memory: a whole-buffer
  store made last fixes what the buffer reads, and an input window holds its block at every point.
  Stated for any float family and any region-entry contents V.
-/
import proofs.«401039_j68436008894831_1_alg».proof.Proof.Gen.Kernel.Launch
import proofs.«401039_j68436008894831_1_alg».proof.Proof.Gen.Kernel.Skeleton
import proofs.«401039_j68436008894831_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The inner coordinate and the branch conditions -/

/-- The inner axis has stride one and bound sixteen: the inner coordinate of point t is t mod 16. -/
theorem inner1 (t : Fin cfg1.N) : (grid1.coords t 1).val = t.val % 16 := by
  show t.val / grid1.stride 1 % 16 = t.val % 16
  rw [show grid1.stride 1 = 1 from by decide, Nat.div_one]

/-- The zeroing branch's condition, as the body computes it from the inner coordinate. -/
abbrev atFirst1 (i : grid1.Coords) : Prop :=
  Scalar.cmpi .ne (Scalar.extui (Scalar.cmpi .eq (BitVec.ofNat 32 (i 1).val) 0#32)) 0#32 = 1#1
/-- The output branch's condition. -/
abbrev atLast1 (i : grid1.Coords) : Prop := k1_cond2 i = 1#1

/-- Over the sixteen inner coordinates: the first comparison chain holds at 0 only, -/
theorem first_of_inner : ∀ k : Fin 16,
    (Scalar.cmpi .ne (Scalar.extui (Scalar.cmpi .eq (BitVec.ofNat 32 k.val) 0#32)) 0#32 = 1#1) ↔ k.val = 0 := by
  decide +kernel
/-- the second at 15 only. -/
theorem last_of_inner : ∀ k : Fin 16,
    (Scalar.cmpi .ne (Scalar.extui (Scalar.cmpi .eq (BitVec.ofNat 32 k.val) 15#32)) 0#32 = 1#1) ↔ k.val = 15 := by
  decide +kernel

theorem atFirst1_iff (t : Fin cfg1.N) : atFirst1 (grid1.coords t) ↔ t.val % 16 = 0 := by
  rw [← inner1 t]; exact first_of_inner (grid1.coords t 1)
theorem atLast1_iff (t : Fin cfg1.N) : atLast1 (grid1.coords t) ↔ t.val % 16 = 15 := by
  rw [← inner1 t]; exact last_of_inner (grid1.coords t 1)

/-! ## Where the output window is idle -/

/-- Off the last inner coordinate the configuration calls the output window idle, -/
theorem idle1_3 (t : Fin cfg1.N) (h : ¬ t.val % 16 = 15) : cfg1.idle 3 (grid1.coords t) = true := by
  have hb : (k1_cond2 (grid1.coords t) == 1#1) = false :=
    beq_eq_false_iff_ne.mpr fun e => h ((atLast1_iff t).mp e)
  show (!(k1_cond2 (grid1.coords t) == 1#1)) = true
  rw [hb]; rfl
/-- and the pipeline does not write its block back; -/
theorem keep1_3 (t : Fin cfg1.N) (h : ¬ t.val % 16 = 15) : (cfg1.win 3).flush t = false :=
  Bool.eq_false_iff.mpr fun hf => h ((flush1_3 t).mp hf)
/-- at the last inner coordinate it is live. -/
theorem live1_3 (t : Fin cfg1.N) (h : t.val % 16 = 15) : cfg1.idle 3 (grid1.coords t) = false := by
  have hb : (k1_cond2 (grid1.coords t) == 1#1) = true := beq_iff_eq.mpr ((atLast1_iff t).mpr h)
  show (!(k1_cond2 (grid1.coords t) == 1#1)) = false
  rw [hb]; rfl

/-! ## The scratch accumulator and the class invariant opened at it -/

/-- The accumulator: the call's one scratch operand, a whole buffer. -/
abbrev scM1 : Memref sig .tc .vmem S2000x64 .f32 := Memref.whole cc1_scratch0

/-- The class's region invariant is: the accumulator at some contents, every other scoped buffer that is no staging
    buffer of this call unopened, the generator register at some state. -/
theorem PhiA1_eq (c : Dev nD) :
    (Pipeline.ΦA spec1 c : sProp 𝕄)
      = iprop(iprop((∃ d, owns (c : Thread nD τ) scM1 fullShare d)
          ∗ Pipeline.scopedRestBut (Ix := Unit) (Name := ℕ) (U := UR sig nD τ) (Lvl := ℕ) (Val := Elt F) spec1 c [cc1_scratch0])
          ∗ (∃ r, prngReg c r)) := by
  unfold Pipeline.ΦA; rw [scopedRest1_split]; simp only [scM1, owns_whole]; try rfl

/-! ## A whole-buffer store made last -/

/-- After a list of stores whose last is through the whole-shape rectangle at zero offsets, the buffer reads that
    store's payload, whatever it held and whatever the earlier stores were. -/
theorem View.read_writes_whole_last {sg : RefSig} {κ : Kind} {sp : Space} {S : Shape} {e : EltTy} {Val : EltTy → Type}
    [∀ e, Nonempty (Val e)] (v : View sg κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb w L]

/-! ## The input blocks -/

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The three inputs are uncut and never idle, and the body leaves them in place: so each one's current staging
    buffer holds its block at every point, at the points that do not fetch it too (its block index has not moved
    since the fetch). For any proof data over the arrays V that keeps the block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end

end Cert.Kernel.Hand

end
-- ==== Proof.K.R1RunA.lean ====
/-
  Region 1, the body's run at the first inner coordinate: the zeroing branch is taken, the output branch is not. By
  symbolic execution of the skeleton over whole staging memrefs. The accumulator is stored twice through the whole
  rectangle, zeros and then the update: it reads the later payload, and the load between the two stores reads the zeros.
-/
import proofs.«401039_j68436008894831_1_alg».proof.Proof.K.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the first inner coordinate the zeroing branch is taken and the output branch is not: the body stores zeros over
    the accumulator whatever it held, reads them back with the index block and the node block, and stores zeros plus the
    selected rows; the inputs and the output buffer are left as found. -/
theorem run1_first (c : Dev nD) (E : Set ℕ) (i : grid1.Coords) (a2 : Memref sig .tc .vmem S2000x1 .i32) (h2 : a2.IsWhole) (a3 : Memref sig .tc .vmem S2000x1 .f32) (h3 : a3.IsWhole) (a4 : Memref sig .tc .vmem S3128x64 .f32) (h4 : a4.IsWhole) (a5 : Memref sig .tc .vmem S2000x64 .f32) (h5 : a5.IsWhole) (a6 : Memref sig .tc .vmem S2000x64 .f32) (h6 : a6.IsWhole)
    (hF : atFirst1 i) (hL : ¬ atLast1 i)
    (x0 : Vec F S2000x1 .i32) (x1 : Vec F S2000x1 .f32) (x2 : Vec F S3128x64 .f32) (y : Vec F S2000x64 .f32)
    (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare y ∗ (∃ d, owns (c : Thread nD τ) a6 fullShare d)
        ∗ (iprop(owns (c : Thread nD τ) a2 fullShare x0 ∗ owns (c : Thread nD τ) a3 fullShare x1 ∗ owns (c : Thread nD τ) a4 fullShare x2
            ∗ owns (c : Thread nD τ) a5 fullShare y ∗ owns (c : Thread nD τ) a6 fullShare (k1_pay2 i x0 x2 (k1_pay1 (F := F)))) -∗ K ⟨⟩))
      ⊢ wp frame (wpE (defs₀ (F := F)) Variants.none c none) E (cc1__gather_kernel i a2 h2 a3 h3 a4 h4 a5 h5 a6 h6) K := by
  simp only [cc1__gather_kernel_eq_skeleton]; unfold cc1__gather_kernel_skel
  unfold owns
  iintro ⟨⟨%f0, %e0, H0⟩, ⟨%f1, %e1, H1⟩, ⟨%f2, %e2, H2⟩, ⟨%f3, %e3, H3⟩, ⟨%d, %fs, -, HS⟩, Hk⟩
  subst e0; subst e1; subst e2; subst e3
  sl_exec (disch := first | exact hF | exact hL)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  have hz : (![0, 0] : Fin 2 → Nat) = fun _ => 0 := by funext a; fin_cases a <;> rfl
  rw [View.read_writes_whole_last _ _ hz]
  sl_unfold_words
  simp only [View.readAt_eq_ld, View.ld_unit_zero (S := S2000x1) hz, View.ld_unit_zero (S := S3128x64) hz,
    View.ld_unit_zero (S := S2000x64) hz, View.readCov_unit_zero (S := S2000x64) _ hz]

end Cert.Kernel.Hand

end
-- ==== Proof.K.R1RunB.lean ====
/-
  Region 1, the body's run between the first and the last inner coordinate: neither conditional branch is taken. By
  symbolic execution of the skeleton over whole staging memrefs; the accumulator's one store is through the whole
  rectangle, so it reads that store's payload, and the loads read the buffers' contents.
-/
import proofs.«401039_j68436008894831_1_alg».proof.Proof.K.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Between the first and the last inner coordinate neither branch is taken: the body reads the index block, the node
    block and the accumulator and stores the accumulator plus the selected rows; the inputs and the output buffer are
    left as found. -/
theorem run1_mid (c : Dev nD) (E : Set ℕ) (i : grid1.Coords) (a2 : Memref sig .tc .vmem S2000x1 .i32) (h2 : a2.IsWhole) (a3 : Memref sig .tc .vmem S2000x1 .f32) (h3 : a3.IsWhole) (a4 : Memref sig .tc .vmem S3128x64 .f32) (h4 : a4.IsWhole) (a5 : Memref sig .tc .vmem S2000x64 .f32) (h5 : a5.IsWhole) (a6 : Memref sig .tc .vmem S2000x64 .f32) (h6 : a6.IsWhole)
    (hF : ¬ atFirst1 i) (hL : ¬ atLast1 i)
    (x0 : Vec F S2000x1 .i32) (x1 : Vec F S2000x1 .f32) (x2 : Vec F S3128x64 .f32) (y : Vec F S2000x64 .f32) (s : Vec F S2000x64 .f32)
    (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare y ∗ owns (c : Thread nD τ) a6 fullShare s
        ∗ (iprop(owns (c : Thread nD τ) a2 fullShare x0 ∗ owns (c : Thread nD τ) a3 fullShare x1 ∗ owns (c : Thread nD τ) a4 fullShare x2
            ∗ owns (c : Thread nD τ) a5 fullShare y ∗ owns (c : Thread nD τ) a6 fullShare (k1_pay2 i x0 x2 s)) -∗ K ⟨⟩))
      ⊢ wp frame (wpE (defs₀ (F := F)) Variants.none c none) E (cc1__gather_kernel i a2 h2 a3 h3 a4 h4 a5 h5 a6 h6) K := by
  simp only [cc1__gather_kernel_eq_skeleton]; unfold cc1__gather_kernel_skel
  unfold owns
  iintro ⟨⟨%f0, %e0, H0⟩, ⟨%f1, %e1, H1⟩, ⟨%f2, %e2, H2⟩, ⟨%f3, %e3, H3⟩, ⟨%fs, %es, HS⟩, Hk⟩
  subst e0; subst e1; subst e2; subst e3; subst es
  sl_exec (disch := first | exact hF | exact hL)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  have hz : (![0, 0] : Fin 2 → Nat) = fun _ => 0 := by funext a; fin_cases a <;> rfl
  rw [View.read_writes_whole_last _ _ hz]
  simp only [View.readAt_eq_ld, View.ld_unit_zero (S := S2000x1) hz, View.ld_unit_zero (S := S3128x64) hz,
    View.ld_unit_zero (S := S2000x64) hz]

end Cert.Kernel.Hand

end
-- ==== Proof.K.R1RunC.lean ====
/-
  Region 1, the body's run at the last inner coordinate: the zeroing branch is not taken, the output branch is. By
  symbolic execution of the skeleton over whole staging memrefs. The accumulator's one store is through the whole
  rectangle, and the load after it reads its payload; the output buffer's one store is through the whole rectangle.
-/
import proofs.«401039_j68436008894831_1_alg».proof.Proof.K.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the last inner coordinate the zeroing branch is not taken and the output branch is: after the accumulation the
    body reads the row scales and the new accumulator and stores their product over the output buffer, whatever it held;
    the inputs are left as found. -/
theorem run1_last (c : Dev nD) (E : Set ℕ) (i : grid1.Coords) (a2 : Memref sig .tc .vmem S2000x1 .i32) (h2 : a2.IsWhole) (a3 : Memref sig .tc .vmem S2000x1 .f32) (h3 : a3.IsWhole) (a4 : Memref sig .tc .vmem S3128x64 .f32) (h4 : a4.IsWhole) (a5 : Memref sig .tc .vmem S2000x64 .f32) (h5 : a5.IsWhole) (a6 : Memref sig .tc .vmem S2000x64 .f32) (h6 : a6.IsWhole)
    (hF : ¬ atFirst1 i) (hL : atLast1 i)
    (x0 : Vec F S2000x1 .i32) (x1 : Vec F S2000x1 .f32) (x2 : Vec F S3128x64 .f32) (s : Vec F S2000x64 .f32)
    (K : PUnit → sProp 𝕄) :
    iprop(owns (c : Thread nD τ) a2 fullShare x0 ∗ owns (c : Thread nD τ) a3 fullShare x1 ∗ owns (c : Thread nD τ) a4 fullShare x2
        ∗ (∃ d, owns (c : Thread nD τ) a5 fullShare d) ∗ owns (c : Thread nD τ) a6 fullShare s
        ∗ (iprop(owns (c : Thread nD τ) a2 fullShare x0 ∗ owns (c : Thread nD τ) a3 fullShare x1 ∗ owns (c : Thread nD τ) a4 fullShare x2
            ∗ owns (c : Thread nD τ) a5 fullShare (k1_pay3 x1 (k1_pay2 i x0 x2 s)) ∗ owns (c : Thread nD τ) a6 fullShare (k1_pay2 i x0 x2 s)) -∗ K ⟨⟩))
      ⊢ wp frame (wpE (defs₀ (F := F)) Variants.none c none) E (cc1__gather_kernel i a2 h2 a3 h3 a4 h4 a5 h5 a6 h6) K := by
  simp only [cc1__gather_kernel_eq_skeleton]; unfold cc1__gather_kernel_skel
  unfold owns
  iintro ⟨⟨%f0, %e0, H0⟩, ⟨%f1, %e1, H1⟩, ⟨%f2, %e2, H2⟩, ⟨%d, %f3, -, H3⟩, ⟨%fs, %es, HS⟩, Hk⟩
  subst e0; subst e1; subst e2; subst es
  have hz : (![0, 0] : Fin 2 → Nat) = fun _ => 0 := by funext a; fin_cases a <;> rfl
  sl_exec (disch := first | exact hF | exact hL)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [View.read_writes_whole_last _ _ hz]
    simp only [View.readAt_eq_ld, View.ld_unit_zero (S := S2000x1) hz, View.ld_unit_zero (S := S3128x64) hz,
      View.ld_unit_zero (S := S2000x64) hz, View.readCov_unit_zero (S := S2000x64) _ hz]
  iexists _; isplitr
  swap; · iexact HS
  ipureintro
  sl_unfold_words
  rw [View.read_writes_whole_last _ _ hz]
  simp only [View.readAt_eq_ld, View.ld_unit_zero (S := S2000x1) hz, View.ld_unit_zero (S := S3128x64) hz,
    View.ld_unit_zero (S := S2000x64) hz, View.readCov_unit_zero (S := S2000x64) _ hz]

end Cert.Kernel.Hand

end
-- ==== Proof.K.R1.lean ====
/-
  Region 1 of the idealized kernel's @main: what the accumulator and the output block hold after each grid point,
  the proof data of the pipeline, and its body obligation.

  The accumulator after point n is the update (add the selected rows of the point's node block) applied to zeros
  when n is at the first inner coordinate, and to the accumulator after point n - 1 otherwise. The output block is
  the row-scaled accumulator; the body stores it at the last inner coordinate only, and elsewhere the output window
  is idle and its buffer is handed back as found. The region invariant carries the accumulator: at some contents
  before the first point, at its value after the point before at every later one. Each point is one of three control
  cases, and in each the run of that case supplies the body's triple.
  Stated for any float family and any region-entry contents V.
-/
import proofs.«401039_j68436008894831_1_alg».proof.Proof.K.R1RunA
import proofs.«401039_j68436008894831_1_alg».proof.Proof.K.R1RunB
import proofs.«401039_j68436008894831_1_alg».proof.Proof.K.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The accumulation -/

/-- The accumulator after the body at position `n`: the update of the point's index block and node block, over zeros
    at the first inner coordinate, over the accumulator after position `n - 1` elsewhere. -/
def acc1 (c : Dev nD) : (n : ℕ) → n < cfg1.N → Vec F S2000x64 .f32
  | 0, hn => k1_pay2 (grid1.coords ⟨0, hn⟩) (iblk1 V c 0 ⟨0, hn⟩) (iblk1 V c 2 ⟨0, hn⟩) (k1_pay1 (F := F))
  | n + 1, hn => k1_pay2 (grid1.coords ⟨n + 1, hn⟩) (iblk1 V c 0 ⟨n + 1, hn⟩) (iblk1 V c 2 ⟨n + 1, hn⟩)
      (if (n + 1) % 16 = 0 then k1_pay1 (F := F) else acc1 c n (Nat.lt_of_succ_lt hn))

/-- After position `n`: the output block the body would store (the accumulator scaled by the point's row scales), and
    the accumulator. The first component is what the output window's buffer holds at the points where the window is
    live, the last inner coordinate; at the others nothing reads it. -/
def outsAt1 (c : Dev nD) : (n : ℕ) → n < cfg1.N → Vec F S2000x64 .f32 × Vec F S2000x64 .f32 :=
  fun n hn => (k1_pay3 (iblk1 V c 1 ⟨n, hn⟩) (acc1 V c n hn), acc1 V c n hn)

/-- At the first inner coordinate the accumulator restarts from zeros. -/
theorem acc1_first (c : Dev nD) (t : Fin cfg1.N) (h : t.val % 16 = 0) :
    acc1 V c t.val t.isLt = k1_pay2 (grid1.coords t) (iblk1 V c 0 t) (iblk1 V c 2 t) (k1_pay1 (F := F)) := by
  obtain ⟨n, hn⟩ := t
  cases n with
  | zero => rfl
  | succ n =>
    show acc1 V c (n + 1) hn = _
    rw [acc1, if_pos h]

/-- Elsewhere it continues from the point before. -/
theorem acc1_next (c : Dev nD) (t : Fin cfg1.N) (h : ¬ t.val % 16 = 0) :
    acc1 V c t.val t.isLt = k1_pay2 (grid1.coords t) (iblk1 V c 0 t) (iblk1 V c 2 t)
      (acc1 V c (t.val - 1) (Nat.lt_of_le_of_lt (Nat.sub_le _ _) t.isLt)) := by
  obtain ⟨n, hn⟩ := t
  cases n with
  | zero => exact absurd (Nat.zero_mod 16) h
  | succ n =>
    show acc1 V c (n + 1) hn = _
    rw [acc1, if_neg h]
    rfl

theorem acc1_reset (c : Dev nD) (t : Fin cfg1.N) (h : t.val % 16 = 0) :
    (outsAt1 V c t.val t.isLt).2 = k1_pay2 (grid1.coords t) (iblk1 V c 0 t) (iblk1 V c 2 t) (k1_pay1 (F := F)) :=
  acc1_first V c t h

theorem acc1_step (c : Dev nD) (t : Fin cfg1.N) (h : ¬ t.val % 16 = 0) :
    (outsAt1 V c t.val t.isLt).2 = k1_pay2 (grid1.coords t) (iblk1 V c 0 t) (iblk1 V c 2 t)
      (outsAt1 V c (t.val - 1) (Nat.lt_of_le_of_lt (Nat.sub_le _ _) t.isLt)).2 :=
  acc1_next V c t h

/-- The output block is the scaled accumulator (at every point; the kernel stores it at the last inner coordinate). -/
theorem out1_last (c : Dev nD) (t : Fin cfg1.N) (h : t.val % 16 = 15) :
    (outsAt1 V c t.val t.isLt).1 = k1_pay3 (iblk1 V c 1 t) (outsAt1 V c t.val t.isLt).2 := rfl

/-! ## The region invariant -/

/-- What the invariant says of the accumulator before position `n`: anything before the first point, then what the
    point before left. -/
def carried1 (c : Dev nD) : (n : ℕ) → n ≤ cfg1.N → sProp 𝕄
  | 0, _ => iprop(∃ d, owns (c : Thread nD τ) scM1 fullShare d)
  | n + 1, hn => owns (c : Thread nD τ) scM1 fullShare (acc1 V c n hn)

/-- The invariant before position `n`: the accumulator as `carried1` says, every other scoped buffer that is no staging
    buffer of this call unopened, the generator register at some state. -/
def PhiS1 (c : Dev nD) (n : ℕ) (hn : n ≤ cfg1.N) : sProp 𝕄 :=
  iprop(iprop(carried1 V c n hn ∗ Pipeline.scopedRestBut (Ix := Unit) (Name := ℕ) (U := UR sig nD τ) (Lvl := ℕ) (Val := Elt F) spec1 c [cc1_scratch0]) ∗ (∃ r, prngReg c r))

/-- Whatever the invariant says of it, the accumulator is owned at some contents. -/
theorem carried1_any (c : Dev nD) (n : ℕ) (hn : n ≤ cfg1.N) :
    carried1 V c n hn ⊢ (iprop(∃ d, owns (c : Thread nD τ) scM1 fullShare d) : sProp 𝕄) := by
  cases n with
  | zero => exact Idealize.SL.BI.Entails.refl _
  | succ n =>
    show owns (c : Thread nD τ) scM1 fullShare (acc1 V c n hn) ⊢ _
    iintro H; iexists _; iexact H

theorem carried1_pos (c : Dev nD) (n : ℕ) (hn : n ≤ cfg1.N) (hz : n ≠ 0) :
    carried1 V c n hn = owns (c : Thread nD τ) scM1 fullShare (acc1 V c (n - 1) (by omega)) := by
  cases n with
  | zero => exact absurd rfl hz
  | succ n => rfl

/-- Before the first point the invariant is the class's. -/
theorem PhiS1_zero (c : Dev nD) (h : 0 ≤ cfg1.N) : PhiS1 V c 0 h = Pipeline.ΦA spec1 c := by
  rw [PhiA1_eq]; rfl

/-- At every position it gives the class's back: the accumulator's named contents are forgotten. -/
theorem PhiS1_forget (c : Dev nD) (n : ℕ) (hn : n ≤ cfg1.N) : PhiS1 V c n hn ⊢ Pipeline.ΦA spec1 c := by
  rw [PhiA1_eq]; unfold PhiS1
  iintro ⟨⟨HS, HR⟩, Hg⟩
  isplitr [Hg]
  · isplitl [HS]
    · iapply (carried1_any V c n hn); iexact HS
    iexact HR
  iexact Hg

/-! ## The proof data -/

/-- The proof data of pipeline 1 on core `c`: the arrays as the region finds them; after the body each input's buffer
    at its block and the output's at the scaled accumulator; the invariant carrying the accumulator; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- The invariant at a point's start and at its end. -/
theorem Phi1_start (c : Dev nD) (t : Fin cfg1.N) :
    (dat1 V c).Φ t.castSucc = iprop(iprop(carried1 V c t.val (Nat.le_of_lt t.isLt) ∗ Pipeline.scopedRestBut (Ix := Unit) (Name := ℕ) (U := UR sig nD τ) (Lvl := ℕ) (Val := Elt F) spec1 c [cc1_scratch0]) ∗ (∃ r, prngReg c r)) := rfl
theorem Phi1_end (c : Dev nD) (t : Fin cfg1.N) :
    (dat1 V c).Φ t.succ = iprop(iprop(owns (c : Thread nD τ) scM1 fullShare (acc1 V c t.val t.isLt) ∗ Pipeline.scopedRestBut (Ix := Unit) (Name := ℕ) (U := UR sig nD τ) (Lvl := ℕ) (Val := Elt F) spec1 c [cc1_scratch0]) ∗ (∃ r, prngReg c r)) := rfl

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ (dat1 V c).leavesExact 3 t)

set_option maxHeartbeats 4000000 in
/-- The body at any point. The inputs' buffers hold their blocks; the point's inner coordinate selects the case. At
    the first inner coordinate the accumulator may hold anything and is left at the update of zeros; elsewhere it
    holds what the point before left and is left at its update. Off the last inner coordinate the output buffer is
    handed back as found (the window is idle there and not written back); at the last it is left at the scaled
    accumulator. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    after1_0, after1_1, after1_2, Phi1_start, Phi1_end]
  by_cases h0 : t.val % 16 = 0
  · have h15 : ¬ t.val % 16 = 15 := by omega
    rw [Dat.leavesExact_idle (dat1 V c) 3 t (idle1_3 t h15) (keep1_3 t h15), acc1_first V c t h0]
    iintro ⟨⟨⟨HS, HR⟩, Hg⟩, Ho, ⟨%d0, H0⟩, ⟨%d1, H1⟩, ⟨%d2, H2⟩, ⟨%d3, H3⟩⟩
    iapply (run1_first c Set.univ (grid1.coords t) _ _ _ _ _ _ _ _ _ _ ((atFirst1_iff t).mpr h0) (fun h => h15 ((atLast1_iff t).mp h))
      (iblk1 V c 0 t) (iblk1 V c 1 t) (iblk1 V c 2 t) ((dat1 V c).before 3 t d3) _)
    isplitl [H0]; · iexact H0
    isplitl [H1]; · iexact H1
    isplitl [H2]; · iexact H2
    isplitl [H3]; · iexact H3
    isplitl [HS]; · iapply (carried1_any V c t.val _); iexact HS
    iintro ⟨H0, H1, H2, H3, HS⟩
    isplitl [HS HR Hg]
    · isplitr [Hg]
      · isplitl [HS]; · iexact HS
        iexact HR
      iexact Hg
    isplitl [Ho]; · iexact Ho
    isplitl [H0]; · iexact H0
    isplitl [H1]; · iexact H1
    isplitl [H2]; · iexact H2
    iexists d3; iexact H3
  · have hz : t.val ≠ 0 := fun e => h0 (by rw [e])
    rw [carried1_pos V c t.val _ hz, acc1_next V c t h0]
    by_cases h15 : t.val % 16 = 15
    · rw [show (dat1 V c).leavesExact 3 t = owns (c : Thread nD τ) (st1_3 t) fullShare ((dat1 V c).after 3 t) from by
        unfold Dat.leavesExact; rw [live1_3 t h15], after1_3]
      rw [show (outsAt1 V c t.val t.isLt).1 = k1_pay3 (iblk1 V c 1 t) (acc1 V c t.val t.isLt) from rfl, acc1_next V c t h0]
      iintro ⟨⟨⟨HS, HR⟩, Hg⟩, Ho, ⟨%d0, H0⟩, ⟨%d1, H1⟩, ⟨%d2, H2⟩, ⟨%d3, H3⟩⟩
      iapply (run1_last c Set.univ (grid1.coords t) _ _ _ _ _ _ _ _ _ _ (fun h => h0 ((atFirst1_iff t).mp h)) ((atLast1_iff t).mpr h15)
        (iblk1 V c 0 t) (iblk1 V c 1 t) (iblk1 V c 2 t) (acc1 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitr [Hg]
        · isplitl [HS]; · iexact HS
          iexact HR
        iexact Hg
      isplitl [Ho]; · iexact Ho
      isplitl [H0]; · iexact H0
      isplitl [H1]; · iexact H1
      isplitl [H2]; · iexact H2
      iexact H3
    · rw [Dat.leavesExact_idle (dat1 V c) 3 t (idle1_3 t h15) (keep1_3 t h15)]
      iintro ⟨⟨⟨HS, HR⟩, Hg⟩, Ho, ⟨%d0, H0⟩, ⟨%d1, H1⟩, ⟨%d2, H2⟩, ⟨%d3, H3⟩⟩
      iapply (run1_mid c Set.univ (grid1.coords t) _ _ _ _ _ _ _ _ _ _ (fun h => h0 ((atFirst1_iff t).mp h)) (fun h => h15 ((atLast1_iff t).mp h))
        (iblk1 V c 0 t) (iblk1 V c 1 t) (iblk1 V c 2 t) ((dat1 V c).before 3 t d3)
        (acc1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitr [Hg]
        · isplitl [HS]; · iexact HS
          iexact HR
        iexact Hg
      isplitl [Ho]; · iexact Ho
      isplitl [H0]; · iexact H0
      isplitl [H1]; · iexact H1
      isplitl [H2]; · iexact H2
      iexists d3; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero]

/-- After the last point the invariant gives the class's back. -/
theorem hout1 (c : Dev nD) : (dat1 V c).Φ (Fin.last cfg1.N) ⊢ Pipeline.ΦA spec1 c :=
  PhiS1_forget V c _ _

end

end Cert.Kernel.Hand

end
-- ==== Proof.K.WholeStore.lean ====
/-
  Loads and stores through the whole of a staging buffer: the offsets `![0, …, 0]` are the zero offsets, and a store through
  the whole shape, made last, is what the buffer reads afterwards. Shared by the regions whose bodies load and store whole
  blocks.
-/
import proofs.«401039_j68436008894831_1_alg».proof.Proof.Gen.Kernel.Launch
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem origin2 : (![0, 0] : Fin 2 → ℕ) = fun _ => 0 := funext fun a => by fin_cases a <;> rfl
theorem origin1 : (![0] : Fin 1 → ℕ) = fun _ => 0 := funext fun a => by fin_cases a <;> rfl

/-- A store through the whole shape, made last, is what a buffer reads afterwards, whatever it held and whatever was
    stored before. -/
theorem read_after_whole_store {sig' : RefSig} {κ : Kind} {sp : Space} {S : Shape} {e : EltTy} (v : View sig' κ sp S e)
    (f : v.ty.Contents (Elt F)) {off : Fin S.rank → ℕ} (hoff : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hoff inb y⟩),
    View.canon_cons_unit_zero hoff]

end Cert.Kernel.Hand

end
-- ==== Proof.K.R2Runs.lean ====
/-
  Region 2 of the idealized kernel's @main, what its three control cases share. The region is the scatter-add of the
  edge messages into the node rows: a grid of 16 node tiles by 425 edge tiles, the edge tile the inner (fastest) axis.
  At a grid point the body adds to a 3128×64 accumulator the product of a one-hot 3128×2000 matrix (row r, column e
  set when edge e of the tile points at node r of the node tile) with the tile's 2000×64 messages; the accumulator is
  zeroed first when the edge tile is the first (inner coordinate 0), and when it is the last (inner coordinate 424) the
  output block is stored as tanh (accumulator + bias). Here: the two conditions in closed form, where the output window
  is idle, the memrefs the body is called on, the entry invariant split at the accumulator, and the input blocks.
-/
import proofs.«401039_j68436008894831_1_alg».proof.Proof.Gen.Kernel.Launch
import proofs.«401039_j68436008894831_1_alg».proof.Proof.Gen.Kernel.Skeleton
import proofs.«401039_j68436008894831_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«401039_j68436008894831_1_alg».proof.Proof.K.WholeStore

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The inner coordinate and the two conditions -/

/-- The inner coordinate of the `t`-th grid point is `t mod 425`: the inner axis is the fastest. -/
theorem inner2 (t : Fin cfg2.N) : ((grid2.coords t) 1).val = t.val % 425 := by
  show t.val / grid2.stride 1 % 425 = t.val % 425
  rw [show grid2.stride 1 = 1 from by decide, Nat.div_one]

/-- The body zeroes the accumulator: the inner coordinate, as a 32-bit word, equals 0 (the kernel's own scalar chain). -/
abbrev zeroes2 (i : grid2.Coords) : Prop :=
  (Scalar.cmpi .ne (Scalar.extui (Scalar.cmpi .eq (BitVec.ofNat 32 (i 1).val) 0#32)) 0#32) = 1#1
/-- The body stores the output block: the inner coordinate, as a 32-bit word, equals 424. -/
abbrev emits2 (i : grid2.Coords) : Prop := k2_cond2 i = 1#1

/-- Over the 425 values of the inner coordinate: the first condition holds at 0 only, the second at 424 only. -/
theorem conds2_inner : ∀ j : Fin 425,
    (((Scalar.cmpi .ne (Scalar.extui (Scalar.cmpi .eq (BitVec.ofNat 32 j.val) 0#32)) 0#32) = 1#1) ↔ j.val = 0)
    ∧ (((Scalar.cmpi .ne (Scalar.extui (Scalar.cmpi .eq (BitVec.ofNat 32 j.val) 424#32)) 0#32) = 1#1) ↔ j.val = 424) := by
  decide +kernel

theorem zeroes2_iff (i : grid2.Coords) : zeroes2 i ↔ (i 1).val = 0 := (conds2_inner (i 1)).1
theorem emits2_iff (i : grid2.Coords) : emits2 i ↔ (i 1).val = 424 := (conds2_inner (i 1)).2

/-- At the `t`-th point the accumulator is zeroed iff `t ≡ 0 (mod 425)`, -/
theorem zeroes2_at (t : Fin cfg2.N) : zeroes2 (grid2.coords t) ↔ t.val % 425 = 0 := by
  rw [zeroes2_iff, inner2]
/-- and the output block is stored iff `t ≡ 424 (mod 425)`. -/
theorem emits2_at (t : Fin cfg2.N) : emits2 (grid2.coords t) ↔ t.val % 425 = 424 := by
  rw [emits2_iff, inner2]

/-! ## Where the output window is idle -/

/-- The output window is idle exactly where the body does not store it. -/
theorem idle2_out (i : grid2.Coords) : cfg2.idle 3 i = true ↔ ¬emits2 i := by
  show (!(k2_cond2 i == 1#1)) = true ↔ ¬(k2_cond2 i = 1#1)
  simp only [Bool.not_eq_true', beq_eq_false_iff_ne, ne_eq]

theorem idle2_out_of (t : Fin cfg2.N) (h : ¬t.val % 425 = 424) : cfg2.idle 3 (grid2.coords t) = true :=
  (idle2_out _).mpr fun e => h ((emits2_at t).mp e)
theorem live2_out_of (t : Fin cfg2.N) (h : t.val % 425 = 424) : cfg2.idle 3 (grid2.coords t) = false := by
  cases e : cfg2.idle 3 (grid2.coords t)
  · rfl
  · exact absurd ((emits2_at t).mpr h) ((idle2_out _).mp e)
/-- Off the last edge tile the pipeline does not write the output block back. -/
theorem noFlush2_out_of (t : Fin cfg2.N) (h : ¬t.val % 425 = 424) : (cfg2.win 3).flush t = false := by
  cases e : (cfg2.win 3).flush t
  · rfl
  · exact absurd ((flush2_3 t).mp e) h

/-! ## The memrefs the body is called on -/

abbrev ms2_0 (t : Fin cfg2.N) : Memref sig .tc .vmem S2000x1 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2000x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S3128x64 .f32 := win2_3.stage (cfg2.slots t 3)
abbrev hs2_3 (t : Fin cfg2.N) : (ms2_3 t).IsWhole := hstage2_3 ((cfg2.slots t 3).cast nbuf2_3)
/-- The accumulator: a whole scoped buffer of the kernel's own, carried from point to point. -/
abbrev scM2 : Memref sig .tc .vmem S3128x64 .f32 := Memref.whole cc2_scratch0

/-- The entry invariant with the accumulator taken out of the scoped rest, owned at some contents. -/
theorem PhiA2_eq (c : Dev nD) :
    (Pipeline.ΦA spec2 c : sProp 𝕄)
      = iprop(iprop(iprop((∃ d, owns (c : Thread nD τ) scM2 fullShare d)) ∗ Pipeline.scopedRestBut spec2 c [cc2_scratch0]) ∗ (∃ r, prngReg c r)) := by
  unfold Pipeline.ΦA; rw [scopedRest2_split]; simp only [scM2, owns_whole]; try rfl

section
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window the body only reads holds its block at every point, whether the pipeline fetched it there or the
    block index stood still (the bias is fetched once): for any proof data over the entry contents that leave it so. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end

end Cert.Kernel.Hand

end
-- ==== Proof.K.R2RunA.lean ====
/-
  Region 2, the body at a grid point whose edge tile is the first of its node tile (and not the last): the accumulator
  is zeroed, then the point's one-hot product is added to it; the output block is left alone.
-/
import proofs.«401039_j68436008894831_1_alg».proof.Proof.K.R2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where the edge tile is the first and not the last: the three inputs are read and kept, the output block is
    not touched, and the accumulator, whatever it held, is left at the point's one-hot product added to zero. -/
theorem body2_first (c : Dev nD) (E : Set ℕ) (i : grid2.Coords)
    (arg2 : Memref sig .tc .vmem S2000x1 .i32) (harg2 : arg2.IsWhole) (arg3 : Memref sig .tc .vmem S2000x64 .f32) (harg3 : arg3.IsWhole)
    (arg4 : Memref sig .tc .vmem S64 .f32) (harg4 : arg4.IsWhole) (arg5 : Memref sig .tc .vmem S3128x64 .f32) (harg5 : arg5.IsWhole)
    (arg6 : Memref sig .tc .vmem S3128x64 .f32) (harg6 : arg6.IsWhole) (hz : zeroes2 i) (he : ¬emits2 i)
    (x0 : Vec F S2000x1 .i32) (x1 : Vec F S2000x64 .f32) (x2 : Vec F S64 .f32) (xo : Vec F S3128x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ (∃ d, owns (c : Thread nD τ) arg6 fullShare d)
        ∗ (iprop(owns (c : Thread nD τ) arg2 fullShare x0 ∗ owns (c : Thread nD τ) arg3 fullShare x1 ∗ owns (c : Thread nD τ) arg4 fullShare x2
              ∗ owns (c : Thread nD τ) arg5 fullShare xo
              ∗ owns (c : Thread nD τ) arg6 fullShare (k2_pay2 i x0 x1 (k2_pay1 (F := F)))) -∗ K ⟨⟩))
      ⊢ wp frame (wpE (defs₀ (F := F)) Variants.none c none) E (cc2__scatter_kernel i arg2 harg2 arg3 harg3 arg4 harg4 arg5 harg5 arg6 harg6) K := by
  simp only [cc2__scatter_kernel_eq_skeleton]; unfold cc2__scatter_kernel_skel
  unfold owns
  iintro ⟨⟨%f0, %hf0, H0⟩, ⟨%f1, %hf1, H1⟩, ⟨%f2, %hf2, H2⟩, ⟨%f3, %hf3, H3⟩, ⟨%d6, %f6, -, H6⟩, Hk⟩
  subst hf0; subst hf1; subst hf2; subst hf3
  sl_exec (disch := first | exact hz | exact he)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H6
  ·
    ipureintro
    sl_unfold_words
    rw [read_after_whole_store _ _ origin2]
    simp only [View.readAt_eq_ld, View.ld_unit_zero (S := S2000x1) origin2, View.ld_unit_zero (S := S2000x64) origin2,
      View.ld_unit_zero (S := S3128x64) origin2, View.ld_unit_zero (S := S64) origin1, View.readCov_unit_zero (S := S3128x64) _ origin2]

end Cert.Kernel.Hand

end
-- ==== Proof.K.R2RunB.lean ====
/-
  Region 2, the body at a grid point whose edge tile is neither the first nor the last of its node tile: the point's
  one-hot product is added to the accumulator; the output block is left alone.
-/
import proofs.«401039_j68436008894831_1_alg».proof.Proof.K.R2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where the edge tile is neither the first nor the last: the three inputs are read and kept, the output block is
    not touched, and the accumulator is left at what it held plus the point's one-hot product. -/
theorem body2_mid (c : Dev nD) (E : Set ℕ) (i : grid2.Coords)
    (arg2 : Memref sig .tc .vmem S2000x1 .i32) (harg2 : arg2.IsWhole) (arg3 : Memref sig .tc .vmem S2000x64 .f32) (harg3 : arg3.IsWhole)
    (arg4 : Memref sig .tc .vmem S64 .f32) (harg4 : arg4.IsWhole) (arg5 : Memref sig .tc .vmem S3128x64 .f32) (harg5 : arg5.IsWhole)
    (arg6 : Memref sig .tc .vmem S3128x64 .f32) (harg6 : arg6.IsWhole) (hz : ¬zeroes2 i) (he : ¬emits2 i)
    (x0 : Vec F S2000x1 .i32) (x1 : Vec F S2000x64 .f32) (x2 : Vec F S64 .f32) (xo : Vec F S3128x64 .f32) (s : Vec F S3128x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare s
        ∗ (iprop(owns (c : Thread nD τ) arg2 fullShare x0 ∗ owns (c : Thread nD τ) arg3 fullShare x1 ∗ owns (c : Thread nD τ) arg4 fullShare x2
              ∗ owns (c : Thread nD τ) arg5 fullShare xo
              ∗ owns (c : Thread nD τ) arg6 fullShare (k2_pay2 i x0 x1 s)) -∗ K ⟨⟩))
      ⊢ wp frame (wpE (defs₀ (F := F)) Variants.none c none) E (cc2__scatter_kernel i arg2 harg2 arg3 harg3 arg4 harg4 arg5 harg5 arg6 harg6) K := by
  simp only [cc2__scatter_kernel_eq_skeleton]; unfold cc2__scatter_kernel_skel
  unfold owns
  iintro ⟨⟨%f0, %hf0, H0⟩, ⟨%f1, %hf1, H1⟩, ⟨%f2, %hf2, H2⟩, ⟨%f3, %hf3, H3⟩, ⟨%f6, %hf6, H6⟩, Hk⟩
  subst hf0; subst hf1; subst hf2; subst hf3; subst hf6
  sl_exec (disch := first | exact hz | exact he)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H6
  ·
    ipureintro
    sl_unfold_words
    rw [read_after_whole_store _ _ origin2]
    simp only [View.readAt_eq_ld, View.ld_unit_zero (S := S2000x1) origin2, View.ld_unit_zero (S := S2000x64) origin2,
      View.ld_unit_zero (S := S3128x64) origin2, View.ld_unit_zero (S := S64) origin1, View.readCov_unit_zero (S := S3128x64) _ origin2]

end Cert.Kernel.Hand

end
-- ==== Proof.K.R2RunC.lean ====
/-
  Region 2, the body at a grid point whose edge tile is the last of its node tile (and not the first): the point's
  one-hot product is added to the accumulator, and the output block is stored from the sum and the bias row.
-/
import proofs.«401039_j68436008894831_1_alg».proof.Proof.K.R2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where the edge tile is the last and not the first: the three inputs are read and kept, the accumulator is left
    at what it held plus the point's one-hot product, and the output block, whatever it held, at the tanh of that sum
    plus the bias row. -/
theorem body2_last (c : Dev nD) (E : Set ℕ) (i : grid2.Coords)
    (arg2 : Memref sig .tc .vmem S2000x1 .i32) (harg2 : arg2.IsWhole) (arg3 : Memref sig .tc .vmem S2000x64 .f32) (harg3 : arg3.IsWhole)
    (arg4 : Memref sig .tc .vmem S64 .f32) (harg4 : arg4.IsWhole) (arg5 : Memref sig .tc .vmem S3128x64 .f32) (harg5 : arg5.IsWhole)
    (arg6 : Memref sig .tc .vmem S3128x64 .f32) (harg6 : arg6.IsWhole) (hz : ¬zeroes2 i) (he : emits2 i)
    (x0 : Vec F S2000x1 .i32) (x1 : Vec F S2000x64 .f32) (x2 : Vec F S64 .f32) (s : Vec F S3128x64 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare s
        ∗ (iprop(owns (c : Thread nD τ) arg2 fullShare x0 ∗ owns (c : Thread nD τ) arg3 fullShare x1 ∗ owns (c : Thread nD τ) arg4 fullShare x2
              ∗ owns (c : Thread nD τ) arg5 fullShare (k2_pay3 (k2_pay2 i x0 x1 s) x2)
              ∗ owns (c : Thread nD τ) arg6 fullShare (k2_pay2 i x0 x1 s)) -∗ K ⟨⟩))
      ⊢ wp frame (wpE (defs₀ (F := F)) Variants.none c none) E (cc2__scatter_kernel i arg2 harg2 arg3 harg3 arg4 harg4 arg5 harg5 arg6 harg6) K := by
  simp only [cc2__scatter_kernel_eq_skeleton]; unfold cc2__scatter_kernel_skel
  unfold owns
  iintro ⟨⟨%f0, %hf0, H0⟩, ⟨%f1, %hf1, H1⟩, ⟨%f2, %hf2, H2⟩, ⟨%d3, %f3, -, H3⟩, ⟨%f6, %hf6, H6⟩, Hk⟩
  subst hf0; subst hf1; subst hf2; subst hf6
  sl_exec (disch := first | exact hz | exact he)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ·
      ipureintro
      sl_unfold_words
      rw [read_after_whole_store _ _ origin2]
      simp only [View.readAt_eq_ld, View.ld_unit_zero (S := S2000x1) origin2, View.ld_unit_zero (S := S2000x64) origin2,
      View.ld_unit_zero (S := S3128x64) origin2, View.ld_unit_zero (S := S64) origin1, View.readCov_unit_zero (S := S3128x64) _ origin2]
  iexists _; isplitr
  swap; · iexact H6
  ·
    ipureintro
    sl_unfold_words
    rw [read_after_whole_store _ _ origin2]
    simp only [View.readAt_eq_ld, View.ld_unit_zero (S := S2000x1) origin2, View.ld_unit_zero (S := S2000x64) origin2,
      View.ld_unit_zero (S := S3128x64) origin2, View.ld_unit_zero (S := S64) origin1, View.readCov_unit_zero (S := S3128x64) _ origin2]

end Cert.Kernel.Hand

end
-- ==== Proof.K.R2.lean ====
/-
  Region 2 of the idealized kernel's @main, the frame half: what the accumulator holds after each grid point, as a
  recursion over the body's own arithmetic (zero, or the point before, plus the point's one-hot product), the block the
  last edge tile of a node tile stores (tanh of the accumulator plus the bias row), the invariant that carries the
  accumulator from point to point, the pipeline's proof data over any region-entry contents `V`, and the body obligation
  by cases on the inner coordinate (first / middle / last edge tile).
-/
import proofs.«401039_j68436008894831_1_alg».proof.Proof.K.R2RunA
import proofs.«401039_j68436008894831_1_alg».proof.Proof.K.R2RunB
import proofs.«401039_j68436008894831_1_alg».proof.Proof.K.R2RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What the accumulator and the output block hold after each point -/

/-- THE ACCUMULATION. The accumulator after the body at position `n`: the point's one-hot product (of its edge-index block
    and its message block) added to zero where the edge tile is the first of its node tile (`n ≡ 0 (mod 425)`), and to
    what the point before left elsewhere. -/
def acc2 (c : Dev nD) : (n : ℕ) → n < cfg2.N → Vec F S3128x64 .f32
  | 0, hn => k2_pay2 (grid2.coords ⟨0, hn⟩) (iblk2 V c 0 ⟨0, hn⟩) (iblk2 V c 1 ⟨0, hn⟩) (k2_pay1 (F := F))
  | n + 1, hn => k2_pay2 (grid2.coords ⟨n + 1, hn⟩) (iblk2 V c 0 ⟨n + 1, hn⟩) (iblk2 V c 1 ⟨n + 1, hn⟩)
      (if (n + 1) % 425 = 0 then k2_pay1 (F := F) else acc2 c n (Nat.lt_of_succ_lt hn))

/-- After position `n`: the block the body stores into the output window where the edge tile is the last — tanh of the
    accumulator plus the bias row; at the other points a value nothing reads, the window being idle there — and the
    accumulator. -/
def outsAt2 (c : Dev nD) : (n : ℕ) → n < cfg2.N → Vec F S3128x64 .f32 × Vec F S3128x64 .f32 :=
  fun n hn => (k2_pay3 (acc2 V c n hn) (iblk2 V c 2 ⟨n, hn⟩), acc2 V c n hn)

/-- At a first edge tile the accumulator restarts from zero. -/
theorem acc2_at_first (c : Dev nD) (t : Fin cfg2.N) (h : t.val % 425 = 0) :
    acc2 V c t.val t.isLt = k2_pay2 (grid2.coords t) (iblk2 V c 0 t) (iblk2 V c 1 t) (k2_pay1 (F := F)) := by
  obtain ⟨n, hn⟩ := t
  cases n with
  | zero => rfl
  | succ n =>
    have h' : (n + 1) % 425 = 0 := h
    exact congrArg (k2_pay2 _ _ _) (if_pos h')

/-- At any other edge tile it continues from the point before. -/
theorem acc2_at_next (c : Dev nD) (t : Fin cfg2.N) (h : ¬t.val % 425 = 0) :
    acc2 V c t.val t.isLt = k2_pay2 (grid2.coords t) (iblk2 V c 0 t) (iblk2 V c 1 t)
      (acc2 V c (t.val - 1) (Nat.lt_of_le_of_lt (Nat.sub_le _ _) t.isLt)) := by
  obtain ⟨n, hn⟩ := t
  cases n with
  | zero => exact absurd (Nat.zero_mod _) h
  | succ n =>
    have h' : ¬(n + 1) % 425 = 0 := h
    exact congrArg (k2_pay2 _ _ _) (if_neg h')

theorem acc2_reset (c : Dev nD) (t : Fin cfg2.N) (h : t.val % 425 = 0) :
    (outsAt2 V c t.val t.isLt).2 = k2_pay2 (grid2.coords t) (iblk2 V c 0 t) (iblk2 V c 1 t) (k2_pay1 (F := F)) :=
  acc2_at_first V c t h
theorem acc2_step (c : Dev nD) (t : Fin cfg2.N) (h : ¬ t.val % 425 = 0) :
    (outsAt2 V c t.val t.isLt).2 = k2_pay2 (grid2.coords t) (iblk2 V c 0 t) (iblk2 V c 1 t)
      (outsAt2 V c (t.val - 1) (Nat.lt_of_le_of_lt (Nat.sub_le _ _) t.isLt)).2 :=
  acc2_at_next V c t h
theorem out2_last (c : Dev nD) (t : Fin cfg2.N) (h : t.val % 425 = 424) :
    (outsAt2 V c t.val t.isLt).1 = k2_pay3 (outsAt2 V c t.val t.isLt).2 (iblk2 V c 2 t) := rfl
/-- The output component, over the accumulator. -/
theorem out2_eq (c : Dev nD) (t : Fin cfg2.N) :
    (outsAt2 V c t.val t.isLt).1 = k2_pay3 (acc2 V c t.val t.isLt) (iblk2 V c 2 t) := rfl

/-! ## The invariant from point to point -/

/-- Before position `n`: at the region's entry the class's invariant (the accumulator at anything); after a point, the
    accumulator at what that point left, the other scoped buffers unopened, the generator register at some state. -/
def PhiS2 (c : Dev nD) : (n : ℕ) → n ≤ cfg2.N → sProp 𝕄
  | 0, _ => Pipeline.ΦA spec2 c
  | n + 1, hn => iprop(iprop(owns (c : Thread nD τ) scM2 fullShare (acc2 V c n hn) ∗ Pipeline.scopedRestBut spec2 c [cc2_scratch0]) ∗ (∃ r, prngReg c r))

theorem PhiS2_after (c : Dev nD) (n : ℕ) (hn : n < cfg2.N) :
    PhiS2 V c (n + 1) hn = iprop(iprop(owns (c : Thread nD τ) scM2 fullShare (acc2 V c n hn) ∗ Pipeline.scopedRestBut spec2 c [cc2_scratch0]) ∗ (∃ r, prngReg c r)) := rfl

theorem PhiS2_later (c : Dev nD) (n : ℕ) (h : n ≤ cfg2.N) (hz : n ≠ 0) :
    PhiS2 V c n h = iprop(iprop(owns (c : Thread nD τ) scM2 fullShare (acc2 V c (n - 1) (by omega)) ∗ Pipeline.scopedRestBut spec2 c [cc2_scratch0]) ∗ (∃ r, prngReg c r)) := by
  cases n with
  | zero => exact absurd rfl hz
  | succ n => rfl

/-- At every position the invariant gives the accumulator at SOME contents: what the zeroing case and the region's exit ask. -/
theorem PhiS2_any (c : Dev nD) (n : ℕ) (h : n ≤ cfg2.N) :
    PhiS2 V c n h ⊢ iprop(iprop(iprop((∃ d, owns (c : Thread nD τ) scM2 fullShare d)) ∗ Pipeline.scopedRestBut spec2 c [cc2_scratch0]) ∗ (∃ r, prngReg c r)) := by
  cases n with
  | zero =>
    rw [show PhiS2 V c 0 h = Pipeline.ΦA spec2 c from rfl, PhiA2_eq]
    try exact Idealize.SL.BI.Entails.refl _
  | succ n =>
    rw [PhiS2_after]
    iintro ⟨⟨HS, HR⟩, Hg⟩
    isplitl [HS HR]
    · isplitl [HS]
      · iexists _; iexact HS
      · iexact HR
    · iexact Hg

/-! ## The proof data -/

/-- The proof data of pipeline 2 on core `c`: the arrays as the region finds them; after the body each input window at
    its block, the output window at `outsAt2`'s first component; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem Phi2_eq (c : Dev nD) (t : Fin (cfg2.N + 1)) : (dat2 V c).Φ t = PhiS2 V c t.val (Nat.le_of_lt_succ t.isLt) := rfl
theorem Phi2_start (c : Dev nD) (t : Fin cfg2.N) : (dat2 V c).Φ t.castSucc = PhiS2 V c t.val (Nat.le_of_lt t.isLt) := rfl
theorem Phi2_end (c : Dev nD) (t : Fin cfg2.N) : (dat2 V c).Φ t.succ = PhiS2 V c (t.val + 1) t.isLt := rfl

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- An input window is never idle: the body hands its buffer back at its block. -/
theorem leaves2_0 (c : Dev nD) (t : Fin cfg2.N) : (dat2 V c).leavesExact 0 t = owns (c : Thread nD τ) (ms2_0 t) fullShare (iblk2 V c 0 t) := by
  unfold Dat.leavesExact; rw [show cfg2.idle 0 (cfg2.grid.coords t) = false from rfl, after2_0]
theorem leaves2_1 (c : Dev nD) (t : Fin cfg2.N) : (dat2 V c).leavesExact 1 t = owns (c : Thread nD τ) (ms2_1 t) fullShare (iblk2 V c 1 t) := by
  unfold Dat.leavesExact; rw [show cfg2.idle 1 (cfg2.grid.coords t) = false from rfl, after2_1]
theorem leaves2_2 (c : Dev nD) (t : Fin cfg2.N) : (dat2 V c).leavesExact 2 t = owns (c : Thread nD τ) (ms2_2 t) fullShare (iblk2 V c 2 t) := by
  unfold Dat.leavesExact; rw [show cfg2.idle 2 (cfg2.grid.coords t) = false from rfl, after2_2]
/-- At a last edge tile the output window is live: the body leaves the stored block. -/
theorem leaves2_3_last (c : Dev nD) (t : Fin cfg2.N) (h : t.val % 425 = 424) :
    (dat2 V c).leavesExact 3 t = owns (c : Thread nD τ) (ms2_3 t) fullShare (k2_pay3 (acc2 V c t.val t.isLt) (iblk2 V c 2 t)) := by
  unfold Dat.leavesExact; rw [live2_out_of t h, after2_3, out2_eq]

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t ∗ (dat2 V c).leavesExact 3 t)

set_option maxHeartbeats 4000000 in
/-- The body at any point, by the inner coordinate. The inputs' buffers hold their blocks. Where the edge tile is the first
    the invariant gives the accumulator at anything and the zeroing case leaves it at the restarted sum; elsewhere the point
    is not the grid's first, the invariant gives it at what the point before left, and the body adds to that. Off the last
    edge tile the output window is idle and not written back: its buffer goes back as found; at the last the body leaves
    the stored block. Nothing is owed throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl,
    Phi2_start, Phi2_end, PhiS2_after, leaves2_0, leaves2_1, leaves2_2]
  by_cases h0 : t.val % 425 = 0
  · have h1 : ¬t.val % 425 = 424 := by omega
    rw [Dat.leavesExact_idle (dat2 V c) 3 t (idle2_out_of t h1) (noFlush2_out_of t h1), acc2_at_first V c t h0]
    refine (sep_mono_left (PhiS2_any V c _ _)).trans ?_
    iintro ⟨⟨⟨⟨%s, HS⟩, HR⟩, Hg⟩, Ho, ⟨%d0, H0⟩, ⟨%d1, H1⟩, ⟨%d2, H2⟩, ⟨%d3, H3⟩⟩
    iapply (body2_first c Set.univ (grid2.coords t) _ _ _ _ _ _ _ _ _ _ ((zeroes2_at t).mpr h0) (fun e => h1 ((emits2_at t).mp e))
      (iblk2 V c 0 t) (iblk2 V c 1 t) (iblk2 V c 2 t) _ _)
    isplitl [H0]; · iexact H0
    isplitl [H1]; · iexact H1
    isplitl [H2]; · iexact H2
    isplitl [H3]; · iexact H3
    isplitl [HS]; · iexists _; iexact HS
    iintro ⟨H0, H1, H2, H3, HS⟩
    isplitl [HS HR Hg]
    · isplitl [HS HR]
      · isplitl [HS]; · iexact HS
        iexact HR
      · iexact Hg
    isplitl [Ho]; · iexact Ho
    isplitl [H0]; · iexact H0
    isplitl [H1]; · iexact H1
    isplitl [H2]; · iexact H2
    iexists _; iexact H3
  · have hz : t.val ≠ 0 := fun e => h0 (by rw [e])
    rw [PhiS2_later V c _ _ hz, acc2_at_next V c t h0]
    by_cases h1 : t.val % 425 = 424
    · rw [leaves2_3_last V c t h1, acc2_at_next V c t h0]
      iintro ⟨⟨⟨HS, HR⟩, Hg⟩, Ho, ⟨%d0, H0⟩, ⟨%d1, H1⟩, ⟨%d2, H2⟩, ⟨%d3, H3⟩⟩
      iapply (body2_last c Set.univ (grid2.coords t) _ _ _ _ _ _ _ _ _ _ (fun e => h0 ((zeroes2_at t).mp e)) ((emits2_at t).mpr h1)
        (iblk2 V c 0 t) (iblk2 V c 1 t) (iblk2 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        · iexact Hg
      isplitl [Ho]; · iexact Ho
      isplitl [H0]; · iexact H0
      isplitl [H1]; · iexact H1
      isplitl [H2]; · iexact H2
      iexact H3
    · rw [Dat.leavesExact_idle (dat2 V c) 3 t (idle2_out_of t h1) (noFlush2_out_of t h1)]
      iintro ⟨⟨⟨HS, HR⟩, Hg⟩, Ho, ⟨%d0, H0⟩, ⟨%d1, H1⟩, ⟨%d2, H2⟩, ⟨%d3, H3⟩⟩
      iapply (body2_mid c Set.univ (grid2.coords t) _ _ _ _ _ _ _ _ _ _ (fun e => h0 ((zeroes2_at t).mp e)) (fun e => h1 ((emits2_at t).mp e))
        (iblk2 V c 0 t) (iblk2 V c 1 t) (iblk2 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        · iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = Pipeline.ΦA spec2 c from rfl]
  try exact Idealize.SL.BI.Entails.refl _

/-- After the last point the invariant gives the class's back: the accumulator's contents are forgotten. -/
theorem hout2 (c : Dev nD) : (dat2 V c).Φ (Fin.last cfg2.N) ⊢ Pipeline.ΦA spec2 c := by
  rw [PhiA2_eq, Phi2_eq]
  exact PhiS2_any V c _ _

end

end Cert.Kernel.Hand

end
-- ==== Proof.K.R3.lean ====
/-
  Region 3 of the idealized kernel's @main: the dense row-tiled product `h · W₂` of the 3128-row tiles of the hidden
  features (3128×64) with the whole weight matrix of the second convolution (64×64), one tile per grid point. The body reads the tile
  and the matrix, multiplies them on the matrix unit, operands rounded to bf16 and accumulating from zero, and stores
  the 3128×64 product. Nothing is kept from point to point: the output block at a point is one pure function of the
  two input blocks there. Stated for any float family and any region-entry contents `V`.
-/
import proofs.«401039_j68436008894831_1_alg».proof.Proof.Gen.Kernel.Launch
import proofs.«401039_j68436008894831_1_alg».proof.Proof.Gen.Kernel.Skeleton
import proofs.«401039_j68436008894831_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body at one point

Every access of the body is through the whole of a staging block: two whole loads and one whole store. -/

abbrev tile3 : Rect S3128x64 := Rect.unit (s := S3128x64) ![0, 0] S3128x64.size inb_S3128x64_S3128x64_0_0
abbrev wgt3 : Rect S64x64 := Rect.unit (s := S64x64) ![0, 0] S64x64.size inb_S64x64_S64x64_0_0

/-- What the body leaves in the output block: its one store, of the product of the two loaded blocks, over the whole
    tile. -/
def out3_2 (x0 : Vec F S3128x64 .f32) (x1 : Vec F S64x64 .f32) : Vec F S3128x64 .f32 :=
  View.canon [⟨tile3, k3_pay1 (View.ld x0 tile3) (View.ld x1 wgt3)⟩]

/-- The one store is of the whole tile, so no index of the block escapes it. -/
theorem tile3_fills (p : Vec F S3128x64 .f32) :
    ∀ y : S3128x64.Idx, ∃ pc ∈ ([⟨tile3, p⟩] : List (View.Piece (Elt F) S3128x64 .f32)), y ∈ pc.1.set :=
  View.cover_of_wholeMem _ (View.Piece.wholeMem_here (by rfl))

/-- Elements held at contents that read `X` through the memref are owned at `X`. -/
theorem owns_of_reads3 (c : Dev nD) {sp : Space} {sh : Shape} {e : EltTy} (m : Memref sig .tc sp sh e) (q : PosShare TreeShare)
    (f : m.view.ty.Contents (Elt F)) (X : sh.Idx → Elt F e) (h : m.view.read (Elt F) f = X) :
    (m.view.loc (c : Thread nD τ) ↦[m.view.set]{q} f : sProp 𝕄) ⊢ owns (c : Thread nD τ) m q X :=
  h ▸ owns_intro (c : Thread nD τ) m q f

set_option maxHeartbeats 1000000 in
/-- The body as a triple over whole staging memrefs, beside anything `I`, `O` the caller holds: the two inputs are
    read and kept, and whatever the output buffer held is overwritten by their product. -/
theorem linear_point3 (c : Dev nD) (E : Set ℕ) (i : grid3.Coords)
    (arg1 : Memref sig .tc .vmem S3128x64 .f32) (harg1 : arg1.IsWhole) (arg2 : Memref sig .tc .vmem S64x64 .f32) (harg2 : arg2.IsWhole)
    (arg3 : Memref sig .tc .vmem S3128x64 .f32) (harg3 : arg3.IsWhole)
    (x0 : Vec F S3128x64 .f32) (x1 : Vec F S64x64 .f32) (I O : sProp 𝕄) :
    iprop(I ∗ O ∗ owns (c : Thread nD τ) arg1 fullShare x0 ∗ owns (c : Thread nD τ) arg2 fullShare x1 ∗ (∃ d, owns (c : Thread nD τ) arg3 fullShare d))
      ⊢ wp frame (wpE (defs₀ (F := F)) Variants.none c none) E (cc3__linear_kernel i arg1 harg1 arg2 harg2 arg3 harg3)
          (fun _ => iprop(I ∗ O ∗ owns (c : Thread nD τ) arg1 fullShare x0 ∗ owns (c : Thread nD τ) arg2 fullShare x1
            ∗ owns (c : Thread nD τ) arg3 fullShare (out3_2 x0 x1))) := by
  simp only [cc3__linear_kernel_eq_skeleton]; unfold cc3__linear_kernel_skel
  conv_lhs => unfold owns
  iintro ⟨HI, HO, ⟨%f0, %e0, H0⟩, ⟨%f1, %e1, H1⟩, ⟨%d2, %f2, -, H2⟩⟩
  subst e0 e1
  sl_exec
  sl_step
  iframe HI HO
  isplitl [H0]; · iapply (owns_of_reads3 c arg1 _ f0 _ rfl) $$ H0
  isplitl [H1]; · iapply (owns_of_reads3 c arg2 _ f1 _ rfl) $$ H1
  iapply (owns_of_reads3 c arg3 _ _ _ (View.read_writes_eq_canon _ _ _ (tile3_fills _))) $$ H2

/-! ## The proof data -/

/-- The proof data of pipeline 3 on core `c`: the arrays as the region finds them; after the body each input buffer
    still at its block, the output buffer at the product of the two blocks; the invariant, shares and tallies constant. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- What a fetch of window `w` at `t` would read of its array is the block named above, for every window at once. -/
theorem blockOf3 (c : Dev nD) (w : Fin cfg3.W) (t : Fin cfg3.N) : (dat3 V c).blockOf w t = iblk3 V c w t := by
  unfold Dat.blockOf iblk3; rw [A_eq3]

/-! Each input buffer holds its window's block whenever the body runs: right after a fetch because the fetch put it
there, and at a point without a fetch because the window's block index has not moved since the last one and the body
leaves the buffer as it found it. The tile is fetched at every point, the matrix at the first point only. -/

theorem found3_0 (c : Dev nD) (t : Fin cfg3.N) (d) : (dat3 V c).before 0 t d = iblk3 V c 0 t := by
  rw [(dat3 V c).before_in_eq_fetched 0 rfl (fun _ => rfl) (fun _ _ _ => rfl) (fun s => by rw [after3_0, blockOf3]) t d]
  unfold Dat.fetched; rw [blockOf3]; rfl
theorem found3_1 (c : Dev nD) (t : Fin cfg3.N) (d) : (dat3 V c).before 1 t d = iblk3 V c 1 t := by
  rw [(dat3 V c).before_in_eq_fetched 1 rfl (fun _ => rfl) (fun _ _ _ => rfl) (fun s => by rw [after3_1, blockOf3]) t d]
  unfold Dat.fetched; rw [blockOf3]; rfl

/-! ## The body obligation -/

/-- The obligation at point `t`, its three windows written out: the invariant and the tallies pass through untouched,
    the inputs are handed over at their blocks and returned so, the output comes back at `out3_2` of them. -/
theorem at_point3 (c : Dev nD) (t : Fin cfg3.N) :
    iprop((dat3 V c).Φ t.castSucc ∗ (dat3 V c).owesAt () t.castSucc
        ∗ (∃ d, owns (c : Thread nD τ) (st3_0 t) fullShare ((dat3 V c).before 0 t d))
        ∗ (∃ d, owns (c : Thread nD τ) (st3_1 t) fullShare ((dat3 V c).before 1 t d))
        ∗ (∃ d, owns (c : Thread nD τ) (st3_2 t) fullShare ((dat3 V c).before 2 t d)))
      ⊢ wp frame (wpE (defs₀ (F := F)) Variants.none c none) Set.univ (bodyAt3 t) (fun _ =>
          iprop((dat3 V c).Φ t.succ ∗ (dat3 V c).owesAt () t.succ
            ∗ owns (c : Thread nD τ) (st3_0 t) fullShare ((dat3 V c).after 0 t)
            ∗ owns (c : Thread nD τ) (st3_1 t) fullShare ((dat3 V c).after 1 t)
            ∗ owns (c : Thread nD τ) (st3_2 t) fullShare ((dat3 V c).after 2 t))) := by
  simp only [found3_0, found3_1]
  rw [after3_0, after3_1, after3_2]
  iintro ⟨HI, HO, ⟨%d0, H0⟩, ⟨%d1, H1⟩, ⟨%d2, H2⟩⟩
  iapply (linear_point3 c Set.univ _ _ _ _ _ _ _ (iblk3 V c 0 t) (iblk3 V c 1 t)
    ((dat3 V c).Φ t.castSucc) ((dat3 V c).owesAt () t.castSucc))
  iframe HI HO H0 H1
  iexists _; iexact H2

theorem body_obligation3 (c : Dev nD) : BodyObligation (dat3 (F := F) V c) (defs₀ (F := F)) Variants.none () Set.univ := fun t => by
  rw [bigSep_W3, bigSep_W3]
  exact at_point3 V c t

/-- The invariant is the region's own at both ends. -/
theorem hin3 (c : Dev nD) : Pipeline.ΦA spec3 c ⊢ (dat3 V c).Φ 0 := BI.Entails.refl _
theorem hout3 (c : Dev nD) : (dat3 V c).Φ (Fin.last cfg3.N) ⊢ Pipeline.ΦA spec3 c := BI.Entails.refl _

end

end Cert.Kernel.Hand

end
-- ==== Proof.K.R4Runs.lean ====
/-
  Region 4 of the idealized kernel's @main, the part its three control cases share. The grid is 425 × 16, the
  inner axis a reduction over sixteen node blocks: point t has inner coordinate t mod 16. At inner coordinate 0 the
  body zeroes a 2000×64 accumulator kept in scratch memory; at every point it adds the product of a one-hot
  2000×3128 selector with the current 3128×64 node block into the accumulator; at inner coordinate 15 it scales the
  accumulator row by row and stores the result as the output block. Here: the inner coordinate and the two branch
  conditions as functions of it, where the output window is idle and not written back, the scratch memref, the
  region invariant of the class opened at the scratch, the input blocks, and two facts about memory: a whole-buffer
  store made last fixes what the buffer reads, and an input window holds its block at every point.
  Stated for any float family and any region-entry contents V.
-/
import proofs.«401039_j68436008894831_1_alg».proof.Proof.Gen.Kernel.Launch
import proofs.«401039_j68436008894831_1_alg».proof.Proof.Gen.Kernel.Skeleton
import proofs.«401039_j68436008894831_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The inner coordinate and the branch conditions -/

/-- The inner axis has stride one and bound sixteen: the inner coordinate of point t is t mod 16. -/
theorem inner4 (t : Fin cfg4.N) : (grid4.coords t 1).val = t.val % 16 := by
  show t.val / grid4.stride 1 % 16 = t.val % 16
  rw [show grid4.stride 1 = 1 from by decide, Nat.div_one]

/-- The zeroing branch's condition, as the body computes it from the inner coordinate. -/
abbrev atFirst4 (i : grid4.Coords) : Prop :=
  Scalar.cmpi .ne (Scalar.extui (Scalar.cmpi .eq (BitVec.ofNat 32 (i 1).val) 0#32)) 0#32 = 1#1
/-- The output branch's condition. -/
abbrev atLast4 (i : grid4.Coords) : Prop := k4_cond2 i = 1#1

/-- Over the sixteen inner coordinates: the first comparison chain holds at 0 only, -/
theorem first_of_inner4 : ∀ k : Fin 16,
    (Scalar.cmpi .ne (Scalar.extui (Scalar.cmpi .eq (BitVec.ofNat 32 k.val) 0#32)) 0#32 = 1#1) ↔ k.val = 0 := by
  decide +kernel
/-- the second at 15 only. -/
theorem last_of_inner4 : ∀ k : Fin 16,
    (Scalar.cmpi .ne (Scalar.extui (Scalar.cmpi .eq (BitVec.ofNat 32 k.val) 15#32)) 0#32 = 1#1) ↔ k.val = 15 := by
  decide +kernel

theorem atFirst4_iff (t : Fin cfg4.N) : atFirst4 (grid4.coords t) ↔ t.val % 16 = 0 := by
  rw [← inner4 t]; exact first_of_inner4 (grid4.coords t 1)
theorem atLast4_iff (t : Fin cfg4.N) : atLast4 (grid4.coords t) ↔ t.val % 16 = 15 := by
  rw [← inner4 t]; exact last_of_inner4 (grid4.coords t 1)

/-! ## Where the output window is idle -/

/-- Off the last inner coordinate the configuration calls the output window idle, -/
theorem idle4_3 (t : Fin cfg4.N) (h : ¬ t.val % 16 = 15) : cfg4.idle 3 (grid4.coords t) = true := by
  have hb : (k4_cond2 (grid4.coords t) == 1#1) = false :=
    beq_eq_false_iff_ne.mpr fun e => h ((atLast4_iff t).mp e)
  show (!(k4_cond2 (grid4.coords t) == 1#1)) = true
  rw [hb]; rfl
/-- and the pipeline does not write its block back; -/
theorem keep4_3 (t : Fin cfg4.N) (h : ¬ t.val % 16 = 15) : (cfg4.win 3).flush t = false :=
  Bool.eq_false_iff.mpr fun hf => h ((flush4_3 t).mp hf)
/-- at the last inner coordinate it is live. -/
theorem live4_3 (t : Fin cfg4.N) (h : t.val % 16 = 15) : cfg4.idle 3 (grid4.coords t) = false := by
  have hb : (k4_cond2 (grid4.coords t) == 1#1) = true := beq_iff_eq.mpr ((atLast4_iff t).mpr h)
  show (!(k4_cond2 (grid4.coords t) == 1#1)) = false
  rw [hb]; rfl

/-! ## The scratch accumulator and the class invariant opened at it -/

/-- The accumulator: the call's one scratch operand, a whole buffer. -/
abbrev scM4 : Memref sig .tc .vmem S2000x64 .f32 := Memref.whole cc4_scratch0

/-- The class's region invariant is: the accumulator at some contents, every other scoped buffer that is no staging
    buffer of this call unopened, the generator register at some state. -/
theorem PhiA4_eq (c : Dev nD) :
    (Pipeline.ΦA spec4 c : sProp 𝕄)
      = iprop(iprop((∃ d, owns (c : Thread nD τ) scM4 fullShare d)
          ∗ Pipeline.scopedRestBut (Ix := Unit) (Name := ℕ) (U := UR sig nD τ) (Lvl := ℕ) (Val := Elt F) spec4 c [cc4_scratch0])
          ∗ (∃ r, prngReg c r)) := by
  unfold Pipeline.ΦA; rw [scopedRest4_split]; simp only [scM4, owns_whole]; try rfl

/-! ## A whole-buffer store made last -/

/-- After a list of stores whose last is through the whole-shape rectangle at zero offsets, the buffer reads that
    store's payload, whatever it held and whatever the earlier stores were. -/
theorem View.read_writes_whole_last4 {sg : RefSig} {κ : Kind} {sp : Space} {S : Shape} {e : EltTy} {Val : EltTy → Type}
    [∀ e, Nonempty (Val e)] (v : View sg κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb w L]

/-! ## The input blocks -/

section
variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The three inputs are uncut and never idle, and the body leaves them in place: so each one's current staging
    buffer holds its block at every point, at the points that do not fetch it too (its block index has not moved
    since the fetch). For any proof data over the arrays V that keeps the block. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

end

end Cert.Kernel.Hand

end
-- ==== Proof.K.R4RunA.lean ====
/-
  Region 4, the body's run at the first inner coordinate: the zeroing branch is taken, the output branch is not. By
  symbolic execution of the skeleton over whole staging memrefs. The accumulator is stored twice through the whole
  rectangle, zeros and then the update: it reads the later payload, and the load between the two stores reads the zeros.
-/
import proofs.«401039_j68436008894831_1_alg».proof.Proof.K.R4Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the first inner coordinate the zeroing branch is taken and the output branch is not: the body stores zeros over
    the accumulator whatever it held, reads them back with the index block and the node block, and stores zeros plus the
    selected rows; the inputs and the output buffer are left as found. -/
theorem run4_first (c : Dev nD) (E : Set ℕ) (i : grid4.Coords) (a2 : Memref sig .tc .vmem S2000x1 .i32) (h2 : a2.IsWhole) (a3 : Memref sig .tc .vmem S2000x1 .f32) (h3 : a3.IsWhole) (a4 : Memref sig .tc .vmem S3128x64 .f32) (h4 : a4.IsWhole) (a5 : Memref sig .tc .vmem S2000x64 .f32) (h5 : a5.IsWhole) (a6 : Memref sig .tc .vmem S2000x64 .f32) (h6 : a6.IsWhole)
    (hF : atFirst4 i) (hL : ¬ atLast4 i)
    (x0 : Vec F S2000x1 .i32) (x1 : Vec F S2000x1 .f32) (x2 : Vec F S3128x64 .f32) (y : Vec F S2000x64 .f32)
    (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare y ∗ (∃ d, owns (c : Thread nD τ) a6 fullShare d)
        ∗ (iprop(owns (c : Thread nD τ) a2 fullShare x0 ∗ owns (c : Thread nD τ) a3 fullShare x1 ∗ owns (c : Thread nD τ) a4 fullShare x2
            ∗ owns (c : Thread nD τ) a5 fullShare y ∗ owns (c : Thread nD τ) a6 fullShare (k4_pay2 i x0 x2 (k4_pay1 (F := F)))) -∗ K ⟨⟩))
      ⊢ wp frame (wpE (defs₀ (F := F)) Variants.none c none) E (cc4__gather_kernel i a2 h2 a3 h3 a4 h4 a5 h5 a6 h6) K := by
  simp only [cc4__gather_kernel_eq_skeleton]; unfold cc4__gather_kernel_skel
  unfold owns
  iintro ⟨⟨%f0, %e0, H0⟩, ⟨%f1, %e1, H1⟩, ⟨%f2, %e2, H2⟩, ⟨%f3, %e3, H3⟩, ⟨%d, %fs, -, HS⟩, Hk⟩
  subst e0; subst e1; subst e2; subst e3
  sl_exec (disch := first | exact hF | exact hL)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  have hz : (![0, 0] : Fin 2 → Nat) = fun _ => 0 := by funext a; fin_cases a <;> rfl
  rw [View.read_writes_whole_last4 _ _ hz]
  sl_unfold_words
  simp only [View.readAt_eq_ld, View.ld_unit_zero (S := S2000x1) hz, View.ld_unit_zero (S := S3128x64) hz,
    View.ld_unit_zero (S := S2000x64) hz, View.readCov_unit_zero (S := S2000x64) _ hz]

end Cert.Kernel.Hand

end
-- ==== Proof.K.R4RunB.lean ====
/-
  Region 4, the body's run between the first and the last inner coordinate: neither conditional branch is taken. By
  symbolic execution of the skeleton over whole staging memrefs; the accumulator's one store is through the whole
  rectangle, so it reads that store's payload, and the loads read the buffers' contents.
-/
import proofs.«401039_j68436008894831_1_alg».proof.Proof.K.R4Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Between the first and the last inner coordinate neither branch is taken: the body reads the index block, the node
    block and the accumulator and stores the accumulator plus the selected rows; the inputs and the output buffer are
    left as found. -/
theorem run4_mid (c : Dev nD) (E : Set ℕ) (i : grid4.Coords) (a2 : Memref sig .tc .vmem S2000x1 .i32) (h2 : a2.IsWhole) (a3 : Memref sig .tc .vmem S2000x1 .f32) (h3 : a3.IsWhole) (a4 : Memref sig .tc .vmem S3128x64 .f32) (h4 : a4.IsWhole) (a5 : Memref sig .tc .vmem S2000x64 .f32) (h5 : a5.IsWhole) (a6 : Memref sig .tc .vmem S2000x64 .f32) (h6 : a6.IsWhole)
    (hF : ¬ atFirst4 i) (hL : ¬ atLast4 i)
    (x0 : Vec F S2000x1 .i32) (x1 : Vec F S2000x1 .f32) (x2 : Vec F S3128x64 .f32) (y : Vec F S2000x64 .f32) (s : Vec F S2000x64 .f32)
    (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare y ∗ owns (c : Thread nD τ) a6 fullShare s
        ∗ (iprop(owns (c : Thread nD τ) a2 fullShare x0 ∗ owns (c : Thread nD τ) a3 fullShare x1 ∗ owns (c : Thread nD τ) a4 fullShare x2
            ∗ owns (c : Thread nD τ) a5 fullShare y ∗ owns (c : Thread nD τ) a6 fullShare (k4_pay2 i x0 x2 s)) -∗ K ⟨⟩))
      ⊢ wp frame (wpE (defs₀ (F := F)) Variants.none c none) E (cc4__gather_kernel i a2 h2 a3 h3 a4 h4 a5 h5 a6 h6) K := by
  simp only [cc4__gather_kernel_eq_skeleton]; unfold cc4__gather_kernel_skel
  unfold owns
  iintro ⟨⟨%f0, %e0, H0⟩, ⟨%f1, %e1, H1⟩, ⟨%f2, %e2, H2⟩, ⟨%f3, %e3, H3⟩, ⟨%fs, %es, HS⟩, Hk⟩
  subst e0; subst e1; subst e2; subst e3; subst es
  sl_exec (disch := first | exact hF | exact hL)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  have hz : (![0, 0] : Fin 2 → Nat) = fun _ => 0 := by funext a; fin_cases a <;> rfl
  rw [View.read_writes_whole_last4 _ _ hz]
  simp only [View.readAt_eq_ld, View.ld_unit_zero (S := S2000x1) hz, View.ld_unit_zero (S := S3128x64) hz,
    View.ld_unit_zero (S := S2000x64) hz]

end Cert.Kernel.Hand

end
-- ==== Proof.K.R4RunC.lean ====
/-
  Region 4, the body's run at the last inner coordinate: the zeroing branch is not taken, the output branch is. By
  symbolic execution of the skeleton over whole staging memrefs. The accumulator's one store is through the whole
  rectangle, and the load after it reads its payload; the output buffer's one store is through the whole rectangle.
-/
import proofs.«401039_j68436008894831_1_alg».proof.Proof.K.R4Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the last inner coordinate the zeroing branch is not taken and the output branch is: after the accumulation the
    body reads the row scales and the new accumulator and stores their product over the output buffer, whatever it held;
    the inputs are left as found. -/
theorem run4_last (c : Dev nD) (E : Set ℕ) (i : grid4.Coords) (a2 : Memref sig .tc .vmem S2000x1 .i32) (h2 : a2.IsWhole) (a3 : Memref sig .tc .vmem S2000x1 .f32) (h3 : a3.IsWhole) (a4 : Memref sig .tc .vmem S3128x64 .f32) (h4 : a4.IsWhole) (a5 : Memref sig .tc .vmem S2000x64 .f32) (h5 : a5.IsWhole) (a6 : Memref sig .tc .vmem S2000x64 .f32) (h6 : a6.IsWhole)
    (hF : ¬ atFirst4 i) (hL : atLast4 i)
    (x0 : Vec F S2000x1 .i32) (x1 : Vec F S2000x1 .f32) (x2 : Vec F S3128x64 .f32) (s : Vec F S2000x64 .f32)
    (K : PUnit → sProp 𝕄) :
    iprop(owns (c : Thread nD τ) a2 fullShare x0 ∗ owns (c : Thread nD τ) a3 fullShare x1 ∗ owns (c : Thread nD τ) a4 fullShare x2
        ∗ (∃ d, owns (c : Thread nD τ) a5 fullShare d) ∗ owns (c : Thread nD τ) a6 fullShare s
        ∗ (iprop(owns (c : Thread nD τ) a2 fullShare x0 ∗ owns (c : Thread nD τ) a3 fullShare x1 ∗ owns (c : Thread nD τ) a4 fullShare x2
            ∗ owns (c : Thread nD τ) a5 fullShare (k4_pay3 x1 (k4_pay2 i x0 x2 s)) ∗ owns (c : Thread nD τ) a6 fullShare (k4_pay2 i x0 x2 s)) -∗ K ⟨⟩))
      ⊢ wp frame (wpE (defs₀ (F := F)) Variants.none c none) E (cc4__gather_kernel i a2 h2 a3 h3 a4 h4 a5 h5 a6 h6) K := by
  simp only [cc4__gather_kernel_eq_skeleton]; unfold cc4__gather_kernel_skel
  unfold owns
  iintro ⟨⟨%f0, %e0, H0⟩, ⟨%f1, %e1, H1⟩, ⟨%f2, %e2, H2⟩, ⟨%d, %f3, -, H3⟩, ⟨%fs, %es, HS⟩, Hk⟩
  subst e0; subst e1; subst e2; subst es
  have hz : (![0, 0] : Fin 2 → Nat) = fun _ => 0 := by funext a; fin_cases a <;> rfl
  sl_exec (disch := first | exact hF | exact hL)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [View.read_writes_whole_last4 _ _ hz]
    simp only [View.readAt_eq_ld, View.ld_unit_zero (S := S2000x1) hz, View.ld_unit_zero (S := S3128x64) hz,
      View.ld_unit_zero (S := S2000x64) hz, View.readCov_unit_zero (S := S2000x64) _ hz]
  iexists _; isplitr
  swap; · iexact HS
  ipureintro
  sl_unfold_words
  rw [View.read_writes_whole_last4 _ _ hz]
  simp only [View.readAt_eq_ld, View.ld_unit_zero (S := S2000x1) hz, View.ld_unit_zero (S := S3128x64) hz,
    View.ld_unit_zero (S := S2000x64) hz, View.readCov_unit_zero (S := S2000x64) _ hz]

end Cert.Kernel.Hand

end
-- ==== Proof.K.R4.lean ====
/-
  Region 4 of the idealized kernel's @main: what the accumulator and the output block hold after each grid point,
  the proof data of the pipeline, and its body obligation.

  The accumulator after point n is the update (add the selected rows of the point's node block) applied to zeros
  when n is at the first inner coordinate, and to the accumulator after point n - 1 otherwise. The output block is
  the row-scaled accumulator; the body stores it at the last inner coordinate only, and elsewhere the output window
  is idle and its buffer is handed back as found. The region invariant carries the accumulator: at some contents
  before the first point, at its value after the point before at every later one. Each point is one of three control
  cases, and in each the run of that case supplies the body's triple.
  Stated for any float family and any region-entry contents V.
-/
import proofs.«401039_j68436008894831_1_alg».proof.Proof.K.R4RunA
import proofs.«401039_j68436008894831_1_alg».proof.Proof.K.R4RunB
import proofs.«401039_j68436008894831_1_alg».proof.Proof.K.R4RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The accumulation -/

/-- The accumulator after the body at position `n`: the update of the point's index block and node block, over zeros
    at the first inner coordinate, over the accumulator after position `n - 1` elsewhere. -/
def acc4 (c : Dev nD) : (n : ℕ) → n < cfg4.N → Vec F S2000x64 .f32
  | 0, hn => k4_pay2 (grid4.coords ⟨0, hn⟩) (iblk4 V c 0 ⟨0, hn⟩) (iblk4 V c 2 ⟨0, hn⟩) (k4_pay1 (F := F))
  | n + 1, hn => k4_pay2 (grid4.coords ⟨n + 1, hn⟩) (iblk4 V c 0 ⟨n + 1, hn⟩) (iblk4 V c 2 ⟨n + 1, hn⟩)
      (if (n + 1) % 16 = 0 then k4_pay1 (F := F) else acc4 c n (Nat.lt_of_succ_lt hn))

/-- After position `n`: the output block the body would store (the accumulator scaled by the point's row scales), and
    the accumulator. The first component is what the output window's buffer holds at the points where the window is
    live, the last inner coordinate; at the others nothing reads it. -/
def outsAt4 (c : Dev nD) : (n : ℕ) → n < cfg4.N → Vec F S2000x64 .f32 × Vec F S2000x64 .f32 :=
  fun n hn => (k4_pay3 (iblk4 V c 1 ⟨n, hn⟩) (acc4 V c n hn), acc4 V c n hn)

/-- At the first inner coordinate the accumulator restarts from zeros. -/
theorem acc4_first (c : Dev nD) (t : Fin cfg4.N) (h : t.val % 16 = 0) :
    acc4 V c t.val t.isLt = k4_pay2 (grid4.coords t) (iblk4 V c 0 t) (iblk4 V c 2 t) (k4_pay1 (F := F)) := by
  obtain ⟨n, hn⟩ := t
  cases n with
  | zero => rfl
  | succ n =>
    show acc4 V c (n + 1) hn = _
    rw [acc4, if_pos h]

/-- Elsewhere it continues from the point before. -/
theorem acc4_next (c : Dev nD) (t : Fin cfg4.N) (h : ¬ t.val % 16 = 0) :
    acc4 V c t.val t.isLt = k4_pay2 (grid4.coords t) (iblk4 V c 0 t) (iblk4 V c 2 t)
      (acc4 V c (t.val - 1) (Nat.lt_of_le_of_lt (Nat.sub_le _ _) t.isLt)) := by
  obtain ⟨n, hn⟩ := t
  cases n with
  | zero => exact absurd (Nat.zero_mod 16) h
  | succ n =>
    show acc4 V c (n + 1) hn = _
    rw [acc4, if_neg h]
    rfl

theorem acc4_reset (c : Dev nD) (t : Fin cfg4.N) (h : t.val % 16 = 0) :
    (outsAt4 V c t.val t.isLt).2 = k4_pay2 (grid4.coords t) (iblk4 V c 0 t) (iblk4 V c 2 t) (k4_pay1 (F := F)) :=
  acc4_first V c t h

theorem acc4_step (c : Dev nD) (t : Fin cfg4.N) (h : ¬ t.val % 16 = 0) :
    (outsAt4 V c t.val t.isLt).2 = k4_pay2 (grid4.coords t) (iblk4 V c 0 t) (iblk4 V c 2 t)
      (outsAt4 V c (t.val - 1) (Nat.lt_of_le_of_lt (Nat.sub_le _ _) t.isLt)).2 :=
  acc4_next V c t h

/-- The output block is the scaled accumulator (at every point; the kernel stores it at the last inner coordinate). -/
theorem out4_last (c : Dev nD) (t : Fin cfg4.N) (h : t.val % 16 = 15) :
    (outsAt4 V c t.val t.isLt).1 = k4_pay3 (iblk4 V c 1 t) (outsAt4 V c t.val t.isLt).2 := rfl

/-! ## The region invariant -/

/-- What the invariant says of the accumulator before position `n`: anything before the first point, then what the
    point before left. -/
def carried4 (c : Dev nD) : (n : ℕ) → n ≤ cfg4.N → sProp 𝕄
  | 0, _ => iprop(∃ d, owns (c : Thread nD τ) scM4 fullShare d)
  | n + 1, hn => owns (c : Thread nD τ) scM4 fullShare (acc4 V c n hn)

/-- The invariant before position `n`: the accumulator as `carried4` says, every other scoped buffer that is no staging
    buffer of this call unopened, the generator register at some state. -/
def PhiS4 (c : Dev nD) (n : ℕ) (hn : n ≤ cfg4.N) : sProp 𝕄 :=
  iprop(iprop(carried4 V c n hn ∗ Pipeline.scopedRestBut (Ix := Unit) (Name := ℕ) (U := UR sig nD τ) (Lvl := ℕ) (Val := Elt F) spec4 c [cc4_scratch0]) ∗ (∃ r, prngReg c r))

/-- Whatever the invariant says of it, the accumulator is owned at some contents. -/
theorem carried4_any (c : Dev nD) (n : ℕ) (hn : n ≤ cfg4.N) :
    carried4 V c n hn ⊢ (iprop(∃ d, owns (c : Thread nD τ) scM4 fullShare d) : sProp 𝕄) := by
  cases n with
  | zero => exact Idealize.SL.BI.Entails.refl _
  | succ n =>
    show owns (c : Thread nD τ) scM4 fullShare (acc4 V c n hn) ⊢ _
    iintro H; iexists _; iexact H

theorem carried4_pos (c : Dev nD) (n : ℕ) (hn : n ≤ cfg4.N) (hz : n ≠ 0) :
    carried4 V c n hn = owns (c : Thread nD τ) scM4 fullShare (acc4 V c (n - 1) (by omega)) := by
  cases n with
  | zero => exact absurd rfl hz
  | succ n => rfl

/-- Before the first point the invariant is the class's. -/
theorem PhiS4_zero (c : Dev nD) (h : 0 ≤ cfg4.N) : PhiS4 V c 0 h = Pipeline.ΦA spec4 c := by
  rw [PhiA4_eq]; rfl

/-- At every position it gives the class's back: the accumulator's named contents are forgotten. -/
theorem PhiS4_forget (c : Dev nD) (n : ℕ) (hn : n ≤ cfg4.N) : PhiS4 V c n hn ⊢ Pipeline.ΦA spec4 c := by
  rw [PhiA4_eq]; unfold PhiS4
  iintro ⟨⟨HS, HR⟩, Hg⟩
  isplitr [Hg]
  · isplitl [HS]
    · iapply (carried4_any V c n hn); iexact HS
    iexact HR
  iexact Hg

/-! ## The proof data -/

/-- The proof data of pipeline 4 on core `c`: the arrays as the region finds them; after the body each input's buffer
    at its block and the output's at the scaled accumulator; the invariant carrying the accumulator; nothing owed; full
    shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- The invariant at a point's start and at its end. -/
theorem Phi4_start (c : Dev nD) (t : Fin cfg4.N) :
    (dat4 V c).Φ t.castSucc = iprop(iprop(carried4 V c t.val (Nat.le_of_lt t.isLt) ∗ Pipeline.scopedRestBut (Ix := Unit) (Name := ℕ) (U := UR sig nD τ) (Lvl := ℕ) (Val := Elt F) spec4 c [cc4_scratch0]) ∗ (∃ r, prngReg c r)) := rfl
theorem Phi4_end (c : Dev nD) (t : Fin cfg4.N) :
    (dat4 V c).Φ t.succ = iprop(iprop(owns (c : Thread nD τ) scM4 fullShare (acc4 V c t.val t.isLt) ∗ Pipeline.scopedRestBut (Ix := Unit) (Name := ℕ) (U := UR sig nD τ) (Lvl := ℕ) (Val := Elt F) spec4 c [cc4_scratch0]) ∗ (∃ r, prngReg c r)) := rfl

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ (dat4 V c).leavesExact 3 t)

set_option maxHeartbeats 4000000 in
/-- The body at any point. The inputs' buffers hold their blocks; the point's inner coordinate selects the case. At
    the first inner coordinate the accumulator may hold anything and is left at the update of zeros; elsewhere it
    holds what the point before left and is left at its update. Off the last inner coordinate the output buffer is
    handed back as found (the window is idle there and not written back); at the last it is left at the scaled
    accumulator. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl,
    after4_0, after4_1, after4_2, Phi4_start, Phi4_end]
  by_cases h0 : t.val % 16 = 0
  · have h15 : ¬ t.val % 16 = 15 := by omega
    rw [Dat.leavesExact_idle (dat4 V c) 3 t (idle4_3 t h15) (keep4_3 t h15), acc4_first V c t h0]
    iintro ⟨⟨⟨HS, HR⟩, Hg⟩, Ho, ⟨%d0, H0⟩, ⟨%d1, H1⟩, ⟨%d2, H2⟩, ⟨%d3, H3⟩⟩
    iapply (run4_first c Set.univ (grid4.coords t) _ _ _ _ _ _ _ _ _ _ ((atFirst4_iff t).mpr h0) (fun h => h15 ((atLast4_iff t).mp h))
      (iblk4 V c 0 t) (iblk4 V c 1 t) (iblk4 V c 2 t) ((dat4 V c).before 3 t d3) _)
    isplitl [H0]; · iexact H0
    isplitl [H1]; · iexact H1
    isplitl [H2]; · iexact H2
    isplitl [H3]; · iexact H3
    isplitl [HS]; · iapply (carried4_any V c t.val _); iexact HS
    iintro ⟨H0, H1, H2, H3, HS⟩
    isplitl [HS HR Hg]
    · isplitr [Hg]
      · isplitl [HS]; · iexact HS
        iexact HR
      iexact Hg
    isplitl [Ho]; · iexact Ho
    isplitl [H0]; · iexact H0
    isplitl [H1]; · iexact H1
    isplitl [H2]; · iexact H2
    iexists d3; iexact H3
  · have hz : t.val ≠ 0 := fun e => h0 (by rw [e])
    rw [carried4_pos V c t.val _ hz, acc4_next V c t h0]
    by_cases h15 : t.val % 16 = 15
    · rw [show (dat4 V c).leavesExact 3 t = owns (c : Thread nD τ) (st4_3 t) fullShare ((dat4 V c).after 3 t) from by
        unfold Dat.leavesExact; rw [live4_3 t h15], after4_3]
      rw [show (outsAt4 V c t.val t.isLt).1 = k4_pay3 (iblk4 V c 1 t) (acc4 V c t.val t.isLt) from rfl, acc4_next V c t h0]
      iintro ⟨⟨⟨HS, HR⟩, Hg⟩, Ho, ⟨%d0, H0⟩, ⟨%d1, H1⟩, ⟨%d2, H2⟩, ⟨%d3, H3⟩⟩
      iapply (run4_last c Set.univ (grid4.coords t) _ _ _ _ _ _ _ _ _ _ (fun h => h0 ((atFirst4_iff t).mp h)) ((atLast4_iff t).mpr h15)
        (iblk4 V c 0 t) (iblk4 V c 1 t) (iblk4 V c 2 t) (acc4 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitr [Hg]
        · isplitl [HS]; · iexact HS
          iexact HR
        iexact Hg
      isplitl [Ho]; · iexact Ho
      isplitl [H0]; · iexact H0
      isplitl [H1]; · iexact H1
      isplitl [H2]; · iexact H2
      iexact H3
    · rw [Dat.leavesExact_idle (dat4 V c) 3 t (idle4_3 t h15) (keep4_3 t h15)]
      iintro ⟨⟨⟨HS, HR⟩, Hg⟩, Ho, ⟨%d0, H0⟩, ⟨%d1, H1⟩, ⟨%d2, H2⟩, ⟨%d3, H3⟩⟩
      iapply (run4_mid c Set.univ (grid4.coords t) _ _ _ _ _ _ _ _ _ _ (fun h => h0 ((atFirst4_iff t).mp h)) (fun h => h15 ((atLast4_iff t).mp h))
        (iblk4 V c 0 t) (iblk4 V c 1 t) (iblk4 V c 2 t) ((dat4 V c).before 3 t d3)
        (acc4 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitr [Hg]
        · isplitl [HS]; · iexact HS
          iexact HR
        iexact Hg
      isplitl [Ho]; · iexact Ho
      isplitl [H0]; · iexact H0
      isplitl [H1]; · iexact H1
      isplitl [H2]; · iexact H2
      iexists d3; iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero]

/-- After the last point the invariant gives the class's back. -/
theorem hout4 (c : Dev nD) : (dat4 V c).Φ (Fin.last cfg4.N) ⊢ Pipeline.ΦA spec4 c :=
  PhiS4_forget V c _ _

end

end Cert.Kernel.Hand

end
-- ==== Proof.K.R5Runs.lean ====
/-
  Region 5 of the idealized kernel's @main, what its three control cases share. The region is the scatter-add of the
  edge messages into the node rows: a grid of 16 node tiles by 425 edge tiles, the edge tile the inner (fastest) axis.
  At a grid point the body adds to a 3128×64 accumulator the product of a one-hot 3128×2000 matrix (row r, column e
  set when edge e of the tile points at node r of the node tile) with the tile's 2000×64 messages; the accumulator is
  zeroed first when the edge tile is the first (inner coordinate 0), and when it is the last (inner coordinate 424) the
  output block is stored as tanh (accumulator + bias). Here: the two conditions in closed form, where the output window
  is idle, the memrefs the body is called on, the entry invariant split at the accumulator, and the input blocks.
-/
import proofs.«401039_j68436008894831_1_alg».proof.Proof.Gen.Kernel.Launch
import proofs.«401039_j68436008894831_1_alg».proof.Proof.Gen.Kernel.Skeleton
import proofs.«401039_j68436008894831_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«401039_j68436008894831_1_alg».proof.Proof.K.WholeStore

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The inner coordinate and the two conditions -/

/-- The inner coordinate of the `t`-th grid point is `t mod 425`: the inner axis is the fastest. -/
theorem inner5 (t : Fin cfg5.N) : ((grid5.coords t) 1).val = t.val % 425 := by
  show t.val / grid5.stride 1 % 425 = t.val % 425
  rw [show grid5.stride 1 = 1 from by decide, Nat.div_one]

/-- The body zeroes the accumulator: the inner coordinate, as a 32-bit word, equals 0 (the kernel's own scalar chain). -/
abbrev zeroes5 (i : grid5.Coords) : Prop :=
  (Scalar.cmpi .ne (Scalar.extui (Scalar.cmpi .eq (BitVec.ofNat 32 (i 1).val) 0#32)) 0#32) = 1#1
/-- The body stores the output block: the inner coordinate, as a 32-bit word, equals 424. -/
abbrev emits5 (i : grid5.Coords) : Prop := k5_cond2 i = 1#1

/-- Over the 425 values of the inner coordinate: the first condition holds at 0 only, the second at 424 only. -/
theorem conds5_inner : ∀ j : Fin 425,
    (((Scalar.cmpi .ne (Scalar.extui (Scalar.cmpi .eq (BitVec.ofNat 32 j.val) 0#32)) 0#32) = 1#1) ↔ j.val = 0)
    ∧ (((Scalar.cmpi .ne (Scalar.extui (Scalar.cmpi .eq (BitVec.ofNat 32 j.val) 424#32)) 0#32) = 1#1) ↔ j.val = 424) := by
  decide +kernel

theorem zeroes5_iff (i : grid5.Coords) : zeroes5 i ↔ (i 1).val = 0 := (conds5_inner (i 1)).1
theorem emits5_iff (i : grid5.Coords) : emits5 i ↔ (i 1).val = 424 := (conds5_inner (i 1)).2

/-- At the `t`-th point the accumulator is zeroed iff `t ≡ 0 (mod 425)`, -/
theorem zeroes5_at (t : Fin cfg5.N) : zeroes5 (grid5.coords t) ↔ t.val % 425 = 0 := by
  rw [zeroes5_iff, inner5]
/-- and the output block is stored iff `t ≡ 424 (mod 425)`. -/
theorem emits5_at (t : Fin cfg5.N) : emits5 (grid5.coords t) ↔ t.val % 425 = 424 := by
  rw [emits5_iff, inner5]

/-! ## Where the output window is idle -/

/-- The output window is idle exactly where the body does not store it. -/
theorem idle5_out (i : grid5.Coords) : cfg5.idle 3 i = true ↔ ¬emits5 i := by
  show (!(k5_cond2 i == 1#1)) = true ↔ ¬(k5_cond2 i = 1#1)
  simp only [Bool.not_eq_true', beq_eq_false_iff_ne, ne_eq]

theorem idle5_out_of (t : Fin cfg5.N) (h : ¬t.val % 425 = 424) : cfg5.idle 3 (grid5.coords t) = true :=
  (idle5_out _).mpr fun e => h ((emits5_at t).mp e)
theorem live5_out_of (t : Fin cfg5.N) (h : t.val % 425 = 424) : cfg5.idle 3 (grid5.coords t) = false := by
  cases e : cfg5.idle 3 (grid5.coords t)
  · rfl
  · exact absurd ((emits5_at t).mpr h) ((idle5_out _).mp e)
/-- Off the last edge tile the pipeline does not write the output block back. -/
theorem noFlush5_out_of (t : Fin cfg5.N) (h : ¬t.val % 425 = 424) : (cfg5.win 3).flush t = false := by
  cases e : (cfg5.win 3).flush t
  · rfl
  · exact absurd ((flush5_3 t).mp e) h

/-! ## The memrefs the body is called on -/

abbrev ms5_0 (t : Fin cfg5.N) : Memref sig .tc .vmem S2000x1 .i32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S2000x64 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S64 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S3128x64 .f32 := win5_3.stage (cfg5.slots t 3)
abbrev hs5_3 (t : Fin cfg5.N) : (ms5_3 t).IsWhole := hstage5_3 ((cfg5.slots t 3).cast nbuf5_3)
/-- The accumulator: a whole scoped buffer of the kernel's own, carried from point to point. -/
abbrev scM5 : Memref sig .tc .vmem S3128x64 .f32 := Memref.whole cc5_scratch0

/-- The entry invariant with the accumulator taken out of the scoped rest, owned at some contents. -/
theorem PhiA5_eq (c : Dev nD) :
    (Pipeline.ΦA spec5 c : sProp 𝕄)
      = iprop(iprop(iprop((∃ d, owns (c : Thread nD τ) scM5 fullShare d)) ∗ Pipeline.scopedRestBut spec5 c [cc5_scratch0]) ∗ (∃ r, prngReg c r)) := by
  unfold Pipeline.ΦA; rw [scopedRest5_split]; simp only [scM5, owns_whole]; try rfl

section
variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window the body only reads holds its block at every point, whether the pipeline fetched it there or the
    block index stood still (the bias is fetched once): for any proof data over the entry contents that leave it so. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

end

end Cert.Kernel.Hand

end
-- ==== Proof.K.R5RunA.lean ====
/-
  Region 5, the body at a grid point whose edge tile is the first of its node tile (and not the last): the accumulator
  is zeroed, then the point's one-hot product is added to it; the output block is left alone.
-/
import proofs.«401039_j68436008894831_1_alg».proof.Proof.K.R5Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where the edge tile is the first and not the last: the three inputs are read and kept, the output block is
    not touched, and the accumulator, whatever it held, is left at the point's one-hot product added to zero. -/
theorem body5_first (c : Dev nD) (E : Set ℕ) (i : grid5.Coords)
    (arg2 : Memref sig .tc .vmem S2000x1 .i32) (harg2 : arg2.IsWhole) (arg3 : Memref sig .tc .vmem S2000x64 .f32) (harg3 : arg3.IsWhole)
    (arg4 : Memref sig .tc .vmem S64 .f32) (harg4 : arg4.IsWhole) (arg5 : Memref sig .tc .vmem S3128x64 .f32) (harg5 : arg5.IsWhole)
    (arg6 : Memref sig .tc .vmem S3128x64 .f32) (harg6 : arg6.IsWhole) (hz : zeroes5 i) (he : ¬emits5 i)
    (x0 : Vec F S2000x1 .i32) (x1 : Vec F S2000x64 .f32) (x2 : Vec F S64 .f32) (xo : Vec F S3128x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ (∃ d, owns (c : Thread nD τ) arg6 fullShare d)
        ∗ (iprop(owns (c : Thread nD τ) arg2 fullShare x0 ∗ owns (c : Thread nD τ) arg3 fullShare x1 ∗ owns (c : Thread nD τ) arg4 fullShare x2
              ∗ owns (c : Thread nD τ) arg5 fullShare xo
              ∗ owns (c : Thread nD τ) arg6 fullShare (k5_pay2 i x0 x1 (k5_pay1 (F := F)))) -∗ K ⟨⟩))
      ⊢ wp frame (wpE (defs₀ (F := F)) Variants.none c none) E (cc5__scatter_kernel i arg2 harg2 arg3 harg3 arg4 harg4 arg5 harg5 arg6 harg6) K := by
  simp only [cc5__scatter_kernel_eq_skeleton]; unfold cc5__scatter_kernel_skel
  unfold owns
  iintro ⟨⟨%f0, %hf0, H0⟩, ⟨%f1, %hf1, H1⟩, ⟨%f2, %hf2, H2⟩, ⟨%f3, %hf3, H3⟩, ⟨%d6, %f6, -, H6⟩, Hk⟩
  subst hf0; subst hf1; subst hf2; subst hf3
  sl_exec (disch := first | exact hz | exact he)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H6
  ·
    ipureintro
    sl_unfold_words
    rw [read_after_whole_store _ _ origin2]
    simp only [View.readAt_eq_ld, View.ld_unit_zero (S := S2000x1) origin2, View.ld_unit_zero (S := S2000x64) origin2,
      View.ld_unit_zero (S := S3128x64) origin2, View.ld_unit_zero (S := S64) origin1, View.readCov_unit_zero (S := S3128x64) _ origin2]

end Cert.Kernel.Hand

end
-- ==== Proof.K.R5RunB.lean ====
/-
  Region 5, the body at a grid point whose edge tile is neither the first nor the last of its node tile: the point's
  one-hot product is added to the accumulator; the output block is left alone.
-/
import proofs.«401039_j68436008894831_1_alg».proof.Proof.K.R5Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where the edge tile is neither the first nor the last: the three inputs are read and kept, the output block is
    not touched, and the accumulator is left at what it held plus the point's one-hot product. -/
theorem body5_mid (c : Dev nD) (E : Set ℕ) (i : grid5.Coords)
    (arg2 : Memref sig .tc .vmem S2000x1 .i32) (harg2 : arg2.IsWhole) (arg3 : Memref sig .tc .vmem S2000x64 .f32) (harg3 : arg3.IsWhole)
    (arg4 : Memref sig .tc .vmem S64 .f32) (harg4 : arg4.IsWhole) (arg5 : Memref sig .tc .vmem S3128x64 .f32) (harg5 : arg5.IsWhole)
    (arg6 : Memref sig .tc .vmem S3128x64 .f32) (harg6 : arg6.IsWhole) (hz : ¬zeroes5 i) (he : ¬emits5 i)
    (x0 : Vec F S2000x1 .i32) (x1 : Vec F S2000x64 .f32) (x2 : Vec F S64 .f32) (xo : Vec F S3128x64 .f32) (s : Vec F S3128x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare s
        ∗ (iprop(owns (c : Thread nD τ) arg2 fullShare x0 ∗ owns (c : Thread nD τ) arg3 fullShare x1 ∗ owns (c : Thread nD τ) arg4 fullShare x2
              ∗ owns (c : Thread nD τ) arg5 fullShare xo
              ∗ owns (c : Thread nD τ) arg6 fullShare (k5_pay2 i x0 x1 s)) -∗ K ⟨⟩))
      ⊢ wp frame (wpE (defs₀ (F := F)) Variants.none c none) E (cc5__scatter_kernel i arg2 harg2 arg3 harg3 arg4 harg4 arg5 harg5 arg6 harg6) K := by
  simp only [cc5__scatter_kernel_eq_skeleton]; unfold cc5__scatter_kernel_skel
  unfold owns
  iintro ⟨⟨%f0, %hf0, H0⟩, ⟨%f1, %hf1, H1⟩, ⟨%f2, %hf2, H2⟩, ⟨%f3, %hf3, H3⟩, ⟨%f6, %hf6, H6⟩, Hk⟩
  subst hf0; subst hf1; subst hf2; subst hf3; subst hf6
  sl_exec (disch := first | exact hz | exact he)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H6
  ·
    ipureintro
    sl_unfold_words
    rw [read_after_whole_store _ _ origin2]
    simp only [View.readAt_eq_ld, View.ld_unit_zero (S := S2000x1) origin2, View.ld_unit_zero (S := S2000x64) origin2,
      View.ld_unit_zero (S := S3128x64) origin2, View.ld_unit_zero (S := S64) origin1, View.readCov_unit_zero (S := S3128x64) _ origin2]

end Cert.Kernel.Hand

end
-- ==== Proof.K.R5RunC.lean ====
/-
  Region 5, the body at a grid point whose edge tile is the last of its node tile (and not the first): the point's
  one-hot product is added to the accumulator, and the output block is stored from the sum and the bias row.
-/
import proofs.«401039_j68436008894831_1_alg».proof.Proof.K.R5Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where the edge tile is the last and not the first: the three inputs are read and kept, the accumulator is left
    at what it held plus the point's one-hot product, and the output block, whatever it held, at the tanh of that sum
    plus the bias row. -/
theorem body5_last (c : Dev nD) (E : Set ℕ) (i : grid5.Coords)
    (arg2 : Memref sig .tc .vmem S2000x1 .i32) (harg2 : arg2.IsWhole) (arg3 : Memref sig .tc .vmem S2000x64 .f32) (harg3 : arg3.IsWhole)
    (arg4 : Memref sig .tc .vmem S64 .f32) (harg4 : arg4.IsWhole) (arg5 : Memref sig .tc .vmem S3128x64 .f32) (harg5 : arg5.IsWhole)
    (arg6 : Memref sig .tc .vmem S3128x64 .f32) (harg6 : arg6.IsWhole) (hz : ¬zeroes5 i) (he : emits5 i)
    (x0 : Vec F S2000x1 .i32) (x1 : Vec F S2000x64 .f32) (x2 : Vec F S64 .f32) (s : Vec F S3128x64 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare s
        ∗ (iprop(owns (c : Thread nD τ) arg2 fullShare x0 ∗ owns (c : Thread nD τ) arg3 fullShare x1 ∗ owns (c : Thread nD τ) arg4 fullShare x2
              ∗ owns (c : Thread nD τ) arg5 fullShare (k5_pay3 (k5_pay2 i x0 x1 s) x2)
              ∗ owns (c : Thread nD τ) arg6 fullShare (k5_pay2 i x0 x1 s)) -∗ K ⟨⟩))
      ⊢ wp frame (wpE (defs₀ (F := F)) Variants.none c none) E (cc5__scatter_kernel i arg2 harg2 arg3 harg3 arg4 harg4 arg5 harg5 arg6 harg6) K := by
  simp only [cc5__scatter_kernel_eq_skeleton]; unfold cc5__scatter_kernel_skel
  unfold owns
  iintro ⟨⟨%f0, %hf0, H0⟩, ⟨%f1, %hf1, H1⟩, ⟨%f2, %hf2, H2⟩, ⟨%d3, %f3, -, H3⟩, ⟨%f6, %hf6, H6⟩, Hk⟩
  subst hf0; subst hf1; subst hf2; subst hf6
  sl_exec (disch := first | exact hz | exact he)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ·
      ipureintro
      sl_unfold_words
      rw [read_after_whole_store _ _ origin2]
      simp only [View.readAt_eq_ld, View.ld_unit_zero (S := S2000x1) origin2, View.ld_unit_zero (S := S2000x64) origin2,
      View.ld_unit_zero (S := S3128x64) origin2, View.ld_unit_zero (S := S64) origin1, View.readCov_unit_zero (S := S3128x64) _ origin2]
  iexists _; isplitr
  swap; · iexact H6
  ·
    ipureintro
    sl_unfold_words
    rw [read_after_whole_store _ _ origin2]
    simp only [View.readAt_eq_ld, View.ld_unit_zero (S := S2000x1) origin2, View.ld_unit_zero (S := S2000x64) origin2,
      View.ld_unit_zero (S := S3128x64) origin2, View.ld_unit_zero (S := S64) origin1, View.readCov_unit_zero (S := S3128x64) _ origin2]

end Cert.Kernel.Hand

end
-- ==== Proof.K.R5.lean ====
/-
  Region 5 of the idealized kernel's @main, the frame half: what the accumulator holds after each grid point, as a
  recursion over the body's own arithmetic (zero, or the point before, plus the point's one-hot product), the block the
  last edge tile of a node tile stores (tanh of the accumulator plus the bias row), the invariant that carries the
  accumulator from point to point, the pipeline's proof data over any region-entry contents `V`, and the body obligation
  by cases on the inner coordinate (first / middle / last edge tile).
-/
import proofs.«401039_j68436008894831_1_alg».proof.Proof.K.R5RunA
import proofs.«401039_j68436008894831_1_alg».proof.Proof.K.R5RunB
import proofs.«401039_j68436008894831_1_alg».proof.Proof.K.R5RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What the accumulator and the output block hold after each point -/

/-- THE ACCUMULATION. The accumulator after the body at position `n`: the point's one-hot product (of its edge-index block
    and its message block) added to zero where the edge tile is the first of its node tile (`n ≡ 0 (mod 425)`), and to
    what the point before left elsewhere. -/
def acc5 (c : Dev nD) : (n : ℕ) → n < cfg5.N → Vec F S3128x64 .f32
  | 0, hn => k5_pay2 (grid5.coords ⟨0, hn⟩) (iblk5 V c 0 ⟨0, hn⟩) (iblk5 V c 1 ⟨0, hn⟩) (k5_pay1 (F := F))
  | n + 1, hn => k5_pay2 (grid5.coords ⟨n + 1, hn⟩) (iblk5 V c 0 ⟨n + 1, hn⟩) (iblk5 V c 1 ⟨n + 1, hn⟩)
      (if (n + 1) % 425 = 0 then k5_pay1 (F := F) else acc5 c n (Nat.lt_of_succ_lt hn))

/-- After position `n`: the block the body stores into the output window where the edge tile is the last — tanh of the
    accumulator plus the bias row; at the other points a value nothing reads, the window being idle there — and the
    accumulator. -/
def outsAt5 (c : Dev nD) : (n : ℕ) → n < cfg5.N → Vec F S3128x64 .f32 × Vec F S3128x64 .f32 :=
  fun n hn => (k5_pay3 (acc5 V c n hn) (iblk5 V c 2 ⟨n, hn⟩), acc5 V c n hn)

/-- At a first edge tile the accumulator restarts from zero. -/
theorem acc5_at_first (c : Dev nD) (t : Fin cfg5.N) (h : t.val % 425 = 0) :
    acc5 V c t.val t.isLt = k5_pay2 (grid5.coords t) (iblk5 V c 0 t) (iblk5 V c 1 t) (k5_pay1 (F := F)) := by
  obtain ⟨n, hn⟩ := t
  cases n with
  | zero => rfl
  | succ n =>
    have h' : (n + 1) % 425 = 0 := h
    exact congrArg (k5_pay2 _ _ _) (if_pos h')

/-- At any other edge tile it continues from the point before. -/
theorem acc5_at_next (c : Dev nD) (t : Fin cfg5.N) (h : ¬t.val % 425 = 0) :
    acc5 V c t.val t.isLt = k5_pay2 (grid5.coords t) (iblk5 V c 0 t) (iblk5 V c 1 t)
      (acc5 V c (t.val - 1) (Nat.lt_of_le_of_lt (Nat.sub_le _ _) t.isLt)) := by
  obtain ⟨n, hn⟩ := t
  cases n with
  | zero => exact absurd (Nat.zero_mod _) h
  | succ n =>
    have h' : ¬(n + 1) % 425 = 0 := h
    exact congrArg (k5_pay2 _ _ _) (if_neg h')

theorem acc5_reset (c : Dev nD) (t : Fin cfg5.N) (h : t.val % 425 = 0) :
    (outsAt5 V c t.val t.isLt).2 = k5_pay2 (grid5.coords t) (iblk5 V c 0 t) (iblk5 V c 1 t) (k5_pay1 (F := F)) :=
  acc5_at_first V c t h
theorem acc5_step (c : Dev nD) (t : Fin cfg5.N) (h : ¬ t.val % 425 = 0) :
    (outsAt5 V c t.val t.isLt).2 = k5_pay2 (grid5.coords t) (iblk5 V c 0 t) (iblk5 V c 1 t)
      (outsAt5 V c (t.val - 1) (Nat.lt_of_le_of_lt (Nat.sub_le _ _) t.isLt)).2 :=
  acc5_at_next V c t h
theorem out5_last (c : Dev nD) (t : Fin cfg5.N) (h : t.val % 425 = 424) :
    (outsAt5 V c t.val t.isLt).1 = k5_pay3 (outsAt5 V c t.val t.isLt).2 (iblk5 V c 2 t) := rfl
/-- The output component, over the accumulator. -/
theorem out5_eq (c : Dev nD) (t : Fin cfg5.N) :
    (outsAt5 V c t.val t.isLt).1 = k5_pay3 (acc5 V c t.val t.isLt) (iblk5 V c 2 t) := rfl

/-! ## The invariant from point to point -/

/-- Before position `n`: at the region's entry the class's invariant (the accumulator at anything); after a point, the
    accumulator at what that point left, the other scoped buffers unopened, the generator register at some state. -/
def PhiS5 (c : Dev nD) : (n : ℕ) → n ≤ cfg5.N → sProp 𝕄
  | 0, _ => Pipeline.ΦA spec5 c
  | n + 1, hn => iprop(iprop(owns (c : Thread nD τ) scM5 fullShare (acc5 V c n hn) ∗ Pipeline.scopedRestBut spec5 c [cc5_scratch0]) ∗ (∃ r, prngReg c r))

theorem PhiS5_after (c : Dev nD) (n : ℕ) (hn : n < cfg5.N) :
    PhiS5 V c (n + 1) hn = iprop(iprop(owns (c : Thread nD τ) scM5 fullShare (acc5 V c n hn) ∗ Pipeline.scopedRestBut spec5 c [cc5_scratch0]) ∗ (∃ r, prngReg c r)) := rfl

theorem PhiS5_later (c : Dev nD) (n : ℕ) (h : n ≤ cfg5.N) (hz : n ≠ 0) :
    PhiS5 V c n h = iprop(iprop(owns (c : Thread nD τ) scM5 fullShare (acc5 V c (n - 1) (by omega)) ∗ Pipeline.scopedRestBut spec5 c [cc5_scratch0]) ∗ (∃ r, prngReg c r)) := by
  cases n with
  | zero => exact absurd rfl hz
  | succ n => rfl

/-- At every position the invariant gives the accumulator at SOME contents: what the zeroing case and the region's exit ask. -/
theorem PhiS5_any (c : Dev nD) (n : ℕ) (h : n ≤ cfg5.N) :
    PhiS5 V c n h ⊢ iprop(iprop(iprop((∃ d, owns (c : Thread nD τ) scM5 fullShare d)) ∗ Pipeline.scopedRestBut spec5 c [cc5_scratch0]) ∗ (∃ r, prngReg c r)) := by
  cases n with
  | zero =>
    rw [show PhiS5 V c 0 h = Pipeline.ΦA spec5 c from rfl, PhiA5_eq]
    try exact Idealize.SL.BI.Entails.refl _
  | succ n =>
    rw [PhiS5_after]
    iintro ⟨⟨HS, HR⟩, Hg⟩
    isplitl [HS HR]
    · isplitl [HS]
      · iexists _; iexact HS
      · iexact HR
    · iexact Hg

/-! ## The proof data -/

/-- The proof data of pipeline 5 on core `c`: the arrays as the region finds them; after the body each input window at
    its block, the output window at `outsAt5`'s first component; the invariant `PhiS5`; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = (outsAt5 V c t.val t.isLt).1 := by dsimp only [dat5]

theorem Phi5_eq (c : Dev nD) (t : Fin (cfg5.N + 1)) : (dat5 V c).Φ t = PhiS5 V c t.val (Nat.le_of_lt_succ t.isLt) := rfl
theorem Phi5_start (c : Dev nD) (t : Fin cfg5.N) : (dat5 V c).Φ t.castSucc = PhiS5 V c t.val (Nat.le_of_lt t.isLt) := rfl
theorem Phi5_end (c : Dev nD) (t : Fin cfg5.N) : (dat5 V c).Φ t.succ = PhiS5 V c (t.val + 1) t.isLt := rfl

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-- An input window is never idle: the body hands its buffer back at its block. -/
theorem leaves5_0 (c : Dev nD) (t : Fin cfg5.N) : (dat5 V c).leavesExact 0 t = owns (c : Thread nD τ) (ms5_0 t) fullShare (iblk5 V c 0 t) := by
  unfold Dat.leavesExact; rw [show cfg5.idle 0 (cfg5.grid.coords t) = false from rfl, after5_0]
theorem leaves5_1 (c : Dev nD) (t : Fin cfg5.N) : (dat5 V c).leavesExact 1 t = owns (c : Thread nD τ) (ms5_1 t) fullShare (iblk5 V c 1 t) := by
  unfold Dat.leavesExact; rw [show cfg5.idle 1 (cfg5.grid.coords t) = false from rfl, after5_1]
theorem leaves5_2 (c : Dev nD) (t : Fin cfg5.N) : (dat5 V c).leavesExact 2 t = owns (c : Thread nD τ) (ms5_2 t) fullShare (iblk5 V c 2 t) := by
  unfold Dat.leavesExact; rw [show cfg5.idle 2 (cfg5.grid.coords t) = false from rfl, after5_2]
/-- At a last edge tile the output window is live: the body leaves the stored block. -/
theorem leaves5_3_last (c : Dev nD) (t : Fin cfg5.N) (h : t.val % 425 = 424) :
    (dat5 V c).leavesExact 3 t = owns (c : Thread nD τ) (ms5_3 t) fullShare (k5_pay3 (acc5 V c t.val t.isLt) (iblk5 V c 2 t)) := by
  unfold Dat.leavesExact; rw [live5_out_of t h, after5_3, out5_eq]

/-! ## The body obligation -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ (dat5 V c).leavesExact 0 t ∗ (dat5 V c).leavesExact 1 t ∗ (dat5 V c).leavesExact 2 t ∗ (dat5 V c).leavesExact 3 t)

set_option maxHeartbeats 4000000 in
/-- The body at any point, by the inner coordinate. The inputs' buffers hold their blocks. Where the edge tile is the first
    the invariant gives the accumulator at anything and the zeroing case leaves it at the restarted sum; elsewhere the point
    is not the grid's first, the invariant gives it at what the point before left, and the body adds to that. Off the last
    edge tile the output window is idle and not written back: its buffer goes back as found; at the last the body leaves
    the stored block. Nothing is owed throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl,
    Phi5_start, Phi5_end, PhiS5_after, leaves5_0, leaves5_1, leaves5_2]
  by_cases h0 : t.val % 425 = 0
  · have h1 : ¬t.val % 425 = 424 := by omega
    rw [Dat.leavesExact_idle (dat5 V c) 3 t (idle5_out_of t h1) (noFlush5_out_of t h1), acc5_at_first V c t h0]
    refine (sep_mono_left (PhiS5_any V c _ _)).trans ?_
    iintro ⟨⟨⟨⟨%s, HS⟩, HR⟩, Hg⟩, Ho, ⟨%d0, H0⟩, ⟨%d1, H1⟩, ⟨%d2, H2⟩, ⟨%d3, H3⟩⟩
    iapply (body5_first c Set.univ (grid5.coords t) _ _ _ _ _ _ _ _ _ _ ((zeroes5_at t).mpr h0) (fun e => h1 ((emits5_at t).mp e))
      (iblk5 V c 0 t) (iblk5 V c 1 t) (iblk5 V c 2 t) _ _)
    isplitl [H0]; · iexact H0
    isplitl [H1]; · iexact H1
    isplitl [H2]; · iexact H2
    isplitl [H3]; · iexact H3
    isplitl [HS]; · iexists _; iexact HS
    iintro ⟨H0, H1, H2, H3, HS⟩
    isplitl [HS HR Hg]
    · isplitl [HS HR]
      · isplitl [HS]; · iexact HS
        iexact HR
      · iexact Hg
    isplitl [Ho]; · iexact Ho
    isplitl [H0]; · iexact H0
    isplitl [H1]; · iexact H1
    isplitl [H2]; · iexact H2
    iexists _; iexact H3
  · have hz : t.val ≠ 0 := fun e => h0 (by rw [e])
    rw [PhiS5_later V c _ _ hz, acc5_at_next V c t h0]
    by_cases h1 : t.val % 425 = 424
    · rw [leaves5_3_last V c t h1, acc5_at_next V c t h0]
      iintro ⟨⟨⟨HS, HR⟩, Hg⟩, Ho, ⟨%d0, H0⟩, ⟨%d1, H1⟩, ⟨%d2, H2⟩, ⟨%d3, H3⟩⟩
      iapply (body5_last c Set.univ (grid5.coords t) _ _ _ _ _ _ _ _ _ _ (fun e => h0 ((zeroes5_at t).mp e)) ((emits5_at t).mpr h1)
        (iblk5 V c 0 t) (iblk5 V c 1 t) (iblk5 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        · iexact Hg
      isplitl [Ho]; · iexact Ho
      isplitl [H0]; · iexact H0
      isplitl [H1]; · iexact H1
      isplitl [H2]; · iexact H2
      iexact H3
    · rw [Dat.leavesExact_idle (dat5 V c) 3 t (idle5_out_of t h1) (noFlush5_out_of t h1)]
      iintro ⟨⟨⟨HS, HR⟩, Hg⟩, Ho, ⟨%d0, H0⟩, ⟨%d1, H1⟩, ⟨%d2, H2⟩, ⟨%d3, H3⟩⟩
      iapply (body5_mid c Set.univ (grid5.coords t) _ _ _ _ _ _ _ _ _ _ (fun e => h0 ((zeroes5_at t).mp e)) (fun e => h1 ((emits5_at t).mp e))
        (iblk5 V c 0 t) (iblk5 V c 1 t) (iblk5 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        · iexact Hg
      isplitl [Ho]; · iexact Ho
      isplitl [H0]; · iexact H0
      isplitl [H1]; · iexact H1
      isplitl [H2]; · iexact H2
      iexists _; iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : Pipeline.ΦA spec5 c ⊢ (dat5 V c).Φ 0 := by
  rw [show (dat5 V c).Φ 0 = Pipeline.ΦA spec5 c from rfl]
  try exact Idealize.SL.BI.Entails.refl _

/-- After the last point the invariant gives the class's back: the accumulator's contents are forgotten. -/
theorem hout5 (c : Dev nD) : (dat5 V c).Φ (Fin.last cfg5.N) ⊢ Pipeline.ΦA spec5 c := by
  rw [PhiA5_eq, Phi5_eq]
  exact PhiS5_any V c _ _

end

end Cert.Kernel.Hand

end
-- ==== Proof.K.R6.lean ====
/-
  Region 6 of the idealized kernel's @main: the two-layer read-out applied to the node features, one 3128-row tile per
  grid point. The body reads the tile `h` (3128×64) and the whole of the first layer's weights `W` (64×32) and bias
  `b` (32) and of the second layer's weights `w` (32×1) and bias `b'` (1); on the matrix unit, operands rounded to
  bf16 and accumulating from zero, it forms `tanh (h · W + b) · w + b'` and stores the 3128×1 column. Nothing is kept
  from point to point and nothing but the column is written: the output block at a point is one pure function of the
  five input blocks there. Stated for any float family and any region-entry contents `V`.
-/
import proofs.«401039_j68436008894831_1_alg».proof.Proof.Gen.Kernel.Launch
import proofs.«401039_j68436008894831_1_alg».proof.Proof.Gen.Kernel.Skeleton
import proofs.«401039_j68436008894831_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! ## The body at one point

Every access of the body is through the whole of a staging block: five whole loads and one whole store. -/

abbrev feat6 : Rect S3128x64 := Rect.unit (s := S3128x64) ![0, 0] S3128x64.size inb_S3128x64_S3128x64_0_0
abbrev wgtA6 : Rect S64x32 := Rect.unit (s := S64x32) ![0, 0] S64x32.size inb_S64x32_S64x32_0_0
abbrev biasA6 : Rect S32 := Rect.unit (s := S32) ![0] S32.size inb_S32_S32_0
abbrev wgtB6 : Rect S32x1 := Rect.unit (s := S32x1) ![0, 0] S32x1.size inb_S32x1_S32x1_0_0
abbrev biasB6 : Rect S1 := Rect.unit (s := S1) ![0] S1.size inb_S1_S1_0
abbrev col6 : Rect S3128x1 := Rect.unit (s := S3128x1) ![0, 0] S3128x1.size inb_S3128x1_S3128x1_0_0

/-- What the body leaves in the output block: its one store, of the read-out of the five loaded blocks, over the
    whole column. -/
def out6_5 (x0 : Vec F S3128x64 .f32) (x1 : Vec F S64x32 .f32) (x2 : Vec F S32 .f32) (x3 : Vec F S32x1 .f32) (x4 : Vec F S1 .f32) : Vec F S3128x1 .f32 :=
  View.canon [⟨col6, k6_pay1 (View.ld x0 feat6) (View.ld x1 wgtA6) (View.ld x2 biasA6) (View.ld x3 wgtB6) (View.ld x4 biasB6)⟩]

/-- The one store is of the whole column, so no index of the block escapes it. -/
theorem col6_fills (p : Vec F S3128x1 .f32) :
    ∀ y : S3128x1.Idx, ∃ pc ∈ ([⟨col6, p⟩] : List (View.Piece (Elt F) S3128x1 .f32)), y ∈ pc.1.set :=
  View.cover_of_wholeMem _ (View.Piece.wholeMem_here (by rfl))

/-- Elements held at contents that read `X` through the memref are owned at `X`. -/
theorem owns_of_reads6 (c : Dev nD) {sp : Space} {sh : Shape} {e : EltTy} (m : Memref sig .tc sp sh e) (q : PosShare TreeShare)
    (f : m.view.ty.Contents (Elt F)) (X : sh.Idx → Elt F e) (h : m.view.read (Elt F) f = X) :
    (m.view.loc (c : Thread nD τ) ↦[m.view.set]{q} f : sProp 𝕄) ⊢ owns (c : Thread nD τ) m q X :=
  h ▸ owns_intro (c : Thread nD τ) m q f

set_option maxHeartbeats 1000000 in
/-- The body as a triple over whole staging memrefs, beside anything `I`, `O` the caller holds: the five inputs are
    read and kept, and whatever the output buffer held is overwritten by the read-out of the inputs. -/
theorem fc_point6 (c : Dev nD) (E : Set ℕ) (i : grid6.Coords)
    (arg1 : Memref sig .tc .vmem S3128x64 .f32) (harg1 : arg1.IsWhole) (arg2 : Memref sig .tc .vmem S64x32 .f32) (harg2 : arg2.IsWhole)
    (arg3 : Memref sig .tc .vmem S32 .f32) (harg3 : arg3.IsWhole) (arg4 : Memref sig .tc .vmem S32x1 .f32) (harg4 : arg4.IsWhole)
    (arg5 : Memref sig .tc .vmem S1 .f32) (harg5 : arg5.IsWhole) (arg6 : Memref sig .tc .vmem S3128x1 .f32) (harg6 : arg6.IsWhole)
    (x0 : Vec F S3128x64 .f32) (x1 : Vec F S64x32 .f32) (x2 : Vec F S32 .f32) (x3 : Vec F S32x1 .f32) (x4 : Vec F S1 .f32)
    (I O : sProp 𝕄) :
    iprop(I ∗ O ∗ owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d))
      ⊢ wp frame (wpE (defs₀ (F := F)) Variants.none c none) E (cc6__fc_kernel i arg1 harg1 arg2 harg2 arg3 harg3 arg4 harg4 arg5 harg5 arg6 harg6)
          (fun _ => iprop(I ∗ O ∗ owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (out6_5 x0 x1 x2 x3 x4))) := by
  simp only [cc6__fc_kernel_eq_skeleton]; unfold cc6__fc_kernel_skel
  conv_lhs => unfold owns
  iintro ⟨HI, HO, ⟨%f0, %e0, H0⟩, ⟨%f1, %e1, H1⟩, ⟨%f2, %e2, H2⟩, ⟨%f3, %e3, H3⟩, ⟨%f4, %e4, H4⟩, ⟨%d5, %f5, -, H5⟩⟩
  subst e0 e1 e2 e3 e4
  sl_exec
  sl_step
  iframe HI HO
  isplitl [H0]; · iapply (owns_of_reads6 c arg1 _ f0 _ rfl) $$ H0
  isplitl [H1]; · iapply (owns_of_reads6 c arg2 _ f1 _ rfl) $$ H1
  isplitl [H2]; · iapply (owns_of_reads6 c arg3 _ f2 _ rfl) $$ H2
  isplitl [H3]; · iapply (owns_of_reads6 c arg4 _ f3 _ rfl) $$ H3
  isplitl [H4]; · iapply (owns_of_reads6 c arg5 _ f4 _ rfl) $$ H4
  iapply (owns_of_reads6 c arg6 _ _ _ (View.read_writes_eq_canon _ _ _ (col6_fills _))) $$ H5

/-! ## The proof data -/

/-- The proof data of pipeline 6 on core `c`: the arrays as the region finds them; after the body each input buffer
    still at its block, the output buffer at the read-out of the five blocks; the invariant, shares and tallies
    constant. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) :
    (dat6 V c).after 5 t = out6_5 (iblk6 V c 0 t) (iblk6 V c 1 t) (iblk6 V c 2 t) (iblk6 V c 3 t) (iblk6 V c 4 t) := by dsimp only [dat6]

/-- What a fetch of window `w` at `t` would read of its array is the block named above, for every window at once. -/
theorem blockOf6 (c : Dev nD) (w : Fin cfg6.W) (t : Fin cfg6.N) : (dat6 V c).blockOf w t = iblk6 V c w t := by
  unfold Dat.blockOf iblk6; rw [A_eq6]

/-! Each input buffer holds its window's block whenever the body runs: right after a fetch because the fetch put it
there, and at a point without a fetch because the window's block index has not moved since the last one and the body
leaves the buffer as it found it. Windows 1–4 are fetched at the first point only, window 0 at every point. -/

theorem found6_0 (c : Dev nD) (t : Fin cfg6.N) (d) : (dat6 V c).before 0 t d = iblk6 V c 0 t := by
  rw [(dat6 V c).before_in_eq_fetched 0 rfl (fun _ => rfl) (fun _ _ _ => rfl) (fun s => by rw [after6_0, blockOf6]) t d]
  unfold Dat.fetched; rw [blockOf6]; rfl
theorem found6_1 (c : Dev nD) (t : Fin cfg6.N) (d) : (dat6 V c).before 1 t d = iblk6 V c 1 t := by
  rw [(dat6 V c).before_in_eq_fetched 1 rfl (fun _ => rfl) (fun _ _ _ => rfl) (fun s => by rw [after6_1, blockOf6]) t d]
  unfold Dat.fetched; rw [blockOf6]; rfl
theorem found6_2 (c : Dev nD) (t : Fin cfg6.N) (d) : (dat6 V c).before 2 t d = iblk6 V c 2 t := by
  rw [(dat6 V c).before_in_eq_fetched 2 rfl (fun _ => rfl) (fun _ _ _ => rfl) (fun s => by rw [after6_2, blockOf6]) t d]
  unfold Dat.fetched; rw [blockOf6]; rfl
theorem found6_3 (c : Dev nD) (t : Fin cfg6.N) (d) : (dat6 V c).before 3 t d = iblk6 V c 3 t := by
  rw [(dat6 V c).before_in_eq_fetched 3 rfl (fun _ => rfl) (fun _ _ _ => rfl) (fun s => by rw [after6_3, blockOf6]) t d]
  unfold Dat.fetched; rw [blockOf6]; rfl
theorem found6_4 (c : Dev nD) (t : Fin cfg6.N) (d) : (dat6 V c).before 4 t d = iblk6 V c 4 t := by
  rw [(dat6 V c).before_in_eq_fetched 4 rfl (fun _ => rfl) (fun _ _ _ => rfl) (fun s => by rw [after6_4, blockOf6]) t d]
  unfold Dat.fetched; rw [blockOf6]; rfl

/-! ## The body obligation -/

/-- The obligation at point `t`, its six windows written out: the invariant and the tallies pass through untouched,
    the inputs are handed over at their blocks and returned so, the output comes back at `out6_5` of them. -/
theorem at_point6 (c : Dev nD) (t : Fin cfg6.N) :
    iprop((dat6 V c).Φ t.castSucc ∗ (dat6 V c).owesAt () t.castSucc
        ∗ (∃ d, owns (c : Thread nD τ) (st6_0 t) fullShare ((dat6 V c).before 0 t d))
        ∗ (∃ d, owns (c : Thread nD τ) (st6_1 t) fullShare ((dat6 V c).before 1 t d))
        ∗ (∃ d, owns (c : Thread nD τ) (st6_2 t) fullShare ((dat6 V c).before 2 t d))
        ∗ (∃ d, owns (c : Thread nD τ) (st6_3 t) fullShare ((dat6 V c).before 3 t d))
        ∗ (∃ d, owns (c : Thread nD τ) (st6_4 t) fullShare ((dat6 V c).before 4 t d))
        ∗ (∃ d, owns (c : Thread nD τ) (st6_5 t) fullShare ((dat6 V c).before 5 t d)))
      ⊢ wp frame (wpE (defs₀ (F := F)) Variants.none c none) Set.univ (bodyAt6 t) (fun _ =>
          iprop((dat6 V c).Φ t.succ ∗ (dat6 V c).owesAt () t.succ
            ∗ owns (c : Thread nD τ) (st6_0 t) fullShare ((dat6 V c).after 0 t)
            ∗ owns (c : Thread nD τ) (st6_1 t) fullShare ((dat6 V c).after 1 t)
            ∗ owns (c : Thread nD τ) (st6_2 t) fullShare ((dat6 V c).after 2 t)
            ∗ owns (c : Thread nD τ) (st6_3 t) fullShare ((dat6 V c).after 3 t)
            ∗ owns (c : Thread nD τ) (st6_4 t) fullShare ((dat6 V c).after 4 t)
            ∗ owns (c : Thread nD τ) (st6_5 t) fullShare ((dat6 V c).after 5 t))) := by
  simp only [found6_0, found6_1, found6_2, found6_3, found6_4]
  rw [after6_0, after6_1, after6_2, after6_3, after6_4, after6_5]
  iintro ⟨HI, HO, ⟨%d0, H0⟩, ⟨%d1, H1⟩, ⟨%d2, H2⟩, ⟨%d3, H3⟩, ⟨%d4, H4⟩, ⟨%d5, H5⟩⟩
  iapply (fc_point6 c Set.univ _ _ _ _ _ _ _ _ _ _ _ _ _
    (iblk6 V c 0 t) (iblk6 V c 1 t) (iblk6 V c 2 t) (iblk6 V c 3 t) (iblk6 V c 4 t)
    ((dat6 V c).Φ t.castSucc) ((dat6 V c).owesAt () t.castSucc))
  iframe HI HO H0 H1 H2 H3 H4
  iexists _; iexact H5

theorem body_obligation6 (c : Dev nD) : BodyObligation (dat6 (F := F) V c) (defs₀ (F := F)) Variants.none () Set.univ := fun t => by
  rw [bigSep_W6, bigSep_W6]
  exact at_point6 V c t

/-- The invariant is the region's own at both ends. -/
theorem hin6 (c : Dev nD) : Pipeline.ΦA spec6 c ⊢ (dat6 V c).Φ 0 := BI.Entails.refl _
theorem hout6 (c : Dev nD) : (dat6 V c).Φ (Fin.last cfg6.N) ⊢ Pipeline.ΦA spec6 c := BI.Entails.refl _

end

end Cert.Kernel.Hand

end
-- ==== Proof.K.Run.lean ====
/-
  The idealized kernel's @main as a list of segments — five stretches of host operations, the seven kernel regions,
  the final slice — and its run: the buffer contents at every segment boundary are a fold from the launch memory
  (a host stretch applies its operations; a region leaves its arrays at what its write-backs fold to and everything
  else as entered), every weakly fair execution terminates, and the final memory holds each unscoped buffer at the
  last boundary's contents. Stated for any float family.
-/
import proofs.«401039_j68436008894831_1_alg».proof.Proof.K.Vals
import proofs.«401039_j68436008894831_1_alg».proof.Proof.K.R0
import proofs.«401039_j68436008894831_1_alg».proof.Proof.K.R1
import proofs.«401039_j68436008894831_1_alg».proof.Proof.K.R2
import proofs.«401039_j68436008894831_1_alg».proof.Proof.K.R3
import proofs.«401039_j68436008894831_1_alg».proof.Proof.K.R4
import proofs.«401039_j68436008894831_1_alg».proof.Proof.K.R5
import proofs.«401039_j68436008894831_1_alg».proof.Proof.K.R6

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At region 0's exit: its arrays at what the pipeline leaves, every other buffer as entered. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
abbrev V6 : (c : Dev nD) → (b : Ref sig .tc) → Buf (Elt F) ((c : Thread nD τ).loc b) := fun c b => W6 m ρ c b
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)

/-- At region 1's exit: its arrays at what the pipeline leaves, every other buffer as entered. -/
def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
abbrev V7 : (c : Dev nD) → (b : Ref sig .tc) → Buf (Elt F) ((c : Thread nD τ).loc b) := fun c b => W7 m ρ c b
theorem hF1 (c : Dev nD) (w : Fin cfg1.W) : (dat1 (V6 m ρ) c).arrAt w cfg1.N = V7 m ρ c (Pipeline.arrRef spec1 w) :=
  (W7_arr m ρ c w).symm
theorem hrest1 (c : Dev nD) : ∀ b, b ∉ Finset.univ.image (Pipeline.arrRef spec1) → V7 m ρ c b = V6 m ρ c b :=
  fun b hb => W7_of_ne m ρ c b fun w e => hb (Finset.mem_image.mpr ⟨w, Finset.mem_univ _, e⟩)

/-- At region 2's exit: its arrays at what the pipeline leaves, every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

/-- At region 3's exit: its arrays at what the pipeline leaves, every other buffer as entered. -/
def W9 (c : Dev nD) : Valuation τ sig (Elt F) :=
  Pipeline.withArrays spec3 c (W8 m ρ c) fun w => (dat3 (V8 m ρ) c).arrAt w cfg3.N
theorem W9_arr (c : Dev nD) (w : Fin cfg3.W) :
    W9 m ρ c (Proc.devRef .tc (Pipeline.arrRef spec3 w)) = (dat3 (V8 m ρ) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m ρ c (Proc.devRef .tc b) = W8 m ρ c (Proc.devRef .tc b) := by
  unfold W9; exact Pipeline.withArrays_of_ne spec3 c _ _ b hb
abbrev V9 : (c : Dev nD) → (b : Ref sig .tc) → Buf (Elt F) ((c : Thread nD τ).loc b) := fun c b => W9 m ρ c b
theorem hF3 (c : Dev nD) (w : Fin cfg3.W) : (dat3 (V8 m ρ) c).arrAt w cfg3.N = V9 m ρ c (Pipeline.arrRef spec3 w) :=
  (W9_arr m ρ c w).symm
theorem hrest3 (c : Dev nD) : ∀ b, b ∉ Finset.univ.image (Pipeline.arrRef spec3) → V9 m ρ c b = V8 m ρ c b :=
  fun b hb => W9_of_ne m ρ c b fun w e => hb (Finset.mem_image.mpr ⟨w, Finset.mem_univ _, e⟩)

/-- At region 4's exit: its arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- At region 5's exit: its arrays at what the pipeline leaves, every other buffer as entered. -/
def W11 (c : Dev nD) : Valuation τ sig (Elt F) :=
  Pipeline.withArrays spec5 c (W10 m ρ c) fun w => (dat5 (V10 m ρ) c).arrAt w cfg5.N
theorem W11_arr (c : Dev nD) (w : Fin cfg5.W) :
    W11 m ρ c (Proc.devRef .tc (Pipeline.arrRef spec5 w)) = (dat5 (V10 m ρ) c).arrAt w cfg5.N := by
  unfold W11; exact Pipeline.withArrays_arr spec5 launch5.win.arr_inj c _ _ w
theorem W11_of_ne (c : Dev nD) (b : Ref sig .tc) (hb : ∀ w, Pipeline.arrRef spec5 w ≠ b) :
    W11 m ρ c (Proc.devRef .tc b) = W10 m ρ c (Proc.devRef .tc b) := by
  unfold W11; exact Pipeline.withArrays_of_ne spec5 c _ _ b hb
abbrev V11 : (c : Dev nD) → (b : Ref sig .tc) → Buf (Elt F) ((c : Thread nD τ).loc b) := fun c b => W11 m ρ c b
theorem hF5 (c : Dev nD) (w : Fin cfg5.W) : (dat5 (V10 m ρ) c).arrAt w cfg5.N = V11 m ρ c (Pipeline.arrRef spec5 w) :=
  (W11_arr m ρ c w).symm
theorem hrest5 (c : Dev nD) : ∀ b, b ∉ Finset.univ.image (Pipeline.arrRef spec5) → V11 m ρ c b = V10 m ρ c b :=
  fun b hb => W11_of_ne m ρ c b fun w e => hb (Finset.mem_image.mpr ⟨w, Finset.mem_univ _, e⟩)

/-- At region 6's exit: its arrays at what the pipeline leaves, every other buffer as entered. -/
def W12 (c : Dev nD) : Valuation τ sig (Elt F) :=
  Pipeline.withArrays spec6 c (W11 m ρ c) fun w => (dat6 (V11 m ρ) c).arrAt w cfg6.N
theorem W12_arr (c : Dev nD) (w : Fin cfg6.W) :
    W12 m ρ c (Proc.devRef .tc (Pipeline.arrRef spec6 w)) = (dat6 (V11 m ρ) c).arrAt w cfg6.N := by
  unfold W12; exact Pipeline.withArrays_arr spec6 launch6.win.arr_inj c _ _ w
theorem W12_of_ne (c : Dev nD) (b : Ref sig .tc) (hb : ∀ w, Pipeline.arrRef spec6 w ≠ b) :
    W12 m ρ c (Proc.devRef .tc b) = W11 m ρ c (Proc.devRef .tc b) := by
  unfold W12; exact Pipeline.withArrays_of_ne spec6 c _ _ b hb
abbrev V12 : (c : Dev nD) → (b : Ref sig .tc) → Buf (Elt F) ((c : Thread nD τ).loc b) := fun c b => W12 m ρ c b
theorem hF6 (c : Dev nD) (w : Fin cfg6.W) : (dat6 (V11 m ρ) c).arrAt w cfg6.N = V12 m ρ c (Pipeline.arrRef spec6 w) :=
  (W12_arr m ρ c w).symm
theorem hrest6 (c : Dev nD) : ∀ b, b ∉ Finset.univ.image (Pipeline.arrRef spec6) → V12 m ρ c b = V11 m ρ c b :=
  fun b hb => W12_of_ne m ρ c b fun w e => hb (Finset.mem_image.mpr ⟨w, Finset.mem_univ _, e⟩)

/-- After the last host stretch (the slice of the padded result). -/
abbrev W13 : Dev nD → Valuation τ sig (Elt F) := fun c => StableHlo.after hostOps7 (W12 m ρ c)

/-! ## The proof data family and the thread state -/

abbrev adm : (p : Fin 7) → (pcfgs (F := F) p).Adm := fun p => (cfgs p).toPCfg_adm
def pdats : (p : Fin 7) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V6 m ρ) c
  | ⟨2, _⟩ => fun c => dat2 (V7 m ρ) c
  | ⟨3, _⟩ => fun c => dat3 (V8 m ρ) c
  | ⟨4, _⟩ => fun c => dat4 (V9 m ρ) c
  | ⟨5, _⟩ => fun c => dat5 (V10 m ρ) c
  | ⟨6, _⟩ => fun c => dat6 (V11 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps7_fresh : (hostOps7 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- REGION 0 over the thread state: entered from every unscoped buffer at `W5`, left at `W6`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show iprop(_ ∗ _ ∗ _) ⊢ (Pipeline.ΦA spec0 c : sProp 𝕄) from by
      unfold Pipeline.ΦA
      iintro ⟨Hp, -, Hr⟩
      isplitl [Hr]; · iexact Hr
      iexact Hp).trans (hin0 (V5 m ρ) c)
  hout c :=
    (hout0 (V5 m ρ) c).trans (show (Pipeline.ΦA spec0 c : sProp 𝕄) ⊢ iprop(_ ∗ _ ∗ _) from by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W6`, left at `W7`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec1 c (V6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show iprop(_ ∗ _ ∗ _) ⊢ (Pipeline.ΦA spec1 c : sProp 𝕄) from by
      unfold Pipeline.ΦA
      iintro ⟨Hp, -, Hr⟩
      isplitl [Hr]; · iexact Hr
      iexact Hp).trans (hin1 (V6 m ρ) c)
  hout c :=
    (hout1 (V6 m ρ) c).trans (show (Pipeline.ΦA spec1 c : sProp 𝕄) ⊢ iprop(_ ∗ _ ∗ _) from by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V6 m ρ c) (V7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W7`, left at `W8`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show iprop(_ ∗ _ ∗ _) ⊢ (Pipeline.ΦA spec2 c : sProp 𝕄) from by
      unfold Pipeline.ΦA
      iintro ⟨Hp, -, Hr⟩
      isplitl [Hr]; · iexact Hr
      iexact Hp).trans (hin2 (V7 m ρ) c)
  hout c :=
    (hout2 (V7 m ρ) c).trans (show (Pipeline.ΦA spec2 c : sProp 𝕄) ⊢ iprop(_ ∗ _ ∗ _) from by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W8`, left at `W9`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m ρ) c).loose
  hwaits := Pipeline.hwaits_of_owed_zero _ _ _ _ L lv 3 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec3 c (V8 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show iprop(_ ∗ _ ∗ _) ⊢ (Pipeline.ΦA spec3 c : sProp 𝕄) from by
      unfold Pipeline.ΦA
      iintro ⟨Hp, -, Hr⟩
      isplitl [Hr]; · iexact Hr
      iexact Hp).trans (hin3 (V8 m ρ) c)
  hout c :=
    (hout3 (V8 m ρ) c).trans (show (Pipeline.ΦA spec3 c : sProp 𝕄) ⊢ iprop(_ ∗ _ ∗ _) from by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V8 m ρ c) (V9 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at `W9`, left at `W10`. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show iprop(_ ∗ _ ∗ _) ⊢ (Pipeline.ΦA spec4 c : sProp 𝕄) from by
      unfold Pipeline.ΦA
      iintro ⟨Hp, -, Hr⟩
      isplitl [Hr]; · iexact Hr
      iexact Hp).trans (hin4 (V9 m ρ) c)
  hout c :=
    (hout4 (V9 m ρ) c).trans (show (Pipeline.ΦA spec4 c : sProp 𝕄) ⊢ iprop(_ ∗ _ ∗ _) from by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5 over the thread state: entered from every unscoped buffer at `W10`, left at `W11`. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V10 m ρ) c).loose
  hwaits := Pipeline.hwaits_of_owed_zero _ _ _ _ L lv 5 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec5 c (V10 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show iprop(_ ∗ _ ∗ _) ⊢ (Pipeline.ΦA spec5 c : sProp 𝕄) from by
      unfold Pipeline.ΦA
      iintro ⟨Hp, -, Hr⟩
      isplitl [Hr]; · iexact Hr
      iexact Hp).trans (hin5 (V10 m ρ) c)
  hout c :=
    (hout5 (V10 m ρ) c).trans (show (Pipeline.ΦA spec5 c : sProp 𝕄) ⊢ iprop(_ ∗ _ ∗ _) from by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V10 m ρ c) (V11 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 6 over the thread state: entered from every unscoped buffer at `W11`, left at `W12`. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V11 m ρ) c).loose
  hwaits := Pipeline.hwaits_of_owed_zero _ _ _ _ L lv 6 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec6 c (V11 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show iprop(_ ∗ _ ∗ _) ⊢ (Pipeline.ΦA spec6 c : sProp 𝕄) from by
      unfold Pipeline.ΦA
      iintro ⟨Hp, -, Hr⟩
      isplitl [Hr]; · iexact Hr
      iexact Hp).trans (hin6 (V11 m ρ) c)
  hout c :=
    (hout6 (V11 m ρ) c).trans (show (Pipeline.ΦA spec6 c : sProp 𝕄) ⊢ iprop(_ ∗ _ ∗ _) from by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V11 m ρ c) (V12 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ), .region (reg1 m ρ), .region (reg2 m ρ), .region (reg3 m ρ), .region (reg4 m ρ), .region (reg5 m ρ), .region (reg6 m ρ),
    .host (hseg hostOps7 hostOps7_sub hostOps7_fresh (W12 m ρ)) ]

theorem main_run (c : Dev nD) : main (F := F) c = Pipeline.Seg.run (segs m ρ) := (main_chain c).trans (by chain_rfl)

abbrev Tₙ (c : Dev nD) : sProp 𝕄 := iprop(StableHlo.held (c : Thread nD τ) (Pipeline.ucRefs τ sig) (W13 m ρ c) ∗ ∃ r, prngReg c r)

set_option backward.isDefEq.respectTransparency.types false in
/-- THE RUN: from any memory with zero counters every weakly fair execution of @main terminates, nothing faulting, and
    every final memory holds each unscoped TensorCore buffer at the last boundary's contents `W13`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W13 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c => h c)

end Cert.Kernel.Hand

end
-- ==== Proof.K.Keep.lean ====
/-
  What the kernel regions leave alone: a region changes only its output array, so an array read later holds at that
  later boundary what it held when region 0 was entered (or what the region that produced it left), and every
  argument array reaches the end of @main as launched. Stated for any float family.
-/
import proofs.«401039_j68436008894831_1_alg».proof.Proof.K.Run
import proofs.«401039_j68436008894831_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A region leaves its input arrays as entered -/
theorem W6_in (c : Dev nD) (w : Fin cfg0.W) (hw : (cfg0.win w).isOut = false) :
    W6 m ρ c (Proc.devRef .tc (Pipeline.arrRef spec0 w)) = W5 m ρ c (Proc.devRef .tc (Pipeline.arrRef spec0 w)) :=
  (W6_arr m ρ c w).trans (((dat0 (V5 m ρ) c).arrAt_in w hw _).trans (A_eq0 (V5 m ρ) c w))
theorem W7_in (c : Dev nD) (w : Fin cfg1.W) (hw : (cfg1.win w).isOut = false) :
    W7 m ρ c (Proc.devRef .tc (Pipeline.arrRef spec1 w)) = W6 m ρ c (Proc.devRef .tc (Pipeline.arrRef spec1 w)) :=
  (W7_arr m ρ c w).trans (((dat1 (V6 m ρ) c).arrAt_in w hw _).trans (A_eq1 (V6 m ρ) c w))
theorem W8_in (c : Dev nD) (w : Fin cfg2.W) (hw : (cfg2.win w).isOut = false) :
    W8 m ρ c (Proc.devRef .tc (Pipeline.arrRef spec2 w)) = W7 m ρ c (Proc.devRef .tc (Pipeline.arrRef spec2 w)) :=
  (W8_arr m ρ c w).trans (((dat2 (V7 m ρ) c).arrAt_in w hw _).trans (A_eq2 (V7 m ρ) c w))
theorem W9_in (c : Dev nD) (w : Fin cfg3.W) (hw : (cfg3.win w).isOut = false) :
    W9 m ρ c (Proc.devRef .tc (Pipeline.arrRef spec3 w)) = W8 m ρ c (Proc.devRef .tc (Pipeline.arrRef spec3 w)) :=
  (W9_arr m ρ c w).trans (((dat3 (V8 m ρ) c).arrAt_in w hw _).trans (A_eq3 (V8 m ρ) c w))
theorem W10_in (c : Dev nD) (w : Fin cfg4.W) (hw : (cfg4.win w).isOut = false) :
    W10 m ρ c (Proc.devRef .tc (Pipeline.arrRef spec4 w)) = W9 m ρ c (Proc.devRef .tc (Pipeline.arrRef spec4 w)) :=
  (W10_arr m ρ c w).trans (((dat4 (V9 m ρ) c).arrAt_in w hw _).trans (A_eq4 (V9 m ρ) c w))
theorem W11_in (c : Dev nD) (w : Fin cfg5.W) (hw : (cfg5.win w).isOut = false) :
    W11 m ρ c (Proc.devRef .tc (Pipeline.arrRef spec5 w)) = W10 m ρ c (Proc.devRef .tc (Pipeline.arrRef spec5 w)) :=
  (W11_arr m ρ c w).trans (((dat5 (V10 m ρ) c).arrAt_in w hw _).trans (A_eq5 (V10 m ρ) c w))
theorem W12_in (c : Dev nD) (w : Fin cfg6.W) (hw : (cfg6.win w).isOut = false) :
    W12 m ρ c (Proc.devRef .tc (Pipeline.arrRef spec6 w)) = W11 m ρ c (Proc.devRef .tc (Pipeline.arrRef spec6 w)) :=
  (W12_arr m ρ c w).trans (((dat6 (V11 m ρ) c).arrAt_in w hw _).trans (A_eq6 (V11 m ρ) c w))

/-! ## The arrays later regions read, traced back -/
theorem W6_v31 (c : Dev nD) : W6 m ρ c (Proc.devRef .tc main_v31) = W5 m ρ c (Proc.devRef .tc main_v31) :=
  (W6_of_ne m ρ c main_v31 (by decide))
theorem W6_v33 (c : Dev nD) : W6 m ρ c (Proc.devRef .tc main_v33) = W5 m ρ c (Proc.devRef .tc main_v33) :=
  (W6_of_ne m ρ c main_v33 (by decide))
theorem W7_v32 (c : Dev nD) : W7 m ρ c (Proc.devRef .tc main_v32) = W5 m ρ c (Proc.devRef .tc main_v32) :=
  (W7_of_ne m ρ c main_v32 (by decide)).trans <| (W6_of_ne m ρ c main_v32 (by decide))
theorem W7_arg3 (c : Dev nD) : W7 m ρ c (Proc.devRef .tc main_arg3) = W5 m ρ c (Proc.devRef .tc main_arg3) :=
  (W7_of_ne m ρ c main_arg3 (by decide)).trans <| (W6_of_ne m ρ c main_arg3 (by decide))
theorem W8_arg4 (c : Dev nD) : W8 m ρ c (Proc.devRef .tc main_arg4) = W5 m ρ c (Proc.devRef .tc main_arg4) :=
  (W8_of_ne m ρ c main_arg4 (by decide)).trans <| (W7_of_ne m ρ c main_arg4 (by decide)).trans <| (W6_of_ne m ρ c main_arg4 (by decide))
theorem W9_v31 (c : Dev nD) : W9 m ρ c (Proc.devRef .tc main_v31) = W5 m ρ c (Proc.devRef .tc main_v31) :=
  (W9_of_ne m ρ c main_v31 (by decide)).trans <| (W8_of_ne m ρ c main_v31 (by decide)).trans <| (W7_in m ρ c 0 rfl).trans <| (W6_of_ne m ρ c main_v31 (by decide))
theorem W9_v33 (c : Dev nD) : W9 m ρ c (Proc.devRef .tc main_v33) = W5 m ρ c (Proc.devRef .tc main_v33) :=
  (W9_of_ne m ρ c main_v33 (by decide)).trans <| (W8_of_ne m ρ c main_v33 (by decide)).trans <| (W7_in m ρ c 1 rfl).trans <| (W6_of_ne m ρ c main_v33 (by decide))
theorem W10_v32 (c : Dev nD) : W10 m ρ c (Proc.devRef .tc main_v32) = W5 m ρ c (Proc.devRef .tc main_v32) :=
  (W10_of_ne m ρ c main_v32 (by decide)).trans <| (W9_of_ne m ρ c main_v32 (by decide)).trans <| (W8_in m ρ c 0 rfl).trans <| (W7_of_ne m ρ c main_v32 (by decide)).trans <| (W6_of_ne m ρ c main_v32 (by decide))
theorem W10_arg5 (c : Dev nD) : W10 m ρ c (Proc.devRef .tc main_arg5) = W5 m ρ c (Proc.devRef .tc main_arg5) :=
  (W10_of_ne m ρ c main_arg5 (by decide)).trans <| (W9_of_ne m ρ c main_arg5 (by decide)).trans <| (W8_of_ne m ρ c main_arg5 (by decide)).trans <| (W7_of_ne m ρ c main_arg5 (by decide)).trans <| (W6_of_ne m ρ c main_arg5 (by decide))
theorem W11_arg6 (c : Dev nD) : W11 m ρ c (Proc.devRef .tc main_arg6) = W5 m ρ c (Proc.devRef .tc main_arg6) :=
  (W11_of_ne m ρ c main_arg6 (by decide)).trans <| (W10_of_ne m ρ c main_arg6 (by decide)).trans <| (W9_of_ne m ρ c main_arg6 (by decide)).trans <| (W8_of_ne m ρ c main_arg6 (by decide)).trans <| (W7_of_ne m ρ c main_arg6 (by decide)).trans <| (W6_of_ne m ρ c main_arg6 (by decide))
theorem W11_arg7 (c : Dev nD) : W11 m ρ c (Proc.devRef .tc main_arg7) = W5 m ρ c (Proc.devRef .tc main_arg7) :=
  (W11_of_ne m ρ c main_arg7 (by decide)).trans <| (W10_of_ne m ρ c main_arg7 (by decide)).trans <| (W9_of_ne m ρ c main_arg7 (by decide)).trans <| (W8_of_ne m ρ c main_arg7 (by decide)).trans <| (W7_of_ne m ρ c main_arg7 (by decide)).trans <| (W6_of_ne m ρ c main_arg7 (by decide))
theorem W11_arg8 (c : Dev nD) : W11 m ρ c (Proc.devRef .tc main_arg8) = W5 m ρ c (Proc.devRef .tc main_arg8) :=
  (W11_of_ne m ρ c main_arg8 (by decide)).trans <| (W10_of_ne m ρ c main_arg8 (by decide)).trans <| (W9_of_ne m ρ c main_arg8 (by decide)).trans <| (W8_of_ne m ρ c main_arg8 (by decide)).trans <| (W7_of_ne m ρ c main_arg8 (by decide)).trans <| (W6_of_ne m ρ c main_arg8 (by decide))
theorem W11_arg9 (c : Dev nD) : W11 m ρ c (Proc.devRef .tc main_arg9) = W5 m ρ c (Proc.devRef .tc main_arg9) :=
  (W11_of_ne m ρ c main_arg9 (by decide)).trans <| (W10_of_ne m ρ c main_arg9 (by decide)).trans <| (W9_of_ne m ρ c main_arg9 (by decide)).trans <| (W8_of_ne m ρ c main_arg9 (by decide)).trans <| (W7_of_ne m ρ c main_arg9 (by decide)).trans <| (W6_of_ne m ρ c main_arg9 (by decide))

/-! ## Each region's output array at the next boundary -/
theorem W6_out (c : Dev nD) : W6 m ρ c (Proc.devRef .tc main_v34) = (dat0 (V5 m ρ) c).arrAt 2 cfg0.N := W6_arr m ρ c 2
theorem W7_out (c : Dev nD) : W7 m ρ c (Proc.devRef .tc main_v35) = (dat1 (V6 m ρ) c).arrAt 3 cfg1.N := W7_arr m ρ c 3
theorem W8_out (c : Dev nD) : W8 m ρ c (Proc.devRef .tc main_v36) = (dat2 (V7 m ρ) c).arrAt 3 cfg2.N := W8_arr m ρ c 3
theorem W9_out (c : Dev nD) : W9 m ρ c (Proc.devRef .tc main_v37) = (dat3 (V8 m ρ) c).arrAt 2 cfg3.N := W9_arr m ρ c 2
theorem W10_out (c : Dev nD) : W10 m ρ c (Proc.devRef .tc main_v38) = (dat4 (V9 m ρ) c).arrAt 3 cfg4.N := W10_arr m ρ c 3
theorem W11_out (c : Dev nD) : W11 m ρ c (Proc.devRef .tc main_v39) = (dat5 (V10 m ρ) c).arrAt 3 cfg5.N := W11_arr m ρ c 3
theorem W12_out (c : Dev nD) : W12 m ρ c (Proc.devRef .tc main_v40) = (dat6 (V11 m ρ) c).arrAt 5 cfg6.N := W12_arr m ρ c 5

/-! ## The arguments end as launched -/

theorem W5_of_launch (c : Dev nD) (r : Ref sig .tc) (h0 : r ∉ hostOps0_W) (h1 : r ∉ hostOps0_1_W) (h2 : r ∉ hostOps0_2_W) (h3 : r ∉ hostOps0_3_W) (h4 : r ∉ hostOps0_4_W) :
    W5 m ρ c (Proc.devRef .tc r) = m ((c : Thread nD τ).loc r) :=
  (StableHlo.after_of_writes_sub hostOps0_4 _ hostOps0_4_writes h4).trans <| (StableHlo.after_of_writes_sub hostOps0_3 _ hostOps0_3_writes h3).trans <|
    (StableHlo.after_of_writes_sub hostOps0_2 _ hostOps0_2_writes h2).trans <| (StableHlo.after_of_writes_sub hostOps0_1 _ hostOps0_1_writes h1).trans <|
    (StableHlo.after_of_writes_sub hostOps0 _ hostOps0_writes h0).trans rfl
theorem W13_main_arg0 (c : Dev nD) : W13 m ρ c (Proc.devRef .tc main_arg0) = m ((c : Thread nD τ).loc main_arg0) :=
  (StableHlo.after_of_writes_sub hostOps7 _ hostOps7_writes (by decide)).trans <| (W12_of_ne m ρ c main_arg0 (by decide)).trans <| (W11_of_ne m ρ c main_arg0 (by decide)).trans <| (W10_of_ne m ρ c main_arg0 (by decide)).trans <| (W9_of_ne m ρ c main_arg0 (by decide)).trans <| (W8_of_ne m ρ c main_arg0 (by decide)).trans <| (W7_of_ne m ρ c main_arg0 (by decide)).trans <| (W6_of_ne m ρ c main_arg0 (by decide)).trans <| W5_of_launch m ρ c main_arg0 (by decide) (by decide) (by decide) (by decide) (by decide)
theorem W13_main_arg1 (c : Dev nD) : W13 m ρ c (Proc.devRef .tc main_arg1) = m ((c : Thread nD τ).loc main_arg1) :=
  (StableHlo.after_of_writes_sub hostOps7 _ hostOps7_writes (by decide)).trans <| (W12_of_ne m ρ c main_arg1 (by decide)).trans <| (W11_of_ne m ρ c main_arg1 (by decide)).trans <| (W10_of_ne m ρ c main_arg1 (by decide)).trans <| (W9_of_ne m ρ c main_arg1 (by decide)).trans <| (W8_of_ne m ρ c main_arg1 (by decide)).trans <| (W7_of_ne m ρ c main_arg1 (by decide)).trans <| (W6_of_ne m ρ c main_arg1 (by decide)).trans <| W5_of_launch m ρ c main_arg1 (by decide) (by decide) (by decide) (by decide) (by decide)
theorem W13_main_arg2 (c : Dev nD) : W13 m ρ c (Proc.devRef .tc main_arg2) = m ((c : Thread nD τ).loc main_arg2) :=
  (StableHlo.after_of_writes_sub hostOps7 _ hostOps7_writes (by decide)).trans <| (W12_of_ne m ρ c main_arg2 (by decide)).trans <| (W11_of_ne m ρ c main_arg2 (by decide)).trans <| (W10_of_ne m ρ c main_arg2 (by decide)).trans <| (W9_of_ne m ρ c main_arg2 (by decide)).trans <| (W8_of_ne m ρ c main_arg2 (by decide)).trans <| (W7_of_ne m ρ c main_arg2 (by decide)).trans <| (W6_in m ρ c 1 rfl).trans <| W5_of_launch m ρ c main_arg2 (by decide) (by decide) (by decide) (by decide) (by decide)
theorem W13_main_arg3 (c : Dev nD) : W13 m ρ c (Proc.devRef .tc main_arg3) = m ((c : Thread nD τ).loc main_arg3) :=
  (StableHlo.after_of_writes_sub hostOps7 _ hostOps7_writes (by decide)).trans <| (W12_of_ne m ρ c main_arg3 (by decide)).trans <| (W11_of_ne m ρ c main_arg3 (by decide)).trans <| (W10_of_ne m ρ c main_arg3 (by decide)).trans <| (W9_of_ne m ρ c main_arg3 (by decide)).trans <| (W8_in m ρ c 2 rfl).trans <| (W7_of_ne m ρ c main_arg3 (by decide)).trans <| (W6_of_ne m ρ c main_arg3 (by decide)).trans <| W5_of_launch m ρ c main_arg3 (by decide) (by decide) (by decide) (by decide) (by decide)
theorem W13_main_arg4 (c : Dev nD) : W13 m ρ c (Proc.devRef .tc main_arg4) = m ((c : Thread nD τ).loc main_arg4) :=
  (StableHlo.after_of_writes_sub hostOps7 _ hostOps7_writes (by decide)).trans <| (W12_of_ne m ρ c main_arg4 (by decide)).trans <| (W11_of_ne m ρ c main_arg4 (by decide)).trans <| (W10_of_ne m ρ c main_arg4 (by decide)).trans <| (W9_in m ρ c 1 rfl).trans <| (W8_of_ne m ρ c main_arg4 (by decide)).trans <| (W7_of_ne m ρ c main_arg4 (by decide)).trans <| (W6_of_ne m ρ c main_arg4 (by decide)).trans <| W5_of_launch m ρ c main_arg4 (by decide) (by decide) (by decide) (by decide) (by decide)
theorem W13_main_arg5 (c : Dev nD) : W13 m ρ c (Proc.devRef .tc main_arg5) = m ((c : Thread nD τ).loc main_arg5) :=
  (StableHlo.after_of_writes_sub hostOps7 _ hostOps7_writes (by decide)).trans <| (W12_of_ne m ρ c main_arg5 (by decide)).trans <| (W11_in m ρ c 2 rfl).trans <| (W10_of_ne m ρ c main_arg5 (by decide)).trans <| (W9_of_ne m ρ c main_arg5 (by decide)).trans <| (W8_of_ne m ρ c main_arg5 (by decide)).trans <| (W7_of_ne m ρ c main_arg5 (by decide)).trans <| (W6_of_ne m ρ c main_arg5 (by decide)).trans <| W5_of_launch m ρ c main_arg5 (by decide) (by decide) (by decide) (by decide) (by decide)
theorem W13_main_arg6 (c : Dev nD) : W13 m ρ c (Proc.devRef .tc main_arg6) = m ((c : Thread nD τ).loc main_arg6) :=
  (StableHlo.after_of_writes_sub hostOps7 _ hostOps7_writes (by decide)).trans <| (W12_in m ρ c 1 rfl).trans <| (W11_of_ne m ρ c main_arg6 (by decide)).trans <| (W10_of_ne m ρ c main_arg6 (by decide)).trans <| (W9_of_ne m ρ c main_arg6 (by decide)).trans <| (W8_of_ne m ρ c main_arg6 (by decide)).trans <| (W7_of_ne m ρ c main_arg6 (by decide)).trans <| (W6_of_ne m ρ c main_arg6 (by decide)).trans <| W5_of_launch m ρ c main_arg6 (by decide) (by decide) (by decide) (by decide) (by decide)
theorem W13_main_arg7 (c : Dev nD) : W13 m ρ c (Proc.devRef .tc main_arg7) = m ((c : Thread nD τ).loc main_arg7) :=
  (StableHlo.after_of_writes_sub hostOps7 _ hostOps7_writes (by decide)).trans <| (W12_in m ρ c 2 rfl).trans <| (W11_of_ne m ρ c main_arg7 (by decide)).trans <| (W10_of_ne m ρ c main_arg7 (by decide)).trans <| (W9_of_ne m ρ c main_arg7 (by decide)).trans <| (W8_of_ne m ρ c main_arg7 (by decide)).trans <| (W7_of_ne m ρ c main_arg7 (by decide)).trans <| (W6_of_ne m ρ c main_arg7 (by decide)).trans <| W5_of_launch m ρ c main_arg7 (by decide) (by decide) (by decide) (by decide) (by decide)
theorem W13_main_arg8 (c : Dev nD) : W13 m ρ c (Proc.devRef .tc main_arg8) = m ((c : Thread nD τ).loc main_arg8) :=
  (StableHlo.after_of_writes_sub hostOps7 _ hostOps7_writes (by decide)).trans <| (W12_in m ρ c 3 rfl).trans <| (W11_of_ne m ρ c main_arg8 (by decide)).trans <| (W10_of_ne m ρ c main_arg8 (by decide)).trans <| (W9_of_ne m ρ c main_arg8 (by decide)).trans <| (W8_of_ne m ρ c main_arg8 (by decide)).trans <| (W7_of_ne m ρ c main_arg8 (by decide)).trans <| (W6_of_ne m ρ c main_arg8 (by decide)).trans <| W5_of_launch m ρ c main_arg8 (by decide) (by decide) (by decide) (by decide) (by decide)
theorem W13_main_arg9 (c : Dev nD) : W13 m ρ c (Proc.devRef .tc main_arg9) = m ((c : Thread nD τ).loc main_arg9) :=
  (StableHlo.after_of_writes_sub hostOps7 _ hostOps7_writes (by decide)).trans <| (W12_in m ρ c 4 rfl).trans <| (W11_of_ne m ρ c main_arg9 (by decide)).trans <| (W10_of_ne m ρ c main_arg9 (by decide)).trans <| (W9_of_ne m ρ c main_arg9 (by decide)).trans <| (W8_of_ne m ρ c main_arg9 (by decide)).trans <| (W7_of_ne m ρ c main_arg9 (by decide)).trans <| (W6_of_ne m ρ c main_arg9 (by decide)).trans <| W5_of_launch m ρ c main_arg9 (by decide) (by decide) (by decide) (by decide) (by decide)

/-- THE FRAME: every weakly fair execution of @main terminates, nothing faulting, and the argument arrays end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W13_main_arg0 m ρ c),
    (h c _ (mem_uc main_arg1 (by decide))).trans (W13_main_arg1 m ρ c),
    (h c _ (mem_uc main_arg2 (by decide))).trans (W13_main_arg2 m ρ c),
    (h c _ (mem_uc main_arg3 (by decide))).trans (W13_main_arg3 m ρ c),
    (h c _ (mem_uc main_arg4 (by decide))).trans (W13_main_arg4 m ρ c),
    (h c _ (mem_uc main_arg5 (by decide))).trans (W13_main_arg5 m ρ c),
    (h c _ (mem_uc main_arg6 (by decide))).trans (W13_main_arg6 m ρ c),
    (h c _ (mem_uc main_arg7 (by decide))).trans (W13_main_arg7 m ρ c),
    (h c _ (mem_uc main_arg8 (by decide))).trans (W13_main_arg8 m ρ c),
    (h c _ (mem_uc main_arg9 (by decide))).trans (W13_main_arg9 m ρ c)⟩) (run_all m ρ)

end Cert.Kernel.Hand

end
-- ==== Proof.KI.Vals.lean ====
/-
  The buffer contents of the idealized kernel's @main at the boundaries of its five leading stretches of host
  operations, as a fold from the launch memory: `W5` is what the first kernel region is entered from. Stated for any
  float family.
-/
import proofs.«401039_j68436008894831_1_alg».proof.Proof.Gen.KernelIdeal.Launch
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
abbrev W5 : Dev nD → Valuation τ sig (Elt F) := fun c => StableHlo.after hostOps0_4 (W4 m ρ c)
abbrev V5 : (c : Dev nD) → (b : Ref sig .tc) → Buf (Elt F) ((c : Thread nD τ).loc b) := fun c b => W5 m ρ c b

end Cert.KernelIdeal.Hand

end
-- ==== Proof.KI.R0.lean ====
/-
  Region 0 of the idealized kernel's @main: the dense row-tiled product `x_pad · W₁`, one 3128-row tile per grid
  point. The body reads the tile of `x_pad` and the whole of `W₁`, multiplies them on the matrix unit into a zero
  accumulator and stores the 3128×64 result: the output block at a point is one pure function of the two input
  blocks there. Stated for any float family and any region-entry contents `V`.
-/
import proofs.«401039_j68436008894831_1_alg».proof.Proof.Gen.KernelIdeal.Launch
import proofs.«401039_j68436008894831_1_alg».proof.Proof.Gen.KernelIdeal.Skeleton
import proofs.«401039_j68436008894831_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_x : Rect S3128x128 := Rect.unit (s := S3128x128) ![0, 0] S3128x128.size inb_S3128x128_S3128x128_0_0
abbrev r0_w : Rect S128x64 := Rect.unit (s := S128x64) ![0, 0] S128x64.size inb_S128x64_S128x64_0_0
abbrev r0_o : Rect S3128x64 := Rect.unit (s := S3128x64) ![0, 0] S3128x64.size inb_S3128x64_S3128x64_0_0

/-- What the body leaves in the output block: its one whole-block store of the product of the two loaded blocks. -/
def out0_2 (x0 : Vec F S3128x128 .f32) (x1 : Vec F S128x64 .f32) : Vec F S3128x64 .f32 :=
  View.canon [⟨r0_o, k0_pay1 (View.ld x0 r0_x) (View.ld x1 r0_w)⟩]

theorem cover0_2 (p0 : Vec F S3128x64 .f32) (y : S3128x64.Idx) :
    ∃ pc ∈ ([⟨r0_o, p0⟩] : List (View.Piece (Elt F) S3128x64 .f32)), y ∈ pc.1.set :=
  View.cover_of_tiled [⟨r0_o, p0⟩] S3128x64.size (by rfl) y

set_option maxHeartbeats 1000000 in
/-- The body on whole staging memrefs: the inputs kept, the output at the product. -/
theorem sound_kernel0 (c : Dev nD) (E : Set ℕ) (i : grid0.Coords) (arg1 : Memref sig .tc .vmem S3128x128 .f32) (harg1 : arg1.IsWhole) (arg2 : Memref sig .tc .vmem S128x64 .f32) (harg2 : arg2.IsWhole)
    (arg3 : Memref sig .tc .vmem S3128x64 .f32) (harg3 : arg3.IsWhole)
    (x0 : Vec F S3128x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

/-- The invariant is the region's own at both ends. -/
theorem hin0 (c : Dev nD) : Pipeline.ΦA spec0 c ⊢ (dat0 V c).Φ 0 := BI.Entails.refl _
theorem hout0 (c : Dev nD) : (dat0 V c).Φ (Fin.last cfg0.N) ⊢ Pipeline.ΦA spec0 c := BI.Entails.refl _

end

end Cert.KernelIdeal.Hand

end
-- ==== Proof.KI.R1Runs.lean ====
/-
  Region 1 of the idealized kernel's @main, the part its three control cases share. The grid is 425 × 16, the
  inner axis a reduction over sixteen node blocks: point t has inner coordinate t mod 16. At inner coordinate 0 the
  body zeroes a 2000×64 accumulator kept in scratch memory; at every point it adds the product of a one-hot
  2000×3128 selector with the current 3128×64 node block into the accumulator; at inner coordinate 15 it scales the
  accumulator row by row and stores the result as the output block. Here: the inner coordinate and the two branch
  conditions as functions of it, where the output window is idle and not written back, the scratch memref, the
  region invariant of the class opened at the scratch, the input blocks, and two facts about memory: a whole-buffer
  store made last fixes what the buffer reads, and an input window holds its block at every point.
  Stated for any float family and any region-entry contents V.
-/
import proofs.«401039_j68436008894831_1_alg».proof.Proof.Gen.KernelIdeal.Launch
import proofs.«401039_j68436008894831_1_alg».proof.Proof.Gen.KernelIdeal.Skeleton
import proofs.«401039_j68436008894831_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The inner coordinate and the branch conditions -/

/-- The inner axis has stride one and bound sixteen: the inner coordinate of point t is t mod 16. -/
theorem inner1 (t : Fin cfg1.N) : (grid1.coords t 1).val = t.val % 16 := by
  show t.val / grid1.stride 1 % 16 = t.val % 16
  rw [show grid1.stride 1 = 1 from by decide, Nat.div_one]

/-- The zeroing branch's condition, as the body computes it from the inner coordinate. -/
abbrev atFirst1 (i : grid1.Coords) : Prop :=
  Scalar.cmpi .ne (Scalar.extui (Scalar.cmpi .eq (BitVec.ofNat 32 (i 1).val) 0#32)) 0#32 = 1#1
/-- The output branch's condition. -/
abbrev atLast1 (i : grid1.Coords) : Prop := k1_cond2 i = 1#1

/-- Over the sixteen inner coordinates: the first comparison chain holds at 0 only, -/
theorem first_of_inner : ∀ k : Fin 16,
    (Scalar.cmpi .ne (Scalar.extui (Scalar.cmpi .eq (BitVec.ofNat 32 k.val) 0#32)) 0#32 = 1#1) ↔ k.val = 0 := by
  decide +kernel
/-- the second at 15 only. -/
theorem last_of_inner : ∀ k : Fin 16,
    (Scalar.cmpi .ne (Scalar.extui (Scalar.cmpi .eq (BitVec.ofNat 32 k.val) 15#32)) 0#32 = 1#1) ↔ k.val = 15 := by
  decide +kernel

theorem atFirst1_iff (t : Fin cfg1.N) : atFirst1 (grid1.coords t) ↔ t.val % 16 = 0 := by
  rw [← inner1 t]; exact first_of_inner (grid1.coords t 1)
theorem atLast1_iff (t : Fin cfg1.N) : atLast1 (grid1.coords t) ↔ t.val % 16 = 15 := by
  rw [← inner1 t]; exact last_of_inner (grid1.coords t 1)

/-! ## Where the output window is idle -/

/-- Off the last inner coordinate the configuration calls the output window idle, -/
theorem idle1_3 (t : Fin cfg1.N) (h : ¬ t.val % 16 = 15) : cfg1.idle 3 (grid1.coords t) = true := by
  have hb : (k1_cond2 (grid1.coords t) == 1#1) = false :=
    beq_eq_false_iff_ne.mpr fun e => h ((atLast1_iff t).mp e)
  show (!(k1_cond2 (grid1.coords t) == 1#1)) = true
  rw [hb]; rfl
/-- and the pipeline does not write its block back; -/
theorem keep1_3 (t : Fin cfg1.N) (h : ¬ t.val % 16 = 15) : (cfg1.win 3).flush t = false :=
  Bool.eq_false_iff.mpr fun hf => h ((flush1_3 t).mp hf)
/-- at the last inner coordinate it is live. -/
theorem live1_3 (t : Fin cfg1.N) (h : t.val % 16 = 15) : cfg1.idle 3 (grid1.coords t) = false := by
  have hb : (k1_cond2 (grid1.coords t) == 1#1) = true := beq_iff_eq.mpr ((atLast1_iff t).mpr h)
  show (!(k1_cond2 (grid1.coords t) == 1#1)) = false
  rw [hb]; rfl

/-! ## The scratch accumulator and the class invariant opened at it -/

/-- The accumulator: the call's one scratch operand, a whole buffer. -/
abbrev scM1 : Memref sig .tc .vmem S2000x64 .f32 := Memref.whole cc1_scratch0

/-- The class's region invariant is: the accumulator at some contents, every other scoped buffer that is no staging
    buffer of this call unopened, the generator register at some state. -/
theorem PhiA1_eq (c : Dev nD) :
    (Pipeline.ΦA spec1 c : sProp 𝕄)
      = iprop(iprop((∃ d, owns (c : Thread nD τ) scM1 fullShare d)
          ∗ Pipeline.scopedRestBut (Ix := Unit) (Name := ℕ) (U := UR sig nD τ) (Lvl := ℕ) (Val := Elt F) spec1 c [cc1_scratch0])
          ∗ (∃ r, prngReg c r)) := by
  unfold Pipeline.ΦA; rw [scopedRest1_split]; simp only [scM1, owns_whole]; try rfl

/-! ## A whole-buffer store made last -/

/-- After a list of stores whose last is through the whole-shape rectangle at zero offsets, the buffer reads that
    store's payload, whatever it held and whatever the earlier stores were. -/
theorem View.read_writes_whole_last {sg : RefSig} {κ : Kind} {sp : Space} {S : Shape} {e : EltTy} {Val : EltTy → Type}
    [∀ e, Nonempty (Val e)] (v : View sg κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb w L]

/-! ## The input blocks -/

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The three inputs are uncut and never idle, and the body leaves them in place: so each one's current staging
    buffer holds its block at every point, at the points that do not fetch it too (its block index has not moved
    since the fetch). For any proof data over the arrays V that keeps the block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end

end Cert.KernelIdeal.Hand

end
-- ==== Proof.KI.R1RunA.lean ====
/-
  Region 1, the body's run at the first inner coordinate: the zeroing branch is taken, the output branch is not. By
  symbolic execution of the skeleton over whole staging memrefs. The accumulator is stored twice through the whole
  rectangle, zeros and then the update: it reads the later payload, and the load between the two stores reads the zeros.
-/
import proofs.«401039_j68436008894831_1_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the first inner coordinate the zeroing branch is taken and the output branch is not: the body stores zeros over
    the accumulator whatever it held, reads them back with the index block and the node block, and stores zeros plus the
    selected rows; the inputs and the output buffer are left as found. -/
theorem run1_first (c : Dev nD) (E : Set ℕ) (i : grid1.Coords) (a2 : Memref sig .tc .vmem S2000x1 .i32) (h2 : a2.IsWhole) (a3 : Memref sig .tc .vmem S2000x1 .f32) (h3 : a3.IsWhole) (a4 : Memref sig .tc .vmem S3128x64 .f32) (h4 : a4.IsWhole) (a5 : Memref sig .tc .vmem S2000x64 .f32) (h5 : a5.IsWhole) (a6 : Memref sig .tc .vmem S2000x64 .f32) (h6 : a6.IsWhole)
    (hF : atFirst1 i) (hL : ¬ atLast1 i)
    (x0 : Vec F S2000x1 .i32) (x1 : Vec F S2000x1 .f32) (x2 : Vec F S3128x64 .f32) (y : Vec F S2000x64 .f32)
    (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare y ∗ (∃ d, owns (c : Thread nD τ) a6 fullShare d)
        ∗ (iprop(owns (c : Thread nD τ) a2 fullShare x0 ∗ owns (c : Thread nD τ) a3 fullShare x1 ∗ owns (c : Thread nD τ) a4 fullShare x2
            ∗ owns (c : Thread nD τ) a5 fullShare y ∗ owns (c : Thread nD τ) a6 fullShare (k1_pay2 i x0 x2 (k1_pay1 (F := F)))) -∗ K ⟨⟩))
      ⊢ wp frame (wpE (defs₀ (F := F)) Variants.none c none) E (cc1__gather_kernel i a2 h2 a3 h3 a4 h4 a5 h5 a6 h6) K := by
  simp only [cc1__gather_kernel_eq_skeleton]; unfold cc1__gather_kernel_skel
  unfold owns
  iintro ⟨⟨%f0, %e0, H0⟩, ⟨%f1, %e1, H1⟩, ⟨%f2, %e2, H2⟩, ⟨%f3, %e3, H3⟩, ⟨%d, %fs, -, HS⟩, Hk⟩
  subst e0; subst e1; subst e2; subst e3
  sl_exec (disch := first | exact hF | exact hL)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  have hz : (![0, 0] : Fin 2 → Nat) = fun _ => 0 := by funext a; fin_cases a <;> rfl
  rw [View.read_writes_whole_last _ _ hz]
  sl_unfold_words
  simp only [View.readAt_eq_ld, View.ld_unit_zero (S := S2000x1) hz, View.ld_unit_zero (S := S3128x64) hz,
    View.ld_unit_zero (S := S2000x64) hz, View.readCov_unit_zero (S := S2000x64) _ hz]

end Cert.KernelIdeal.Hand

end
-- ==== Proof.KI.R1RunB.lean ====
/-
  Region 1, the body's run between the first and the last inner coordinate: neither conditional branch is taken. By
  symbolic execution of the skeleton over whole staging memrefs; the accumulator's one store is through the whole
  rectangle, so it reads that store's payload, and the loads read the buffers' contents.
-/
import proofs.«401039_j68436008894831_1_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Between the first and the last inner coordinate neither branch is taken: the body reads the index block, the node
    block and the accumulator and stores the accumulator plus the selected rows; the inputs and the output buffer are
    left as found. -/
theorem run1_mid (c : Dev nD) (E : Set ℕ) (i : grid1.Coords) (a2 : Memref sig .tc .vmem S2000x1 .i32) (h2 : a2.IsWhole) (a3 : Memref sig .tc .vmem S2000x1 .f32) (h3 : a3.IsWhole) (a4 : Memref sig .tc .vmem S3128x64 .f32) (h4 : a4.IsWhole) (a5 : Memref sig .tc .vmem S2000x64 .f32) (h5 : a5.IsWhole) (a6 : Memref sig .tc .vmem S2000x64 .f32) (h6 : a6.IsWhole)
    (hF : ¬ atFirst1 i) (hL : ¬ atLast1 i)
    (x0 : Vec F S2000x1 .i32) (x1 : Vec F S2000x1 .f32) (x2 : Vec F S3128x64 .f32) (y : Vec F S2000x64 .f32) (s : Vec F S2000x64 .f32)
    (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare y ∗ owns (c : Thread nD τ) a6 fullShare s
        ∗ (iprop(owns (c : Thread nD τ) a2 fullShare x0 ∗ owns (c : Thread nD τ) a3 fullShare x1 ∗ owns (c : Thread nD τ) a4 fullShare x2
            ∗ owns (c : Thread nD τ) a5 fullShare y ∗ owns (c : Thread nD τ) a6 fullShare (k1_pay2 i x0 x2 s)) -∗ K ⟨⟩))
      ⊢ wp frame (wpE (defs₀ (F := F)) Variants.none c none) E (cc1__gather_kernel i a2 h2 a3 h3 a4 h4 a5 h5 a6 h6) K := by
  simp only [cc1__gather_kernel_eq_skeleton]; unfold cc1__gather_kernel_skel
  unfold owns
  iintro ⟨⟨%f0, %e0, H0⟩, ⟨%f1, %e1, H1⟩, ⟨%f2, %e2, H2⟩, ⟨%f3, %e3, H3⟩, ⟨%fs, %es, HS⟩, Hk⟩
  subst e0; subst e1; subst e2; subst e3; subst es
  sl_exec (disch := first | exact hF | exact hL)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  have hz : (![0, 0] : Fin 2 → Nat) = fun _ => 0 := by funext a; fin_cases a <;> rfl
  rw [View.read_writes_whole_last _ _ hz]
  simp only [View.readAt_eq_ld, View.ld_unit_zero (S := S2000x1) hz, View.ld_unit_zero (S := S3128x64) hz,
    View.ld_unit_zero (S := S2000x64) hz]

end Cert.KernelIdeal.Hand

end
-- ==== Proof.KI.R1RunC.lean ====
/-
  Region 1, the body's run at the last inner coordinate: the zeroing branch is not taken, the output branch is. By
  symbolic execution of the skeleton over whole staging memrefs. The accumulator's one store is through the whole
  rectangle, and the load after it reads its payload; the output buffer's one store is through the whole rectangle.
-/
import proofs.«401039_j68436008894831_1_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the last inner coordinate the zeroing branch is not taken and the output branch is: after the accumulation the
    body reads the row scales and the new accumulator and stores their product over the output buffer, whatever it held;
    the inputs are left as found. -/
theorem run1_last (c : Dev nD) (E : Set ℕ) (i : grid1.Coords) (a2 : Memref sig .tc .vmem S2000x1 .i32) (h2 : a2.IsWhole) (a3 : Memref sig .tc .vmem S2000x1 .f32) (h3 : a3.IsWhole) (a4 : Memref sig .tc .vmem S3128x64 .f32) (h4 : a4.IsWhole) (a5 : Memref sig .tc .vmem S2000x64 .f32) (h5 : a5.IsWhole) (a6 : Memref sig .tc .vmem S2000x64 .f32) (h6 : a6.IsWhole)
    (hF : ¬ atFirst1 i) (hL : atLast1 i)
    (x0 : Vec F S2000x1 .i32) (x1 : Vec F S2000x1 .f32) (x2 : Vec F S3128x64 .f32) (s : Vec F S2000x64 .f32)
    (K : PUnit → sProp 𝕄) :
    iprop(owns (c : Thread nD τ) a2 fullShare x0 ∗ owns (c : Thread nD τ) a3 fullShare x1 ∗ owns (c : Thread nD τ) a4 fullShare x2
        ∗ (∃ d, owns (c : Thread nD τ) a5 fullShare d) ∗ owns (c : Thread nD τ) a6 fullShare s
        ∗ (iprop(owns (c : Thread nD τ) a2 fullShare x0 ∗ owns (c : Thread nD τ) a3 fullShare x1 ∗ owns (c : Thread nD τ) a4 fullShare x2
            ∗ owns (c : Thread nD τ) a5 fullShare (k1_pay3 x1 (k1_pay2 i x0 x2 s)) ∗ owns (c : Thread nD τ) a6 fullShare (k1_pay2 i x0 x2 s)) -∗ K ⟨⟩))
      ⊢ wp frame (wpE (defs₀ (F := F)) Variants.none c none) E (cc1__gather_kernel i a2 h2 a3 h3 a4 h4 a5 h5 a6 h6) K := by
  simp only [cc1__gather_kernel_eq_skeleton]; unfold cc1__gather_kernel_skel
  unfold owns
  iintro ⟨⟨%f0, %e0, H0⟩, ⟨%f1, %e1, H1⟩, ⟨%f2, %e2, H2⟩, ⟨%d, %f3, -, H3⟩, ⟨%fs, %es, HS⟩, Hk⟩
  subst e0; subst e1; subst e2; subst es
  have hz : (![0, 0] : Fin 2 → Nat) = fun _ => 0 := by funext a; fin_cases a <;> rfl
  sl_exec (disch := first | exact hF | exact hL)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [View.read_writes_whole_last _ _ hz]
    simp only [View.readAt_eq_ld, View.ld_unit_zero (S := S2000x1) hz, View.ld_unit_zero (S := S3128x64) hz,
      View.ld_unit_zero (S := S2000x64) hz, View.readCov_unit_zero (S := S2000x64) _ hz]
  iexists _; isplitr
  swap; · iexact HS
  ipureintro
  sl_unfold_words
  rw [View.read_writes_whole_last _ _ hz]
  simp only [View.readAt_eq_ld, View.ld_unit_zero (S := S2000x1) hz, View.ld_unit_zero (S := S3128x64) hz,
    View.ld_unit_zero (S := S2000x64) hz, View.readCov_unit_zero (S := S2000x64) _ hz]

end Cert.KernelIdeal.Hand

end
-- ==== Proof.KI.R1.lean ====
/-
  Region 1 of the idealized kernel's @main: what the accumulator and the output block hold after each grid point,
  the proof data of the pipeline, and its body obligation.

  The accumulator after point n is the update (add the selected rows of the point's node block) applied to zeros
  when n is at the first inner coordinate, and to the accumulator after point n - 1 otherwise. The output block is
  the row-scaled accumulator; the body stores it at the last inner coordinate only, and elsewhere the output window
  is idle and its buffer is handed back as found. The region invariant carries the accumulator: at some contents
  before the first point, at its value after the point before at every later one. Each point is one of three control
  cases, and in each the run of that case supplies the body's triple.
  Stated for any float family and any region-entry contents V.
-/
import proofs.«401039_j68436008894831_1_alg».proof.Proof.KI.R1RunA
import proofs.«401039_j68436008894831_1_alg».proof.Proof.KI.R1RunB
import proofs.«401039_j68436008894831_1_alg».proof.Proof.KI.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The accumulation -/

/-- The accumulator after the body at position `n`: the update of the point's index block and node block, over zeros
    at the first inner coordinate, over the accumulator after position `n - 1` elsewhere. -/
def acc1 (c : Dev nD) : (n : ℕ) → n < cfg1.N → Vec F S2000x64 .f32
  | 0, hn => k1_pay2 (grid1.coords ⟨0, hn⟩) (iblk1 V c 0 ⟨0, hn⟩) (iblk1 V c 2 ⟨0, hn⟩) (k1_pay1 (F := F))
  | n + 1, hn => k1_pay2 (grid1.coords ⟨n + 1, hn⟩) (iblk1 V c 0 ⟨n + 1, hn⟩) (iblk1 V c 2 ⟨n + 1, hn⟩)
      (if (n + 1) % 16 = 0 then k1_pay1 (F := F) else acc1 c n (Nat.lt_of_succ_lt hn))

/-- After position `n`: the output block the body would store (the accumulator scaled by the point's row scales), and
    the accumulator. The first component is what the output window's buffer holds at the points where the window is
    live, the last inner coordinate; at the others nothing reads it. -/
def outsAt1 (c : Dev nD) : (n : ℕ) → n < cfg1.N → Vec F S2000x64 .f32 × Vec F S2000x64 .f32 :=
  fun n hn => (k1_pay3 (iblk1 V c 1 ⟨n, hn⟩) (acc1 V c n hn), acc1 V c n hn)

/-- At the first inner coordinate the accumulator restarts from zeros. -/
theorem acc1_first (c : Dev nD) (t : Fin cfg1.N) (h : t.val % 16 = 0) :
    acc1 V c t.val t.isLt = k1_pay2 (grid1.coords t) (iblk1 V c 0 t) (iblk1 V c 2 t) (k1_pay1 (F := F)) := by
  obtain ⟨n, hn⟩ := t
  cases n with
  | zero => rfl
  | succ n =>
    show acc1 V c (n + 1) hn = _
    rw [acc1, if_pos h]

/-- Elsewhere it continues from the point before. -/
theorem acc1_next (c : Dev nD) (t : Fin cfg1.N) (h : ¬ t.val % 16 = 0) :
    acc1 V c t.val t.isLt = k1_pay2 (grid1.coords t) (iblk1 V c 0 t) (iblk1 V c 2 t)
      (acc1 V c (t.val - 1) (Nat.lt_of_le_of_lt (Nat.sub_le _ _) t.isLt)) := by
  obtain ⟨n, hn⟩ := t
  cases n with
  | zero => exact absurd (Nat.zero_mod 16) h
  | succ n =>
    show acc1 V c (n + 1) hn = _
    rw [acc1, if_neg h]
    rfl

theorem acc1_reset (c : Dev nD) (t : Fin cfg1.N) (h : t.val % 16 = 0) :
    (outsAt1 V c t.val t.isLt).2 = k1_pay2 (grid1.coords t) (iblk1 V c 0 t) (iblk1 V c 2 t) (k1_pay1 (F := F)) :=
  acc1_first V c t h

theorem acc1_step (c : Dev nD) (t : Fin cfg1.N) (h : ¬ t.val % 16 = 0) :
    (outsAt1 V c t.val t.isLt).2 = k1_pay2 (grid1.coords t) (iblk1 V c 0 t) (iblk1 V c 2 t)
      (outsAt1 V c (t.val - 1) (Nat.lt_of_le_of_lt (Nat.sub_le _ _) t.isLt)).2 :=
  acc1_next V c t h

/-- The output block is the scaled accumulator (at every point; the kernel stores it at the last inner coordinate). -/
theorem out1_last (c : Dev nD) (t : Fin cfg1.N) (h : t.val % 16 = 15) :
    (outsAt1 V c t.val t.isLt).1 = k1_pay3 (iblk1 V c 1 t) (outsAt1 V c t.val t.isLt).2 := rfl

/-! ## The region invariant -/

/-- What the invariant says of the accumulator before position `n`: anything before the first point, then what the
    point before left. -/
def carried1 (c : Dev nD) : (n : ℕ) → n ≤ cfg1.N → sProp 𝕄
  | 0, _ => iprop(∃ d, owns (c : Thread nD τ) scM1 fullShare d)
  | n + 1, hn => owns (c : Thread nD τ) scM1 fullShare (acc1 V c n hn)

/-- The invariant before position `n`: the accumulator as `carried1` says, every other scoped buffer that is no staging
    buffer of this call unopened, the generator register at some state. -/
def PhiS1 (c : Dev nD) (n : ℕ) (hn : n ≤ cfg1.N) : sProp 𝕄 :=
  iprop(iprop(carried1 V c n hn ∗ Pipeline.scopedRestBut (Ix := Unit) (Name := ℕ) (U := UR sig nD τ) (Lvl := ℕ) (Val := Elt F) spec1 c [cc1_scratch0]) ∗ (∃ r, prngReg c r))

/-- Whatever the invariant says of it, the accumulator is owned at some contents. -/
theorem carried1_any (c : Dev nD) (n : ℕ) (hn : n ≤ cfg1.N) :
    carried1 V c n hn ⊢ (iprop(∃ d, owns (c : Thread nD τ) scM1 fullShare d) : sProp 𝕄) := by
  cases n with
  | zero => exact Idealize.SL.BI.Entails.refl _
  | succ n =>
    show owns (c : Thread nD τ) scM1 fullShare (acc1 V c n hn) ⊢ _
    iintro H; iexists _; iexact H

theorem carried1_pos (c : Dev nD) (n : ℕ) (hn : n ≤ cfg1.N) (hz : n ≠ 0) :
    carried1 V c n hn = owns (c : Thread nD τ) scM1 fullShare (acc1 V c (n - 1) (by omega)) := by
  cases n with
  | zero => exact absurd rfl hz
  | succ n => rfl

/-- Before the first point the invariant is the class's. -/
theorem PhiS1_zero (c : Dev nD) (h : 0 ≤ cfg1.N) : PhiS1 V c 0 h = Pipeline.ΦA spec1 c := by
  rw [PhiA1_eq]; rfl

/-- At every position it gives the class's back: the accumulator's named contents are forgotten. -/
theorem PhiS1_forget (c : Dev nD) (n : ℕ) (hn : n ≤ cfg1.N) : PhiS1 V c n hn ⊢ Pipeline.ΦA spec1 c := by
  rw [PhiA1_eq]; unfold PhiS1
  iintro ⟨⟨HS, HR⟩, Hg⟩
  isplitr [Hg]
  · isplitl [HS]
    · iapply (carried1_any V c n hn); iexact HS
    iexact HR
  iexact Hg

/-! ## The proof data -/

/-- The proof data of pipeline 1 on core `c`: the arrays as the region finds them; after the body each input's buffer
    at its block and the output's at the scaled accumulator; the invariant carrying the accumulator; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- The invariant at a point's start and at its end. -/
theorem Phi1_start (c : Dev nD) (t : Fin cfg1.N) :
    (dat1 V c).Φ t.castSucc = iprop(iprop(carried1 V c t.val (Nat.le_of_lt t.isLt) ∗ Pipeline.scopedRestBut (Ix := Unit) (Name := ℕ) (U := UR sig nD τ) (Lvl := ℕ) (Val := Elt F) spec1 c [cc1_scratch0]) ∗ (∃ r, prngReg c r)) := rfl
theorem Phi1_end (c : Dev nD) (t : Fin cfg1.N) :
    (dat1 V c).Φ t.succ = iprop(iprop(owns (c : Thread nD τ) scM1 fullShare (acc1 V c t.val t.isLt) ∗ Pipeline.scopedRestBut (Ix := Unit) (Name := ℕ) (U := UR sig nD τ) (Lvl := ℕ) (Val := Elt F) spec1 c [cc1_scratch0]) ∗ (∃ r, prngReg c r)) := rfl

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ (dat1 V c).leavesExact 3 t)

set_option maxHeartbeats 4000000 in
/-- The body at any point. The inputs' buffers hold their blocks; the point's inner coordinate selects the case. At
    the first inner coordinate the accumulator may hold anything and is left at the update of zeros; elsewhere it
    holds what the point before left and is left at its update. Off the last inner coordinate the output buffer is
    handed back as found (the window is idle there and not written back); at the last it is left at the scaled
    accumulator. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    after1_0, after1_1, after1_2, Phi1_start, Phi1_end]
  by_cases h0 : t.val % 16 = 0
  · have h15 : ¬ t.val % 16 = 15 := by omega
    rw [Dat.leavesExact_idle (dat1 V c) 3 t (idle1_3 t h15) (keep1_3 t h15), acc1_first V c t h0]
    iintro ⟨⟨⟨HS, HR⟩, Hg⟩, Ho, ⟨%d0, H0⟩, ⟨%d1, H1⟩, ⟨%d2, H2⟩, ⟨%d3, H3⟩⟩
    iapply (run1_first c Set.univ (grid1.coords t) _ _ _ _ _ _ _ _ _ _ ((atFirst1_iff t).mpr h0) (fun h => h15 ((atLast1_iff t).mp h))
      (iblk1 V c 0 t) (iblk1 V c 1 t) (iblk1 V c 2 t) ((dat1 V c).before 3 t d3) _)
    isplitl [H0]; · iexact H0
    isplitl [H1]; · iexact H1
    isplitl [H2]; · iexact H2
    isplitl [H3]; · iexact H3
    isplitl [HS]; · iapply (carried1_any V c t.val _); iexact HS
    iintro ⟨H0, H1, H2, H3, HS⟩
    isplitl [HS HR Hg]
    · isplitr [Hg]
      · isplitl [HS]; · iexact HS
        iexact HR
      iexact Hg
    isplitl [Ho]; · iexact Ho
    isplitl [H0]; · iexact H0
    isplitl [H1]; · iexact H1
    isplitl [H2]; · iexact H2
    iexists d3; iexact H3
  · have hz : t.val ≠ 0 := fun e => h0 (by rw [e])
    rw [carried1_pos V c t.val _ hz, acc1_next V c t h0]
    by_cases h15 : t.val % 16 = 15
    · rw [show (dat1 V c).leavesExact 3 t = owns (c : Thread nD τ) (st1_3 t) fullShare ((dat1 V c).after 3 t) from by
        unfold Dat.leavesExact; rw [live1_3 t h15], after1_3]
      rw [show (outsAt1 V c t.val t.isLt).1 = k1_pay3 (iblk1 V c 1 t) (acc1 V c t.val t.isLt) from rfl, acc1_next V c t h0]
      iintro ⟨⟨⟨HS, HR⟩, Hg⟩, Ho, ⟨%d0, H0⟩, ⟨%d1, H1⟩, ⟨%d2, H2⟩, ⟨%d3, H3⟩⟩
      iapply (run1_last c Set.univ (grid1.coords t) _ _ _ _ _ _ _ _ _ _ (fun h => h0 ((atFirst1_iff t).mp h)) ((atLast1_iff t).mpr h15)
        (iblk1 V c 0 t) (iblk1 V c 1 t) (iblk1 V c 2 t) (acc1 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitr [Hg]
        · isplitl [HS]; · iexact HS
          iexact HR
        iexact Hg
      isplitl [Ho]; · iexact Ho
      isplitl [H0]; · iexact H0
      isplitl [H1]; · iexact H1
      isplitl [H2]; · iexact H2
      iexact H3
    · rw [Dat.leavesExact_idle (dat1 V c) 3 t (idle1_3 t h15) (keep1_3 t h15)]
      iintro ⟨⟨⟨HS, HR⟩, Hg⟩, Ho, ⟨%d0, H0⟩, ⟨%d1, H1⟩, ⟨%d2, H2⟩, ⟨%d3, H3⟩⟩
      iapply (run1_mid c Set.univ (grid1.coords t) _ _ _ _ _ _ _ _ _ _ (fun h => h0 ((atFirst1_iff t).mp h)) (fun h => h15 ((atLast1_iff t).mp h))
        (iblk1 V c 0 t) (iblk1 V c 1 t) (iblk1 V c 2 t) ((dat1 V c).before 3 t d3)
        (acc1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitr [Hg]
        · isplitl [HS]; · iexact HS
          iexact HR
        iexact Hg
      isplitl [Ho]; · iexact Ho
      isplitl [H0]; · iexact H0
      isplitl [H1]; · iexact H1
      isplitl [H2]; · iexact H2
      iexists d3; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero]

/-- After the last point the invariant gives the class's back. -/
theorem hout1 (c : Dev nD) : (dat1 V c).Φ (Fin.last cfg1.N) ⊢ Pipeline.ΦA spec1 c :=
  PhiS1_forget V c _ _

end

end Cert.KernelIdeal.Hand

end
-- ==== Proof.KI.WholeStore.lean ====
/-
  Loads and stores through the whole of a staging buffer: the offsets `![0, …, 0]` are the zero offsets, and a store through
  the whole shape, made last, is what the buffer reads afterwards. Shared by the regions whose bodies load and store whole
  blocks.
-/
import proofs.«401039_j68436008894831_1_alg».proof.Proof.Gen.KernelIdeal.Launch
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem origin2 : (![0, 0] : Fin 2 → ℕ) = fun _ => 0 := funext fun a => by fin_cases a <;> rfl
theorem origin1 : (![0] : Fin 1 → ℕ) = fun _ => 0 := funext fun a => by fin_cases a <;> rfl

/-- A store through the whole shape, made last, is what a buffer reads afterwards, whatever it held and whatever was
    stored before. -/
theorem read_after_whole_store {sig' : RefSig} {κ : Kind} {sp : Space} {S : Shape} {e : EltTy} (v : View sig' κ sp S e)
    (f : v.ty.Contents (Elt F)) {off : Fin S.rank → ℕ} (hoff : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hoff inb y⟩),
    View.canon_cons_unit_zero hoff]

end Cert.KernelIdeal.Hand

end
-- ==== Proof.KI.R2Runs.lean ====
/-
  Region 2 of the idealized kernel's @main, what its three control cases share. The region is the scatter-add of the
  edge messages into the node rows: a grid of 16 node tiles by 425 edge tiles, the edge tile the inner (fastest) axis.
  At a grid point the body adds to a 3128×64 accumulator the product of a one-hot 3128×2000 matrix (row r, column e
  set when edge e of the tile points at node r of the node tile) with the tile's 2000×64 messages; the accumulator is
  zeroed first when the edge tile is the first (inner coordinate 0), and when it is the last (inner coordinate 424) the
  output block is stored as tanh (accumulator + bias). Here: the two conditions in closed form, where the output window
  is idle, the memrefs the body is called on, the entry invariant split at the accumulator, and the input blocks.
-/
import proofs.«401039_j68436008894831_1_alg».proof.Proof.Gen.KernelIdeal.Launch
import proofs.«401039_j68436008894831_1_alg».proof.Proof.Gen.KernelIdeal.Skeleton
import proofs.«401039_j68436008894831_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«401039_j68436008894831_1_alg».proof.Proof.KI.WholeStore

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The inner coordinate and the two conditions -/

/-- The inner coordinate of the `t`-th grid point is `t mod 425`: the inner axis is the fastest. -/
theorem inner2 (t : Fin cfg2.N) : ((grid2.coords t) 1).val = t.val % 425 := by
  show t.val / grid2.stride 1 % 425 = t.val % 425
  rw [show grid2.stride 1 = 1 from by decide, Nat.div_one]

/-- The body zeroes the accumulator: the inner coordinate, as a 32-bit word, equals 0 (the kernel's own scalar chain). -/
abbrev zeroes2 (i : grid2.Coords) : Prop :=
  (Scalar.cmpi .ne (Scalar.extui (Scalar.cmpi .eq (BitVec.ofNat 32 (i 1).val) 0#32)) 0#32) = 1#1
/-- The body stores the output block: the inner coordinate, as a 32-bit word, equals 424. -/
abbrev emits2 (i : grid2.Coords) : Prop := k2_cond2 i = 1#1

/-- Over the 425 values of the inner coordinate: the first condition holds at 0 only, the second at 424 only. -/
theorem conds2_inner : ∀ j : Fin 425,
    (((Scalar.cmpi .ne (Scalar.extui (Scalar.cmpi .eq (BitVec.ofNat 32 j.val) 0#32)) 0#32) = 1#1) ↔ j.val = 0)
    ∧ (((Scalar.cmpi .ne (Scalar.extui (Scalar.cmpi .eq (BitVec.ofNat 32 j.val) 424#32)) 0#32) = 1#1) ↔ j.val = 424) := by
  decide +kernel

theorem zeroes2_iff (i : grid2.Coords) : zeroes2 i ↔ (i 1).val = 0 := (conds2_inner (i 1)).1
theorem emits2_iff (i : grid2.Coords) : emits2 i ↔ (i 1).val = 424 := (conds2_inner (i 1)).2

/-- At the `t`-th point the accumulator is zeroed iff `t ≡ 0 (mod 425)`, -/
theorem zeroes2_at (t : Fin cfg2.N) : zeroes2 (grid2.coords t) ↔ t.val % 425 = 0 := by
  rw [zeroes2_iff, inner2]
/-- and the output block is stored iff `t ≡ 424 (mod 425)`. -/
theorem emits2_at (t : Fin cfg2.N) : emits2 (grid2.coords t) ↔ t.val % 425 = 424 := by
  rw [emits2_iff, inner2]

/-! ## Where the output window is idle -/

/-- The output window is idle exactly where the body does not store it. -/
theorem idle2_out (i : grid2.Coords) : cfg2.idle 3 i = true ↔ ¬emits2 i := by
  show (!(k2_cond2 i == 1#1)) = true ↔ ¬(k2_cond2 i = 1#1)
  simp only [Bool.not_eq_true', beq_eq_false_iff_ne, ne_eq]

theorem idle2_out_of (t : Fin cfg2.N) (h : ¬t.val % 425 = 424) : cfg2.idle 3 (grid2.coords t) = true :=
  (idle2_out _).mpr fun e => h ((emits2_at t).mp e)
theorem live2_out_of (t : Fin cfg2.N) (h : t.val % 425 = 424) : cfg2.idle 3 (grid2.coords t) = false := by
  cases e : cfg2.idle 3 (grid2.coords t)
  · rfl
  · exact absurd ((emits2_at t).mpr h) ((idle2_out _).mp e)
/-- Off the last edge tile the pipeline does not write the output block back. -/
theorem noFlush2_out_of (t : Fin cfg2.N) (h : ¬t.val % 425 = 424) : (cfg2.win 3).flush t = false := by
  cases e : (cfg2.win 3).flush t
  · rfl
  · exact absurd ((flush2_3 t).mp e) h

/-! ## The memrefs the body is called on -/

abbrev ms2_0 (t : Fin cfg2.N) : Memref sig .tc .vmem S2000x1 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2000x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S3128x64 .f32 := win2_3.stage (cfg2.slots t 3)
abbrev hs2_3 (t : Fin cfg2.N) : (ms2_3 t).IsWhole := hstage2_3 ((cfg2.slots t 3).cast nbuf2_3)
/-- The accumulator: a whole scoped buffer of the kernel's own, carried from point to point. -/
abbrev scM2 : Memref sig .tc .vmem S3128x64 .f32 := Memref.whole cc2_scratch0

/-- The entry invariant with the accumulator taken out of the scoped rest, owned at some contents. -/
theorem PhiA2_eq (c : Dev nD) :
    (Pipeline.ΦA spec2 c : sProp 𝕄)
      = iprop(iprop(iprop((∃ d, owns (c : Thread nD τ) scM2 fullShare d)) ∗ Pipeline.scopedRestBut spec2 c [cc2_scratch0]) ∗ (∃ r, prngReg c r)) := by
  unfold Pipeline.ΦA; rw [scopedRest2_split]; simp only [scM2, owns_whole]; try rfl

section
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window the body only reads holds its block at every point, whether the pipeline fetched it there or the
    block index stood still (the bias is fetched once): for any proof data over the entry contents that leave it so. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end

end Cert.KernelIdeal.Hand

end
-- ==== Proof.KI.R2RunA.lean ====
/-
  Region 2, the body at a grid point whose edge tile is the first of its node tile (and not the last): the accumulator
  is zeroed, then the point's one-hot product is added to it; the output block is left alone.
-/
import proofs.«401039_j68436008894831_1_alg».proof.Proof.KI.R2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where the edge tile is the first and not the last: the three inputs are read and kept, the output block is
    not touched, and the accumulator, whatever it held, is left at the point's one-hot product added to zero. -/
theorem body2_first (c : Dev nD) (E : Set ℕ) (i : grid2.Coords)
    (arg2 : Memref sig .tc .vmem S2000x1 .i32) (harg2 : arg2.IsWhole) (arg3 : Memref sig .tc .vmem S2000x64 .f32) (harg3 : arg3.IsWhole)
    (arg4 : Memref sig .tc .vmem S64 .f32) (harg4 : arg4.IsWhole) (arg5 : Memref sig .tc .vmem S3128x64 .f32) (harg5 : arg5.IsWhole)
    (arg6 : Memref sig .tc .vmem S3128x64 .f32) (harg6 : arg6.IsWhole) (hz : zeroes2 i) (he : ¬emits2 i)
    (x0 : Vec F S2000x1 .i32) (x1 : Vec F S2000x64 .f32) (x2 : Vec F S64 .f32) (xo : Vec F S3128x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ (∃ d, owns (c : Thread nD τ) arg6 fullShare d)
        ∗ (iprop(owns (c : Thread nD τ) arg2 fullShare x0 ∗ owns (c : Thread nD τ) arg3 fullShare x1 ∗ owns (c : Thread nD τ) arg4 fullShare x2
              ∗ owns (c : Thread nD τ) arg5 fullShare xo
              ∗ owns (c : Thread nD τ) arg6 fullShare (k2_pay2 i x0 x1 (k2_pay1 (F := F)))) -∗ K ⟨⟩))
      ⊢ wp frame (wpE (defs₀ (F := F)) Variants.none c none) E (cc2__scatter_kernel i arg2 harg2 arg3 harg3 arg4 harg4 arg5 harg5 arg6 harg6) K := by
  simp only [cc2__scatter_kernel_eq_skeleton]; unfold cc2__scatter_kernel_skel
  unfold owns
  iintro ⟨⟨%f0, %hf0, H0⟩, ⟨%f1, %hf1, H1⟩, ⟨%f2, %hf2, H2⟩, ⟨%f3, %hf3, H3⟩, ⟨%d6, %f6, -, H6⟩, Hk⟩
  subst hf0; subst hf1; subst hf2; subst hf3
  sl_exec (disch := first | exact hz | exact he)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H6
  ·
    ipureintro
    sl_unfold_words
    rw [read_after_whole_store _ _ origin2]
    simp only [View.readAt_eq_ld, View.ld_unit_zero (S := S2000x1) origin2, View.ld_unit_zero (S := S2000x64) origin2,
      View.ld_unit_zero (S := S3128x64) origin2, View.ld_unit_zero (S := S64) origin1, View.readCov_unit_zero (S := S3128x64) _ origin2]

end Cert.KernelIdeal.Hand

end
-- ==== Proof.KI.R2RunB.lean ====
/-
  Region 2, the body at a grid point whose edge tile is neither the first nor the last of its node tile: the point's
  one-hot product is added to the accumulator; the output block is left alone.
-/
import proofs.«401039_j68436008894831_1_alg».proof.Proof.KI.R2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where the edge tile is neither the first nor the last: the three inputs are read and kept, the output block is
    not touched, and the accumulator is left at what it held plus the point's one-hot product. -/
theorem body2_mid (c : Dev nD) (E : Set ℕ) (i : grid2.Coords)
    (arg2 : Memref sig .tc .vmem S2000x1 .i32) (harg2 : arg2.IsWhole) (arg3 : Memref sig .tc .vmem S2000x64 .f32) (harg3 : arg3.IsWhole)
    (arg4 : Memref sig .tc .vmem S64 .f32) (harg4 : arg4.IsWhole) (arg5 : Memref sig .tc .vmem S3128x64 .f32) (harg5 : arg5.IsWhole)
    (arg6 : Memref sig .tc .vmem S3128x64 .f32) (harg6 : arg6.IsWhole) (hz : ¬zeroes2 i) (he : ¬emits2 i)
    (x0 : Vec F S2000x1 .i32) (x1 : Vec F S2000x64 .f32) (x2 : Vec F S64 .f32) (xo : Vec F S3128x64 .f32) (s : Vec F S3128x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare s
        ∗ (iprop(owns (c : Thread nD τ) arg2 fullShare x0 ∗ owns (c : Thread nD τ) arg3 fullShare x1 ∗ owns (c : Thread nD τ) arg4 fullShare x2
              ∗ owns (c : Thread nD τ) arg5 fullShare xo
              ∗ owns (c : Thread nD τ) arg6 fullShare (k2_pay2 i x0 x1 s)) -∗ K ⟨⟩))
      ⊢ wp frame (wpE (defs₀ (F := F)) Variants.none c none) E (cc2__scatter_kernel i arg2 harg2 arg3 harg3 arg4 harg4 arg5 harg5 arg6 harg6) K := by
  simp only [cc2__scatter_kernel_eq_skeleton]; unfold cc2__scatter_kernel_skel
  unfold owns
  iintro ⟨⟨%f0, %hf0, H0⟩, ⟨%f1, %hf1, H1⟩, ⟨%f2, %hf2, H2⟩, ⟨%f3, %hf3, H3⟩, ⟨%f6, %hf6, H6⟩, Hk⟩
  subst hf0; subst hf1; subst hf2; subst hf3; subst hf6
  sl_exec (disch := first | exact hz | exact he)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H6
  ·
    ipureintro
    sl_unfold_words
    rw [read_after_whole_store _ _ origin2]
    simp only [View.readAt_eq_ld, View.ld_unit_zero (S := S2000x1) origin2, View.ld_unit_zero (S := S2000x64) origin2,
      View.ld_unit_zero (S := S3128x64) origin2, View.ld_unit_zero (S := S64) origin1, View.readCov_unit_zero (S := S3128x64) _ origin2]

end Cert.KernelIdeal.Hand

end
-- ==== Proof.KI.R2RunC.lean ====
/-
  Region 2, the body at a grid point whose edge tile is the last of its node tile (and not the first): the point's
  one-hot product is added to the accumulator, and the output block is stored from the sum and the bias row.
-/
import proofs.«401039_j68436008894831_1_alg».proof.Proof.KI.R2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where the edge tile is the last and not the first: the three inputs are read and kept, the accumulator is left
    at what it held plus the point's one-hot product, and the output block, whatever it held, at the tanh of that sum
    plus the bias row. -/
theorem body2_last (c : Dev nD) (E : Set ℕ) (i : grid2.Coords)
    (arg2 : Memref sig .tc .vmem S2000x1 .i32) (harg2 : arg2.IsWhole) (arg3 : Memref sig .tc .vmem S2000x64 .f32) (harg3 : arg3.IsWhole)
    (arg4 : Memref sig .tc .vmem S64 .f32) (harg4 : arg4.IsWhole) (arg5 : Memref sig .tc .vmem S3128x64 .f32) (harg5 : arg5.IsWhole)
    (arg6 : Memref sig .tc .vmem S3128x64 .f32) (harg6 : arg6.IsWhole) (hz : ¬zeroes2 i) (he : emits2 i)
    (x0 : Vec F S2000x1 .i32) (x1 : Vec F S2000x64 .f32) (x2 : Vec F S64 .f32) (s : Vec F S3128x64 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare s
        ∗ (iprop(owns (c : Thread nD τ) arg2 fullShare x0 ∗ owns (c : Thread nD τ) arg3 fullShare x1 ∗ owns (c : Thread nD τ) arg4 fullShare x2
              ∗ owns (c : Thread nD τ) arg5 fullShare (k2_pay3 (k2_pay2 i x0 x1 s) x2)
              ∗ owns (c : Thread nD τ) arg6 fullShare (k2_pay2 i x0 x1 s)) -∗ K ⟨⟩))
      ⊢ wp frame (wpE (defs₀ (F := F)) Variants.none c none) E (cc2__scatter_kernel i arg2 harg2 arg3 harg3 arg4 harg4 arg5 harg5 arg6 harg6) K := by
  simp only [cc2__scatter_kernel_eq_skeleton]; unfold cc2__scatter_kernel_skel
  unfold owns
  iintro ⟨⟨%f0, %hf0, H0⟩, ⟨%f1, %hf1, H1⟩, ⟨%f2, %hf2, H2⟩, ⟨%d3, %f3, -, H3⟩, ⟨%f6, %hf6, H6⟩, Hk⟩
  subst hf0; subst hf1; subst hf2; subst hf6
  sl_exec (disch := first | exact hz | exact he)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ·
      ipureintro
      sl_unfold_words
      rw [read_after_whole_store _ _ origin2]
      simp only [View.readAt_eq_ld, View.ld_unit_zero (S := S2000x1) origin2, View.ld_unit_zero (S := S2000x64) origin2,
      View.ld_unit_zero (S := S3128x64) origin2, View.ld_unit_zero (S := S64) origin1, View.readCov_unit_zero (S := S3128x64) _ origin2]
  iexists _; isplitr
  swap; · iexact H6
  ·
    ipureintro
    sl_unfold_words
    rw [read_after_whole_store _ _ origin2]
    simp only [View.readAt_eq_ld, View.ld_unit_zero (S := S2000x1) origin2, View.ld_unit_zero (S := S2000x64) origin2,
      View.ld_unit_zero (S := S3128x64) origin2, View.ld_unit_zero (S := S64) origin1, View.readCov_unit_zero (S := S3128x64) _ origin2]

end Cert.KernelIdeal.Hand

end
-- ==== Proof.KI.R2.lean ====
/-
  Region 2 of the idealized kernel's @main, the frame half: what the accumulator holds after each grid point, as a
  recursion over the body's own arithmetic (zero, or the point before, plus the point's one-hot product), the block the
  last edge tile of a node tile stores (tanh of the accumulator plus the bias row), the invariant that carries the
  accumulator from point to point, the pipeline's proof data over any region-entry contents `V`, and the body obligation
  by cases on the inner coordinate (first / middle / last edge tile).
-/
import proofs.«401039_j68436008894831_1_alg».proof.Proof.KI.R2RunA
import proofs.«401039_j68436008894831_1_alg».proof.Proof.KI.R2RunB
import proofs.«401039_j68436008894831_1_alg».proof.Proof.KI.R2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What the accumulator and the output block hold after each point -/

/-- THE ACCUMULATION. The accumulator after the body at position `n`: the point's one-hot product (of its edge-index block
    and its message block) added to zero where the edge tile is the first of its node tile (`n ≡ 0 (mod 425)`), and to
    what the point before left elsewhere. -/
def acc2 (c : Dev nD) : (n : ℕ) → n < cfg2.N → Vec F S3128x64 .f32
  | 0, hn => k2_pay2 (grid2.coords ⟨0, hn⟩) (iblk2 V c 0 ⟨0, hn⟩) (iblk2 V c 1 ⟨0, hn⟩) (k2_pay1 (F := F))
  | n + 1, hn => k2_pay2 (grid2.coords ⟨n + 1, hn⟩) (iblk2 V c 0 ⟨n + 1, hn⟩) (iblk2 V c 1 ⟨n + 1, hn⟩)
      (if (n + 1) % 425 = 0 then k2_pay1 (F := F) else acc2 c n (Nat.lt_of_succ_lt hn))

/-- After position `n`: the block the body stores into the output window where the edge tile is the last — tanh of the
    accumulator plus the bias row; at the other points a value nothing reads, the window being idle there — and the
    accumulator. -/
def outsAt2 (c : Dev nD) : (n : ℕ) → n < cfg2.N → Vec F S3128x64 .f32 × Vec F S3128x64 .f32 :=
  fun n hn => (k2_pay3 (acc2 V c n hn) (iblk2 V c 2 ⟨n, hn⟩), acc2 V c n hn)

/-- At a first edge tile the accumulator restarts from zero. -/
theorem acc2_at_first (c : Dev nD) (t : Fin cfg2.N) (h : t.val % 425 = 0) :
    acc2 V c t.val t.isLt = k2_pay2 (grid2.coords t) (iblk2 V c 0 t) (iblk2 V c 1 t) (k2_pay1 (F := F)) := by
  obtain ⟨n, hn⟩ := t
  cases n with
  | zero => rfl
  | succ n =>
    have h' : (n + 1) % 425 = 0 := h
    exact congrArg (k2_pay2 _ _ _) (if_pos h')

/-- At any other edge tile it continues from the point before. -/
theorem acc2_at_next (c : Dev nD) (t : Fin cfg2.N) (h : ¬t.val % 425 = 0) :
    acc2 V c t.val t.isLt = k2_pay2 (grid2.coords t) (iblk2 V c 0 t) (iblk2 V c 1 t)
      (acc2 V c (t.val - 1) (Nat.lt_of_le_of_lt (Nat.sub_le _ _) t.isLt)) := by
  obtain ⟨n, hn⟩ := t
  cases n with
  | zero => exact absurd (Nat.zero_mod _) h
  | succ n =>
    have h' : ¬(n + 1) % 425 = 0 := h
    exact congrArg (k2_pay2 _ _ _) (if_neg h')

theorem acc2_reset (c : Dev nD) (t : Fin cfg2.N) (h : t.val % 425 = 0) :
    (outsAt2 V c t.val t.isLt).2 = k2_pay2 (grid2.coords t) (iblk2 V c 0 t) (iblk2 V c 1 t) (k2_pay1 (F := F)) :=
  acc2_at_first V c t h
theorem acc2_step (c : Dev nD) (t : Fin cfg2.N) (h : ¬ t.val % 425 = 0) :
    (outsAt2 V c t.val t.isLt).2 = k2_pay2 (grid2.coords t) (iblk2 V c 0 t) (iblk2 V c 1 t)
      (outsAt2 V c (t.val - 1) (Nat.lt_of_le_of_lt (Nat.sub_le _ _) t.isLt)).2 :=
  acc2_at_next V c t h
theorem out2_last (c : Dev nD) (t : Fin cfg2.N) (h : t.val % 425 = 424) :
    (outsAt2 V c t.val t.isLt).1 = k2_pay3 (outsAt2 V c t.val t.isLt).2 (iblk2 V c 2 t) := rfl
/-- The output component, over the accumulator. -/
theorem out2_eq (c : Dev nD) (t : Fin cfg2.N) :
    (outsAt2 V c t.val t.isLt).1 = k2_pay3 (acc2 V c t.val t.isLt) (iblk2 V c 2 t) := rfl

/-! ## The invariant from point to point -/

/-- Before position `n`: at the region's entry the class's invariant (the accumulator at anything); after a point, the
    accumulator at what that point left, the other scoped buffers unopened, the generator register at some state. -/
def PhiS2 (c : Dev nD) : (n : ℕ) → n ≤ cfg2.N → sProp 𝕄
  | 0, _ => Pipeline.ΦA spec2 c
  | n + 1, hn => iprop(iprop(owns (c : Thread nD τ) scM2 fullShare (acc2 V c n hn) ∗ Pipeline.scopedRestBut spec2 c [cc2_scratch0]) ∗ (∃ r, prngReg c r))

theorem PhiS2_after (c : Dev nD) (n : ℕ) (hn : n < cfg2.N) :
    PhiS2 V c (n + 1) hn = iprop(iprop(owns (c : Thread nD τ) scM2 fullShare (acc2 V c n hn) ∗ Pipeline.scopedRestBut spec2 c [cc2_scratch0]) ∗ (∃ r, prngReg c r)) := rfl

theorem PhiS2_later (c : Dev nD) (n : ℕ) (h : n ≤ cfg2.N) (hz : n ≠ 0) :
    PhiS2 V c n h = iprop(iprop(owns (c : Thread nD τ) scM2 fullShare (acc2 V c (n - 1) (by omega)) ∗ Pipeline.scopedRestBut spec2 c [cc2_scratch0]) ∗ (∃ r, prngReg c r)) := by
  cases n with
  | zero => exact absurd rfl hz
  | succ n => rfl

/-- At every position the invariant gives the accumulator at SOME contents: what the zeroing case and the region's exit ask. -/
theorem PhiS2_any (c : Dev nD) (n : ℕ) (h : n ≤ cfg2.N) :
    PhiS2 V c n h ⊢ iprop(iprop(iprop((∃ d, owns (c : Thread nD τ) scM2 fullShare d)) ∗ Pipeline.scopedRestBut spec2 c [cc2_scratch0]) ∗ (∃ r, prngReg c r)) := by
  cases n with
  | zero =>
    rw [show PhiS2 V c 0 h = Pipeline.ΦA spec2 c from rfl, PhiA2_eq]
    try exact Idealize.SL.BI.Entails.refl _
  | succ n =>
    rw [PhiS2_after]
    iintro ⟨⟨HS, HR⟩, Hg⟩
    isplitl [HS HR]
    · isplitl [HS]
      · iexists _; iexact HS
      · iexact HR
    · iexact Hg

/-! ## The proof data -/

/-- The proof data of pipeline 2 on core `c`: the arrays as the region finds them; after the body each input window at
    its block, the output window at `outsAt2`'s first component; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem Phi2_eq (c : Dev nD) (t : Fin (cfg2.N + 1)) : (dat2 V c).Φ t = PhiS2 V c t.val (Nat.le_of_lt_succ t.isLt) := rfl
theorem Phi2_start (c : Dev nD) (t : Fin cfg2.N) : (dat2 V c).Φ t.castSucc = PhiS2 V c t.val (Nat.le_of_lt t.isLt) := rfl
theorem Phi2_end (c : Dev nD) (t : Fin cfg2.N) : (dat2 V c).Φ t.succ = PhiS2 V c (t.val + 1) t.isLt := rfl

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- An input window is never idle: the body hands its buffer back at its block. -/
theorem leaves2_0 (c : Dev nD) (t : Fin cfg2.N) : (dat2 V c).leavesExact 0 t = owns (c : Thread nD τ) (ms2_0 t) fullShare (iblk2 V c 0 t) := by
  unfold Dat.leavesExact; rw [show cfg2.idle 0 (cfg2.grid.coords t) = false from rfl, after2_0]
theorem leaves2_1 (c : Dev nD) (t : Fin cfg2.N) : (dat2 V c).leavesExact 1 t = owns (c : Thread nD τ) (ms2_1 t) fullShare (iblk2 V c 1 t) := by
  unfold Dat.leavesExact; rw [show cfg2.idle 1 (cfg2.grid.coords t) = false from rfl, after2_1]
theorem leaves2_2 (c : Dev nD) (t : Fin cfg2.N) : (dat2 V c).leavesExact 2 t = owns (c : Thread nD τ) (ms2_2 t) fullShare (iblk2 V c 2 t) := by
  unfold Dat.leavesExact; rw [show cfg2.idle 2 (cfg2.grid.coords t) = false from rfl, after2_2]
/-- At a last edge tile the output window is live: the body leaves the stored block. -/
theorem leaves2_3_last (c : Dev nD) (t : Fin cfg2.N) (h : t.val % 425 = 424) :
    (dat2 V c).leavesExact 3 t = owns (c : Thread nD τ) (ms2_3 t) fullShare (k2_pay3 (acc2 V c t.val t.isLt) (iblk2 V c 2 t)) := by
  unfold Dat.leavesExact; rw [live2_out_of t h, after2_3, out2_eq]

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t ∗ (dat2 V c).leavesExact 3 t)

set_option maxHeartbeats 4000000 in
/-- The body at any point, by the inner coordinate. The inputs' buffers hold their blocks. Where the edge tile is the first
    the invariant gives the accumulator at anything and the zeroing case leaves it at the restarted sum; elsewhere the point
    is not the grid's first, the invariant gives it at what the point before left, and the body adds to that. Off the last
    edge tile the output window is idle and not written back: its buffer goes back as found; at the last the body leaves
    the stored block. Nothing is owed throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl,
    Phi2_start, Phi2_end, PhiS2_after, leaves2_0, leaves2_1, leaves2_2]
  by_cases h0 : t.val % 425 = 0
  · have h1 : ¬t.val % 425 = 424 := by omega
    rw [Dat.leavesExact_idle (dat2 V c) 3 t (idle2_out_of t h1) (noFlush2_out_of t h1), acc2_at_first V c t h0]
    refine (sep_mono_left (PhiS2_any V c _ _)).trans ?_
    iintro ⟨⟨⟨⟨%s, HS⟩, HR⟩, Hg⟩, Ho, ⟨%d0, H0⟩, ⟨%d1, H1⟩, ⟨%d2, H2⟩, ⟨%d3, H3⟩⟩
    iapply (body2_first c Set.univ (grid2.coords t) _ _ _ _ _ _ _ _ _ _ ((zeroes2_at t).mpr h0) (fun e => h1 ((emits2_at t).mp e))
      (iblk2 V c 0 t) (iblk2 V c 1 t) (iblk2 V c 2 t) _ _)
    isplitl [H0]; · iexact H0
    isplitl [H1]; · iexact H1
    isplitl [H2]; · iexact H2
    isplitl [H3]; · iexact H3
    isplitl [HS]; · iexists _; iexact HS
    iintro ⟨H0, H1, H2, H3, HS⟩
    isplitl [HS HR Hg]
    · isplitl [HS HR]
      · isplitl [HS]; · iexact HS
        iexact HR
      · iexact Hg
    isplitl [Ho]; · iexact Ho
    isplitl [H0]; · iexact H0
    isplitl [H1]; · iexact H1
    isplitl [H2]; · iexact H2
    iexists _; iexact H3
  · have hz : t.val ≠ 0 := fun e => h0 (by rw [e])
    rw [PhiS2_later V c _ _ hz, acc2_at_next V c t h0]
    by_cases h1 : t.val % 425 = 424
    · rw [leaves2_3_last V c t h1, acc2_at_next V c t h0]
      iintro ⟨⟨⟨HS, HR⟩, Hg⟩, Ho, ⟨%d0, H0⟩, ⟨%d1, H1⟩, ⟨%d2, H2⟩, ⟨%d3, H3⟩⟩
      iapply (body2_last c Set.univ (grid2.coords t) _ _ _ _ _ _ _ _ _ _ (fun e => h0 ((zeroes2_at t).mp e)) ((emits2_at t).mpr h1)
        (iblk2 V c 0 t) (iblk2 V c 1 t) (iblk2 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        · iexact Hg
      isplitl [Ho]; · iexact Ho
      isplitl [H0]; · iexact H0
      isplitl [H1]; · iexact H1
      isplitl [H2]; · iexact H2
      iexact H3
    · rw [Dat.leavesExact_idle (dat2 V c) 3 t (idle2_out_of t h1) (noFlush2_out_of t h1)]
      iintro ⟨⟨⟨HS, HR⟩, Hg⟩, Ho, ⟨%d0, H0⟩, ⟨%d1, H1⟩, ⟨%d2, H2⟩, ⟨%d3, H3⟩⟩
      iapply (body2_mid c Set.univ (grid2.coords t) _ _ _ _ _ _ _ _ _ _ (fun e => h0 ((zeroes2_at t).mp e)) (fun e => h1 ((emits2_at t).mp e))
        (iblk2 V c 0 t) (iblk2 V c 1 t) (iblk2 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        · iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = Pipeline.ΦA spec2 c from rfl]
  try exact Idealize.SL.BI.Entails.refl _

/-- After the last point the invariant gives the class's back: the accumulator's contents are forgotten. -/
theorem hout2 (c : Dev nD) : (dat2 V c).Φ (Fin.last cfg2.N) ⊢ Pipeline.ΦA spec2 c := by
  rw [PhiA2_eq, Phi2_eq]
  exact PhiS2_any V c _ _

end

end Cert.KernelIdeal.Hand

end
-- ==== Proof.KI.R3.lean ====
/-
  Region 3 of the idealized kernel's @main: the dense row-tiled product `h · W₂` of the 3128-row tiles of the hidden
  features (3128×64) with the whole weight matrix of the second convolution (64×64), one tile per grid point. The body reads the tile
  and the matrix, multiplies them on the matrix unit, operands rounded to bf16 and accumulating from zero, and stores
  the 3128×64 product. Nothing is kept from point to point: the output block at a point is one pure function of the
  two input blocks there. Stated for any float family and any region-entry contents `V`.
-/
import proofs.«401039_j68436008894831_1_alg».proof.Proof.Gen.KernelIdeal.Launch
import proofs.«401039_j68436008894831_1_alg».proof.Proof.Gen.KernelIdeal.Skeleton
import proofs.«401039_j68436008894831_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body at one point

Every access of the body is through the whole of a staging block: two whole loads and one whole store. -/

abbrev tile3 : Rect S3128x64 := Rect.unit (s := S3128x64) ![0, 0] S3128x64.size inb_S3128x64_S3128x64_0_0
abbrev wgt3 : Rect S64x64 := Rect.unit (s := S64x64) ![0, 0] S64x64.size inb_S64x64_S64x64_0_0

/-- What the body leaves in the output block: its one store, of the product of the two loaded blocks, over the whole
    tile. -/
def out3_2 (x0 : Vec F S3128x64 .f32) (x1 : Vec F S64x64 .f32) : Vec F S3128x64 .f32 :=
  View.canon [⟨tile3, k3_pay1 (View.ld x0 tile3) (View.ld x1 wgt3)⟩]

/-- The one store is of the whole tile, so no index of the block escapes it. -/
theorem tile3_fills (p : Vec F S3128x64 .f32) :
    ∀ y : S3128x64.Idx, ∃ pc ∈ ([⟨tile3, p⟩] : List (View.Piece (Elt F) S3128x64 .f32)), y ∈ pc.1.set :=
  View.cover_of_wholeMem _ (View.Piece.wholeMem_here (by rfl))

/-- Elements held at contents that read `X` through the memref are owned at `X`. -/
theorem owns_of_reads3 (c : Dev nD) {sp : Space} {sh : Shape} {e : EltTy} (m : Memref sig .tc sp sh e) (q : PosShare TreeShare)
    (f : m.view.ty.Contents (Elt F)) (X : sh.Idx → Elt F e) (h : m.view.read (Elt F) f = X) :
    (m.view.loc (c : Thread nD τ) ↦[m.view.set]{q} f : sProp 𝕄) ⊢ owns (c : Thread nD τ) m q X :=
  h ▸ owns_intro (c : Thread nD τ) m q f

set_option maxHeartbeats 1000000 in
/-- The body as a triple over whole staging memrefs, beside anything `I`, `O` the caller holds: the two inputs are
    read and kept, and whatever the output buffer held is overwritten by their product. -/
theorem linear_point3 (c : Dev nD) (E : Set ℕ) (i : grid3.Coords)
    (arg1 : Memref sig .tc .vmem S3128x64 .f32) (harg1 : arg1.IsWhole) (arg2 : Memref sig .tc .vmem S64x64 .f32) (harg2 : arg2.IsWhole)
    (arg3 : Memref sig .tc .vmem S3128x64 .f32) (harg3 : arg3.IsWhole)
    (x0 : Vec F S3128x64 .f32) (x1 : Vec F S64x64 .f32) (I O : sProp 𝕄) :
    iprop(I ∗ O ∗ owns (c : Thread nD τ) arg1 fullShare x0 ∗ owns (c : Thread nD τ) arg2 fullShare x1 ∗ (∃ d, owns (c : Thread nD τ) arg3 fullShare d))
      ⊢ wp frame (wpE (defs₀ (F := F)) Variants.none c none) E (cc3__linear_kernel i arg1 harg1 arg2 harg2 arg3 harg3)
          (fun _ => iprop(I ∗ O ∗ owns (c : Thread nD τ) arg1 fullShare x0 ∗ owns (c : Thread nD τ) arg2 fullShare x1
            ∗ owns (c : Thread nD τ) arg3 fullShare (out3_2 x0 x1))) := by
  simp only [cc3__linear_kernel_eq_skeleton]; unfold cc3__linear_kernel_skel
  conv_lhs => unfold owns
  iintro ⟨HI, HO, ⟨%f0, %e0, H0⟩, ⟨%f1, %e1, H1⟩, ⟨%d2, %f2, -, H2⟩⟩
  subst e0 e1
  sl_exec
  sl_step
  iframe HI HO
  isplitl [H0]; · iapply (owns_of_reads3 c arg1 _ f0 _ rfl) $$ H0
  isplitl [H1]; · iapply (owns_of_reads3 c arg2 _ f1 _ rfl) $$ H1
  iapply (owns_of_reads3 c arg3 _ _ _ (View.read_writes_eq_canon _ _ _ (tile3_fills _))) $$ H2

/-! ## The proof data -/

/-- The proof data of pipeline 3 on core `c`: the arrays as the region finds them; after the body each input buffer
    still at its block, the output buffer at the product of the two blocks; the invariant, shares and tallies constant. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- What a fetch of window `w` at `t` would read of its array is the block named above, for every window at once. -/
theorem blockOf3 (c : Dev nD) (w : Fin cfg3.W) (t : Fin cfg3.N) : (dat3 V c).blockOf w t = iblk3 V c w t := by
  unfold Dat.blockOf iblk3; rw [A_eq3]

/-! Each input buffer holds its window's block whenever the body runs: right after a fetch because the fetch put it
there, and at a point without a fetch because the window's block index has not moved since the last one and the body
leaves the buffer as it found it. The tile is fetched at every point, the matrix at the first point only. -/

theorem found3_0 (c : Dev nD) (t : Fin cfg3.N) (d) : (dat3 V c).before 0 t d = iblk3 V c 0 t := by
  rw [(dat3 V c).before_in_eq_fetched 0 rfl (fun _ => rfl) (fun _ _ _ => rfl) (fun s => by rw [after3_0, blockOf3]) t d]
  unfold Dat.fetched; rw [blockOf3]; rfl
theorem found3_1 (c : Dev nD) (t : Fin cfg3.N) (d) : (dat3 V c).before 1 t d = iblk3 V c 1 t := by
  rw [(dat3 V c).before_in_eq_fetched 1 rfl (fun _ => rfl) (fun _ _ _ => rfl) (fun s => by rw [after3_1, blockOf3]) t d]
  unfold Dat.fetched; rw [blockOf3]; rfl

/-! ## The body obligation -/

/-- The obligation at point `t`, its three windows written out: the invariant and the tallies pass through untouched,
    the inputs are handed over at their blocks and returned so, the output comes back at `out3_2` of them. -/
theorem at_point3 (c : Dev nD) (t : Fin cfg3.N) :
    iprop((dat3 V c).Φ t.castSucc ∗ (dat3 V c).owesAt () t.castSucc
        ∗ (∃ d, owns (c : Thread nD τ) (st3_0 t) fullShare ((dat3 V c).before 0 t d))
        ∗ (∃ d, owns (c : Thread nD τ) (st3_1 t) fullShare ((dat3 V c).before 1 t d))
        ∗ (∃ d, owns (c : Thread nD τ) (st3_2 t) fullShare ((dat3 V c).before 2 t d)))
      ⊢ wp frame (wpE (defs₀ (F := F)) Variants.none c none) Set.univ (bodyAt3 t) (fun _ =>
          iprop((dat3 V c).Φ t.succ ∗ (dat3 V c).owesAt () t.succ
            ∗ owns (c : Thread nD τ) (st3_0 t) fullShare ((dat3 V c).after 0 t)
            ∗ owns (c : Thread nD τ) (st3_1 t) fullShare ((dat3 V c).after 1 t)
            ∗ owns (c : Thread nD τ) (st3_2 t) fullShare ((dat3 V c).after 2 t))) := by
  simp only [found3_0, found3_1]
  rw [after3_0, after3_1, after3_2]
  iintro ⟨HI, HO, ⟨%d0, H0⟩, ⟨%d1, H1⟩, ⟨%d2, H2⟩⟩
  iapply (linear_point3 c Set.univ _ _ _ _ _ _ _ (iblk3 V c 0 t) (iblk3 V c 1 t)
    ((dat3 V c).Φ t.castSucc) ((dat3 V c).owesAt () t.castSucc))
  iframe HI HO H0 H1
  iexists _; iexact H2

theorem body_obligation3 (c : Dev nD) : BodyObligation (dat3 (F := F) V c) (defs₀ (F := F)) Variants.none () Set.univ := fun t => by
  rw [bigSep_W3, bigSep_W3]
  exact at_point3 V c t

/-- The invariant is the region's own at both ends. -/
theorem hin3 (c : Dev nD) : Pipeline.ΦA spec3 c ⊢ (dat3 V c).Φ 0 := BI.Entails.refl _
theorem hout3 (c : Dev nD) : (dat3 V c).Φ (Fin.last cfg3.N) ⊢ Pipeline.ΦA spec3 c := BI.Entails.refl _

end

end Cert.KernelIdeal.Hand

end
-- ==== Proof.KI.R4Runs.lean ====
/-
  Region 4 of the idealized kernel's @main, the part its three control cases share. The grid is 425 × 16, the
  inner axis a reduction over sixteen node blocks: point t has inner coordinate t mod 16. At inner coordinate 0 the
  body zeroes a 2000×64 accumulator kept in scratch memory; at every point it adds the product of a one-hot
  2000×3128 selector with the current 3128×64 node block into the accumulator; at inner coordinate 15 it scales the
  accumulator row by row and stores the result as the output block. Here: the inner coordinate and the two branch
  conditions as functions of it, where the output window is idle and not written back, the scratch memref, the
  region invariant of the class opened at the scratch, the input blocks, and two facts about memory: a whole-buffer
  store made last fixes what the buffer reads, and an input window holds its block at every point.
  Stated for any float family and any region-entry contents V.
-/
import proofs.«401039_j68436008894831_1_alg».proof.Proof.Gen.KernelIdeal.Launch
import proofs.«401039_j68436008894831_1_alg».proof.Proof.Gen.KernelIdeal.Skeleton
import proofs.«401039_j68436008894831_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The inner coordinate and the branch conditions -/

/-- The inner axis has stride one and bound sixteen: the inner coordinate of point t is t mod 16. -/
theorem inner4 (t : Fin cfg4.N) : (grid4.coords t 1).val = t.val % 16 := by
  show t.val / grid4.stride 1 % 16 = t.val % 16
  rw [show grid4.stride 1 = 1 from by decide, Nat.div_one]

/-- The zeroing branch's condition, as the body computes it from the inner coordinate. -/
abbrev atFirst4 (i : grid4.Coords) : Prop :=
  Scalar.cmpi .ne (Scalar.extui (Scalar.cmpi .eq (BitVec.ofNat 32 (i 1).val) 0#32)) 0#32 = 1#1
/-- The output branch's condition. -/
abbrev atLast4 (i : grid4.Coords) : Prop := k4_cond2 i = 1#1

/-- Over the sixteen inner coordinates: the first comparison chain holds at 0 only, -/
theorem first_of_inner4 : ∀ k : Fin 16,
    (Scalar.cmpi .ne (Scalar.extui (Scalar.cmpi .eq (BitVec.ofNat 32 k.val) 0#32)) 0#32 = 1#1) ↔ k.val = 0 := by
  decide +kernel
/-- the second at 15 only. -/
theorem last_of_inner4 : ∀ k : Fin 16,
    (Scalar.cmpi .ne (Scalar.extui (Scalar.cmpi .eq (BitVec.ofNat 32 k.val) 15#32)) 0#32 = 1#1) ↔ k.val = 15 := by
  decide +kernel

theorem atFirst4_iff (t : Fin cfg4.N) : atFirst4 (grid4.coords t) ↔ t.val % 16 = 0 := by
  rw [← inner4 t]; exact first_of_inner4 (grid4.coords t 1)
theorem atLast4_iff (t : Fin cfg4.N) : atLast4 (grid4.coords t) ↔ t.val % 16 = 15 := by
  rw [← inner4 t]; exact last_of_inner4 (grid4.coords t 1)

/-! ## Where the output window is idle -/

/-- Off the last inner coordinate the configuration calls the output window idle, -/
theorem idle4_3 (t : Fin cfg4.N) (h : ¬ t.val % 16 = 15) : cfg4.idle 3 (grid4.coords t) = true := by
  have hb : (k4_cond2 (grid4.coords t) == 1#1) = false :=
    beq_eq_false_iff_ne.mpr fun e => h ((atLast4_iff t).mp e)
  show (!(k4_cond2 (grid4.coords t) == 1#1)) = true
  rw [hb]; rfl
/-- and the pipeline does not write its block back; -/
theorem keep4_3 (t : Fin cfg4.N) (h : ¬ t.val % 16 = 15) : (cfg4.win 3).flush t = false :=
  Bool.eq_false_iff.mpr fun hf => h ((flush4_3 t).mp hf)
/-- at the last inner coordinate it is live. -/
theorem live4_3 (t : Fin cfg4.N) (h : t.val % 16 = 15) : cfg4.idle 3 (grid4.coords t) = false := by
  have hb : (k4_cond2 (grid4.coords t) == 1#1) = true := beq_iff_eq.mpr ((atLast4_iff t).mpr h)
  show (!(k4_cond2 (grid4.coords t) == 1#1)) = false
  rw [hb]; rfl

/-! ## The scratch accumulator and the class invariant opened at it -/

/-- The accumulator: the call's one scratch operand, a whole buffer. -/
abbrev scM4 : Memref sig .tc .vmem S2000x64 .f32 := Memref.whole cc4_scratch0

/-- The class's region invariant is: the accumulator at some contents, every other scoped buffer that is no staging
    buffer of this call unopened, the generator register at some state. -/
theorem PhiA4_eq (c : Dev nD) :
    (Pipeline.ΦA spec4 c : sProp 𝕄)
      = iprop(iprop((∃ d, owns (c : Thread nD τ) scM4 fullShare d)
          ∗ Pipeline.scopedRestBut (Ix := Unit) (Name := ℕ) (U := UR sig nD τ) (Lvl := ℕ) (Val := Elt F) spec4 c [cc4_scratch0])
          ∗ (∃ r, prngReg c r)) := by
  unfold Pipeline.ΦA; rw [scopedRest4_split]; simp only [scM4, owns_whole]; try rfl

/-! ## A whole-buffer store made last -/

/-- After a list of stores whose last is through the whole-shape rectangle at zero offsets, the buffer reads that
    store's payload, whatever it held and whatever the earlier stores were. -/
theorem View.read_writes_whole_last4 {sg : RefSig} {κ : Kind} {sp : Space} {S : Shape} {e : EltTy} {Val : EltTy → Type}
    [∀ e, Nonempty (Val e)] (v : View sg κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb w L]

/-! ## The input blocks -/

section
variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The three inputs are uncut and never idle, and the body leaves them in place: so each one's current staging
    buffer holds its block at every point, at the points that do not fetch it too (its block index has not moved
    since the fetch). For any proof data over the arrays V that keeps the block. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

end

end Cert.KernelIdeal.Hand

end
-- ==== Proof.KI.R4RunA.lean ====
/-
  Region 4, the body's run at the first inner coordinate: the zeroing branch is taken, the output branch is not. By
  symbolic execution of the skeleton over whole staging memrefs. The accumulator is stored twice through the whole
  rectangle, zeros and then the update: it reads the later payload, and the load between the two stores reads the zeros.
-/
import proofs.«401039_j68436008894831_1_alg».proof.Proof.KI.R4Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the first inner coordinate the zeroing branch is taken and the output branch is not: the body stores zeros over
    the accumulator whatever it held, reads them back with the index block and the node block, and stores zeros plus the
    selected rows; the inputs and the output buffer are left as found. -/
theorem run4_first (c : Dev nD) (E : Set ℕ) (i : grid4.Coords) (a2 : Memref sig .tc .vmem S2000x1 .i32) (h2 : a2.IsWhole) (a3 : Memref sig .tc .vmem S2000x1 .f32) (h3 : a3.IsWhole) (a4 : Memref sig .tc .vmem S3128x64 .f32) (h4 : a4.IsWhole) (a5 : Memref sig .tc .vmem S2000x64 .f32) (h5 : a5.IsWhole) (a6 : Memref sig .tc .vmem S2000x64 .f32) (h6 : a6.IsWhole)
    (hF : atFirst4 i) (hL : ¬ atLast4 i)
    (x0 : Vec F S2000x1 .i32) (x1 : Vec F S2000x1 .f32) (x2 : Vec F S3128x64 .f32) (y : Vec F S2000x64 .f32)
    (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare y ∗ (∃ d, owns (c : Thread nD τ) a6 fullShare d)
        ∗ (iprop(owns (c : Thread nD τ) a2 fullShare x0 ∗ owns (c : Thread nD τ) a3 fullShare x1 ∗ owns (c : Thread nD τ) a4 fullShare x2
            ∗ owns (c : Thread nD τ) a5 fullShare y ∗ owns (c : Thread nD τ) a6 fullShare (k4_pay2 i x0 x2 (k4_pay1 (F := F)))) -∗ K ⟨⟩))
      ⊢ wp frame (wpE (defs₀ (F := F)) Variants.none c none) E (cc4__gather_kernel i a2 h2 a3 h3 a4 h4 a5 h5 a6 h6) K := by
  simp only [cc4__gather_kernel_eq_skeleton]; unfold cc4__gather_kernel_skel
  unfold owns
  iintro ⟨⟨%f0, %e0, H0⟩, ⟨%f1, %e1, H1⟩, ⟨%f2, %e2, H2⟩, ⟨%f3, %e3, H3⟩, ⟨%d, %fs, -, HS⟩, Hk⟩
  subst e0; subst e1; subst e2; subst e3
  sl_exec (disch := first | exact hF | exact hL)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  have hz : (![0, 0] : Fin 2 → Nat) = fun _ => 0 := by funext a; fin_cases a <;> rfl
  rw [View.read_writes_whole_last4 _ _ hz]
  sl_unfold_words
  simp only [View.readAt_eq_ld, View.ld_unit_zero (S := S2000x1) hz, View.ld_unit_zero (S := S3128x64) hz,
    View.ld_unit_zero (S := S2000x64) hz, View.readCov_unit_zero (S := S2000x64) _ hz]

end Cert.KernelIdeal.Hand

end
-- ==== Proof.KI.R4RunB.lean ====
/-
  Region 4, the body's run between the first and the last inner coordinate: neither conditional branch is taken. By
  symbolic execution of the skeleton over whole staging memrefs; the accumulator's one store is through the whole
  rectangle, so it reads that store's payload, and the loads read the buffers' contents.
-/
import proofs.«401039_j68436008894831_1_alg».proof.Proof.KI.R4Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Between the first and the last inner coordinate neither branch is taken: the body reads the index block, the node
    block and the accumulator and stores the accumulator plus the selected rows; the inputs and the output buffer are
    left as found. -/
theorem run4_mid (c : Dev nD) (E : Set ℕ) (i : grid4.Coords) (a2 : Memref sig .tc .vmem S2000x1 .i32) (h2 : a2.IsWhole) (a3 : Memref sig .tc .vmem S2000x1 .f32) (h3 : a3.IsWhole) (a4 : Memref sig .tc .vmem S3128x64 .f32) (h4 : a4.IsWhole) (a5 : Memref sig .tc .vmem S2000x64 .f32) (h5 : a5.IsWhole) (a6 : Memref sig .tc .vmem S2000x64 .f32) (h6 : a6.IsWhole)
    (hF : ¬ atFirst4 i) (hL : ¬ atLast4 i)
    (x0 : Vec F S2000x1 .i32) (x1 : Vec F S2000x1 .f32) (x2 : Vec F S3128x64 .f32) (y : Vec F S2000x64 .f32) (s : Vec F S2000x64 .f32)
    (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare y ∗ owns (c : Thread nD τ) a6 fullShare s
        ∗ (iprop(owns (c : Thread nD τ) a2 fullShare x0 ∗ owns (c : Thread nD τ) a3 fullShare x1 ∗ owns (c : Thread nD τ) a4 fullShare x2
            ∗ owns (c : Thread nD τ) a5 fullShare y ∗ owns (c : Thread nD τ) a6 fullShare (k4_pay2 i x0 x2 s)) -∗ K ⟨⟩))
      ⊢ wp frame (wpE (defs₀ (F := F)) Variants.none c none) E (cc4__gather_kernel i a2 h2 a3 h3 a4 h4 a5 h5 a6 h6) K := by
  simp only [cc4__gather_kernel_eq_skeleton]; unfold cc4__gather_kernel_skel
  unfold owns
  iintro ⟨⟨%f0, %e0, H0⟩, ⟨%f1, %e1, H1⟩, ⟨%f2, %e2, H2⟩, ⟨%f3, %e3, H3⟩, ⟨%fs, %es, HS⟩, Hk⟩
  subst e0; subst e1; subst e2; subst e3; subst es
  sl_exec (disch := first | exact hF | exact hL)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  have hz : (![0, 0] : Fin 2 → Nat) = fun _ => 0 := by funext a; fin_cases a <;> rfl
  rw [View.read_writes_whole_last4 _ _ hz]
  simp only [View.readAt_eq_ld, View.ld_unit_zero (S := S2000x1) hz, View.ld_unit_zero (S := S3128x64) hz,
    View.ld_unit_zero (S := S2000x64) hz]

end Cert.KernelIdeal.Hand

end
-- ==== Proof.KI.R4RunC.lean ====
/-
  Region 4, the body's run at the last inner coordinate: the zeroing branch is not taken, the output branch is. By
  symbolic execution of the skeleton over whole staging memrefs. The accumulator's one store is through the whole
  rectangle, and the load after it reads its payload; the output buffer's one store is through the whole rectangle.
-/
import proofs.«401039_j68436008894831_1_alg».proof.Proof.KI.R4Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the last inner coordinate the zeroing branch is not taken and the output branch is: after the accumulation the
    body reads the row scales and the new accumulator and stores their product over the output buffer, whatever it held;
    the inputs are left as found. -/
theorem run4_last (c : Dev nD) (E : Set ℕ) (i : grid4.Coords) (a2 : Memref sig .tc .vmem S2000x1 .i32) (h2 : a2.IsWhole) (a3 : Memref sig .tc .vmem S2000x1 .f32) (h3 : a3.IsWhole) (a4 : Memref sig .tc .vmem S3128x64 .f32) (h4 : a4.IsWhole) (a5 : Memref sig .tc .vmem S2000x64 .f32) (h5 : a5.IsWhole) (a6 : Memref sig .tc .vmem S2000x64 .f32) (h6 : a6.IsWhole)
    (hF : ¬ atFirst4 i) (hL : atLast4 i)
    (x0 : Vec F S2000x1 .i32) (x1 : Vec F S2000x1 .f32) (x2 : Vec F S3128x64 .f32) (s : Vec F S2000x64 .f32)
    (K : PUnit → sProp 𝕄) :
    iprop(owns (c : Thread nD τ) a2 fullShare x0 ∗ owns (c : Thread nD τ) a3 fullShare x1 ∗ owns (c : Thread nD τ) a4 fullShare x2
        ∗ (∃ d, owns (c : Thread nD τ) a5 fullShare d) ∗ owns (c : Thread nD τ) a6 fullShare s
        ∗ (iprop(owns (c : Thread nD τ) a2 fullShare x0 ∗ owns (c : Thread nD τ) a3 fullShare x1 ∗ owns (c : Thread nD τ) a4 fullShare x2
            ∗ owns (c : Thread nD τ) a5 fullShare (k4_pay3 x1 (k4_pay2 i x0 x2 s)) ∗ owns (c : Thread nD τ) a6 fullShare (k4_pay2 i x0 x2 s)) -∗ K ⟨⟩))
      ⊢ wp frame (wpE (defs₀ (F := F)) Variants.none c none) E (cc4__gather_kernel i a2 h2 a3 h3 a4 h4 a5 h5 a6 h6) K := by
  simp only [cc4__gather_kernel_eq_skeleton]; unfold cc4__gather_kernel_skel
  unfold owns
  iintro ⟨⟨%f0, %e0, H0⟩, ⟨%f1, %e1, H1⟩, ⟨%f2, %e2, H2⟩, ⟨%d, %f3, -, H3⟩, ⟨%fs, %es, HS⟩, Hk⟩
  subst e0; subst e1; subst e2; subst es
  have hz : (![0, 0] : Fin 2 → Nat) = fun _ => 0 := by funext a; fin_cases a <;> rfl
  sl_exec (disch := first | exact hF | exact hL)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [View.read_writes_whole_last4 _ _ hz]
    simp only [View.readAt_eq_ld, View.ld_unit_zero (S := S2000x1) hz, View.ld_unit_zero (S := S3128x64) hz,
      View.ld_unit_zero (S := S2000x64) hz, View.readCov_unit_zero (S := S2000x64) _ hz]
  iexists _; isplitr
  swap; · iexact HS
  ipureintro
  sl_unfold_words
  rw [View.read_writes_whole_last4 _ _ hz]
  simp only [View.readAt_eq_ld, View.ld_unit_zero (S := S2000x1) hz, View.ld_unit_zero (S := S3128x64) hz,
    View.ld_unit_zero (S := S2000x64) hz, View.readCov_unit_zero (S := S2000x64) _ hz]

end Cert.KernelIdeal.Hand

end
-- ==== Proof.KI.R4.lean ====
/-
  Region 4 of the idealized kernel's @main: what the accumulator and the output block hold after each grid point,
  the proof data of the pipeline, and its body obligation.

  The accumulator after point n is the update (add the selected rows of the point's node block) applied to zeros
  when n is at the first inner coordinate, and to the accumulator after point n - 1 otherwise. The output block is
  the row-scaled accumulator; the body stores it at the last inner coordinate only, and elsewhere the output window
  is idle and its buffer is handed back as found. The region invariant carries the accumulator: at some contents
  before the first point, at its value after the point before at every later one. Each point is one of three control
  cases, and in each the run of that case supplies the body's triple.
  Stated for any float family and any region-entry contents V.
-/
import proofs.«401039_j68436008894831_1_alg».proof.Proof.KI.R4RunA
import proofs.«401039_j68436008894831_1_alg».proof.Proof.KI.R4RunB
import proofs.«401039_j68436008894831_1_alg».proof.Proof.KI.R4RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The accumulation -/

/-- The accumulator after the body at position `n`: the update of the point's index block and node block, over zeros
    at the first inner coordinate, over the accumulator after position `n - 1` elsewhere. -/
def acc4 (c : Dev nD) : (n : ℕ) → n < cfg4.N → Vec F S2000x64 .f32
  | 0, hn => k4_pay2 (grid4.coords ⟨0, hn⟩) (iblk4 V c 0 ⟨0, hn⟩) (iblk4 V c 2 ⟨0, hn⟩) (k4_pay1 (F := F))
  | n + 1, hn => k4_pay2 (grid4.coords ⟨n + 1, hn⟩) (iblk4 V c 0 ⟨n + 1, hn⟩) (iblk4 V c 2 ⟨n + 1, hn⟩)
      (if (n + 1) % 16 = 0 then k4_pay1 (F := F) else acc4 c n (Nat.lt_of_succ_lt hn))

/-- After position `n`: the output block the body would store (the accumulator scaled by the point's row scales), and
    the accumulator. The first component is what the output window's buffer holds at the points where the window is
    live, the last inner coordinate; at the others nothing reads it. -/
def outsAt4 (c : Dev nD) : (n : ℕ) → n < cfg4.N → Vec F S2000x64 .f32 × Vec F S2000x64 .f32 :=
  fun n hn => (k4_pay3 (iblk4 V c 1 ⟨n, hn⟩) (acc4 V c n hn), acc4 V c n hn)

/-- At the first inner coordinate the accumulator restarts from zeros. -/
theorem acc4_first (c : Dev nD) (t : Fin cfg4.N) (h : t.val % 16 = 0) :
    acc4 V c t.val t.isLt = k4_pay2 (grid4.coords t) (iblk4 V c 0 t) (iblk4 V c 2 t) (k4_pay1 (F := F)) := by
  obtain ⟨n, hn⟩ := t
  cases n with
  | zero => rfl
  | succ n =>
    show acc4 V c (n + 1) hn = _
    rw [acc4, if_pos h]

/-- Elsewhere it continues from the point before. -/
theorem acc4_next (c : Dev nD) (t : Fin cfg4.N) (h : ¬ t.val % 16 = 0) :
    acc4 V c t.val t.isLt = k4_pay2 (grid4.coords t) (iblk4 V c 0 t) (iblk4 V c 2 t)
      (acc4 V c (t.val - 1) (Nat.lt_of_le_of_lt (Nat.sub_le _ _) t.isLt)) := by
  obtain ⟨n, hn⟩ := t
  cases n with
  | zero => exact absurd (Nat.zero_mod 16) h
  | succ n =>
    show acc4 V c (n + 1) hn = _
    rw [acc4, if_neg h]
    rfl

theorem acc4_reset (c : Dev nD) (t : Fin cfg4.N) (h : t.val % 16 = 0) :
    (outsAt4 V c t.val t.isLt).2 = k4_pay2 (grid4.coords t) (iblk4 V c 0 t) (iblk4 V c 2 t) (k4_pay1 (F := F)) :=
  acc4_first V c t h

theorem acc4_step (c : Dev nD) (t : Fin cfg4.N) (h : ¬ t.val % 16 = 0) :
    (outsAt4 V c t.val t.isLt).2 = k4_pay2 (grid4.coords t) (iblk4 V c 0 t) (iblk4 V c 2 t)
      (outsAt4 V c (t.val - 1) (Nat.lt_of_le_of_lt (Nat.sub_le _ _) t.isLt)).2 :=
  acc4_next V c t h

/-- The output block is the scaled accumulator (at every point; the kernel stores it at the last inner coordinate). -/
theorem out4_last (c : Dev nD) (t : Fin cfg4.N) (h : t.val % 16 = 15) :
    (outsAt4 V c t.val t.isLt).1 = k4_pay3 (iblk4 V c 1 t) (outsAt4 V c t.val t.isLt).2 := rfl

/-! ## The region invariant -/

/-- What the invariant says of the accumulator before position `n`: anything before the first point, then what the
    point before left. -/
def carried4 (c : Dev nD) : (n : ℕ) → n ≤ cfg4.N → sProp 𝕄
  | 0, _ => iprop(∃ d, owns (c : Thread nD τ) scM4 fullShare d)
  | n + 1, hn => owns (c : Thread nD τ) scM4 fullShare (acc4 V c n hn)

/-- The invariant before position `n`: the accumulator as `carried4` says, every other scoped buffer that is no staging
    buffer of this call unopened, the generator register at some state. -/
def PhiS4 (c : Dev nD) (n : ℕ) (hn : n ≤ cfg4.N) : sProp 𝕄 :=
  iprop(iprop(carried4 V c n hn ∗ Pipeline.scopedRestBut (Ix := Unit) (Name := ℕ) (U := UR sig nD τ) (Lvl := ℕ) (Val := Elt F) spec4 c [cc4_scratch0]) ∗ (∃ r, prngReg c r))

/-- Whatever the invariant says of it, the accumulator is owned at some contents. -/
theorem carried4_any (c : Dev nD) (n : ℕ) (hn : n ≤ cfg4.N) :
    carried4 V c n hn ⊢ (iprop(∃ d, owns (c : Thread nD τ) scM4 fullShare d) : sProp 𝕄) := by
  cases n with
  | zero => exact Idealize.SL.BI.Entails.refl _
  | succ n =>
    show owns (c : Thread nD τ) scM4 fullShare (acc4 V c n hn) ⊢ _
    iintro H; iexists _; iexact H

theorem carried4_pos (c : Dev nD) (n : ℕ) (hn : n ≤ cfg4.N) (hz : n ≠ 0) :
    carried4 V c n hn = owns (c : Thread nD τ) scM4 fullShare (acc4 V c (n - 1) (by omega)) := by
  cases n with
  | zero => exact absurd rfl hz
  | succ n => rfl

/-- Before the first point the invariant is the class's. -/
theorem PhiS4_zero (c : Dev nD) (h : 0 ≤ cfg4.N) : PhiS4 V c 0 h = Pipeline.ΦA spec4 c := by
  rw [PhiA4_eq]; rfl

/-- At every position it gives the class's back: the accumulator's named contents are forgotten. -/
theorem PhiS4_forget (c : Dev nD) (n : ℕ) (hn : n ≤ cfg4.N) : PhiS4 V c n hn ⊢ Pipeline.ΦA spec4 c := by
  rw [PhiA4_eq]; unfold PhiS4
  iintro ⟨⟨HS, HR⟩, Hg⟩
  isplitr [Hg]
  · isplitl [HS]
    · iapply (carried4_any V c n hn); iexact HS
    iexact HR
  iexact Hg

/-! ## The proof data -/

/-- The proof data of pipeline 4 on core `c`: the arrays as the region finds them; after the body each input's buffer
    at its block and the output's at the scaled accumulator; the invariant carrying the accumulator; nothing owed; full
    shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- The invariant at a point's start and at its end. -/
theorem Phi4_start (c : Dev nD) (t : Fin cfg4.N) :
    (dat4 V c).Φ t.castSucc = iprop(iprop(carried4 V c t.val (Nat.le_of_lt t.isLt) ∗ Pipeline.scopedRestBut (Ix := Unit) (Name := ℕ) (U := UR sig nD τ) (Lvl := ℕ) (Val := Elt F) spec4 c [cc4_scratch0]) ∗ (∃ r, prngReg c r)) := rfl
theorem Phi4_end (c : Dev nD) (t : Fin cfg4.N) :
    (dat4 V c).Φ t.succ = iprop(iprop(owns (c : Thread nD τ) scM4 fullShare (acc4 V c t.val t.isLt) ∗ Pipeline.scopedRestBut (Ix := Unit) (Name := ℕ) (U := UR sig nD τ) (Lvl := ℕ) (Val := Elt F) spec4 c [cc4_scratch0]) ∗ (∃ r, prngReg c r)) := rfl

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ (dat4 V c).leavesExact 3 t)

set_option maxHeartbeats 4000000 in
/-- The body at any point. The inputs' buffers hold their blocks; the point's inner coordinate selects the case. At
    the first inner coordinate the accumulator may hold anything and is left at the update of zeros; elsewhere it
    holds what the point before left and is left at its update. Off the last inner coordinate the output buffer is
    handed back as found (the window is idle there and not written back); at the last it is left at the scaled
    accumulator. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl,
    after4_0, after4_1, after4_2, Phi4_start, Phi4_end]
  by_cases h0 : t.val % 16 = 0
  · have h15 : ¬ t.val % 16 = 15 := by omega
    rw [Dat.leavesExact_idle (dat4 V c) 3 t (idle4_3 t h15) (keep4_3 t h15), acc4_first V c t h0]
    iintro ⟨⟨⟨HS, HR⟩, Hg⟩, Ho, ⟨%d0, H0⟩, ⟨%d1, H1⟩, ⟨%d2, H2⟩, ⟨%d3, H3⟩⟩
    iapply (run4_first c Set.univ (grid4.coords t) _ _ _ _ _ _ _ _ _ _ ((atFirst4_iff t).mpr h0) (fun h => h15 ((atLast4_iff t).mp h))
      (iblk4 V c 0 t) (iblk4 V c 1 t) (iblk4 V c 2 t) ((dat4 V c).before 3 t d3) _)
    isplitl [H0]; · iexact H0
    isplitl [H1]; · iexact H1
    isplitl [H2]; · iexact H2
    isplitl [H3]; · iexact H3
    isplitl [HS]; · iapply (carried4_any V c t.val _); iexact HS
    iintro ⟨H0, H1, H2, H3, HS⟩
    isplitl [HS HR Hg]
    · isplitr [Hg]
      · isplitl [HS]; · iexact HS
        iexact HR
      iexact Hg
    isplitl [Ho]; · iexact Ho
    isplitl [H0]; · iexact H0
    isplitl [H1]; · iexact H1
    isplitl [H2]; · iexact H2
    iexists d3; iexact H3
  · have hz : t.val ≠ 0 := fun e => h0 (by rw [e])
    rw [carried4_pos V c t.val _ hz, acc4_next V c t h0]
    by_cases h15 : t.val % 16 = 15
    · rw [show (dat4 V c).leavesExact 3 t = owns (c : Thread nD τ) (st4_3 t) fullShare ((dat4 V c).after 3 t) from by
        unfold Dat.leavesExact; rw [live4_3 t h15], after4_3]
      rw [show (outsAt4 V c t.val t.isLt).1 = k4_pay3 (iblk4 V c 1 t) (acc4 V c t.val t.isLt) from rfl, acc4_next V c t h0]
      iintro ⟨⟨⟨HS, HR⟩, Hg⟩, Ho, ⟨%d0, H0⟩, ⟨%d1, H1⟩, ⟨%d2, H2⟩, ⟨%d3, H3⟩⟩
      iapply (run4_last c Set.univ (grid4.coords t) _ _ _ _ _ _ _ _ _ _ (fun h => h0 ((atFirst4_iff t).mp h)) ((atLast4_iff t).mpr h15)
        (iblk4 V c 0 t) (iblk4 V c 1 t) (iblk4 V c 2 t) (acc4 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitr [Hg]
        · isplitl [HS]; · iexact HS
          iexact HR
        iexact Hg
      isplitl [Ho]; · iexact Ho
      isplitl [H0]; · iexact H0
      isplitl [H1]; · iexact H1
      isplitl [H2]; · iexact H2
      iexact H3
    · rw [Dat.leavesExact_idle (dat4 V c) 3 t (idle4_3 t h15) (keep4_3 t h15)]
      iintro ⟨⟨⟨HS, HR⟩, Hg⟩, Ho, ⟨%d0, H0⟩, ⟨%d1, H1⟩, ⟨%d2, H2⟩, ⟨%d3, H3⟩⟩
      iapply (run4_mid c Set.univ (grid4.coords t) _ _ _ _ _ _ _ _ _ _ (fun h => h0 ((atFirst4_iff t).mp h)) (fun h => h15 ((atLast4_iff t).mp h))
        (iblk4 V c 0 t) (iblk4 V c 1 t) (iblk4 V c 2 t) ((dat4 V c).before 3 t d3)
        (acc4 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitr [Hg]
        · isplitl [HS]; · iexact HS
          iexact HR
        iexact Hg
      isplitl [Ho]; · iexact Ho
      isplitl [H0]; · iexact H0
      isplitl [H1]; · iexact H1
      isplitl [H2]; · iexact H2
      iexists d3; iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero]

/-- After the last point the invariant gives the class's back. -/
theorem hout4 (c : Dev nD) : (dat4 V c).Φ (Fin.last cfg4.N) ⊢ Pipeline.ΦA spec4 c :=
  PhiS4_forget V c _ _

end

end Cert.KernelIdeal.Hand

end
-- ==== Proof.KI.R5Runs.lean ====
/-
  Region 5 of the idealized kernel's @main, what its three control cases share. The region is the scatter-add of the
  edge messages into the node rows: a grid of 16 node tiles by 425 edge tiles, the edge tile the inner (fastest) axis.
  At a grid point the body adds to a 3128×64 accumulator the product of a one-hot 3128×2000 matrix (row r, column e
  set when edge e of the tile points at node r of the node tile) with the tile's 2000×64 messages; the accumulator is
  zeroed first when the edge tile is the first (inner coordinate 0), and when it is the last (inner coordinate 424) the
  output block is stored as tanh (accumulator + bias). Here: the two conditions in closed form, where the output window
  is idle, the memrefs the body is called on, the entry invariant split at the accumulator, and the input blocks.
-/
import proofs.«401039_j68436008894831_1_alg».proof.Proof.Gen.KernelIdeal.Launch
import proofs.«401039_j68436008894831_1_alg».proof.Proof.Gen.KernelIdeal.Skeleton
import proofs.«401039_j68436008894831_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«401039_j68436008894831_1_alg».proof.Proof.KI.WholeStore

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The inner coordinate and the two conditions -/

/-- The inner coordinate of the `t`-th grid point is `t mod 425`: the inner axis is the fastest. -/
theorem inner5 (t : Fin cfg5.N) : ((grid5.coords t) 1).val = t.val % 425 := by
  show t.val / grid5.stride 1 % 425 = t.val % 425
  rw [show grid5.stride 1 = 1 from by decide, Nat.div_one]

/-- The body zeroes the accumulator: the inner coordinate, as a 32-bit word, equals 0 (the kernel's own scalar chain). -/
abbrev zeroes5 (i : grid5.Coords) : Prop :=
  (Scalar.cmpi .ne (Scalar.extui (Scalar.cmpi .eq (BitVec.ofNat 32 (i 1).val) 0#32)) 0#32) = 1#1
/-- The body stores the output block: the inner coordinate, as a 32-bit word, equals 424. -/
abbrev emits5 (i : grid5.Coords) : Prop := k5_cond2 i = 1#1

/-- Over the 425 values of the inner coordinate: the first condition holds at 0 only, the second at 424 only. -/
theorem conds5_inner : ∀ j : Fin 425,
    (((Scalar.cmpi .ne (Scalar.extui (Scalar.cmpi .eq (BitVec.ofNat 32 j.val) 0#32)) 0#32) = 1#1) ↔ j.val = 0)
    ∧ (((Scalar.cmpi .ne (Scalar.extui (Scalar.cmpi .eq (BitVec.ofNat 32 j.val) 424#32)) 0#32) = 1#1) ↔ j.val = 424) := by
  decide +kernel

theorem zeroes5_iff (i : grid5.Coords) : zeroes5 i ↔ (i 1).val = 0 := (conds5_inner (i 1)).1
theorem emits5_iff (i : grid5.Coords) : emits5 i ↔ (i 1).val = 424 := (conds5_inner (i 1)).2

/-- At the `t`-th point the accumulator is zeroed iff `t ≡ 0 (mod 425)`, -/
theorem zeroes5_at (t : Fin cfg5.N) : zeroes5 (grid5.coords t) ↔ t.val % 425 = 0 := by
  rw [zeroes5_iff, inner5]
/-- and the output block is stored iff `t ≡ 424 (mod 425)`. -/
theorem emits5_at (t : Fin cfg5.N) : emits5 (grid5.coords t) ↔ t.val % 425 = 424 := by
  rw [emits5_iff, inner5]

/-! ## Where the output window is idle -/

/-- The output window is idle exactly where the body does not store it. -/
theorem idle5_out (i : grid5.Coords) : cfg5.idle 3 i = true ↔ ¬emits5 i := by
  show (!(k5_cond2 i == 1#1)) = true ↔ ¬(k5_cond2 i = 1#1)
  simp only [Bool.not_eq_true', beq_eq_false_iff_ne, ne_eq]

theorem idle5_out_of (t : Fin cfg5.N) (h : ¬t.val % 425 = 424) : cfg5.idle 3 (grid5.coords t) = true :=
  (idle5_out _).mpr fun e => h ((emits5_at t).mp e)
theorem live5_out_of (t : Fin cfg5.N) (h : t.val % 425 = 424) : cfg5.idle 3 (grid5.coords t) = false := by
  cases e : cfg5.idle 3 (grid5.coords t)
  · rfl
  · exact absurd ((emits5_at t).mpr h) ((idle5_out _).mp e)
/-- Off the last edge tile the pipeline does not write the output block back. -/
theorem noFlush5_out_of (t : Fin cfg5.N) (h : ¬t.val % 425 = 424) : (cfg5.win 3).flush t = false := by
  cases e : (cfg5.win 3).flush t
  · rfl
  · exact absurd ((flush5_3 t).mp e) h

/-! ## The memrefs the body is called on -/

abbrev ms5_0 (t : Fin cfg5.N) : Memref sig .tc .vmem S2000x1 .i32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S2000x64 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S64 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S3128x64 .f32 := win5_3.stage (cfg5.slots t 3)
abbrev hs5_3 (t : Fin cfg5.N) : (ms5_3 t).IsWhole := hstage5_3 ((cfg5.slots t 3).cast nbuf5_3)
/-- The accumulator: a whole scoped buffer of the kernel's own, carried from point to point. -/
abbrev scM5 : Memref sig .tc .vmem S3128x64 .f32 := Memref.whole cc5_scratch0

/-- The entry invariant with the accumulator taken out of the scoped rest, owned at some contents. -/
theorem PhiA5_eq (c : Dev nD) :
    (Pipeline.ΦA spec5 c : sProp 𝕄)
      = iprop(iprop(iprop((∃ d, owns (c : Thread nD τ) scM5 fullShare d)) ∗ Pipeline.scopedRestBut spec5 c [cc5_scratch0]) ∗ (∃ r, prngReg c r)) := by
  unfold Pipeline.ΦA; rw [scopedRest5_split]; simp only [scM5, owns_whole]; try rfl

section
variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window the body only reads holds its block at every point, whether the pipeline fetched it there or the
    block index stood still (the bias is fetched once): for any proof data over the entry contents that leave it so. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

end

end Cert.KernelIdeal.Hand

end
-- ==== Proof.KI.R5RunA.lean ====
/-
  Region 5, the body at a grid point whose edge tile is the first of its node tile (and not the last): the accumulator
  is zeroed, then the point's one-hot product is added to it; the output block is left alone.
-/
import proofs.«401039_j68436008894831_1_alg».proof.Proof.KI.R5Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where the edge tile is the first and not the last: the three inputs are read and kept, the output block is
    not touched, and the accumulator, whatever it held, is left at the point's one-hot product added to zero. -/
theorem body5_first (c : Dev nD) (E : Set ℕ) (i : grid5.Coords)
    (arg2 : Memref sig .tc .vmem S2000x1 .i32) (harg2 : arg2.IsWhole) (arg3 : Memref sig .tc .vmem S2000x64 .f32) (harg3 : arg3.IsWhole)
    (arg4 : Memref sig .tc .vmem S64 .f32) (harg4 : arg4.IsWhole) (arg5 : Memref sig .tc .vmem S3128x64 .f32) (harg5 : arg5.IsWhole)
    (arg6 : Memref sig .tc .vmem S3128x64 .f32) (harg6 : arg6.IsWhole) (hz : zeroes5 i) (he : ¬emits5 i)
    (x0 : Vec F S2000x1 .i32) (x1 : Vec F S2000x64 .f32) (x2 : Vec F S64 .f32) (xo : Vec F S3128x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ (∃ d, owns (c : Thread nD τ) arg6 fullShare d)
        ∗ (iprop(owns (c : Thread nD τ) arg2 fullShare x0 ∗ owns (c : Thread nD τ) arg3 fullShare x1 ∗ owns (c : Thread nD τ) arg4 fullShare x2
              ∗ owns (c : Thread nD τ) arg5 fullShare xo
              ∗ owns (c : Thread nD τ) arg6 fullShare (k5_pay2 i x0 x1 (k5_pay1 (F := F)))) -∗ K ⟨⟩))
      ⊢ wp frame (wpE (defs₀ (F := F)) Variants.none c none) E (cc5__scatter_kernel i arg2 harg2 arg3 harg3 arg4 harg4 arg5 harg5 arg6 harg6) K := by
  simp only [cc5__scatter_kernel_eq_skeleton]; unfold cc5__scatter_kernel_skel
  unfold owns
  iintro ⟨⟨%f0, %hf0, H0⟩, ⟨%f1, %hf1, H1⟩, ⟨%f2, %hf2, H2⟩, ⟨%f3, %hf3, H3⟩, ⟨%d6, %f6, -, H6⟩, Hk⟩
  subst hf0; subst hf1; subst hf2; subst hf3
  sl_exec (disch := first | exact hz | exact he)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H6
  ·
    ipureintro
    sl_unfold_words
    rw [read_after_whole_store _ _ origin2]
    simp only [View.readAt_eq_ld, View.ld_unit_zero (S := S2000x1) origin2, View.ld_unit_zero (S := S2000x64) origin2,
      View.ld_unit_zero (S := S3128x64) origin2, View.ld_unit_zero (S := S64) origin1, View.readCov_unit_zero (S := S3128x64) _ origin2]

end Cert.KernelIdeal.Hand

end
-- ==== Proof.KI.R5RunB.lean ====
/-
  Region 5, the body at a grid point whose edge tile is neither the first nor the last of its node tile: the point's
  one-hot product is added to the accumulator; the output block is left alone.
-/
import proofs.«401039_j68436008894831_1_alg».proof.Proof.KI.R5Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where the edge tile is neither the first nor the last: the three inputs are read and kept, the output block is
    not touched, and the accumulator is left at what it held plus the point's one-hot product. -/
theorem body5_mid (c : Dev nD) (E : Set ℕ) (i : grid5.Coords)
    (arg2 : Memref sig .tc .vmem S2000x1 .i32) (harg2 : arg2.IsWhole) (arg3 : Memref sig .tc .vmem S2000x64 .f32) (harg3 : arg3.IsWhole)
    (arg4 : Memref sig .tc .vmem S64 .f32) (harg4 : arg4.IsWhole) (arg5 : Memref sig .tc .vmem S3128x64 .f32) (harg5 : arg5.IsWhole)
    (arg6 : Memref sig .tc .vmem S3128x64 .f32) (harg6 : arg6.IsWhole) (hz : ¬zeroes5 i) (he : ¬emits5 i)
    (x0 : Vec F S2000x1 .i32) (x1 : Vec F S2000x64 .f32) (x2 : Vec F S64 .f32) (xo : Vec F S3128x64 .f32) (s : Vec F S3128x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare s
        ∗ (iprop(owns (c : Thread nD τ) arg2 fullShare x0 ∗ owns (c : Thread nD τ) arg3 fullShare x1 ∗ owns (c : Thread nD τ) arg4 fullShare x2
              ∗ owns (c : Thread nD τ) arg5 fullShare xo
              ∗ owns (c : Thread nD τ) arg6 fullShare (k5_pay2 i x0 x1 s)) -∗ K ⟨⟩))
      ⊢ wp frame (wpE (defs₀ (F := F)) Variants.none c none) E (cc5__scatter_kernel i arg2 harg2 arg3 harg3 arg4 harg4 arg5 harg5 arg6 harg6) K := by
  simp only [cc5__scatter_kernel_eq_skeleton]; unfold cc5__scatter_kernel_skel
  unfold owns
  iintro ⟨⟨%f0, %hf0, H0⟩, ⟨%f1, %hf1, H1⟩, ⟨%f2, %hf2, H2⟩, ⟨%f3, %hf3, H3⟩, ⟨%f6, %hf6, H6⟩, Hk⟩
  subst hf0; subst hf1; subst hf2; subst hf3; subst hf6
  sl_exec (disch := first | exact hz | exact he)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H6
  ·
    ipureintro
    sl_unfold_words
    rw [read_after_whole_store _ _ origin2]
    simp only [View.readAt_eq_ld, View.ld_unit_zero (S := S2000x1) origin2, View.ld_unit_zero (S := S2000x64) origin2,
      View.ld_unit_zero (S := S3128x64) origin2, View.ld_unit_zero (S := S64) origin1, View.readCov_unit_zero (S := S3128x64) _ origin2]

end Cert.KernelIdeal.Hand

end
-- ==== Proof.KI.R5RunC.lean ====
/-
  Region 5, the body at a grid point whose edge tile is the last of its node tile (and not the first): the point's
  one-hot product is added to the accumulator, and the output block is stored from the sum and the bias row.
-/
import proofs.«401039_j68436008894831_1_alg».proof.Proof.KI.R5Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where the edge tile is the last and not the first: the three inputs are read and kept, the accumulator is left
    at what it held plus the point's one-hot product, and the output block, whatever it held, at the tanh of that sum
    plus the bias row. -/
theorem body5_last (c : Dev nD) (E : Set ℕ) (i : grid5.Coords)
    (arg2 : Memref sig .tc .vmem S2000x1 .i32) (harg2 : arg2.IsWhole) (arg3 : Memref sig .tc .vmem S2000x64 .f32) (harg3 : arg3.IsWhole)
    (arg4 : Memref sig .tc .vmem S64 .f32) (harg4 : arg4.IsWhole) (arg5 : Memref sig .tc .vmem S3128x64 .f32) (harg5 : arg5.IsWhole)
    (arg6 : Memref sig .tc .vmem S3128x64 .f32) (harg6 : arg6.IsWhole) (hz : ¬zeroes5 i) (he : emits5 i)
    (x0 : Vec F S2000x1 .i32) (x1 : Vec F S2000x64 .f32) (x2 : Vec F S64 .f32) (s : Vec F S3128x64 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare s
        ∗ (iprop(owns (c : Thread nD τ) arg2 fullShare x0 ∗ owns (c : Thread nD τ) arg3 fullShare x1 ∗ owns (c : Thread nD τ) arg4 fullShare x2
              ∗ owns (c : Thread nD τ) arg5 fullShare (k5_pay3 (k5_pay2 i x0 x1 s) x2)
              ∗ owns (c : Thread nD τ) arg6 fullShare (k5_pay2 i x0 x1 s)) -∗ K ⟨⟩))
      ⊢ wp frame (wpE (defs₀ (F := F)) Variants.none c none) E (cc5__scatter_kernel i arg2 harg2 arg3 harg3 arg4 harg4 arg5 harg5 arg6 harg6) K := by
  simp only [cc5__scatter_kernel_eq_skeleton]; unfold cc5__scatter_kernel_skel
  unfold owns
  iintro ⟨⟨%f0, %hf0, H0⟩, ⟨%f1, %hf1, H1⟩, ⟨%f2, %hf2, H2⟩, ⟨%d3, %f3, -, H3⟩, ⟨%f6, %hf6, H6⟩, Hk⟩
  subst hf0; subst hf1; subst hf2; subst hf6
  sl_exec (disch := first | exact hz | exact he)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ·
      ipureintro
      sl_unfold_words
      rw [read_after_whole_store _ _ origin2]
      simp only [View.readAt_eq_ld, View.ld_unit_zero (S := S2000x1) origin2, View.ld_unit_zero (S := S2000x64) origin2,
      View.ld_unit_zero (S := S3128x64) origin2, View.ld_unit_zero (S := S64) origin1, View.readCov_unit_zero (S := S3128x64) _ origin2]
  iexists _; isplitr
  swap; · iexact H6
  ·
    ipureintro
    sl_unfold_words
    rw [read_after_whole_store _ _ origin2]
    simp only [View.readAt_eq_ld, View.ld_unit_zero (S := S2000x1) origin2, View.ld_unit_zero (S := S2000x64) origin2,
      View.ld_unit_zero (S := S3128x64) origin2, View.ld_unit_zero (S := S64) origin1, View.readCov_unit_zero (S := S3128x64) _ origin2]

end Cert.KernelIdeal.Hand

end
-- ==== Proof.KI.R5.lean ====
/-
  Region 5 of the idealized kernel's @main, the frame half: what the accumulator holds after each grid point, as a
  recursion over the body's own arithmetic (zero, or the point before, plus the point's one-hot product), the block the
  last edge tile of a node tile stores (tanh of the accumulator plus the bias row), the invariant that carries the
  accumulator from point to point, the pipeline's proof data over any region-entry contents `V`, and the body obligation
  by cases on the inner coordinate (first / middle / last edge tile).
-/
import proofs.«401039_j68436008894831_1_alg».proof.Proof.KI.R5RunA
import proofs.«401039_j68436008894831_1_alg».proof.Proof.KI.R5RunB
import proofs.«401039_j68436008894831_1_alg».proof.Proof.KI.R5RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What the accumulator and the output block hold after each point -/

/-- THE ACCUMULATION. The accumulator after the body at position `n`: the point's one-hot product (of its edge-index block
    and its message block) added to zero where the edge tile is the first of its node tile (`n ≡ 0 (mod 425)`), and to
    what the point before left elsewhere. -/
def acc5 (c : Dev nD) : (n : ℕ) → n < cfg5.N → Vec F S3128x64 .f32
  | 0, hn => k5_pay2 (grid5.coords ⟨0, hn⟩) (iblk5 V c 0 ⟨0, hn⟩) (iblk5 V c 1 ⟨0, hn⟩) (k5_pay1 (F := F))
  | n + 1, hn => k5_pay2 (grid5.coords ⟨n + 1, hn⟩) (iblk5 V c 0 ⟨n + 1, hn⟩) (iblk5 V c 1 ⟨n + 1, hn⟩)
      (if (n + 1) % 425 = 0 then k5_pay1 (F := F) else acc5 c n (Nat.lt_of_succ_lt hn))

/-- After position `n`: the block the body stores into the output window where the edge tile is the last — tanh of the
    accumulator plus the bias row; at the other points a value nothing reads, the window being idle there — and the
    accumulator. -/
def outsAt5 (c : Dev nD) : (n : ℕ) → n < cfg5.N → Vec F S3128x64 .f32 × Vec F S3128x64 .f32 :=
  fun n hn => (k5_pay3 (acc5 V c n hn) (iblk5 V c 2 ⟨n, hn⟩), acc5 V c n hn)

/-- At a first edge tile the accumulator restarts from zero. -/
theorem acc5_at_first (c : Dev nD) (t : Fin cfg5.N) (h : t.val % 425 = 0) :
    acc5 V c t.val t.isLt = k5_pay2 (grid5.coords t) (iblk5 V c 0 t) (iblk5 V c 1 t) (k5_pay1 (F := F)) := by
  obtain ⟨n, hn⟩ := t
  cases n with
  | zero => rfl
  | succ n =>
    have h' : (n + 1) % 425 = 0 := h
    exact congrArg (k5_pay2 _ _ _) (if_pos h')

/-- At any other edge tile it continues from the point before. -/
theorem acc5_at_next (c : Dev nD) (t : Fin cfg5.N) (h : ¬t.val % 425 = 0) :
    acc5 V c t.val t.isLt = k5_pay2 (grid5.coords t) (iblk5 V c 0 t) (iblk5 V c 1 t)
      (acc5 V c (t.val - 1) (Nat.lt_of_le_of_lt (Nat.sub_le _ _) t.isLt)) := by
  obtain ⟨n, hn⟩ := t
  cases n with
  | zero => exact absurd (Nat.zero_mod _) h
  | succ n =>
    have h' : ¬(n + 1) % 425 = 0 := h
    exact congrArg (k5_pay2 _ _ _) (if_neg h')

theorem acc5_reset (c : Dev nD) (t : Fin cfg5.N) (h : t.val % 425 = 0) :
    (outsAt5 V c t.val t.isLt).2 = k5_pay2 (grid5.coords t) (iblk5 V c 0 t) (iblk5 V c 1 t) (k5_pay1 (F := F)) :=
  acc5_at_first V c t h
theorem acc5_step (c : Dev nD) (t : Fin cfg5.N) (h : ¬ t.val % 425 = 0) :
    (outsAt5 V c t.val t.isLt).2 = k5_pay2 (grid5.coords t) (iblk5 V c 0 t) (iblk5 V c 1 t)
      (outsAt5 V c (t.val - 1) (Nat.lt_of_le_of_lt (Nat.sub_le _ _) t.isLt)).2 :=
  acc5_at_next V c t h
theorem out5_last (c : Dev nD) (t : Fin cfg5.N) (h : t.val % 425 = 424) :
    (outsAt5 V c t.val t.isLt).1 = k5_pay3 (outsAt5 V c t.val t.isLt).2 (iblk5 V c 2 t) := rfl
/-- The output component, over the accumulator. -/
theorem out5_eq (c : Dev nD) (t : Fin cfg5.N) :
    (outsAt5 V c t.val t.isLt).1 = k5_pay3 (acc5 V c t.val t.isLt) (iblk5 V c 2 t) := rfl

/-! ## The invariant from point to point -/

/-- Before position `n`: at the region's entry the class's invariant (the accumulator at anything); after a point, the
    accumulator at what that point left, the other scoped buffers unopened, the generator register at some state. -/
def PhiS5 (c : Dev nD) : (n : ℕ) → n ≤ cfg5.N → sProp 𝕄
  | 0, _ => Pipeline.ΦA spec5 c
  | n + 1, hn => iprop(iprop(owns (c : Thread nD τ) scM5 fullShare (acc5 V c n hn) ∗ Pipeline.scopedRestBut spec5 c [cc5_scratch0]) ∗ (∃ r, prngReg c r))

theorem PhiS5_after (c : Dev nD) (n : ℕ) (hn : n < cfg5.N) :
    PhiS5 V c (n + 1) hn = iprop(iprop(owns (c : Thread nD τ) scM5 fullShare (acc5 V c n hn) ∗ Pipeline.scopedRestBut spec5 c [cc5_scratch0]) ∗ (∃ r, prngReg c r)) := rfl

theorem PhiS5_later (c : Dev nD) (n : ℕ) (h : n ≤ cfg5.N) (hz : n ≠ 0) :
    PhiS5 V c n h = iprop(iprop(owns (c : Thread nD τ) scM5 fullShare (acc5 V c (n - 1) (by omega)) ∗ Pipeline.scopedRestBut spec5 c [cc5_scratch0]) ∗ (∃ r, prngReg c r)) := by
  cases n with
  | zero => exact absurd rfl hz
  | succ n => rfl

/-- At every position the invariant gives the accumulator at SOME contents: what the zeroing case and the region's exit ask. -/
theorem PhiS5_any (c : Dev nD) (n : ℕ) (h : n ≤ cfg5.N) :
    PhiS5 V c n h ⊢ iprop(iprop(iprop((∃ d, owns (c : Thread nD τ) scM5 fullShare d)) ∗ Pipeline.scopedRestBut spec5 c [cc5_scratch0]) ∗ (∃ r, prngReg c r)) := by
  cases n with
  | zero =>
    rw [show PhiS5 V c 0 h = Pipeline.ΦA spec5 c from rfl, PhiA5_eq]
    try exact Idealize.SL.BI.Entails.refl _
  | succ n =>
    rw [PhiS5_after]
    iintro ⟨⟨HS, HR⟩, Hg⟩
    isplitl [HS HR]
    · isplitl [HS]
      · iexists _; iexact HS
      · iexact HR
    · iexact Hg

/-! ## The proof data -/

/-- The proof data of pipeline 5 on core `c`: the arrays as the region finds them; after the body each input window at
    its block, the output window at `outsAt5`'s first component; the invariant `PhiS5`; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = (outsAt5 V c t.val t.isLt).1 := by dsimp only [dat5]

theorem Phi5_eq (c : Dev nD) (t : Fin (cfg5.N + 1)) : (dat5 V c).Φ t = PhiS5 V c t.val (Nat.le_of_lt_succ t.isLt) := rfl
theorem Phi5_start (c : Dev nD) (t : Fin cfg5.N) : (dat5 V c).Φ t.castSucc = PhiS5 V c t.val (Nat.le_of_lt t.isLt) := rfl
theorem Phi5_end (c : Dev nD) (t : Fin cfg5.N) : (dat5 V c).Φ t.succ = PhiS5 V c (t.val + 1) t.isLt := rfl

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-- An input window is never idle: the body hands its buffer back at its block. -/
theorem leaves5_0 (c : Dev nD) (t : Fin cfg5.N) : (dat5 V c).leavesExact 0 t = owns (c : Thread nD τ) (ms5_0 t) fullShare (iblk5 V c 0 t) := by
  unfold Dat.leavesExact; rw [show cfg5.idle 0 (cfg5.grid.coords t) = false from rfl, after5_0]
theorem leaves5_1 (c : Dev nD) (t : Fin cfg5.N) : (dat5 V c).leavesExact 1 t = owns (c : Thread nD τ) (ms5_1 t) fullShare (iblk5 V c 1 t) := by
  unfold Dat.leavesExact; rw [show cfg5.idle 1 (cfg5.grid.coords t) = false from rfl, after5_1]
theorem leaves5_2 (c : Dev nD) (t : Fin cfg5.N) : (dat5 V c).leavesExact 2 t = owns (c : Thread nD τ) (ms5_2 t) fullShare (iblk5 V c 2 t) := by
  unfold Dat.leavesExact; rw [show cfg5.idle 2 (cfg5.grid.coords t) = false from rfl, after5_2]
/-- At a last edge tile the output window is live: the body leaves the stored block. -/
theorem leaves5_3_last (c : Dev nD) (t : Fin cfg5.N) (h : t.val % 425 = 424) :
    (dat5 V c).leavesExact 3 t = owns (c : Thread nD τ) (ms5_3 t) fullShare (k5_pay3 (acc5 V c t.val t.isLt) (iblk5 V c 2 t)) := by
  unfold Dat.leavesExact; rw [live5_out_of t h, after5_3, out5_eq]

/-! ## The body obligation -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ (dat5 V c).leavesExact 0 t ∗ (dat5 V c).leavesExact 1 t ∗ (dat5 V c).leavesExact 2 t ∗ (dat5 V c).leavesExact 3 t)

set_option maxHeartbeats 4000000 in
/-- The body at any point, by the inner coordinate. The inputs' buffers hold their blocks. Where the edge tile is the first
    the invariant gives the accumulator at anything and the zeroing case leaves it at the restarted sum; elsewhere the point
    is not the grid's first, the invariant gives it at what the point before left, and the body adds to that. Off the last
    edge tile the output window is idle and not written back: its buffer goes back as found; at the last the body leaves
    the stored block. Nothing is owed throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl,
    Phi5_start, Phi5_end, PhiS5_after, leaves5_0, leaves5_1, leaves5_2]
  by_cases h0 : t.val % 425 = 0
  · have h1 : ¬t.val % 425 = 424 := by omega
    rw [Dat.leavesExact_idle (dat5 V c) 3 t (idle5_out_of t h1) (noFlush5_out_of t h1), acc5_at_first V c t h0]
    refine (sep_mono_left (PhiS5_any V c _ _)).trans ?_
    iintro ⟨⟨⟨⟨%s, HS⟩, HR⟩, Hg⟩, Ho, ⟨%d0, H0⟩, ⟨%d1, H1⟩, ⟨%d2, H2⟩, ⟨%d3, H3⟩⟩
    iapply (body5_first c Set.univ (grid5.coords t) _ _ _ _ _ _ _ _ _ _ ((zeroes5_at t).mpr h0) (fun e => h1 ((emits5_at t).mp e))
      (iblk5 V c 0 t) (iblk5 V c 1 t) (iblk5 V c 2 t) _ _)
    isplitl [H0]; · iexact H0
    isplitl [H1]; · iexact H1
    isplitl [H2]; · iexact H2
    isplitl [H3]; · iexact H3
    isplitl [HS]; · iexists _; iexact HS
    iintro ⟨H0, H1, H2, H3, HS⟩
    isplitl [HS HR Hg]
    · isplitl [HS HR]
      · isplitl [HS]; · iexact HS
        iexact HR
      · iexact Hg
    isplitl [Ho]; · iexact Ho
    isplitl [H0]; · iexact H0
    isplitl [H1]; · iexact H1
    isplitl [H2]; · iexact H2
    iexists _; iexact H3
  · have hz : t.val ≠ 0 := fun e => h0 (by rw [e])
    rw [PhiS5_later V c _ _ hz, acc5_at_next V c t h0]
    by_cases h1 : t.val % 425 = 424
    · rw [leaves5_3_last V c t h1, acc5_at_next V c t h0]
      iintro ⟨⟨⟨HS, HR⟩, Hg⟩, Ho, ⟨%d0, H0⟩, ⟨%d1, H1⟩, ⟨%d2, H2⟩, ⟨%d3, H3⟩⟩
      iapply (body5_last c Set.univ (grid5.coords t) _ _ _ _ _ _ _ _ _ _ (fun e => h0 ((zeroes5_at t).mp e)) ((emits5_at t).mpr h1)
        (iblk5 V c 0 t) (iblk5 V c 1 t) (iblk5 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        · iexact Hg
      isplitl [Ho]; · iexact Ho
      isplitl [H0]; · iexact H0
      isplitl [H1]; · iexact H1
      isplitl [H2]; · iexact H2
      iexact H3
    · rw [Dat.leavesExact_idle (dat5 V c) 3 t (idle5_out_of t h1) (noFlush5_out_of t h1)]
      iintro ⟨⟨⟨HS, HR⟩, Hg⟩, Ho, ⟨%d0, H0⟩, ⟨%d1, H1⟩, ⟨%d2, H2⟩, ⟨%d3, H3⟩⟩
      iapply (body5_mid c Set.univ (grid5.coords t) _ _ _ _ _ _ _ _ _ _ (fun e => h0 ((zeroes5_at t).mp e)) (fun e => h1 ((emits5_at t).mp e))
        (iblk5 V c 0 t) (iblk5 V c 1 t) (iblk5 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        · iexact Hg
      isplitl [Ho]; · iexact Ho
      isplitl [H0]; · iexact H0
      isplitl [H1]; · iexact H1
      isplitl [H2]; · iexact H2
      iexists _; iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : Pipeline.ΦA spec5 c ⊢ (dat5 V c).Φ 0 := by
  rw [show (dat5 V c).Φ 0 = Pipeline.ΦA spec5 c from rfl]
  try exact Idealize.SL.BI.Entails.refl _

/-- After the last point the invariant gives the class's back: the accumulator's contents are forgotten. -/
theorem hout5 (c : Dev nD) : (dat5 V c).Φ (Fin.last cfg5.N) ⊢ Pipeline.ΦA spec5 c := by
  rw [PhiA5_eq, Phi5_eq]
  exact PhiS5_any V c _ _

end

end Cert.KernelIdeal.Hand

end
-- ==== Proof.KI.R6.lean ====
/-
  Region 6 of the idealized kernel's @main: the two-layer read-out applied to the node features, one 3128-row tile per
  grid point. The body reads the tile `h` (3128×64) and the whole of the first layer's weights `W` (64×32) and bias
  `b` (32) and of the second layer's weights `w` (32×1) and bias `b'` (1); on the matrix unit, operands rounded to
  bf16 and accumulating from zero, it forms `tanh (h · W + b) · w + b'` and stores the 3128×1 column. Nothing is kept
  from point to point and nothing but the column is written: the output block at a point is one pure function of the
  five input blocks there. Stated for any float family and any region-entry contents `V`.
-/
import proofs.«401039_j68436008894831_1_alg».proof.Proof.Gen.KernelIdeal.Launch
import proofs.«401039_j68436008894831_1_alg».proof.Proof.Gen.KernelIdeal.Skeleton
import proofs.«401039_j68436008894831_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! ## The body at one point

Every access of the body is through the whole of a staging block: five whole loads and one whole store. -/

abbrev feat6 : Rect S3128x64 := Rect.unit (s := S3128x64) ![0, 0] S3128x64.size inb_S3128x64_S3128x64_0_0
abbrev wgtA6 : Rect S64x32 := Rect.unit (s := S64x32) ![0, 0] S64x32.size inb_S64x32_S64x32_0_0
abbrev biasA6 : Rect S32 := Rect.unit (s := S32) ![0] S32.size inb_S32_S32_0
abbrev wgtB6 : Rect S32x1 := Rect.unit (s := S32x1) ![0, 0] S32x1.size inb_S32x1_S32x1_0_0
abbrev biasB6 : Rect S1 := Rect.unit (s := S1) ![0] S1.size inb_S1_S1_0
abbrev col6 : Rect S3128x1 := Rect.unit (s := S3128x1) ![0, 0] S3128x1.size inb_S3128x1_S3128x1_0_0

/-- What the body leaves in the output block: its one store, of the read-out of the five loaded blocks, over the
    whole column. -/
def out6_5 (x0 : Vec F S3128x64 .f32) (x1 : Vec F S64x32 .f32) (x2 : Vec F S32 .f32) (x3 : Vec F S32x1 .f32) (x4 : Vec F S1 .f32) : Vec F S3128x1 .f32 :=
  View.canon [⟨col6, k6_pay1 (View.ld x0 feat6) (View.ld x1 wgtA6) (View.ld x2 biasA6) (View.ld x3 wgtB6) (View.ld x4 biasB6)⟩]

/-- The one store is of the whole column, so no index of the block escapes it. -/
theorem col6_fills (p : Vec F S3128x1 .f32) :
    ∀ y : S3128x1.Idx, ∃ pc ∈ ([⟨col6, p⟩] : List (View.Piece (Elt F) S3128x1 .f32)), y ∈ pc.1.set :=
  View.cover_of_wholeMem _ (View.Piece.wholeMem_here (by rfl))

/-- Elements held at contents that read `X` through the memref are owned at `X`. -/
theorem owns_of_reads6 (c : Dev nD) {sp : Space} {sh : Shape} {e : EltTy} (m : Memref sig .tc sp sh e) (q : PosShare TreeShare)
    (f : m.view.ty.Contents (Elt F)) (X : sh.Idx → Elt F e) (h : m.view.read (Elt F) f = X) :
    (m.view.loc (c : Thread nD τ) ↦[m.view.set]{q} f : sProp 𝕄) ⊢ owns (c : Thread nD τ) m q X :=
  h ▸ owns_intro (c : Thread nD τ) m q f

set_option maxHeartbeats 1000000 in
/-- The body as a triple over whole staging memrefs, beside anything `I`, `O` the caller holds: the five inputs are
    read and kept, and whatever the output buffer held is overwritten by the read-out of the inputs. -/
theorem fc_point6 (c : Dev nD) (E : Set ℕ) (i : grid6.Coords)
    (arg1 : Memref sig .tc .vmem S3128x64 .f32) (harg1 : arg1.IsWhole) (arg2 : Memref sig .tc .vmem S64x32 .f32) (harg2 : arg2.IsWhole)
    (arg3 : Memref sig .tc .vmem S32 .f32) (harg3 : arg3.IsWhole) (arg4 : Memref sig .tc .vmem S32x1 .f32) (harg4 : arg4.IsWhole)
    (arg5 : Memref sig .tc .vmem S1 .f32) (harg5 : arg5.IsWhole) (arg6 : Memref sig .tc .vmem S3128x1 .f32) (harg6 : arg6.IsWhole)
    (x0 : Vec F S3128x64 .f32) (x1 : Vec F S64x32 .f32) (x2 : Vec F S32 .f32) (x3 : Vec F S32x1 .f32) (x4 : Vec F S1 .f32)
    (I O : sProp 𝕄) :
    iprop(I ∗ O ∗ owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d))
      ⊢ wp frame (wpE (defs₀ (F := F)) Variants.none c none) E (cc6__fc_kernel i arg1 harg1 arg2 harg2 arg3 harg3 arg4 harg4 arg5 harg5 arg6 harg6)
          (fun _ => iprop(I ∗ O ∗ owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (out6_5 x0 x1 x2 x3 x4))) := by
  simp only [cc6__fc_kernel_eq_skeleton]; unfold cc6__fc_kernel_skel
  conv_lhs => unfold owns
  iintro ⟨HI, HO, ⟨%f0, %e0, H0⟩, ⟨%f1, %e1, H1⟩, ⟨%f2, %e2, H2⟩, ⟨%f3, %e3, H3⟩, ⟨%f4, %e4, H4⟩, ⟨%d5, %f5, -, H5⟩⟩
  subst e0 e1 e2 e3 e4
  sl_exec
  sl_step
  iframe HI HO
  isplitl [H0]; · iapply (owns_of_reads6 c arg1 _ f0 _ rfl) $$ H0
  isplitl [H1]; · iapply (owns_of_reads6 c arg2 _ f1 _ rfl) $$ H1
  isplitl [H2]; · iapply (owns_of_reads6 c arg3 _ f2 _ rfl) $$ H2
  isplitl [H3]; · iapply (owns_of_reads6 c arg4 _ f3 _ rfl) $$ H3
  isplitl [H4]; · iapply (owns_of_reads6 c arg5 _ f4 _ rfl) $$ H4
  iapply (owns_of_reads6 c arg6 _ _ _ (View.read_writes_eq_canon _ _ _ (col6_fills _))) $$ H5

/-! ## The proof data -/

/-- The proof data of pipeline 6 on core `c`: the arrays as the region finds them; after the body each input buffer
    still at its block, the output buffer at the read-out of the five blocks; the invariant, shares and tallies
    constant. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) :
    (dat6 V c).after 5 t = out6_5 (iblk6 V c 0 t) (iblk6 V c 1 t) (iblk6 V c 2 t) (iblk6 V c 3 t) (iblk6 V c 4 t) := by dsimp only [dat6]

/-- What a fetch of window `w` at `t` would read of its array is the block named above, for every window at once. -/
theorem blockOf6 (c : Dev nD) (w : Fin cfg6.W) (t : Fin cfg6.N) : (dat6 V c).blockOf w t = iblk6 V c w t := by
  unfold Dat.blockOf iblk6; rw [A_eq6]

/-! Each input buffer holds its window's block whenever the body runs: right after a fetch because the fetch put it
there, and at a point without a fetch because the window's block index has not moved since the last one and the body
leaves the buffer as it found it. Windows 1–4 are fetched at the first point only, window 0 at every point. -/

theorem found6_0 (c : Dev nD) (t : Fin cfg6.N) (d) : (dat6 V c).before 0 t d = iblk6 V c 0 t := by
  rw [(dat6 V c).before_in_eq_fetched 0 rfl (fun _ => rfl) (fun _ _ _ => rfl) (fun s => by rw [after6_0, blockOf6]) t d]
  unfold Dat.fetched; rw [blockOf6]; rfl
theorem found6_1 (c : Dev nD) (t : Fin cfg6.N) (d) : (dat6 V c).before 1 t d = iblk6 V c 1 t := by
  rw [(dat6 V c).before_in_eq_fetched 1 rfl (fun _ => rfl) (fun _ _ _ => rfl) (fun s => by rw [after6_1, blockOf6]) t d]
  unfold Dat.fetched; rw [blockOf6]; rfl
theorem found6_2 (c : Dev nD) (t : Fin cfg6.N) (d) : (dat6 V c).before 2 t d = iblk6 V c 2 t := by
  rw [(dat6 V c).before_in_eq_fetched 2 rfl (fun _ => rfl) (fun _ _ _ => rfl) (fun s => by rw [after6_2, blockOf6]) t d]
  unfold Dat.fetched; rw [blockOf6]; rfl
theorem found6_3 (c : Dev nD) (t : Fin cfg6.N) (d) : (dat6 V c).before 3 t d = iblk6 V c 3 t := by
  rw [(dat6 V c).before_in_eq_fetched 3 rfl (fun _ => rfl) (fun _ _ _ => rfl) (fun s => by rw [after6_3, blockOf6]) t d]
  unfold Dat.fetched; rw [blockOf6]; rfl
theorem found6_4 (c : Dev nD) (t : Fin cfg6.N) (d) : (dat6 V c).before 4 t d = iblk6 V c 4 t := by
  rw [(dat6 V c).before_in_eq_fetched 4 rfl (fun _ => rfl) (fun _ _ _ => rfl) (fun s => by rw [after6_4, blockOf6]) t d]
  unfold Dat.fetched; rw [blockOf6]; rfl

/-! ## The body obligation -/

/-- The obligation at point `t`, its six windows written out: the invariant and the tallies pass through untouched,
    the inputs are handed over at their blocks and returned so, the output comes back at `out6_5` of them. -/
theorem at_point6 (c : Dev nD) (t : Fin cfg6.N) :
    iprop((dat6 V c).Φ t.castSucc ∗ (dat6 V c).owesAt () t.castSucc
        ∗ (∃ d, owns (c : Thread nD τ) (st6_0 t) fullShare ((dat6 V c).before 0 t d))
        ∗ (∃ d, owns (c : Thread nD τ) (st6_1 t) fullShare ((dat6 V c).before 1 t d))
        ∗ (∃ d, owns (c : Thread nD τ) (st6_2 t) fullShare ((dat6 V c).before 2 t d))
        ∗ (∃ d, owns (c : Thread nD τ) (st6_3 t) fullShare ((dat6 V c).before 3 t d))
        ∗ (∃ d, owns (c : Thread nD τ) (st6_4 t) fullShare ((dat6 V c).before 4 t d))
        ∗ (∃ d, owns (c : Thread nD τ) (st6_5 t) fullShare ((dat6 V c).before 5 t d)))
      ⊢ wp frame (wpE (defs₀ (F := F)) Variants.none c none) Set.univ (bodyAt6 t) (fun _ =>
          iprop((dat6 V c).Φ t.succ ∗ (dat6 V c).owesAt () t.succ
            ∗ owns (c : Thread nD τ) (st6_0 t) fullShare ((dat6 V c).after 0 t)
            ∗ owns (c : Thread nD τ) (st6_1 t) fullShare ((dat6 V c).after 1 t)
            ∗ owns (c : Thread nD τ) (st6_2 t) fullShare ((dat6 V c).after 2 t)
            ∗ owns (c : Thread nD τ) (st6_3 t) fullShare ((dat6 V c).after 3 t)
            ∗ owns (c : Thread nD τ) (st6_4 t) fullShare ((dat6 V c).after 4 t)
            ∗ owns (c : Thread nD τ) (st6_5 t) fullShare ((dat6 V c).after 5 t))) := by
  simp only [found6_0, found6_1, found6_2, found6_3, found6_4]
  rw [after6_0, after6_1, after6_2, after6_3, after6_4, after6_5]
  iintro ⟨HI, HO, ⟨%d0, H0⟩, ⟨%d1, H1⟩, ⟨%d2, H2⟩, ⟨%d3, H3⟩, ⟨%d4, H4⟩, ⟨%d5, H5⟩⟩
  iapply (fc_point6 c Set.univ _ _ _ _ _ _ _ _ _ _ _ _ _
    (iblk6 V c 0 t) (iblk6 V c 1 t) (iblk6 V c 2 t) (iblk6 V c 3 t) (iblk6 V c 4 t)
    ((dat6 V c).Φ t.castSucc) ((dat6 V c).owesAt () t.castSucc))
  iframe HI HO H0 H1 H2 H3 H4
  iexists _; iexact H5

theorem body_obligation6 (c : Dev nD) : BodyObligation (dat6 (F := F) V c) (defs₀ (F := F)) Variants.none () Set.univ := fun t => by
  rw [bigSep_W6, bigSep_W6]
  exact at_point6 V c t

/-- The invariant is the region's own at both ends. -/
theorem hin6 (c : Dev nD) : Pipeline.ΦA spec6 c ⊢ (dat6 V c).Φ 0 := BI.Entails.refl _
theorem hout6 (c : Dev nD) : (dat6 V c).Φ (Fin.last cfg6.N) ⊢ Pipeline.ΦA spec6 c := BI.Entails.refl _

end

end Cert.KernelIdeal.Hand

end
-- ==== Proof.KI.Run.lean ====
/-
  The idealized kernel's @main as a list of segments — five stretches of host operations, the seven kernel regions,
  the final slice — and its run: the buffer contents at every segment boundary are a fold from the launch memory
  (a host stretch applies its operations; a region leaves its arrays at what its write-backs fold to and everything
  else as entered), every weakly fair execution terminates, and the final memory holds each unscoped buffer at the
  last boundary's contents. Stated for any float family.
-/
import proofs.«401039_j68436008894831_1_alg».proof.Proof.KI.Vals
import proofs.«401039_j68436008894831_1_alg».proof.Proof.KI.R0
import proofs.«401039_j68436008894831_1_alg».proof.Proof.KI.R1
import proofs.«401039_j68436008894831_1_alg».proof.Proof.KI.R2
import proofs.«401039_j68436008894831_1_alg».proof.Proof.KI.R3
import proofs.«401039_j68436008894831_1_alg».proof.Proof.KI.R4
import proofs.«401039_j68436008894831_1_alg».proof.Proof.KI.R5
import proofs.«401039_j68436008894831_1_alg».proof.Proof.KI.R6

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At region 0's exit: its arrays at what the pipeline leaves, every other buffer as entered. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
abbrev V6 : (c : Dev nD) → (b : Ref sig .tc) → Buf (Elt F) ((c : Thread nD τ).loc b) := fun c b => W6 m ρ c b
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)

/-- At region 1's exit: its arrays at what the pipeline leaves, every other buffer as entered. -/
def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
abbrev V7 : (c : Dev nD) → (b : Ref sig .tc) → Buf (Elt F) ((c : Thread nD τ).loc b) := fun c b => W7 m ρ c b
theorem hF1 (c : Dev nD) (w : Fin cfg1.W) : (dat1 (V6 m ρ) c).arrAt w cfg1.N = V7 m ρ c (Pipeline.arrRef spec1 w) :=
  (W7_arr m ρ c w).symm
theorem hrest1 (c : Dev nD) : ∀ b, b ∉ Finset.univ.image (Pipeline.arrRef spec1) → V7 m ρ c b = V6 m ρ c b :=
  fun b hb => W7_of_ne m ρ c b fun w e => hb (Finset.mem_image.mpr ⟨w, Finset.mem_univ _, e⟩)

/-- At region 2's exit: its arrays at what the pipeline leaves, every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

/-- At region 3's exit: its arrays at what the pipeline leaves, every other buffer as entered. -/
def W9 (c : Dev nD) : Valuation τ sig (Elt F) :=
  Pipeline.withArrays spec3 c (W8 m ρ c) fun w => (dat3 (V8 m ρ) c).arrAt w cfg3.N
theorem W9_arr (c : Dev nD) (w : Fin cfg3.W) :
    W9 m ρ c (Proc.devRef .tc (Pipeline.arrRef spec3 w)) = (dat3 (V8 m ρ) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m ρ c (Proc.devRef .tc b) = W8 m ρ c (Proc.devRef .tc b) := by
  unfold W9; exact Pipeline.withArrays_of_ne spec3 c _ _ b hb
abbrev V9 : (c : Dev nD) → (b : Ref sig .tc) → Buf (Elt F) ((c : Thread nD τ).loc b) := fun c b => W9 m ρ c b
theorem hF3 (c : Dev nD) (w : Fin cfg3.W) : (dat3 (V8 m ρ) c).arrAt w cfg3.N = V9 m ρ c (Pipeline.arrRef spec3 w) :=
  (W9_arr m ρ c w).symm
theorem hrest3 (c : Dev nD) : ∀ b, b ∉ Finset.univ.image (Pipeline.arrRef spec3) → V9 m ρ c b = V8 m ρ c b :=
  fun b hb => W9_of_ne m ρ c b fun w e => hb (Finset.mem_image.mpr ⟨w, Finset.mem_univ _, e⟩)

/-- At region 4's exit: its arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- At region 5's exit: its arrays at what the pipeline leaves, every other buffer as entered. -/
def W11 (c : Dev nD) : Valuation τ sig (Elt F) :=
  Pipeline.withArrays spec5 c (W10 m ρ c) fun w => (dat5 (V10 m ρ) c).arrAt w cfg5.N
theorem W11_arr (c : Dev nD) (w : Fin cfg5.W) :
    W11 m ρ c (Proc.devRef .tc (Pipeline.arrRef spec5 w)) = (dat5 (V10 m ρ) c).arrAt w cfg5.N := by
  unfold W11; exact Pipeline.withArrays_arr spec5 launch5.win.arr_inj c _ _ w
theorem W11_of_ne (c : Dev nD) (b : Ref sig .tc) (hb : ∀ w, Pipeline.arrRef spec5 w ≠ b) :
    W11 m ρ c (Proc.devRef .tc b) = W10 m ρ c (Proc.devRef .tc b) := by
  unfold W11; exact Pipeline.withArrays_of_ne spec5 c _ _ b hb
abbrev V11 : (c : Dev nD) → (b : Ref sig .tc) → Buf (Elt F) ((c : Thread nD τ).loc b) := fun c b => W11 m ρ c b
theorem hF5 (c : Dev nD) (w : Fin cfg5.W) : (dat5 (V10 m ρ) c).arrAt w cfg5.N = V11 m ρ c (Pipeline.arrRef spec5 w) :=
  (W11_arr m ρ c w).symm
theorem hrest5 (c : Dev nD) : ∀ b, b ∉ Finset.univ.image (Pipeline.arrRef spec5) → V11 m ρ c b = V10 m ρ c b :=
  fun b hb => W11_of_ne m ρ c b fun w e => hb (Finset.mem_image.mpr ⟨w, Finset.mem_univ _, e⟩)

/-- At region 6's exit: its arrays at what the pipeline leaves, every other buffer as entered. -/
def W12 (c : Dev nD) : Valuation τ sig (Elt F) :=
  Pipeline.withArrays spec6 c (W11 m ρ c) fun w => (dat6 (V11 m ρ) c).arrAt w cfg6.N
theorem W12_arr (c : Dev nD) (w : Fin cfg6.W) :
    W12 m ρ c (Proc.devRef .tc (Pipeline.arrRef spec6 w)) = (dat6 (V11 m ρ) c).arrAt w cfg6.N := by
  unfold W12; exact Pipeline.withArrays_arr spec6 launch6.win.arr_inj c _ _ w
theorem W12_of_ne (c : Dev nD) (b : Ref sig .tc) (hb : ∀ w, Pipeline.arrRef spec6 w ≠ b) :
    W12 m ρ c (Proc.devRef .tc b) = W11 m ρ c (Proc.devRef .tc b) := by
  unfold W12; exact Pipeline.withArrays_of_ne spec6 c _ _ b hb
abbrev V12 : (c : Dev nD) → (b : Ref sig .tc) → Buf (Elt F) ((c : Thread nD τ).loc b) := fun c b => W12 m ρ c b
theorem hF6 (c : Dev nD) (w : Fin cfg6.W) : (dat6 (V11 m ρ) c).arrAt w cfg6.N = V12 m ρ c (Pipeline.arrRef spec6 w) :=
  (W12_arr m ρ c w).symm
theorem hrest6 (c : Dev nD) : ∀ b, b ∉ Finset.univ.image (Pipeline.arrRef spec6) → V12 m ρ c b = V11 m ρ c b :=
  fun b hb => W12_of_ne m ρ c b fun w e => hb (Finset.mem_image.mpr ⟨w, Finset.mem_univ _, e⟩)

/-- After the last host stretch (the slice of the padded result). -/
abbrev W13 : Dev nD → Valuation τ sig (Elt F) := fun c => StableHlo.after hostOps7 (W12 m ρ c)

/-! ## The proof data family and the thread state -/

abbrev adm : (p : Fin 7) → (pcfgs (F := F) p).Adm := fun p => (cfgs p).toPCfg_adm
def pdats : (p : Fin 7) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V6 m ρ) c
  | ⟨2, _⟩ => fun c => dat2 (V7 m ρ) c
  | ⟨3, _⟩ => fun c => dat3 (V8 m ρ) c
  | ⟨4, _⟩ => fun c => dat4 (V9 m ρ) c
  | ⟨5, _⟩ => fun c => dat5 (V10 m ρ) c
  | ⟨6, _⟩ => fun c => dat6 (V11 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps7_fresh : (hostOps7 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- REGION 0 over the thread state: entered from every unscoped buffer at `W5`, left at `W6`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show iprop(_ ∗ _ ∗ _) ⊢ (Pipeline.ΦA spec0 c : sProp 𝕄) from by
      unfold Pipeline.ΦA
      iintro ⟨Hp, -, Hr⟩
      isplitl [Hr]; · iexact Hr
      iexact Hp).trans (hin0 (V5 m ρ) c)
  hout c :=
    (hout0 (V5 m ρ) c).trans (show (Pipeline.ΦA spec0 c : sProp 𝕄) ⊢ iprop(_ ∗ _ ∗ _) from by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W6`, left at `W7`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec1 c (V6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show iprop(_ ∗ _ ∗ _) ⊢ (Pipeline.ΦA spec1 c : sProp 𝕄) from by
      unfold Pipeline.ΦA
      iintro ⟨Hp, -, Hr⟩
      isplitl [Hr]; · iexact Hr
      iexact Hp).trans (hin1 (V6 m ρ) c)
  hout c :=
    (hout1 (V6 m ρ) c).trans (show (Pipeline.ΦA spec1 c : sProp 𝕄) ⊢ iprop(_ ∗ _ ∗ _) from by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V6 m ρ c) (V7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W7`, left at `W8`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show iprop(_ ∗ _ ∗ _) ⊢ (Pipeline.ΦA spec2 c : sProp 𝕄) from by
      unfold Pipeline.ΦA
      iintro ⟨Hp, -, Hr⟩
      isplitl [Hr]; · iexact Hr
      iexact Hp).trans (hin2 (V7 m ρ) c)
  hout c :=
    (hout2 (V7 m ρ) c).trans (show (Pipeline.ΦA spec2 c : sProp 𝕄) ⊢ iprop(_ ∗ _ ∗ _) from by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W8`, left at `W9`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m ρ) c).loose
  hwaits := Pipeline.hwaits_of_owed_zero _ _ _ _ L lv 3 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec3 c (V8 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show iprop(_ ∗ _ ∗ _) ⊢ (Pipeline.ΦA spec3 c : sProp 𝕄) from by
      unfold Pipeline.ΦA
      iintro ⟨Hp, -, Hr⟩
      isplitl [Hr]; · iexact Hr
      iexact Hp).trans (hin3 (V8 m ρ) c)
  hout c :=
    (hout3 (V8 m ρ) c).trans (show (Pipeline.ΦA spec3 c : sProp 𝕄) ⊢ iprop(_ ∗ _ ∗ _) from by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V8 m ρ c) (V9 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at `W9`, left at `W10`. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show iprop(_ ∗ _ ∗ _) ⊢ (Pipeline.ΦA spec4 c : sProp 𝕄) from by
      unfold Pipeline.ΦA
      iintro ⟨Hp, -, Hr⟩
      isplitl [Hr]; · iexact Hr
      iexact Hp).trans (hin4 (V9 m ρ) c)
  hout c :=
    (hout4 (V9 m ρ) c).trans (show (Pipeline.ΦA spec4 c : sProp 𝕄) ⊢ iprop(_ ∗ _ ∗ _) from by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5 over the thread state: entered from every unscoped buffer at `W10`, left at `W11`. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V10 m ρ) c).loose
  hwaits := Pipeline.hwaits_of_owed_zero _ _ _ _ L lv 5 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec5 c (V10 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show iprop(_ ∗ _ ∗ _) ⊢ (Pipeline.ΦA spec5 c : sProp 𝕄) from by
      unfold Pipeline.ΦA
      iintro ⟨Hp, -, Hr⟩
      isplitl [Hr]; · iexact Hr
      iexact Hp).trans (hin5 (V10 m ρ) c)
  hout c :=
    (hout5 (V10 m ρ) c).trans (show (Pipeline.ΦA spec5 c : sProp 𝕄) ⊢ iprop(_ ∗ _ ∗ _) from by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V10 m ρ c) (V11 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 6 over the thread state: entered from every unscoped buffer at `W11`, left at `W12`. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V11 m ρ) c).loose
  hwaits := Pipeline.hwaits_of_owed_zero _ _ _ _ L lv 6 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec6 c (V11 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show iprop(_ ∗ _ ∗ _) ⊢ (Pipeline.ΦA spec6 c : sProp 𝕄) from by
      unfold Pipeline.ΦA
      iintro ⟨Hp, -, Hr⟩
      isplitl [Hr]; · iexact Hr
      iexact Hp).trans (hin6 (V11 m ρ) c)
  hout c :=
    (hout6 (V11 m ρ) c).trans (show (Pipeline.ΦA spec6 c : sProp 𝕄) ⊢ iprop(_ ∗ _ ∗ _) from by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V11 m ρ c) (V12 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ), .region (reg1 m ρ), .region (reg2 m ρ), .region (reg3 m ρ), .region (reg4 m ρ), .region (reg5 m ρ), .region (reg6 m ρ),
    .host (hseg hostOps7 hostOps7_sub hostOps7_fresh (W12 m ρ)) ]

theorem main_run (c : Dev nD) : main (F := F) c = Pipeline.Seg.run (segs m ρ) := (main_chain c).trans (by chain_rfl)

abbrev Tₙ (c : Dev nD) : sProp 𝕄 := iprop(StableHlo.held (c : Thread nD τ) (Pipeline.ucRefs τ sig) (W13 m ρ c) ∗ ∃ r, prngReg c r)

set_option backward.isDefEq.respectTransparency.types false in
/-- THE RUN: from any memory with zero counters every weakly fair execution of @main terminates, nothing faulting, and
    every final memory holds each unscoped TensorCore buffer at the last boundary's contents `W13`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W13 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c => h c)

end Cert.KernelIdeal.Hand

end
-- ==== Proof.KI.Keep.lean ====
/-
  What the kernel regions leave alone: a region changes only its output array, so an array read later holds at that
  later boundary what it held when region 0 was entered (or what the region that produced it left), and every
  argument array reaches the end of @main as launched. Stated for any float family.
-/
import proofs.«401039_j68436008894831_1_alg».proof.Proof.KI.Run
import proofs.«401039_j68436008894831_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A region leaves its input arrays as entered -/
theorem W6_in (c : Dev nD) (w : Fin cfg0.W) (hw : (cfg0.win w).isOut = false) :
    W6 m ρ c (Proc.devRef .tc (Pipeline.arrRef spec0 w)) = W5 m ρ c (Proc.devRef .tc (Pipeline.arrRef spec0 w)) :=
  (W6_arr m ρ c w).trans (((dat0 (V5 m ρ) c).arrAt_in w hw _).trans (A_eq0 (V5 m ρ) c w))
theorem W7_in (c : Dev nD) (w : Fin cfg1.W) (hw : (cfg1.win w).isOut = false) :
    W7 m ρ c (Proc.devRef .tc (Pipeline.arrRef spec1 w)) = W6 m ρ c (Proc.devRef .tc (Pipeline.arrRef spec1 w)) :=
  (W7_arr m ρ c w).trans (((dat1 (V6 m ρ) c).arrAt_in w hw _).trans (A_eq1 (V6 m ρ) c w))
theorem W8_in (c : Dev nD) (w : Fin cfg2.W) (hw : (cfg2.win w).isOut = false) :
    W8 m ρ c (Proc.devRef .tc (Pipeline.arrRef spec2 w)) = W7 m ρ c (Proc.devRef .tc (Pipeline.arrRef spec2 w)) :=
  (W8_arr m ρ c w).trans (((dat2 (V7 m ρ) c).arrAt_in w hw _).trans (A_eq2 (V7 m ρ) c w))
theorem W9_in (c : Dev nD) (w : Fin cfg3.W) (hw : (cfg3.win w).isOut = false) :
    W9 m ρ c (Proc.devRef .tc (Pipeline.arrRef spec3 w)) = W8 m ρ c (Proc.devRef .tc (Pipeline.arrRef spec3 w)) :=
  (W9_arr m ρ c w).trans (((dat3 (V8 m ρ) c).arrAt_in w hw _).trans (A_eq3 (V8 m ρ) c w))
theorem W10_in (c : Dev nD) (w : Fin cfg4.W) (hw : (cfg4.win w).isOut = false) :
    W10 m ρ c (Proc.devRef .tc (Pipeline.arrRef spec4 w)) = W9 m ρ c (Proc.devRef .tc (Pipeline.arrRef spec4 w)) :=
  (W10_arr m ρ c w).trans (((dat4 (V9 m ρ) c).arrAt_in w hw _).trans (A_eq4 (V9 m ρ) c w))
theorem W11_in (c : Dev nD) (w : Fin cfg5.W) (hw : (cfg5.win w).isOut = false) :
    W11 m ρ c (Proc.devRef .tc (Pipeline.arrRef spec5 w)) = W10 m ρ c (Proc.devRef .tc (Pipeline.arrRef spec5 w)) :=
  (W11_arr m ρ c w).trans (((dat5 (V10 m ρ) c).arrAt_in w hw _).trans (A_eq5 (V10 m ρ) c w))
theorem W12_in (c : Dev nD) (w : Fin cfg6.W) (hw : (cfg6.win w).isOut = false) :
    W12 m ρ c (Proc.devRef .tc (Pipeline.arrRef spec6 w)) = W11 m ρ c (Proc.devRef .tc (Pipeline.arrRef spec6 w)) :=
  (W12_arr m ρ c w).trans (((dat6 (V11 m ρ) c).arrAt_in w hw _).trans (A_eq6 (V11 m ρ) c w))

/-! ## The arrays later regions read, traced back -/
theorem W6_v31 (c : Dev nD) : W6 m ρ c (Proc.devRef .tc main_v31) = W5 m ρ c (Proc.devRef .tc main_v31) :=
  (W6_of_ne m ρ c main_v31 (by decide))
theorem W6_v33 (c : Dev nD) : W6 m ρ c (Proc.devRef .tc main_v33) = W5 m ρ c (Proc.devRef .tc main_v33) :=
  (W6_of_ne m ρ c main_v33 (by decide))
theorem W7_v32 (c : Dev nD) : W7 m ρ c (Proc.devRef .tc main_v32) = W5 m ρ c (Proc.devRef .tc main_v32) :=
  (W7_of_ne m ρ c main_v32 (by decide)).trans <| (W6_of_ne m ρ c main_v32 (by decide))
theorem W7_arg3 (c : Dev nD) : W7 m ρ c (Proc.devRef .tc main_arg3) = W5 m ρ c (Proc.devRef .tc main_arg3) :=
  (W7_of_ne m ρ c main_arg3 (by decide)).trans <| (W6_of_ne m ρ c main_arg3 (by decide))
theorem W8_arg4 (c : Dev nD) : W8 m ρ c (Proc.devRef .tc main_arg4) = W5 m ρ c (Proc.devRef .tc main_arg4) :=
  (W8_of_ne m ρ c main_arg4 (by decide)).trans <| (W7_of_ne m ρ c main_arg4 (by decide)).trans <| (W6_of_ne m ρ c main_arg4 (by decide))
theorem W9_v31 (c : Dev nD) : W9 m ρ c (Proc.devRef .tc main_v31) = W5 m ρ c (Proc.devRef .tc main_v31) :=
  (W9_of_ne m ρ c main_v31 (by decide)).trans <| (W8_of_ne m ρ c main_v31 (by decide)).trans <| (W7_in m ρ c 0 rfl).trans <| (W6_of_ne m ρ c main_v31 (by decide))
theorem W9_v33 (c : Dev nD) : W9 m ρ c (Proc.devRef .tc main_v33) = W5 m ρ c (Proc.devRef .tc main_v33) :=
  (W9_of_ne m ρ c main_v33 (by decide)).trans <| (W8_of_ne m ρ c main_v33 (by decide)).trans <| (W7_in m ρ c 1 rfl).trans <| (W6_of_ne m ρ c main_v33 (by decide))
theorem W10_v32 (c : Dev nD) : W10 m ρ c (Proc.devRef .tc main_v32) = W5 m ρ c (Proc.devRef .tc main_v32) :=
  (W10_of_ne m ρ c main_v32 (by decide)).trans <| (W9_of_ne m ρ c main_v32 (by decide)).trans <| (W8_in m ρ c 0 rfl).trans <| (W7_of_ne m ρ c main_v32 (by decide)).trans <| (W6_of_ne m ρ c main_v32 (by decide))
theorem W10_arg5 (c : Dev nD) : W10 m ρ c (Proc.devRef .tc main_arg5) = W5 m ρ c (Proc.devRef .tc main_arg5) :=
  (W10_of_ne m ρ c main_arg5 (by decide)).trans <| (W9_of_ne m ρ c main_arg5 (by decide)).trans <| (W8_of_ne m ρ c main_arg5 (by decide)).trans <| (W7_of_ne m ρ c main_arg5 (by decide)).trans <| (W6_of_ne m ρ c main_arg5 (by decide))
theorem W11_arg6 (c : Dev nD) : W11 m ρ c (Proc.devRef .tc main_arg6) = W5 m ρ c (Proc.devRef .tc main_arg6) :=
  (W11_of_ne m ρ c main_arg6 (by decide)).trans <| (W10_of_ne m ρ c main_arg6 (by decide)).trans <| (W9_of_ne m ρ c main_arg6 (by decide)).trans <| (W8_of_ne m ρ c main_arg6 (by decide)).trans <| (W7_of_ne m ρ c main_arg6 (by decide)).trans <| (W6_of_ne m ρ c main_arg6 (by decide))
theorem W11_arg7 (c : Dev nD) : W11 m ρ c (Proc.devRef .tc main_arg7) = W5 m ρ c (Proc.devRef .tc main_arg7) :=
  (W11_of_ne m ρ c main_arg7 (by decide)).trans <| (W10_of_ne m ρ c main_arg7 (by decide)).trans <| (W9_of_ne m ρ c main_arg7 (by decide)).trans <| (W8_of_ne m ρ c main_arg7 (by decide)).trans <| (W7_of_ne m ρ c main_arg7 (by decide)).trans <| (W6_of_ne m ρ c main_arg7 (by decide))
theorem W11_arg8 (c : Dev nD) : W11 m ρ c (Proc.devRef .tc main_arg8) = W5 m ρ c (Proc.devRef .tc main_arg8) :=
  (W11_of_ne m ρ c main_arg8 (by decide)).trans <| (W10_of_ne m ρ c main_arg8 (by decide)).trans <| (W9_of_ne m ρ c main_arg8 (by decide)).trans <| (W8_of_ne m ρ c main_arg8 (by decide)).trans <| (W7_of_ne m ρ c main_arg8 (by decide)).trans <| (W6_of_ne m ρ c main_arg8 (by decide))
theorem W11_arg9 (c : Dev nD) : W11 m ρ c (Proc.devRef .tc main_arg9) = W5 m ρ c (Proc.devRef .tc main_arg9) :=
  (W11_of_ne m ρ c main_arg9 (by decide)).trans <| (W10_of_ne m ρ c main_arg9 (by decide)).trans <| (W9_of_ne m ρ c main_arg9 (by decide)).trans <| (W8_of_ne m ρ c main_arg9 (by decide)).trans <| (W7_of_ne m ρ c main_arg9 (by decide)).trans <| (W6_of_ne m ρ c main_arg9 (by decide))

/-! ## Each region's output array at the next boundary -/
theorem W6_out (c : Dev nD) : W6 m ρ c (Proc.devRef .tc main_v34) = (dat0 (V5 m ρ) c).arrAt 2 cfg0.N := W6_arr m ρ c 2
theorem W7_out (c : Dev nD) : W7 m ρ c (Proc.devRef .tc main_v35) = (dat1 (V6 m ρ) c).arrAt 3 cfg1.N := W7_arr m ρ c 3
theorem W8_out (c : Dev nD) : W8 m ρ c (Proc.devRef .tc main_v36) = (dat2 (V7 m ρ) c).arrAt 3 cfg2.N := W8_arr m ρ c 3
theorem W9_out (c : Dev nD) : W9 m ρ c (Proc.devRef .tc main_v37) = (dat3 (V8 m ρ) c).arrAt 2 cfg3.N := W9_arr m ρ c 2
theorem W10_out (c : Dev nD) : W10 m ρ c (Proc.devRef .tc main_v38) = (dat4 (V9 m ρ) c).arrAt 3 cfg4.N := W10_arr m ρ c 3
theorem W11_out (c : Dev nD) : W11 m ρ c (Proc.devRef .tc main_v39) = (dat5 (V10 m ρ) c).arrAt 3 cfg5.N := W11_arr m ρ c 3
theorem W12_out (c : Dev nD) : W12 m ρ c (Proc.devRef .tc main_v40) = (dat6 (V11 m ρ) c).arrAt 5 cfg6.N := W12_arr m ρ c 5

/-! ## The arguments end as launched -/

theorem W5_of_launch (c : Dev nD) (r : Ref sig .tc) (h0 : r ∉ hostOps0_W) (h1 : r ∉ hostOps0_1_W) (h2 : r ∉ hostOps0_2_W) (h3 : r ∉ hostOps0_3_W) (h4 : r ∉ hostOps0_4_W) :
    W5 m ρ c (Proc.devRef .tc r) = m ((c : Thread nD τ).loc r) :=
  (StableHlo.after_of_writes_sub hostOps0_4 _ hostOps0_4_writes h4).trans <| (StableHlo.after_of_writes_sub hostOps0_3 _ hostOps0_3_writes h3).trans <|
    (StableHlo.after_of_writes_sub hostOps0_2 _ hostOps0_2_writes h2).trans <| (StableHlo.after_of_writes_sub hostOps0_1 _ hostOps0_1_writes h1).trans <|
    (StableHlo.after_of_writes_sub hostOps0 _ hostOps0_writes h0).trans rfl
theorem W13_main_arg0 (c : Dev nD) : W13 m ρ c (Proc.devRef .tc main_arg0) = m ((c : Thread nD τ).loc main_arg0) :=
  (StableHlo.after_of_writes_sub hostOps7 _ hostOps7_writes (by decide)).trans <| (W12_of_ne m ρ c main_arg0 (by decide)).trans <| (W11_of_ne m ρ c main_arg0 (by decide)).trans <| (W10_of_ne m ρ c main_arg0 (by decide)).trans <| (W9_of_ne m ρ c main_arg0 (by decide)).trans <| (W8_of_ne m ρ c main_arg0 (by decide)).trans <| (W7_of_ne m ρ c main_arg0 (by decide)).trans <| (W6_of_ne m ρ c main_arg0 (by decide)).trans <| W5_of_launch m ρ c main_arg0 (by decide) (by decide) (by decide) (by decide) (by decide)
theorem W13_main_arg1 (c : Dev nD) : W13 m ρ c (Proc.devRef .tc main_arg1) = m ((c : Thread nD τ).loc main_arg1) :=
  (StableHlo.after_of_writes_sub hostOps7 _ hostOps7_writes (by decide)).trans <| (W12_of_ne m ρ c main_arg1 (by decide)).trans <| (W11_of_ne m ρ c main_arg1 (by decide)).trans <| (W10_of_ne m ρ c main_arg1 (by decide)).trans <| (W9_of_ne m ρ c main_arg1 (by decide)).trans <| (W8_of_ne m ρ c main_arg1 (by decide)).trans <| (W7_of_ne m ρ c main_arg1 (by decide)).trans <| (W6_of_ne m ρ c main_arg1 (by decide)).trans <| W5_of_launch m ρ c main_arg1 (by decide) (by decide) (by decide) (by decide) (by decide)
theorem W13_main_arg2 (c : Dev nD) : W13 m ρ c (Proc.devRef .tc main_arg2) = m ((c : Thread nD τ).loc main_arg2) :=
  (StableHlo.after_of_writes_sub hostOps7 _ hostOps7_writes (by decide)).trans <| (W12_of_ne m ρ c main_arg2 (by decide)).trans <| (W11_of_ne m ρ c main_arg2 (by decide)).trans <| (W10_of_ne m ρ c main_arg2 (by decide)).trans <| (W9_of_ne m ρ c main_arg2 (by decide)).trans <| (W8_of_ne m ρ c main_arg2 (by decide)).trans <| (W7_of_ne m ρ c main_arg2 (by decide)).trans <| (W6_in m ρ c 1 rfl).trans <| W5_of_launch m ρ c main_arg2 (by decide) (by decide) (by decide) (by decide) (by decide)
theorem W13_main_arg3 (c : Dev nD) : W13 m ρ c (Proc.devRef .tc main_arg3) = m ((c : Thread nD τ).loc main_arg3) :=
  (StableHlo.after_of_writes_sub hostOps7 _ hostOps7_writes (by decide)).trans <| (W12_of_ne m ρ c main_arg3 (by decide)).trans <| (W11_of_ne m ρ c main_arg3 (by decide)).trans <| (W10_of_ne m ρ c main_arg3 (by decide)).trans <| (W9_of_ne m ρ c main_arg3 (by decide)).trans <| (W8_in m ρ c 2 rfl).trans <| (W7_of_ne m ρ c main_arg3 (by decide)).trans <| (W6_of_ne m ρ c main_arg3 (by decide)).trans <| W5_of_launch m ρ c main_arg3 (by decide) (by decide) (by decide) (by decide) (by decide)
theorem W13_main_arg4 (c : Dev nD) : W13 m ρ c (Proc.devRef .tc main_arg4) = m ((c : Thread nD τ).loc main_arg4) :=
  (StableHlo.after_of_writes_sub hostOps7 _ hostOps7_writes (by decide)).trans <| (W12_of_ne m ρ c main_arg4 (by decide)).trans <| (W11_of_ne m ρ c main_arg4 (by decide)).trans <| (W10_of_ne m ρ c main_arg4 (by decide)).trans <| (W9_in m ρ c 1 rfl).trans <| (W8_of_ne m ρ c main_arg4 (by decide)).trans <| (W7_of_ne m ρ c main_arg4 (by decide)).trans <| (W6_of_ne m ρ c main_arg4 (by decide)).trans <| W5_of_launch m ρ c main_arg4 (by decide) (by decide) (by decide) (by decide) (by decide)
theorem W13_main_arg5 (c : Dev nD) : W13 m ρ c (Proc.devRef .tc main_arg5) = m ((c : Thread nD τ).loc main_arg5) :=
  (StableHlo.after_of_writes_sub hostOps7 _ hostOps7_writes (by decide)).trans <| (W12_of_ne m ρ c main_arg5 (by decide)).trans <| (W11_in m ρ c 2 rfl).trans <| (W10_of_ne m ρ c main_arg5 (by decide)).trans <| (W9_of_ne m ρ c main_arg5 (by decide)).trans <| (W8_of_ne m ρ c main_arg5 (by decide)).trans <| (W7_of_ne m ρ c main_arg5 (by decide)).trans <| (W6_of_ne m ρ c main_arg5 (by decide)).trans <| W5_of_launch m ρ c main_arg5 (by decide) (by decide) (by decide) (by decide) (by decide)
theorem W13_main_arg6 (c : Dev nD) : W13 m ρ c (Proc.devRef .tc main_arg6) = m ((c : Thread nD τ).loc main_arg6) :=
  (StableHlo.after_of_writes_sub hostOps7 _ hostOps7_writes (by decide)).trans <| (W12_in m ρ c 1 rfl).trans <| (W11_of_ne m ρ c main_arg6 (by decide)).trans <| (W10_of_ne m ρ c main_arg6 (by decide)).trans <| (W9_of_ne m ρ c main_arg6 (by decide)).trans <| (W8_of_ne m ρ c main_arg6 (by decide)).trans <| (W7_of_ne m ρ c main_arg6 (by decide)).trans <| (W6_of_ne m ρ c main_arg6 (by decide)).trans <| W5_of_launch m ρ c main_arg6 (by decide) (by decide) (by decide) (by decide) (by decide)
theorem W13_main_arg7 (c : Dev nD) : W13 m ρ c (Proc.devRef .tc main_arg7) = m ((c : Thread nD τ).loc main_arg7) :=
  (StableHlo.after_of_writes_sub hostOps7 _ hostOps7_writes (by decide)).trans <| (W12_in m ρ c 2 rfl).trans <| (W11_of_ne m ρ c main_arg7 (by decide)).trans <| (W10_of_ne m ρ c main_arg7 (by decide)).trans <| (W9_of_ne m ρ c main_arg7 (by decide)).trans <| (W8_of_ne m ρ c main_arg7 (by decide)).trans <| (W7_of_ne m ρ c main_arg7 (by decide)).trans <| (W6_of_ne m ρ c main_arg7 (by decide)).trans <| W5_of_launch m ρ c main_arg7 (by decide) (by decide) (by decide) (by decide) (by decide)
theorem W13_main_arg8 (c : Dev nD) : W13 m ρ c (Proc.devRef .tc main_arg8) = m ((c : Thread nD τ).loc main_arg8) :=
  (StableHlo.after_of_writes_sub hostOps7 _ hostOps7_writes (by decide)).trans <| (W12_in m ρ c 3 rfl).trans <| (W11_of_ne m ρ c main_arg8 (by decide)).trans <| (W10_of_ne m ρ c main_arg8 (by decide)).trans <| (W9_of_ne m ρ c main_arg8 (by decide)).trans <| (W8_of_ne m ρ c main_arg8 (by decide)).trans <| (W7_of_ne m ρ c main_arg8 (by decide)).trans <| (W6_of_ne m ρ c main_arg8 (by decide)).trans <| W5_of_launch m ρ c main_arg8 (by decide) (by decide) (by decide) (by decide) (by decide)
theorem W13_main_arg9 (c : Dev nD) : W13 m ρ c (Proc.devRef .tc main_arg9) = m ((c : Thread nD τ).loc main_arg9) :=
  (StableHlo.after_of_writes_sub hostOps7 _ hostOps7_writes (by decide)).trans <| (W12_in m ρ c 4 rfl).trans <| (W11_of_ne m ρ c main_arg9 (by decide)).trans <| (W10_of_ne m ρ c main_arg9 (by decide)).trans <| (W9_of_ne m ρ c main_arg9 (by decide)).trans <| (W8_of_ne m ρ c main_arg9 (by decide)).trans <| (W7_of_ne m ρ c main_arg9 (by decide)).trans <| (W6_of_ne m ρ c main_arg9 (by decide)).trans <| W5_of_launch m ρ c main_arg9 (by decide) (by decide) (by decide) (by decide) (by decide)

/-- THE FRAME: every weakly fair execution of @main terminates, nothing faulting, and the argument arrays end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W13_main_arg0 m ρ c),
    (h c _ (mem_uc main_arg1 (by decide))).trans (W13_main_arg1 m ρ c),
    (h c _ (mem_uc main_arg2 (by decide))).trans (W13_main_arg2 m ρ c),
    (h c _ (mem_uc main_arg3 (by decide))).trans (W13_main_arg3 m ρ c),
    (h c _ (mem_uc main_arg4 (by decide))).trans (W13_main_arg4 m ρ c),
    (h c _ (mem_uc main_arg5 (by decide))).trans (W13_main_arg5 m ρ c),
    (h c _ (mem_uc main_arg6 (by decide))).trans (W13_main_arg6 m ρ c),
    (h c _ (mem_uc main_arg7 (by decide))).trans (W13_main_arg7 m ρ c),
    (h c _ (mem_uc main_arg8 (by decide))).trans (W13_main_arg8 m ρ c),
    (h c _ (mem_uc main_arg9 (by decide))).trans (W13_main_arg9 m ρ c)⟩) (run_all m ρ)

end Cert.KernelIdeal.Hand

end
-- ==== Proof.Val.Spec.lean ====
/-
  The mathematics both programs compute, stated once over plain index types: a two-layer graph convolution
  with self loops and symmetric degree normalisation, followed by a two-layer perceptron. An edge list of
  850000 entries (the 800000 given edges followed by one self loop per node) with source words `s e` and
  destination words `d e`; the degree of node `n` counts the edges landing on it; an edge's weight is the
  product of the inverse square roots of its endpoints' degrees; a convolution sends row features `x` to
  `tanh (∑_{e : d e = n} (x · W) (s e) · weight e + b)`. Rows are indexed by natural numbers so that the padded
  and the unpadded node axes share one statement.
-/
import Idealize.ShloMosaic.PureOps.Ideal
import Idealize.ShloMosaic.Lib.ValueIdx

noncomputable section

open scoped BigOperators

namespace Cert.Spec

open Idealize.ShloMosaic Idealize.ShloMosaic.ValueIdx

/-- The word `1.0` read at the ideal instance. -/
abbrev one : EReal := Ideal.ofBits .f32 0x3F800000#32
/-- The word `0.0` read at the ideal instance. -/
abbrev zero : EReal := Ideal.ofBits .f32 0x00000000#32

/-- An endpoint row of the extended edge list: the given words for the first 800000 edges, then node `e - 800000`
    for the self loops. -/
def endpt (ei : (⟨2, ![2, 800000]⟩ : Shape).Idx → BitVec 32) (r : Fin 2) (e : Fin 850000) : BitVec 32 :=
  if h : e.val < 800000 then ei (ix2 r ⟨e.val, h⟩) else BitVec.ofNat 32 (e.val - 800000)

/-- `where (g > 0) (rsqrt g) 0` on one extended real, as both programs' host code computes it. -/
def dinvOf (g : EReal) : EReal :=
  Scalar.select (FloatOps.cmpf (F := Ideal) (φ := .f32) .ogt g zero) (FloatOps.hostUnary (F := Ideal) (φ := .f32) .rsqrt g) zero

section
variable (s d : Fin 850000 → BitVec 32)

/-- The number of edges landing on node `n`, as a sum of ones. -/
def deg (n : ℕ) : EReal := ∑ e : Fin 850000, if (d e).toNat = n then one else 0
/-- A node's inverse square-root degree. -/
def dinv (n : ℕ) : EReal := dinvOf (deg d n)
/-- An edge's symmetric normalisation weight. -/
def norm (e : Fin 850000) : EReal := dinv d (s e).toNat * dinv d (d e).toNat

/-- Rows times a weight matrix. -/
def lin {K D : ℕ} (x : ℕ → Fin K → EReal) (W : Fin K → Fin D → EReal) (r : ℕ) (j : Fin D) : EReal :=
  ∑ k : Fin K, x r k * W k j
/-- An edge's message: its source row, weighted. -/
def msg {D : ℕ} (h : ℕ → Fin D → EReal) (e : Fin 850000) (j : Fin D) : EReal := h (s e).toNat j * norm s d e
/-- Messages summed at their destinations, plus a bias, through `tanh`. -/
def agg {D : ℕ} (mg : Fin 850000 → Fin D → EReal) (b : Fin D → EReal) (n : ℕ) (j : Fin D) : EReal :=
  Ideal.tanh ((∑ e : Fin 850000, if (d e).toNat = n then mg e j else 0) + b j)
/-- One graph convolution layer. -/
def conv {K D : ℕ} (x : ℕ → Fin K → EReal) (W : Fin K → Fin D → EReal) (b : Fin D → EReal) : ℕ → Fin D → EReal :=
  agg d (msg s d (lin x W)) b
/-- The perceptron tail on one row. -/
def mlp (x : ℕ → Fin 64 → EReal) (Wf1 : Fin 64 → Fin 32 → EReal) (bf1 : Fin 32 → EReal) (Wf2 : Fin 32 → Fin 1 → EReal)
    (bf2 : Fin 1 → EReal) (r : ℕ) (j : Fin 1) : EReal :=
  (∑ k : Fin 32, Ideal.tanh ((∑ q : Fin 64, x r q * Wf1 q k) + bf1 k) * Wf2 k j) + bf2 j

/-- The whole network on row `r`. -/
def net (x : ℕ → Fin 128 → EReal) (W1 : Fin 128 → Fin 64 → EReal) (b1 : Fin 64 → EReal) (W2 : Fin 64 → Fin 64 → EReal)
    (b2 : Fin 64 → EReal) (Wf1 : Fin 64 → Fin 32 → EReal) (bf1 : Fin 32 → EReal) (Wf2 : Fin 32 → Fin 1 → EReal)
    (bf2 : Fin 1 → EReal) : ℕ → Fin 1 → EReal :=
  mlp (conv s d (conv s d x W1 b1) W2 b2) Wf1 bf1 Wf2 bf2
end

/-! ## Arrays as row tables -/

/-- A rank-2 array's rows by natural number, zero past its end. -/
def rows {R C : ℕ} (a : (⟨2, ![R, C]⟩ : Shape).Idx → EReal) (r : ℕ) (j : Fin C) : EReal :=
  if h : r < R then a (ix2 ⟨r, h⟩ j) else 0
/-- A rank-2 array as a matrix over its two coordinates. -/
def mat {R C : ℕ} (a : (⟨2, ![R, C]⟩ : Shape).Idx → EReal) (i : Fin R) (j : Fin C) : EReal := a (ix2 i j)
/-- A rank-1 array as a function of its coordinate. -/
def vec {C : ℕ} (a : (⟨1, ![C]⟩ : Shape).Idx → EReal) (j : Fin C) : EReal := a (ix1 j)

end Cert.Spec

end
-- ==== Proof.Val.Pre.lean ====
/-
  The integer precondition decoded: the last conjunct of the printed predicate says every word of the edge table lies in
  [0, 50000) signed, so each endpoint word of the extended edge list (the given words, then the self-loop node numbers)
  is below 50000 unsigned.
-/
import proofs.«401039_j68436008894831_1_alg».proof.Pre_finite_inputs
import proofs.«401039_j68436008894831_1_alg».proof.Proof.Gen.Pre_finite_inputs
import proofs.«401039_j68436008894831_1_alg».proof.Proof.Val.Spec
import Idealize.ShloMosaic.Lib.ReduceAll
import Idealize.ShloMosaic.Lib.StableHlo.Predicate
import Idealize.ShloMosaic.Lib.ValueIdx

noncomputable section

namespace Cert.PreVal

open Idealize.ShloMosaic Idealize.ShloMosaic.ValueIdx Cert.Pre_finite_inputs

/-- The rank-0 shape has one index. -/
instance : Subsingleton S_.Idx := ⟨fun a b => funext fun d => d.elim0⟩

/-- A word in [0, n) signed is below n unsigned. -/
theorem toNat_lt_of_signed (w : BitVec 32) (n : Nat) (hn : n < 2 ^ 31) (h0 : IntOp.cmpi .sge w (0#32) = 1#1)
    (h1 : IntOp.cmpi .slt w (BitVec.ofNat 32 n) = 1#1) : w.toNat < n := by
  unfold IntOp.cmpi at h0 h1
  rw [StableHlo.Predicate.ofBool_eq_one_iff] at h0 h1
  simp only [BitVec.slt, BitVec.sle, decide_eq_true_eq] at h0 h1
  have h32 := w.isLt
  unfold BitVec.toInt at h0 h1
  split at h1 <;> simp at h0 h1 <;> omega

/-- Every word of the edge table is below 50000. -/
theorem word_lt [Facts] (a0 : FVec Ideal S50000x128 .f32) (a1 : IVec S2x800000 32) (a2 : FVec Ideal S128x64 .f32)
    (a3 : FVec Ideal S64 .f32) (a4 : FVec Ideal S64x64 .f32) (a5 : FVec Ideal S64 .f32) (a6 : FVec Ideal S64x32 .f32)
    (a7 : FVec Ideal S32 .f32) (a8 : FVec Ideal S32x1 .f32) (a9 : FVec Ideal S1 .f32)
    (h : fn (F := Ideal) a0 a1 a2 a3 a4 a5 a6 a7 a8 a9 = fun _ => 1#1) (i : S2x800000.Idx) : (a1 i).toNat < 50000 := by
  have e := congrFun h ix0
  dsimp only [fn, fn_part1, fn_part2] at e
  have e2 : Host.reduce IntOp.andi
        (andi (cmpi CmpIPredicate.sge a1 (broadcastInDim S2x800000 ![] Facts.bcast_S_S2x800000 (constantI S_ 32 0#32)))
          (cmpi CmpIPredicate.slt a1 (broadcastInDim S2x800000 ![] Facts.bcast_S_S2x800000 (constantI S_ 32 50000#32))))
        (constantI S_ 1 1#1) Facts.reducesTo_S2x800000_S_d0_1 Facts.h_S_ ix0 = 1#1 := (IntOp.andi_eq_one.1 e).2
  have e3 := Host.reduce_andi_all _ _ _ _ ix0 e2 i
  obtain ⟨h0, h1⟩ := IntOp.andi_eq_one.1 e3
  exact toNat_lt_of_signed (a1 i) 50000 (by decide) h0 h1

/-- THE PRECONDITION DECODED: both endpoint words of every edge of the extended list name a node. -/
theorem range_of_pre [Facts] (a0 : FVec Ideal S50000x128 .f32) (a1 : IVec S2x800000 32) (a2 : FVec Ideal S128x64 .f32)
    (a3 : FVec Ideal S64 .f32) (a4 : FVec Ideal S64x64 .f32) (a5 : FVec Ideal S64 .f32) (a6 : FVec Ideal S64x32 .f32)
    (a7 : FVec Ideal S32 .f32) (a8 : FVec Ideal S32x1 .f32) (a9 : FVec Ideal S1 .f32)
    (h : fn (F := Ideal) a0 a1 a2 a3 a4 a5 a6 a7 a8 a9 = fun _ => 1#1) :
    ∀ e : Fin 850000, (Cert.Spec.endpt a1 0 e).toNat < 50000 ∧ (Cert.Spec.endpt a1 1 e).toNat < 50000 := by
  have hw : ∀ (r : Fin 2) (e : Fin 850000), (Cert.Spec.endpt a1 r e).toNat < 50000 := by
    intro r e
    unfold Cert.Spec.endpt
    split
    · exact word_lt a0 a1 a2 a3 a4 a5 a6 a7 a8 a9 h _
    · have he := e.isLt
      rw [BitVec.toNat_ofNat]
      omega
  exact fun e => ⟨hw 0 e, hw 1 e⟩

end Cert.PreVal

end
-- ==== Proof.Val.KSpec.lean ====
/-
  What each kernel region of the program computes, as ONE function of the whole arrays it reads, index by index, at
  the ideal instance (extended reals, exact operations): a row-tiled dense product; a gather of rows by an index
  column written as the sum over all rows of "is this the indexed row" times the row, scaled by a per-edge weight;
  a scatter-add by a destination column written as the sum over all edges of "does this edge land here" times the
  edge's message, plus a bias, through `tanh`; and the two-layer perceptron tail.
-/
import Idealize.ShloMosaic.PureOps.Ideal
import Idealize.ShloMosaic.Lib.ValueIdx

noncomputable section

open scoped BigOperators

namespace Cert.KSpec

open Idealize.ShloMosaic Idealize.ShloMosaic.ValueIdx

abbrev Arr2 (R C : ℕ) : Type := (⟨2, ![R, C]⟩ : Shape).Idx → EReal
abbrev Arr1 (C : ℕ) : Type := (⟨1, ![C]⟩ : Shape).Idx → EReal
abbrev Col32 (R : ℕ) : Type := (⟨2, ![R, 1]⟩ : Shape).Idx → BitVec 32

/-- Rows times a weight matrix. -/
def lin {R K D : ℕ} (x : Arr2 R K) (w : Arr2 K D) : Arr2 R D :=
  fun i => ∑ k : Fin K, x (ix2 (i 0 : Fin R) k) * w (ix2 k (i 1 : Fin D))

/-- Edge `e`'s message: the row of `h` its source word names (none if the word names no row), times its weight. -/
def gat (s : Col32 850000) (nrm : Arr2 850000 1) (h : Arr2 50048 64) : Arr2 850000 64 :=
  fun i => (∑ n : Fin 50048, if (s (ix2 (i 0 : Fin 850000) (0 : Fin 1))).toNat = n.val then h (ix2 n (i 1 : Fin 64)) else 0)
    * nrm (ix2 (i 0 : Fin 850000) (0 : Fin 1))

/-- Node `n`'s new features: the messages of the edges whose destination word is `n`, summed, plus the bias, through `tanh`. -/
def sca (d : Col32 850000) (mg : Arr2 850000 64) (b : Arr1 64) : Arr2 50048 64 :=
  fun i => Ideal.tanh ((∑ e : Fin 850000, if (d (ix2 e (0 : Fin 1))).toNat = (i 0 : Fin 50048).val then mg (ix2 e (i 1 : Fin 64)) else 0)
    + b (ix1 (i 1 : Fin 64)))

/-- The perceptron tail, row by row. -/
def fc (x : Arr2 50048 64) (w1 : Arr2 64 32) (b1 : Arr1 32) (w2 : Arr2 32 1) (b2 : Arr1 1) : Arr2 50048 1 :=
  fun i => (∑ k : Fin 32, Ideal.tanh ((∑ q : Fin 64, x (ix2 (i 0 : Fin 50048) q) * w1 (ix2 q k)) + b1 (ix1 k)) * w2 (ix2 k (i 1 : Fin 1)))
    + b2 (ix1 (i 1 : Fin 1))

end Cert.KSpec

end
-- ==== Proof.Val.Compose.lean ====
/-
  The kernel regions' whole-array functions, composed in the program's order, are the network of Spec on every row of
  the padded node axis. One lemma per function: a dense product of arrays is the dense product of row tables; the
  gather's sum over all rows of "is this the indexed row" keeps exactly the indexed row (a one-hot sum: only
  if-then-else and 0 appear, so it is valid over the extended reals); the scatter's sum over the edges is the
  aggregation; the perceptron tail is the perceptron tail. An array "holds" a row table when it agrees with it at every
  one of its rows.
-/
import proofs.«401039_j68436008894831_1_alg».proof.Proof.Val.Spec
import proofs.«401039_j68436008894831_1_alg».proof.Proof.Val.KSpec
import Idealize.ShloMosaic.PureOps.Ideal
import Idealize.ShloMosaic.Lib.ValueIdx
import Mathlib.Algebra.BigOperators.Group.Finset.Basic

noncomputable section

open scoped BigOperators

namespace Cert.Compose

open Idealize.ShloMosaic Idealize.ShloMosaic.ValueIdx Cert.KSpec

/-- The dense product of an array holding the row table `h` holds the dense product of `h`. -/
theorem lin_eq {R K D : ℕ} (a : Arr2 R K) (W : Arr2 K D) (h : ℕ → Fin K → EReal)
    (ha : ∀ (r : Fin R) (k : Fin K), a (ix2 r k) = h r.val k) (r : Fin R) (j : Fin D) :
    Cert.KSpec.lin a W (ix2 r j) = Cert.Spec.lin h (Cert.Spec.mat W) r.val j := by
  show ∑ k : Fin K, a (ix2 r k) * W (ix2 k j) = ∑ k : Fin K, h r.val k * W (ix2 k j)
  exact Finset.sum_congr rfl fun k _ => by rw [ha]

/-- The gather: the sum over all rows of "is this the row the source word names" is that row, the word naming a row. -/
theorem gat_eq (sW dW : Fin 850000 → BitVec 32) (sC : Col32 850000) (nC : Arr2 850000 1) (a : Arr2 50048 64)
    (h : ℕ → Fin 64 → EReal) (hs : ∀ e : Fin 850000, sC (ix2 e 0) = sW e)
    (hn : ∀ e : Fin 850000, nC (ix2 e 0) = Cert.Spec.norm sW dW e) (hlt : ∀ e : Fin 850000, (sW e).toNat < 50048)
    (ha : ∀ (r : Fin 50048) (j : Fin 64), a (ix2 r j) = h r.val j) (e : Fin 850000) (j : Fin 64) :
    Cert.KSpec.gat sC nC a (ix2 e j) = Cert.Spec.msg sW dW h e j := by
  show (∑ n : Fin 50048, if (sC (ix2 e (0 : Fin 1))).toNat = n.val then a (ix2 n j) else 0) * nC (ix2 e (0 : Fin 1))
    = h (sW e).toNat j * Cert.Spec.norm sW dW e
  rw [hs, hn]
  refine congrArg (fun t => t * Cert.Spec.norm sW dW e) ?_
  rw [Finset.sum_eq_single (⟨(sW e).toNat, hlt e⟩ : Fin 50048)]
  · rw [if_pos rfl, ha]
  · intro n _ hne
    exact if_neg fun hh => hne (Fin.ext hh.symm)
  · intro hh
    exact absurd (Finset.mem_univ _) hh

/-- The scatter: the sum over the edges landing on a row, plus the bias, through `tanh`, is the aggregation. -/
theorem sca_eq (dW : Fin 850000 → BitVec 32) (dC : Col32 850000) (mg : Arr2 850000 64) (b : Arr1 64)
    (m : Fin 850000 → Fin 64 → EReal) (hd : ∀ e : Fin 850000, dC (ix2 e 0) = dW e)
    (hm : ∀ (e : Fin 850000) (j : Fin 64), mg (ix2 e j) = m e j) (r : Fin 50048) (j : Fin 64) :
    Cert.KSpec.sca dC mg b (ix2 r j) = Cert.Spec.agg dW m (Cert.Spec.vec b) r.val j := by
  show Ideal.tanh ((∑ e : Fin 850000, if (dC (ix2 e (0 : Fin 1))).toNat = r.val then mg (ix2 e j) else 0) + b (ix1 j))
    = Ideal.tanh ((∑ e : Fin 850000, if (dW e).toNat = r.val then m e j else 0) + b (ix1 j))
  refine congrArg (fun t => Ideal.tanh (t + b (ix1 j))) ?_
  exact Finset.sum_congr rfl fun e _ => by rw [hd, hm]

/-- The perceptron tail of an array holding `h` is the perceptron tail of `h`. -/
theorem fc_eq (a : Arr2 50048 64) (w1 : Arr2 64 32) (b1 : Arr1 32) (w2 : Arr2 32 1) (b2 : Arr1 1)
    (h : ℕ → Fin 64 → EReal) (ha : ∀ (r : Fin 50048) (q : Fin 64), a (ix2 r q) = h r.val q) (r : Fin 50048) (j : Fin 1) :
    Cert.KSpec.fc a w1 b1 w2 b2 (ix2 r j)
      = Cert.Spec.mlp h (Cert.Spec.mat w1) (Cert.Spec.vec b1) (Cert.Spec.mat w2) (Cert.Spec.vec b2) r.val j := by
  show (∑ k : Fin 32, Ideal.tanh ((∑ q : Fin 64, a (ix2 r q) * w1 (ix2 q k)) + b1 (ix1 k)) * w2 (ix2 k j)) + b2 (ix1 j)
    = (∑ k : Fin 32, Ideal.tanh ((∑ q : Fin 64, h r.val q * w1 (ix2 q k)) + b1 (ix1 k)) * w2 (ix2 k j)) + b2 (ix1 j)
  refine congrArg (fun t => t + b2 (ix1 j)) ?_
  refine Finset.sum_congr rfl fun k _ => ?_
  refine congrArg (fun t => Ideal.tanh (t + b1 (ix1 k)) * w2 (ix2 k j)) ?_
  exact Finset.sum_congr rfl fun q _ => by rw [ha]

/-- THE COMPOSITION: the seven regions' arrays, composed, hold the network on every row of the padded node axis. -/
theorem net_of_arrays (sW dW : Fin 850000 → BitVec 32) (x : ℕ → Fin 128 → EReal) (xp : Arr2 50048 128)
    (sC dC : Col32 850000) (nC : Arr2 850000 1) (W1 : Arr2 128 64) (b1 : Arr1 64) (W2 : Arr2 64 64) (b2 : Arr1 64)
    (Wf1 : Arr2 64 32) (bf1 : Arr1 32) (Wf2 : Arr2 32 1) (bf2 : Arr1 1)
    (hr : ∀ e, (sW e).toNat < 50000 ∧ (dW e).toNat < 50000)
    (hx : ∀ (r : Fin 50048) (k : Fin 128), xp (ix2 r k) = x r.val k)
    (hs : ∀ e : Fin 850000, sC (ix2 e 0) = sW e) (hd : ∀ e : Fin 850000, dC (ix2 e 0) = dW e)
    (hn : ∀ e : Fin 850000, nC (ix2 e 0) = Cert.Spec.norm sW dW e) :
    ∀ (r : Fin 50048),
      Cert.KSpec.fc (Cert.KSpec.sca dC (Cert.KSpec.gat sC nC (Cert.KSpec.lin
          (Cert.KSpec.sca dC (Cert.KSpec.gat sC nC (Cert.KSpec.lin xp W1)) b1) W2)) b2) Wf1 bf1 Wf2 bf2 (ix2 r 0)
        = Cert.Spec.net sW dW x (Cert.Spec.mat W1) (Cert.Spec.vec b1) (Cert.Spec.mat W2) (Cert.Spec.vec b2)
            (Cert.Spec.mat Wf1) (Cert.Spec.vec bf1) (Cert.Spec.mat Wf2) (Cert.Spec.vec bf2) r.val 0 := by
  intro r
  have hlt : ∀ e : Fin 850000, (sW e).toNat < 50048 := fun e => lt_trans (hr e).1 (by norm_num)
  have l1 := lin_eq xp W1 x hx
  have g1 := gat_eq sW dW sC nC (Cert.KSpec.lin xp W1) (Cert.Spec.lin x (Cert.Spec.mat W1)) hs hn hlt l1
  have s1 := sca_eq dW dC (Cert.KSpec.gat sC nC (Cert.KSpec.lin xp W1)) b1
    (Cert.Spec.msg sW dW (Cert.Spec.lin x (Cert.Spec.mat W1))) hd g1
  have l2 := lin_eq (Cert.KSpec.sca dC (Cert.KSpec.gat sC nC (Cert.KSpec.lin xp W1)) b1) W2
    (Cert.Spec.conv sW dW x (Cert.Spec.mat W1) (Cert.Spec.vec b1)) s1
  have g2 := gat_eq sW dW sC nC _ _ hs hn hlt l2
  have s2 := sca_eq dW dC _ b2 _ hd g2
  exact fc_eq _ Wf1 bf1 Wf2 bf2 _ s2 r 0

end Cert.Compose

end
-- ==== Proof.Val.KAssemble.lean ====
/-
  The idealized kernel program's result, assembled: its seven regions run one after another, each entered with what
  the ones before it left, so the array the last region writes is the composition
  `fc (sca d (gat s n (lin (sca d (gat s n (lin x W₁)) b₁) W₂)) b₂) …` of the regions' whole-array functions over the
  arrays the first region is entered with; the program's result is the first 50000 rows of that column. A region
  changes only its own output array: every other array a later region reads is either an earlier region's output or
  holds what it held when the first region was entered, and the parameter arrays hold there what they were launched
  with. With the host prefix's arrays read as the specification's features, endpoints and edge weights, the
  composition is the network of Spec on every row. At the ideal instance.
-/
import proofs.«401039_j68436008894831_1_alg».proof.Proof.KI.Keep
import proofs.«401039_j68436008894831_1_alg».proof.Proof.Val.KSpec
import proofs.«401039_j68436008894831_1_alg».proof.Proof.Val.Spec
import proofs.«401039_j68436008894831_1_alg».proof.Proof.Val.Compose
import Idealize.ShloMosaic.Lib.StableHlo.Run
import Idealize.ShloMosaic.Lib.ValueIdx

set_option maxRecDepth 16384

noncomputable section

open scoped BigOperators

namespace Cert.KernelIdeal.Assemble

open Cert.KernelIdeal Cert.KernelIdeal.Gen Cert.KernelIdeal.Hand
open Idealize.ShloMosaic Idealize.ShloMosaic.TcCoe Idealize.ShloMosaic.ValueIdx
open Cert.KSpec (Arr2 Arr1 Col32 lin gat sca fc)

/-! ## Equal arrays in, equal arrays out -/

theorem lin_of_eq {x x' : Arr2 50048 64} {w w' : Arr2 64 64} (hx : x = x') (hw : w = w') : lin x w = lin x' w' := by
  rw [hx, hw]
theorem gat_of_eq {s s' : Col32 850000} {n n' : Arr2 850000 1} {h h' : Arr2 50048 64} (hs : s = s') (hn : n = n') (hh : h = h') :
    gat s n h = gat s' n' h' := by
  rw [hs, hn, hh]
theorem sca_of_eq {d d' : Col32 850000} {g g' : Arr2 850000 64} {b b' : Arr1 64} (hd : d = d') (hg : g = g') (hb : b = b') :
    sca d g b = sca d' g' b' := by
  rw [hd, hg, hb]
theorem fc_of_eq {x x' : Arr2 50048 64} {w w' : Arr2 64 32} {b b' : Arr1 32} {u u' : Arr2 32 1} {a a' : Arr1 1}
    (hx : x = x') (hw : w = w') (hb : b = b') (hu : u = u') (ha : a = a') : fc x w b u a = fc x' w' b' u' a' := by
  rw [hx, hw, hb, hu, ha]

/-- The network at equal parameter arrays. -/
theorem net_of_eq (s d : Fin 850000 → BitVec 32) (x : ℕ → Fin 128 → EReal) {W1 W1' : Arr2 128 64} {b1 b1' : Arr1 64}
    {W2 W2' : Arr2 64 64} {b2 b2' : Arr1 64} {F1 F1' : Arr2 64 32} {c1 c1' : Arr1 32} {F2 F2' : Arr2 32 1} {c2 c2' : Arr1 1}
    (e1 : W1 = W1') (e2 : b1 = b1') (e3 : W2 = W2') (e4 : b2 = b2') (e5 : F1 = F1') (e6 : c1 = c1') (e7 : F2 = F2') (e8 : c2 = c2')
    (r : ℕ) (j : Fin 1) :
    Cert.Spec.net s d x (Cert.Spec.mat W1) (Cert.Spec.vec b1) (Cert.Spec.mat W2) (Cert.Spec.vec b2)
        (Cert.Spec.mat F1) (Cert.Spec.vec c1) (Cert.Spec.mat F2) (Cert.Spec.vec c2) r j
      = Cert.Spec.net s d x (Cert.Spec.mat W1') (Cert.Spec.vec b1') (Cert.Spec.mat W2') (Cert.Spec.vec b2')
        (Cert.Spec.mat F1') (Cert.Spec.vec c1') (Cert.Spec.mat F2') (Cert.Spec.vec c2') r j := by
  rw [e1, e2, e3, e4, e5, e6, e7, e8]

section
variable (m : (ℓ : Loc nD τ sig) → Buf (Elt Ideal) ℓ) (ρ : Dev nD → PrngReg) (c : Dev nD)

/-! ## The arrays the first region is entered with -/

/-- The padded node features. -/
abbrev aX : Arr2 50048 128 := W5 m ρ c (Proc.devRef .tc main_v0)
/-- The source and the destination column of the extended edge list, and the column of edge weights. -/
abbrev aS : Col32 850000 := W5 m ρ c (Proc.devRef .tc main_v31)
abbrev aD : Col32 850000 := W5 m ρ c (Proc.devRef .tc main_v32)
abbrev aN : Arr2 850000 1 := W5 m ρ c (Proc.devRef .tc main_v33)
/-- The parameters: the two convolutions' weights and biases, then the two-layer tail's. -/
abbrev aW1 : Arr2 128 64 := W5 m ρ c (Proc.devRef .tc main_arg2)
abbrev aB1 : Arr1 64 := W5 m ρ c (Proc.devRef .tc main_arg3)
abbrev aW2 : Arr2 64 64 := W5 m ρ c (Proc.devRef .tc main_arg4)
abbrev aB2 : Arr1 64 := W5 m ρ c (Proc.devRef .tc main_arg5)
abbrev aF1 : Arr2 64 32 := W5 m ρ c (Proc.devRef .tc main_arg6)
abbrev aC1 : Arr1 32 := W5 m ρ c (Proc.devRef .tc main_arg7)
abbrev aF2 : Arr2 32 1 := W5 m ρ c (Proc.devRef .tc main_arg8)
abbrev aC2 : Arr1 1 := W5 m ρ c (Proc.devRef .tc main_arg9)

/-! ## The chain of the seven regions' results -/

def r0 : Arr2 50048 64 := lin (aX m ρ c) (aW1 m ρ c)
def r1 : Arr2 850000 64 := gat (aS m ρ c) (aN m ρ c) (r0 m ρ c)
def r2 : Arr2 50048 64 := sca (aD m ρ c) (r1 m ρ c) (aB1 m ρ c)
def r3 : Arr2 50048 64 := lin (r2 m ρ c) (aW2 m ρ c)
def r4 : Arr2 850000 64 := gat (aS m ρ c) (aN m ρ c) (r3 m ρ c)
def r5 : Arr2 50048 64 := sca (aD m ρ c) (r4 m ρ c) (aB2 m ρ c)
def r6 : Arr2 50048 1 := fc (r5 m ρ c) (aF1 m ρ c) (aC1 m ρ c) (aF2 m ρ c) (aC2 m ρ c)

/-- The chain written out is the composition `Cert.Compose.net_of_arrays` speaks of. -/
theorem r6_eq : r6 m ρ c = fc (sca (aD m ρ c) (gat (aS m ρ c) (aN m ρ c) (lin
      (sca (aD m ρ c) (gat (aS m ρ c) (aN m ρ c) (lin (aX m ρ c) (aW1 m ρ c))) (aB1 m ρ c)) (aW2 m ρ c))) (aB2 m ρ c))
      (aF1 m ρ c) (aC1 m ρ c) (aF2 m ρ c) (aC2 m ρ c) := by
  unfold r6 r5 r4 r3 r2 r1 r0; rfl

end

/-! ## Region by region

Each region's output array at its exit is the next link of the chain: the region's value at the arrays it was entered
with, those arrays traced back — an earlier output to its link, anything else to the first region's entry. -/

theorem link0 (m : (ℓ : Loc nD τ sig) → Buf (Elt Ideal) ℓ) (ρ : Dev nD → PrngReg) (c : Dev nD)
    (hf0 : ∀ (V : (c : Dev nD) → (b : Ref sig .tc) → Buf (Elt Ideal) ((c : Thread nD τ).loc b)) (c : Dev nD),
      ((dat0 (F := Ideal) V c).arrAt 2 cfg0.N : S50048x64.Idx → EReal)
        = lin (V c main_v0 : S50048x128.Idx → EReal) (V c main_arg2 : S128x64.Idx → EReal)) :
    (W6 m ρ c (Proc.devRef .tc main_v34) : S50048x64.Idx → EReal) = r0 m ρ c :=
  (W6_out m ρ c).trans (hf0 (V5 m ρ) c)

theorem link1 (m : (ℓ : Loc nD τ sig) → Buf (Elt Ideal) ℓ) (ρ : Dev nD → PrngReg) (c : Dev nD)
    (hf0 : ∀ (V : (c : Dev nD) → (b : Ref sig .tc) → Buf (Elt Ideal) ((c : Thread nD τ).loc b)) (c : Dev nD),
      ((dat0 (F := Ideal) V c).arrAt 2 cfg0.N : S50048x64.Idx → EReal)
        = lin (V c main_v0 : S50048x128.Idx → EReal) (V c main_arg2 : S128x64.Idx → EReal))
    (hf1 : ∀ (V : (c : Dev nD) → (b : Ref sig .tc) → Buf (Elt Ideal) ((c : Thread nD τ).loc b)) (c : Dev nD),
      ((dat1 (F := Ideal) V c).arrAt 3 cfg1.N : S850000x64.Idx → EReal)
        = gat (V c main_v31 : S850000x1.Idx → BitVec 32) (V c main_v33 : S850000x1.Idx → EReal) (V c main_v34 : S50048x64.Idx → EReal)) :
    (W7 m ρ c (Proc.devRef .tc main_v35) : S850000x64.Idx → EReal) = r1 m ρ c :=
  (W7_out m ρ c).trans ((hf1 (V6 m ρ) c).trans (gat_of_eq (W6_v31 m ρ c) (W6_v33 m ρ c) (link0 m ρ c hf0)))

theorem link2 (m : (ℓ : Loc nD τ sig) → Buf (Elt Ideal) ℓ) (ρ : Dev nD → PrngReg) (c : Dev nD)
    (hf0 : ∀ (V : (c : Dev nD) → (b : Ref sig .tc) → Buf (Elt Ideal) ((c : Thread nD τ).loc b)) (c : Dev nD),
      ((dat0 (F := Ideal) V c).arrAt 2 cfg0.N : S50048x64.Idx → EReal)
        = lin (V c main_v0 : S50048x128.Idx → EReal) (V c main_arg2 : S128x64.Idx → EReal))
    (hf1 : ∀ (V : (c : Dev nD) → (b : Ref sig .tc) → Buf (Elt Ideal) ((c : Thread nD τ).loc b)) (c : Dev nD),
      ((dat1 (F := Ideal) V c).arrAt 3 cfg1.N : S850000x64.Idx → EReal)
        = gat (V c main_v31 : S850000x1.Idx → BitVec 32) (V c main_v33 : S850000x1.Idx → EReal) (V c main_v34 : S50048x64.Idx → EReal))
    (hf2 : ∀ (V : (c : Dev nD) → (b : Ref sig .tc) → Buf (Elt Ideal) ((c : Thread nD τ).loc b)) (c : Dev nD),
      ((dat2 (F := Ideal) V c).arrAt 3 cfg2.N : S50048x64.Idx → EReal)
        = sca (V c main_v32 : S850000x1.Idx → BitVec 32) (V c main_v35 : S850000x64.Idx → EReal) (V c main_arg3 : S64.Idx → EReal)) :
    (W8 m ρ c (Proc.devRef .tc main_v36) : S50048x64.Idx → EReal) = r2 m ρ c :=
  (W8_out m ρ c).trans ((hf2 (V7 m ρ) c).trans (sca_of_eq (W7_v32 m ρ c) (link1 m ρ c hf0 hf1) (W7_arg3 m ρ c)))

theorem link3 (m : (ℓ : Loc nD τ sig) → Buf (Elt Ideal) ℓ) (ρ : Dev nD → PrngReg) (c : Dev nD)
    (hf0 : ∀ (V : (c : Dev nD) → (b : Ref sig .tc) → Buf (Elt Ideal) ((c : Thread nD τ).loc b)) (c : Dev nD),
      ((dat0 (F := Ideal) V c).arrAt 2 cfg0.N : S50048x64.Idx → EReal)
        = lin (V c main_v0 : S50048x128.Idx → EReal) (V c main_arg2 : S128x64.Idx → EReal))
    (hf1 : ∀ (V : (c : Dev nD) → (b : Ref sig .tc) → Buf (Elt Ideal) ((c : Thread nD τ).loc b)) (c : Dev nD),
      ((dat1 (F := Ideal) V c).arrAt 3 cfg1.N : S850000x64.Idx → EReal)
        = gat (V c main_v31 : S850000x1.Idx → BitVec 32) (V c main_v33 : S850000x1.Idx → EReal) (V c main_v34 : S50048x64.Idx → EReal))
    (hf2 : ∀ (V : (c : Dev nD) → (b : Ref sig .tc) → Buf (Elt Ideal) ((c : Thread nD τ).loc b)) (c : Dev nD),
      ((dat2 (F := Ideal) V c).arrAt 3 cfg2.N : S50048x64.Idx → EReal)
        = sca (V c main_v32 : S850000x1.Idx → BitVec 32) (V c main_v35 : S850000x64.Idx → EReal) (V c main_arg3 : S64.Idx → EReal))
    (hf3 : ∀ (V : (c : Dev nD) → (b : Ref sig .tc) → Buf (Elt Ideal) ((c : Thread nD τ).loc b)) (c : Dev nD),
      ((dat3 (F := Ideal) V c).arrAt 2 cfg3.N : S50048x64.Idx → EReal)
        = lin (V c main_v36 : S50048x64.Idx → EReal) (V c main_arg4 : S64x64.Idx → EReal)) :
    (W9 m ρ c (Proc.devRef .tc main_v37) : S50048x64.Idx → EReal) = r3 m ρ c :=
  (W9_out m ρ c).trans ((hf3 (V8 m ρ) c).trans (lin_of_eq (link2 m ρ c hf0 hf1 hf2) (W8_arg4 m ρ c)))

theorem link4 (m : (ℓ : Loc nD τ sig) → Buf (Elt Ideal) ℓ) (ρ : Dev nD → PrngReg) (c : Dev nD)
    (hf0 : ∀ (V : (c : Dev nD) → (b : Ref sig .tc) → Buf (Elt Ideal) ((c : Thread nD τ).loc b)) (c : Dev nD),
      ((dat0 (F := Ideal) V c).arrAt 2 cfg0.N : S50048x64.Idx → EReal)
        = lin (V c main_v0 : S50048x128.Idx → EReal) (V c main_arg2 : S128x64.Idx → EReal))
    (hf1 : ∀ (V : (c : Dev nD) → (b : Ref sig .tc) → Buf (Elt Ideal) ((c : Thread nD τ).loc b)) (c : Dev nD),
      ((dat1 (F := Ideal) V c).arrAt 3 cfg1.N : S850000x64.Idx → EReal)
        = gat (V c main_v31 : S850000x1.Idx → BitVec 32) (V c main_v33 : S850000x1.Idx → EReal) (V c main_v34 : S50048x64.Idx → EReal))
    (hf2 : ∀ (V : (c : Dev nD) → (b : Ref sig .tc) → Buf (Elt Ideal) ((c : Thread nD τ).loc b)) (c : Dev nD),
      ((dat2 (F := Ideal) V c).arrAt 3 cfg2.N : S50048x64.Idx → EReal)
        = sca (V c main_v32 : S850000x1.Idx → BitVec 32) (V c main_v35 : S850000x64.Idx → EReal) (V c main_arg3 : S64.Idx → EReal))
    (hf3 : ∀ (V : (c : Dev nD) → (b : Ref sig .tc) → Buf (Elt Ideal) ((c : Thread nD τ).loc b)) (c : Dev nD),
      ((dat3 (F := Ideal) V c).arrAt 2 cfg3.N : S50048x64.Idx → EReal)
        = lin (V c main_v36 : S50048x64.Idx → EReal) (V c main_arg4 : S64x64.Idx → EReal))
    (hf4 : ∀ (V : (c : Dev nD) → (b : Ref sig .tc) → Buf (Elt Ideal) ((c : Thread nD τ).loc b)) (c : Dev nD),
      ((dat4 (F := Ideal) V c).arrAt 3 cfg4.N : S850000x64.Idx → EReal)
        = gat (V c main_v31 : S850000x1.Idx → BitVec 32) (V c main_v33 : S850000x1.Idx → EReal) (V c main_v37 : S50048x64.Idx → EReal)) :
    (W10 m ρ c (Proc.devRef .tc main_v38) : S850000x64.Idx → EReal) = r4 m ρ c :=
  (W10_out m ρ c).trans ((hf4 (V9 m ρ) c).trans (gat_of_eq (W9_v31 m ρ c) (W9_v33 m ρ c) (link3 m ρ c hf0 hf1 hf2 hf3)))

theorem link5 (m : (ℓ : Loc nD τ sig) → Buf (Elt Ideal) ℓ) (ρ : Dev nD → PrngReg) (c : Dev nD)
    (hf0 : ∀ (V : (c : Dev nD) → (b : Ref sig .tc) → Buf (Elt Ideal) ((c : Thread nD τ).loc b)) (c : Dev nD),
      ((dat0 (F := Ideal) V c).arrAt 2 cfg0.N : S50048x64.Idx → EReal)
        = lin (V c main_v0 : S50048x128.Idx → EReal) (V c main_arg2 : S128x64.Idx → EReal))
    (hf1 : ∀ (V : (c : Dev nD) → (b : Ref sig .tc) → Buf (Elt Ideal) ((c : Thread nD τ).loc b)) (c : Dev nD),
      ((dat1 (F := Ideal) V c).arrAt 3 cfg1.N : S850000x64.Idx → EReal)
        = gat (V c main_v31 : S850000x1.Idx → BitVec 32) (V c main_v33 : S850000x1.Idx → EReal) (V c main_v34 : S50048x64.Idx → EReal))
    (hf2 : ∀ (V : (c : Dev nD) → (b : Ref sig .tc) → Buf (Elt Ideal) ((c : Thread nD τ).loc b)) (c : Dev nD),
      ((dat2 (F := Ideal) V c).arrAt 3 cfg2.N : S50048x64.Idx → EReal)
        = sca (V c main_v32 : S850000x1.Idx → BitVec 32) (V c main_v35 : S850000x64.Idx → EReal) (V c main_arg3 : S64.Idx → EReal))
    (hf3 : ∀ (V : (c : Dev nD) → (b : Ref sig .tc) → Buf (Elt Ideal) ((c : Thread nD τ).loc b)) (c : Dev nD),
      ((dat3 (F := Ideal) V c).arrAt 2 cfg3.N : S50048x64.Idx → EReal)
        = lin (V c main_v36 : S50048x64.Idx → EReal) (V c main_arg4 : S64x64.Idx → EReal))
    (hf4 : ∀ (V : (c : Dev nD) → (b : Ref sig .tc) → Buf (Elt Ideal) ((c : Thread nD τ).loc b)) (c : Dev nD),
      ((dat4 (F := Ideal) V c).arrAt 3 cfg4.N : S850000x64.Idx → EReal)
        = gat (V c main_v31 : S850000x1.Idx → BitVec 32) (V c main_v33 : S850000x1.Idx → EReal) (V c main_v37 : S50048x64.Idx → EReal))
    (hf5 : ∀ (V : (c : Dev nD) → (b : Ref sig .tc) → Buf (Elt Ideal) ((c : Thread nD τ).loc b)) (c : Dev nD),
      ((dat5 (F := Ideal) V c).arrAt 3 cfg5.N : S50048x64.Idx → EReal)
        = sca (V c main_v32 : S850000x1.Idx → BitVec 32) (V c main_v38 : S850000x64.Idx → EReal) (V c main_arg5 : S64.Idx → EReal)) :
    (W11 m ρ c (Proc.devRef .tc main_v39) : S50048x64.Idx → EReal) = r5 m ρ c :=
  (W11_out m ρ c).trans ((hf5 (V10 m ρ) c).trans (sca_of_eq (W10_v32 m ρ c) (link4 m ρ c hf0 hf1 hf2 hf3 hf4) (W10_arg5 m ρ c)))

theorem link6 (m : (ℓ : Loc nD τ sig) → Buf (Elt Ideal) ℓ) (ρ : Dev nD → PrngReg) (c : Dev nD)
    (hf0 : ∀ (V : (c : Dev nD) → (b : Ref sig .tc) → Buf (Elt Ideal) ((c : Thread nD τ).loc b)) (c : Dev nD),
      ((dat0 (F := Ideal) V c).arrAt 2 cfg0.N : S50048x64.Idx → EReal)
        = lin (V c main_v0 : S50048x128.Idx → EReal) (V c main_arg2 : S128x64.Idx → EReal))
    (hf1 : ∀ (V : (c : Dev nD) → (b : Ref sig .tc) → Buf (Elt Ideal) ((c : Thread nD τ).loc b)) (c : Dev nD),
      ((dat1 (F := Ideal) V c).arrAt 3 cfg1.N : S850000x64.Idx → EReal)
        = gat (V c main_v31 : S850000x1.Idx → BitVec 32) (V c main_v33 : S850000x1.Idx → EReal) (V c main_v34 : S50048x64.Idx → EReal))
    (hf2 : ∀ (V : (c : Dev nD) → (b : Ref sig .tc) → Buf (Elt Ideal) ((c : Thread nD τ).loc b)) (c : Dev nD),
      ((dat2 (F := Ideal) V c).arrAt 3 cfg2.N : S50048x64.Idx → EReal)
        = sca (V c main_v32 : S850000x1.Idx → BitVec 32) (V c main_v35 : S850000x64.Idx → EReal) (V c main_arg3 : S64.Idx → EReal))
    (hf3 : ∀ (V : (c : Dev nD) → (b : Ref sig .tc) → Buf (Elt Ideal) ((c : Thread nD τ).loc b)) (c : Dev nD),
      ((dat3 (F := Ideal) V c).arrAt 2 cfg3.N : S50048x64.Idx → EReal)
        = lin (V c main_v36 : S50048x64.Idx → EReal) (V c main_arg4 : S64x64.Idx → EReal))
    (hf4 : ∀ (V : (c : Dev nD) → (b : Ref sig .tc) → Buf (Elt Ideal) ((c : Thread nD τ).loc b)) (c : Dev nD),
      ((dat4 (F := Ideal) V c).arrAt 3 cfg4.N : S850000x64.Idx → EReal)
        = gat (V c main_v31 : S850000x1.Idx → BitVec 32) (V c main_v33 : S850000x1.Idx → EReal) (V c main_v37 : S50048x64.Idx → EReal))
    (hf5 : ∀ (V : (c : Dev nD) → (b : Ref sig .tc) → Buf (Elt Ideal) ((c : Thread nD τ).loc b)) (c : Dev nD),
      ((dat5 (F := Ideal) V c).arrAt 3 cfg5.N : S50048x64.Idx → EReal)
        = sca (V c main_v32 : S850000x1.Idx → BitVec 32) (V c main_v38 : S850000x64.Idx → EReal) (V c main_arg5 : S64.Idx → EReal))
    (hf6 : ∀ (V : (c : Dev nD) → (b : Ref sig .tc) → Buf (Elt Ideal) ((c : Thread nD τ).loc b)) (c : Dev nD),
      ((dat6 (F := Ideal) V c).arrAt 5 cfg6.N : S50048x1.Idx → EReal)
        = fc (V c main_v39 : S50048x64.Idx → EReal) (V c main_arg6 : S64x32.Idx → EReal) (V c main_arg7 : S32.Idx → EReal)
            (V c main_arg8 : S32x1.Idx → EReal) (V c main_arg9 : S1.Idx → EReal)) :
    (W12 m ρ c (Proc.devRef .tc main_v40) : S50048x1.Idx → EReal) = r6 m ρ c :=
  (W12_out m ρ c).trans ((hf6 (V11 m ρ) c).trans
    (fc_of_eq (link5 m ρ c hf0 hf1 hf2 hf3 hf4 hf5) (W11_arg6 m ρ c) (W11_arg7 m ρ c) (W11_arg8 m ρ c) (W11_arg9 m ρ c)))

/-- The one host operation after the last region: the result is the slice of the padded column. -/
theorem sliced (m : (ℓ : Loc nD τ sig) → Buf (Elt Ideal) ℓ) (ρ : Dev nD → PrngReg) (c : Dev nD) :
    (W13 m ρ c (Proc.devRef .tc main_v41) : S50000x1.Idx → EReal)
      = extractStridedSlice S50000x1 ![0, 0] (W12 m ρ c (Proc.devRef .tc main_v40) : S50048x1.Idx → EReal) slices_S50048x1_S50000x1_0_0 := by
  show StableHlo.after hostOps7 (W12 m ρ c) (Proc.devRef .tc main_v41) = _
  after_results

/-- A parameter array is entered into the first region as launched: no host operation before it writes it. -/
theorem param_eq (m : (ℓ : Loc nD τ sig) → Buf (Elt Ideal) ℓ) (ρ : Dev nD → PrngReg) (c : Dev nD) (b : Ref sig .tc)
    (h0 : b ∉ hostOps0_W) (h1 : b ∉ hostOps0_1_W) (h2 : b ∉ hostOps0_2_W) (h3 : b ∉ hostOps0_3_W) (h4 : b ∉ hostOps0_4_W) :
    W5 m ρ c (Proc.devRef .tc b) = m ((c.tc : Thread nD τ).loc b) :=
  W5_of_launch m ρ c b h0 h1 h2 h3 h4

/-- THE ASSEMBLY, from the regions' values: if each region's output array after its run is its whole-array function
    of the arrays it was entered with, the host prefix leaves the padded features, the two endpoint columns and the
    edge weights as the specification names them, and the final slice reads the rows below 50000, then every row of
    the program's result is the network of the launched parameter arrays on that row. -/
theorem kernel_value_of (m : (ℓ : Loc nD τ sig) → Buf (Elt Ideal) ℓ) (ρ : Dev nD → PrngReg) (c : Dev nD)
    (hf0 : ∀ (V : (c : Dev nD) → (b : Ref sig .tc) → Buf (Elt Ideal) ((c : Thread nD τ).loc b)) (c : Dev nD),
      ((dat0 (F := Ideal) V c).arrAt 2 cfg0.N : S50048x64.Idx → EReal)
        = lin (V c main_v0 : S50048x128.Idx → EReal) (V c main_arg2 : S128x64.Idx → EReal))
    (hf1 : ∀ (V : (c : Dev nD) → (b : Ref sig .tc) → Buf (Elt Ideal) ((c : Thread nD τ).loc b)) (c : Dev nD),
      ((dat1 (F := Ideal) V c).arrAt 3 cfg1.N : S850000x64.Idx → EReal)
        = gat (V c main_v31 : S850000x1.Idx → BitVec 32) (V c main_v33 : S850000x1.Idx → EReal) (V c main_v34 : S50048x64.Idx → EReal))
    (hf2 : ∀ (V : (c : Dev nD) → (b : Ref sig .tc) → Buf (Elt Ideal) ((c : Thread nD τ).loc b)) (c : Dev nD),
      ((dat2 (F := Ideal) V c).arrAt 3 cfg2.N : S50048x64.Idx → EReal)
        = sca (V c main_v32 : S850000x1.Idx → BitVec 32) (V c main_v35 : S850000x64.Idx → EReal) (V c main_arg3 : S64.Idx → EReal))
    (hf3 : ∀ (V : (c : Dev nD) → (b : Ref sig .tc) → Buf (Elt Ideal) ((c : Thread nD τ).loc b)) (c : Dev nD),
      ((dat3 (F := Ideal) V c).arrAt 2 cfg3.N : S50048x64.Idx → EReal)
        = lin (V c main_v36 : S50048x64.Idx → EReal) (V c main_arg4 : S64x64.Idx → EReal))
    (hf4 : ∀ (V : (c : Dev nD) → (b : Ref sig .tc) → Buf (Elt Ideal) ((c : Thread nD τ).loc b)) (c : Dev nD),
      ((dat4 (F := Ideal) V c).arrAt 3 cfg4.N : S850000x64.Idx → EReal)
        = gat (V c main_v31 : S850000x1.Idx → BitVec 32) (V c main_v33 : S850000x1.Idx → EReal) (V c main_v37 : S50048x64.Idx → EReal))
    (hf5 : ∀ (V : (c : Dev nD) → (b : Ref sig .tc) → Buf (Elt Ideal) ((c : Thread nD τ).loc b)) (c : Dev nD),
      ((dat5 (F := Ideal) V c).arrAt 3 cfg5.N : S50048x64.Idx → EReal)
        = sca (V c main_v32 : S850000x1.Idx → BitVec 32) (V c main_v38 : S850000x64.Idx → EReal) (V c main_arg5 : S64.Idx → EReal))
    (hf6 : ∀ (V : (c : Dev nD) → (b : Ref sig .tc) → Buf (Elt Ideal) ((c : Thread nD τ).loc b)) (c : Dev nD),
      ((dat6 (F := Ideal) V c).arrAt 5 cfg6.N : S50048x1.Idx → EReal)
        = fc (V c main_v39 : S50048x64.Idx → EReal) (V c main_arg6 : S64x32.Idx → EReal) (V c main_arg7 : S32.Idx → EReal)
            (V c main_arg8 : S32x1.Idx → EReal) (V c main_arg9 : S1.Idx → EReal))
    (sW dW : Fin 850000 → BitVec 32) (x : ℕ → Fin 128 → EReal)
    (hr : ∀ e : Fin 850000, (sW e).toNat < 50000 ∧ (dW e).toNat < 50000)
    (hx : ∀ (r : Fin 50048) (k : Fin 128), aX m ρ c (ix2 r k) = x r.val k)
    (hs : ∀ e : Fin 850000, aS m ρ c (ix2 e 0) = sW e) (hd : ∀ e : Fin 850000, aD m ρ c (ix2 e 0) = dW e)
    (hn : ∀ e : Fin 850000, aN m ρ c (ix2 e 0) = Cert.Spec.norm sW dW e)
    (hsl : ∀ (X : FVec Ideal S50048x1 .f32) (r : Fin 50000) (j : Fin 1) (h : r.val < 50048),
      extractStridedSlice S50000x1 ![0, 0] X slices_S50048x1_S50000x1_0_0 (ix2 r j) = X (ix2 ⟨r.val, h⟩ j)) :
    ∀ r : Fin 50000, (W13 m ρ c (Proc.devRef .tc main_v41) : S50000x1.Idx → EReal) (ix2 r 0)
      = Cert.Spec.net sW dW x
          (Cert.Spec.mat (m ((c.tc : Thread nD τ).loc main_arg2) : S128x64.Idx → EReal)) (Cert.Spec.vec (m ((c.tc : Thread nD τ).loc main_arg3) : S64.Idx → EReal))
          (Cert.Spec.mat (m ((c.tc : Thread nD τ).loc main_arg4) : S64x64.Idx → EReal)) (Cert.Spec.vec (m ((c.tc : Thread nD τ).loc main_arg5) : S64.Idx → EReal))
          (Cert.Spec.mat (m ((c.tc : Thread nD τ).loc main_arg6) : S64x32.Idx → EReal)) (Cert.Spec.vec (m ((c.tc : Thread nD τ).loc main_arg7) : S32.Idx → EReal))
          (Cert.Spec.mat (m ((c.tc : Thread nD τ).loc main_arg8) : S32x1.Idx → EReal)) (Cert.Spec.vec (m ((c.tc : Thread nD τ).loc main_arg9) : S1.Idx → EReal))
          r.val 0 := by
  intro r
  have hlt : r.val < 50048 := lt_trans r.isLt (by norm_num)
  have top : (W12 m ρ c (Proc.devRef .tc main_v40) : S50048x1.Idx → EReal) = r6 m ρ c := link6 m ρ c hf0 hf1 hf2 hf3 hf4 hf5 hf6
  refine (congrFun (sliced m ρ c) (ix2 r 0)).trans ((hsl _ r 0 hlt).trans ((congrFun (top.trans (r6_eq m ρ c)) (ix2 ⟨r.val, hlt⟩ 0)).trans ?_))
  refine (Cert.Compose.net_of_arrays sW dW x (aX m ρ c) (aS m ρ c) (aD m ρ c) (aN m ρ c) (aW1 m ρ c) (aB1 m ρ c) (aW2 m ρ c) (aB2 m ρ c)
    (aF1 m ρ c) (aC1 m ρ c) (aF2 m ρ c) (aC2 m ρ c) hr hx hs hd hn ⟨r.val, hlt⟩).trans ?_
  exact net_of_eq sW dW x
    (param_eq m ρ c main_arg2 (by decide) (by decide) (by decide) (by decide) (by decide))
    (param_eq m ρ c main_arg3 (by decide) (by decide) (by decide) (by decide) (by decide))
    (param_eq m ρ c main_arg4 (by decide) (by decide) (by decide) (by decide) (by decide))
    (param_eq m ρ c main_arg5 (by decide) (by decide) (by decide) (by decide) (by decide))
    (param_eq m ρ c main_arg6 (by decide) (by decide) (by decide) (by decide) (by decide))
    (param_eq m ρ c main_arg7 (by decide) (by decide) (by decide) (by decide) (by decide))
    (param_eq m ρ c main_arg8 (by decide) (by decide) (by decide) (by decide) (by decide))
    (param_eq m ρ c main_arg9 (by decide) (by decide) (by decide) (by decide) (by decide)) r.val 0

end Cert.KernelIdeal.Assemble

end
-- ==== Proof.Val.LibIdx.lean ====
/-
  A flat array read and accumulated through a COLUMN of index words: what `x[idx]` and `zeros.at[idx].add(u)` of a
  rank-1 array of `N` entries at `E` indices lower to once the indices are laid out as an `[E, 1]` array, each read at
  one index. The gather of entry `e` is the operand at the `e`-th word, read signed and clamped into `[0, N − 1]`; the
  accumulating scatter at node `n` is the operand's entry plus the sum, over all `E` updates, of the updates whose word,
  read signed and not clamped, is `n`. For 32-bit words below `N ≤ 2³¹` the signed reading is the unsigned one.
-/
import Idealize.ShloMosaic.PureOps.Ideal
import Idealize.ShloMosaic.Lib.ValueIdx
import Idealize.ShloMosaic.Lib.ValueIdxRank1

noncomputable section

open scoped BigOperators

namespace Cert.LibIdx

open Idealize.ShloMosaic Idealize.ShloMosaic.ValueIdx

/-! ## 32-bit words read signed -/

/-- A 32-bit word read signed is the natural number `n < 2³¹` exactly when it is `n` read unsigned. -/
theorem toInt_eq_natCast_iff (v : BitVec 32) (n : ℕ) (hn : n < 2 ^ 31) : v.toInt = (n : ℤ) ↔ v.toNat = n := by
  rw [BitVec.toInt_eq_toNat_cond]
  have := v.isLt
  split <;> omega

/-- A 32-bit word below `2³¹` read signed, then as a natural number, is the word read unsigned. -/
theorem toInt_toNat_of_lt (v : BitVec 32) (hv : v.toNat < 2 ^ 31) : v.toInt.toNat = v.toNat := by
  rw [BitVec.toInt_eq_toNat_cond]
  split <;> omega

/-! ## The gather -/

section Gather
variable {α : Type}

/-- The dimension numbers of `x[idx]` for an operand `[N]`, start indices `[E, 1]` and result `[E]`: the operand's one axis
    collapsed and named by the start index map, the index vector along axis 1, slices of one element. -/
abbrev gatherCol (N E : ℕ) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gather read at entry `e`: the operand at the word `idx[e, 0]`, read signed and clamped into `[0, N − 1]`. -/
theorem gatherCol_apply {N E w : ℕ} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherCol N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (gatherCol N E wf).start (ix1 e) idx 0 + (gatherCol N E wf).batchCoord (ix1 e) 0
    + (gatherCol N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherCol N E wf).startIndexMap from List.mem_singleton.mpr rfl)]
  have hsi : (gatherCol N E wf).siIdx (ix1 e) ⟨List.idxOf (0 : Fin 1) (gatherCol N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- At a 32-bit word below `N ≤ 2³¹` the gather reads the operand at that word. -/
theorem gatherCol_apply_of_lt {N E : ℕ} (hN : N ≤ 2 ^ 31)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ 32) (e : Fin E)
    (h : (idx (ix2 e (0 : Fin 1))).toNat < N) :
    Host.gather (gatherCol N E wf) x idx (ix1 e) = x (ix1 ⟨(idx (ix2 e (0 : Fin 1))).toNat, h⟩) := by
  rw [gatherCol_apply (by omega) wf x idx e]
  congr 1
  refine congrArg ix1 (Fin.ext ?_)
  show min (idx (ix2 e (0 : Fin 1))).toInt.toNat (N - 1) = (idx (ix2 e (0 : Fin 1))).toNat
  rw [toInt_toNat_of_lt _ (by omega)]
  omega

end Gather

/-! ## The accumulating scatter -/

section Scatter

/-- The dimension numbers of `x.at[idx].add(u)` for an operand `[N]`, scatter indices `[E, 1]` and updates `[E]`: no
    window axes, the operand's one axis inserted and named by the scatter map, the index vector along axis 1. -/
abbrev scatterCol (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : ℕ} (wf : ScatterDims.WF ⟨1, ![N]⟩ ⟨2, ![E, 1]⟩ ⟨1, ![E]⟩ [] [0] [0] 1)

/-- Update `j`'s start on the operand's axis is its word, read signed. -/
theorem scatterCol_start (j : (⟨1, ![E]⟩ : Shape).Idx) (idx : IVec ⟨2, ![E, 1]⟩ w) :
    (scatterCol N E wf).start j idx 0 = (idx (ix2 (j 0) (0 : Fin 1))).toInt := by
  unfold ScatterDims.start
  rw [dif_pos (show (0 : Fin 1) ∈ (scatterCol N E wf).scatterDimsToOperandDims from List.mem_singleton.mpr rfl)]
  have hsi : (scatterCol N E wf).siIdx j ⟨List.idxOf (0 : Fin 1) (scatterCol N E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- An update has no window coordinate: the operand's one axis is inserted. -/
theorem scatterCol_window (j : (⟨1, ![E]⟩ : Shape).Idx) : (scatterCol N E wf).window j 0 = 0 := by
  unfold ScatterDims.window
  rw [dif_neg]
  simp [ScatterDims.sKept, Shape.kept, List.mem_filter]

/-- Update `j` lands on node `i` exactly when its word, read signed, is `i`. -/
theorem scatterCol_resultIdx?_eq_some_iff (j : (⟨1, ![E]⟩ : Shape).Idx) (idx : IVec ⟨2, ![E, 1]⟩ w)
    (i : (⟨1, ![N]⟩ : Shape).Idx) :
    (scatterCol N E wf).resultIdx? j idx = some i ↔ (idx (ix2 (j 0) (0 : Fin 1))).toInt = ((i 0).val : ℤ) := by
  have hs := scatterCol_start wf j idx
  have hw := scatterCol_window wf j
  have hi : (i 0).val < N := (i 0).isLt
  unfold ScatterDims.resultIdx?
  split
  · next h =>
    have h0 := h 0
    rw [hs, hw] at h0
    rw [Option.some.injEq]
    constructor
    · intro he
      have := congrArg (fun f => (f 0).val) he
      simp only [hs, hw] at this
      omega
    · intro he
      funext a
      obtain rfl : a = 0 := Subsingleton.elim _ _
      refine Fin.ext ?_
      show ((scatterCol N E wf).start j idx 0 + ((scatterCol N E wf).window j 0 : ℤ)).toNat = (i 0).val
      rw [hs, hw, he]
      omega
  · next h =>
    constructor
    · intro he; exact absurd he (by simp)
    · intro he
      exfalso
      apply h
      intro a
      obtain rfl : a = 0 := Subsingleton.elim _ _
      rw [hs, hw, he]
      refine ⟨by omega, ?_⟩
      show ((i 0).val : ℤ) + ((0 : ℕ) : ℤ) < (N : ℤ)
      omega

/-- THE SCATTER READ AT NODE `n`, at the ideal instance: the operand's entry plus the updates whose word is `n`, each
    update entering the sum once whether or not it lands. -/
theorem scatterAddCol_apply {φ : FTy} (x : (⟨1, ![N]⟩ : Shape).Idx → EReal) (idx : IVec ⟨2, ![E, 1]⟩ w)
    (upd : (⟨1, ![E]⟩ : Shape).Idx → EReal) (n : Fin N) :
    (Host.scatterAdd (F := Ideal) (φ := φ) (scatterCol N E wf) x idx upd : (⟨1, ![N]⟩ : Shape).Idx → EReal) (ix1 n)
      = x (ix1 n) + ∑ e : Fin E, if (idx (ix2 e (0 : Fin 1))).toInt = (n.val : ℤ) then upd (ix1 e) else 0 := by
  show x (ix1 n) + ∑ j ∈ Finset.univ.filter (fun j => (scatterCol N E wf).resultIdx? j idx = some (ix1 n)), upd j = _
  congr 1
  rw [Finset.sum_filter, ← Equiv.sum_comp (idxEquiv1 (n := E)).symm]
  refine Finset.sum_congr rfl fun e _ => ?_
  exact if_congr (scatterCol_resultIdx?_eq_some_iff wf _ idx (ix1 n)) rfl rfl

/-- The same for 32-bit words and `N ≤ 2³¹` nodes, the words read unsigned. -/
theorem scatterAddCol_apply32 {φ : FTy} (wf : ScatterDims.WF ⟨1, ![N]⟩ ⟨2, ![E, 1]⟩ ⟨1, ![E]⟩ [] [0] [0] 1) (hN : N ≤ 2 ^ 31)
    (x : (⟨1, ![N]⟩ : Shape).Idx → EReal) (idx : IVec ⟨2, ![E, 1]⟩ 32)
    (upd : (⟨1, ![E]⟩ : Shape).Idx → EReal) (n : Fin N) :
    (Host.scatterAdd (F := Ideal) (φ := φ) (scatterCol N E wf) x idx upd : (⟨1, ![N]⟩ : Shape).Idx → EReal) (ix1 n)
      = x (ix1 n) + ∑ e : Fin E, if (idx (ix2 e (0 : Fin 1))).toNat = n.val then upd (ix1 e) else 0 := by
  rw [scatterAddCol_apply wf x idx upd n]
  congr 1
  refine Finset.sum_congr rfl fun e _ => ?_
  exact if_congr (toInt_eq_natCast_iff _ _ (by have := n.isLt; omega)) rfl rfl

end Scatter

end Cert.LibIdx

end
-- ==== Proof.Val.KHost.lean ====
/-
  What the idealized kernel program's host operations have computed when its first kernel region is entered, read
  index by index at the ideal instance: the feature rows zero-padded to 50048; the source and destination words of the
  850000 edges (the given edges followed by one self loop per node); and each edge's weight, the product of the
  inverse square roots of its endpoints' degrees, the degree of a node counting the edges whose destination word is
  that node. The arguments themselves are as launched.
-/
import proofs.«401039_j68436008894831_1_alg».proof.Proof.KI.Vals
import proofs.«401039_j68436008894831_1_alg».proof.Proof.Val.Spec
import proofs.«401039_j68436008894831_1_alg».proof.Proof.Val.LibIdx
import Idealize.ShloMosaic.Lib.StableHlo.Run
import Idealize.ShloMosaic.Lib.ValueIdx
import Idealize.ShloMosaic.Lib.ValueIdxRank1
import Idealize.ShloMosaic.Lib.IdealHost
import Idealize.ShloMosaic.Lib.KernelVsHost
import Idealize.ShloMosaic.Lib.Pipeline.Value
import Idealize.ShloMosaic.PureOps.Ideal.Laws

set_option maxRecDepth 16384

noncomputable section

open scoped BigOperators

namespace Cert.KernelIdeal.HostVal

open Cert.KernelIdeal Cert.KernelIdeal.Gen Cert.KernelIdeal.Hand
open Idealize.ShloMosaic Idealize.ShloMosaic.TcCoe Idealize.ShloMosaic.ValueIdx Idealize.ShloMosaic.StableHlo

/-! ## The arrays the host operations compute, as functions of the edge list -/

section Arrays
variable {F : FTy → Type} [FloatOps F]

/-- The source words: row 0 of the edge list, then the nodes in order. -/
def srcArr (ei : S2x800000.Idx → BitVec 32) : S850000.Idx → BitVec 32 :=
  concatenate S850000 0 [⟨S800000, shapeCast S800000 (extractStridedSlice S1x800000 ![0, 0] ei slices_S2x800000_S1x800000_0_0) shapeCasts_S1x800000_S800000⟩, ⟨S50000, iotaInDim S50000 32 0⟩] concatenates_S800000_S50000_S850000_d0

/-- The destination words: row 1 of the edge list, then the nodes in order. -/
def dstArr (ei : S2x800000.Idx → BitVec 32) : S850000.Idx → BitVec 32 :=
  concatenate S850000 0 [⟨S800000, shapeCast S800000 (extractStridedSlice S1x800000 ![1, 0] ei slices_S2x800000_S1x800000_1_0) shapeCasts_S1x800000_S800000⟩, ⟨S50000, iotaInDim S50000 32 0⟩] concatenates_S800000_S50000_S850000_d0

/-- The degrees: ones accumulated at the destination words, from zero. -/
def degArr (d : S850000.Idx → BitVec 32) : FVec F S50048 .f32 :=
  Host.scatterAdd scatter_S50048_S850000x1_S850000_n_0_0_1 (broadcastInDim S50048 ![] bcast_S_S50048 (constant S_ .f32 0x00000000#32))
    (broadcastInDim S850000x1 ![0] bcast_S850000_S850000x1_0 d) (broadcastInDim S850000 ![] bcast_S_S850000 (constant S_ .f32 0x3F800000#32))

/-- The inverse square roots of the degrees, zero where the degree is not positive. -/
def dinvArr (d : S850000.Idx → BitVec 32) : FVec F S50048 .f32 :=
  select (cmpf (F := F) .ogt (degArr d) (broadcastInDim S50048 ![] bcast_S_S50048 (constant S_ .f32 0x00000000#32))) (Host.rsqrt (degArr d))
    (broadcastInDim S50048 ![] bcast_S_S50048 (constant S_ .f32 0x00000000#32))

/-- A word wrapped as a negative index is: 50048 added when it reads negative. -/
def wrapArr (w : S850000.Idx → BitVec 32) : S850000.Idx → BitVec 32 :=
  select (cmpi .slt w (broadcastInDim S850000 ![] bcast_S_S850000 (constantI S_ 32 0#32))) (addi w (broadcastInDim S850000 ![] bcast_S_S850000 (constantI S_ 32 50048#32))) w

/-- The inverse square-root degrees gathered at a column of wrapped words. -/
def gathArr (di : FVec F S50048 .f32) (w : S850000.Idx → BitVec 32) : FVec F S850000 .f32 :=
  Host.gather gather_S50048_S850000x1_S850000_n_0_n_n_0_1_1 di (broadcastInDim S850000x1 ![0] bcast_S850000_S850000x1_0 (wrapArr w))

end Arrays

/-! ## What each stretch of host operations writes, and what it leaves -/

section Stretch
variable {F : FTy → Type} [FloatOps F] (V : Valuation τ sig (Elt F))

macro "writes_one" : tactic =>
  `(tactic| (simp only [StableHlo.nullary_writes, StableHlo.unary_writes, StableHlo.binary_writes, StableHlo.ternary_writes,
      StableHlo.reshape_writes, Finset.singleton_subset_iff, List.mem_toFinset]; exact List.mem_map_of_mem (by decide)))

abbrev wr0 : List (Ref sig .tc) := [main_c]
abbrev wr1 : List (Ref sig .tc) := [main_call0_v0, main_v0]
abbrev wr2 : List (Ref sig .tc) :=
  [main_v1, main_v2, main_v3, main_v4, main_v5, main_v6, main_v7, main_cst, main_v8, main_cst_0, main_v9, main_v10, main_v11, main_cst_1,
    main_v12, main_v13, main_v14, main_cst_2]
abbrev wr3 : List (Ref sig .tc) := [main_call1_v0, main_call1_v1, main_v15]
abbrev wr4 : List (Ref sig .tc) :=
  [main_c_3, main_v16, main_v17, main_c_4, main_v18, main_v19, main_v20, main_v21, main_v22, main_c_5, main_v23, main_v24, main_c_6,
    main_v25, main_v26, main_v27, main_v28, main_v29, main_v30, main_v31, main_v32, main_v33]

theorem wr0_sub : (hostOps0 : List (HloOp τ sig (Elt F))).Forall fun op => op.writes ⊆ (wr0.map (Proc.devRef (τ := τ) .tc)).toFinset := by
  simp only [List.Forall]; writes_one
theorem wr1_sub : (hostOps0_1 : List (HloOp τ sig (Elt F))).Forall fun op => op.writes ⊆ (wr1.map (Proc.devRef (τ := τ) .tc)).toFinset := by
  simp only [List.Forall]; repeat' apply And.intro
  all_goals writes_one
theorem wr2_sub : (hostOps0_2 : List (HloOp τ sig (Elt F))).Forall fun op => op.writes ⊆ (wr2.map (Proc.devRef (τ := τ) .tc)).toFinset := by
  simp only [List.Forall]; repeat' apply And.intro
  all_goals writes_one
theorem wr3_sub : (hostOps0_3 : List (HloOp τ sig (Elt F))).Forall fun op => op.writes ⊆ (wr3.map (Proc.devRef (τ := τ) .tc)).toFinset := by
  simp only [List.Forall]; repeat' apply And.intro
  all_goals writes_one
theorem wr4_sub : (hostOps0_4 : List (HloOp τ sig (Elt F))).Forall fun op => op.writes ⊆ (wr4.map (Proc.devRef (τ := τ) .tc)).toFinset := by
  simp only [List.Forall]; repeat' apply And.intro
  all_goals writes_one

/-- A reference a stretch does not write keeps its contents. -/
theorem keep0 (r : Ref sig .tc) (h : r ∉ wr0) : after hostOps0 V (Proc.devRef .tc r) = V (Proc.devRef .tc r) :=
  after_of_writes_sub hostOps0 V wr0_sub h
theorem keep1 (r : Ref sig .tc) (h : r ∉ wr1) : after hostOps0_1 V (Proc.devRef .tc r) = V (Proc.devRef .tc r) :=
  after_of_writes_sub hostOps0_1 V wr1_sub h
theorem keep2 (r : Ref sig .tc) (h : r ∉ wr2) : after hostOps0_2 V (Proc.devRef .tc r) = V (Proc.devRef .tc r) :=
  after_of_writes_sub hostOps0_2 V wr2_sub h
theorem keep3 (r : Ref sig .tc) (h : r ∉ wr3) : after hostOps0_3 V (Proc.devRef .tc r) = V (Proc.devRef .tc r) :=
  after_of_writes_sub hostOps0_3 V wr3_sub h
theorem keep4 (r : Ref sig .tc) (h : r ∉ wr4) : after hostOps0_4 V (Proc.devRef .tc r) = V (Proc.devRef .tc r) :=
  after_of_writes_sub hostOps0_4 V wr4_sub h

/-- The first two stretches pad the features with the integer zero, converted. -/
theorem s01_v0 : (after hostOps0_1 (after hostOps0 V) main_v0 : S50048x128.Idx → Elt F .f32)
    = pad S50048x128 ![0, 0] ![48, 0] ![0, 0] (V main_arg0) (sitofp .f32 (constantI S_ 32 0#32 : S_.Idx → BitVec 32) : S_.Idx → Elt F .f32)
        pads_S50000x128_S50048x128_0480_000 h_S_ := by
  simp only [hostOps0, hostOps0_1]
  after_results_simp
  rfl

/-- The third stretch: the words, … -/
theorem s2_v6 : (after hostOps0_2 V main_v6 : S850000.Idx → BitVec 32) = srcArr (V main_arg1) := by
  simp only [hostOps0_2]
  after_results_simp
  rfl
theorem s2_v7 : (after hostOps0_2 V main_v7 : S850000.Idx → BitVec 32) = dstArr (V main_arg1) := by
  simp only [hostOps0_2]
  after_results_simp
  rfl
/-- … the comparison of the degrees with zero, … -/
theorem s2_v13 : (after hostOps0_2 V main_v13 : S50048.Idx → BitVec 1)
    = cmpf (F := F) .ogt (degArr (dstArr (V main_arg1))) (broadcastInDim S50048 ![] bcast_S_S50048 (constant S_ .f32 0x00000000#32)) := by
  simp only [hostOps0_2]
  after_results_simp
  rfl
/-- … their inverse square roots, … -/
theorem s2_v14 : (after hostOps0_2 V main_v14 : S50048.Idx → Elt F .f32) = Host.rsqrt (degArr (dstArr (V main_arg1))) := by
  simp only [hostOps0_2]
  after_results_simp
  rfl
/-- … and the zero the selection falls back on. -/
theorem s2_cst2 : (after hostOps0_2 V main_cst_2 : S_.Idx → Elt F .f32) = constant S_ .f32 0x00000000#32 := by
  simp only [hostOps0_2]
  after_results_simp

/-- The fourth stretch selects. -/
theorem s3_v15 : (after hostOps0_3 V main_v15 : S50048.Idx → Elt F .f32)
    = select (V main_v13) (V main_v14) (broadcastInDim S50048 ![] bcast_S_S50048 (V main_cst_2)) := by
  simp only [hostOps0_3]
  after_results_simp
  rfl

/-- The fifth stretch: the columns of words, … -/
theorem s4_v31 : (after hostOps0_4 V main_v31 : S850000x1.Idx → BitVec 32) = shapeCast S850000x1 (V main_v6) shapeCasts_S850000_S850000x1 := by
  simp only [hostOps0_4]
  after_results_simp
  rfl
theorem s4_v32 : (after hostOps0_4 V main_v32 : S850000x1.Idx → BitVec 32) = shapeCast S850000x1 (V main_v7) shapeCasts_S850000_S850000x1 := by
  simp only [hostOps0_4]
  after_results_simp
  rfl
/-- … and the column of weights. -/
theorem s4_v33 : (after hostOps0_4 V main_v33 : S850000x1.Idx → Elt F .f32)
    = shapeCast S850000x1 (mulf (gathArr (V main_v15) (V main_v6)) (gathArr (V main_v15) (V main_v7))) shapeCasts_S850000_S850000x1 := by
  simp only [hostOps0_4]
  after_results_simp
  unfold gathArr wrapArr
  rfl

end Stretch

/-! ## Words -/

/-- A 32-bit word below `2³¹` does not read negative. -/
theorem slt_zero_of_lt (v : BitVec 32) (hv : v.toNat < 2 ^ 31) : IntOp.cmpi .slt v 0#32 = 0#1 := by
  have h : v.slt 0#32 = false := by
    unfold BitVec.slt
    rw [decide_eq_false_iff_not, BitVec.toInt_eq_toNat_cond]
    have h0 : (0#32 : BitVec 32).toInt = 0 := rfl
    rw [h0]
    split <;> omega
  show BitVec.ofBool (v.slt 0#32) = 0#1
  rw [h]
  rfl

/-! ## The arrays at an index -/

section AtIndex

/-- The source words are the edge list's row 0, then the nodes. -/
theorem srcArr_apply (ei : S2x800000.Idx → BitVec 32) (e : Fin 850000) : srcArr ei (ix1 e) = Cert.Spec.endpt ei 0 e := by
  unfold srcArr Cert.Spec.endpt
  by_cases h : e.val < 800000
  · rw [dif_pos h]
    refine (concatenate_pair_apply_left _ _ _ concatenates_S800000_S50000_S850000_d0 (ix1 e) rfl (ix1 ⟨e.val, h⟩) (fun b => ?_)).trans ?_
    · obtain rfl : b = 0 := Subsingleton.elim _ _
      rfl
    refine (shapeCast_apply _ shapeCasts_S1x800000_S800000 (ix1 ⟨e.val, h⟩) (ix2 (0 : Fin 1) ⟨e.val, h⟩) ?_).trans ?_
    · rw [Shape.rowMajor_val_two, Shape.rowMajor_val_one]
      show 0 * 800000 + e.val = e.val
      omega
    refine extractStridedSlice_apply _ ei slices_S2x800000_S1x800000_0_0 (ix2 (0 : Fin 1) ⟨e.val, h⟩) (ix2 (0 : Fin 2) ⟨e.val, h⟩) (fun a => ?_)
    match a with
    | ⟨0, _⟩ => rfl
    | ⟨1, _⟩ =>
      show e.val = 0 + e.val
      omega
  · rw [dif_neg h]
    refine (concatenate_pair_apply_right _ _ _ concatenates_S800000_S50000_S850000_d0 (ix1 e) rfl rfl
      (ix1 ⟨e.val - 800000, by have := e.isLt; omega⟩) (fun b hb => ?_) ?_).trans ?_
    · exact absurd (Subsingleton.elim _ _) hb
    · show e.val - 800000 + 800000 = e.val
      omega
    · rfl

/-- The destination words are the edge list's row 1, then the nodes. -/
theorem dstArr_apply (ei : S2x800000.Idx → BitVec 32) (e : Fin 850000) : dstArr ei (ix1 e) = Cert.Spec.endpt ei 1 e := by
  unfold dstArr Cert.Spec.endpt
  by_cases h : e.val < 800000
  · rw [dif_pos h]
    refine (concatenate_pair_apply_left _ _ _ concatenates_S800000_S50000_S850000_d0 (ix1 e) rfl (ix1 ⟨e.val, h⟩) (fun b => ?_)).trans ?_
    · obtain rfl : b = 0 := Subsingleton.elim _ _
      rfl
    refine (shapeCast_apply _ shapeCasts_S1x800000_S800000 (ix1 ⟨e.val, h⟩) (ix2 (0 : Fin 1) ⟨e.val, h⟩) ?_).trans ?_
    · rw [Shape.rowMajor_val_two, Shape.rowMajor_val_one]
      show 0 * 800000 + e.val = e.val
      omega
    refine extractStridedSlice_apply _ ei slices_S2x800000_S1x800000_1_0 (ix2 (0 : Fin 1) ⟨e.val, h⟩) (ix2 (1 : Fin 2) ⟨e.val, h⟩) (fun a => ?_)
    match a with
    | ⟨0, _⟩ => rfl
    | ⟨1, _⟩ =>
      show e.val = 0 + e.val
      omega
  · rw [dif_neg h]
    refine (concatenate_pair_apply_right _ _ _ concatenates_S800000_S50000_S850000_d0 (ix1 e) rfl rfl
      (ix1 ⟨e.val - 800000, by have := e.isLt; omega⟩) (fun b hb => ?_) ?_).trans ?_
    · exact absurd (Subsingleton.elim _ _) hb
    · show e.val - 800000 + 800000 = e.val
      omega
    · rfl

/-- A column broadcast of a flat array reads the array at the row. -/
theorem colOf_apply {α : Type} (w : S850000.Idx → α) (e : Fin 850000) :
    broadcastInDim S850000x1 ![0] bcast_S850000_S850000x1_0 w (ix2 e (0 : Fin 1)) = w (ix1 e) := by
  refine broadcastInDim_apply _ _ w (ix2 e (0 : Fin 1)) (ix1 e) (fun a => ?_)
  obtain rfl : a = 0 := Subsingleton.elim _ _
  show e.val = if (850000 : ℕ) = 1 then 0 else e.val
  rw [if_neg (by decide)]

/-- The degree of node `n` counts the edges whose destination word is `n`. -/
theorem degArr_apply (ei : S2x800000.Idx → BitVec 32) (n : Fin 50048) :
    (degArr (F := Ideal) (dstArr ei) : S50048.Idx → EReal) (ix1 n) = Cert.Spec.deg (Cert.Spec.endpt ei 1) n.val := by
  unfold degArr Cert.Spec.deg
  refine (Cert.LibIdx.scatterAddCol_apply32 (φ := .f32) scatter_S50048_S850000x1_S850000_n_0_0_1_wf (by norm_num) _ _ _ n).trans ?_
  have hx : (broadcastInDim S50048 ![] bcast_S_S50048 (constant (F := Ideal) S_ .f32 0x00000000#32) : S50048.Idx → EReal) (ix1 n) = 0 := by
    show Ideal.ofBits .f32 0x00000000#32 = 0
    exact Ideal.ofBits_zero_f32
  rw [hx, zero_add]
  refine Finset.sum_congr rfl fun e _ => ?_
  rw [colOf_apply, dstArr_apply]
  rfl

/-- A node's inverse square-root degree. -/
theorem dinvArr_apply (ei : S2x800000.Idx → BitVec 32) (n : Fin 50048) :
    (dinvArr (F := Ideal) (dstArr ei) : S50048.Idx → EReal) (ix1 n) = Cert.Spec.dinv (Cert.Spec.endpt ei 1) n.val := by
  unfold Cert.Spec.dinv
  rw [← degArr_apply ei n]
  rfl

/-- A word in range is its own wrapped index. -/
theorem wrapArr_apply_of_lt (w : S850000.Idx → BitVec 32) (i : S850000.Idx) (h : (w i).toNat < 2 ^ 31) : wrapArr w i = w i := by
  show Scalar.select (IntOp.cmpi .slt (w i) 0#32) (IntOp.addi (w i) 50048#32) (w i) = w i
  rw [slt_zero_of_lt _ h, select_zero]

/-- The gather at a word in range reads the node the word names. -/
theorem gathArr_apply (di : S50048.Idx → EReal) (w : S850000.Idx → BitVec 32) (e : Fin 850000) (h : (w (ix1 e)).toNat < 50048) :
    (gathArr (F := Ideal) di w : S850000.Idx → EReal) (ix1 e) = di (ix1 ⟨(w (ix1 e)).toNat, h⟩) := by
  have hidx : (broadcastInDim S850000x1 ![0] bcast_S850000_S850000x1_0 (wrapArr w) : S850000x1.Idx → BitVec 32) (ix2 e (0 : Fin 1)) = w (ix1 e) :=
    (colOf_apply (wrapArr w) e).trans (wrapArr_apply_of_lt w _ (by omega))
  unfold gathArr
  refine (Cert.LibIdx.gatherCol_apply_of_lt (by norm_num) gather_S50048_S850000x1_S850000_n_0_n_n_0_1_1_wf di _ e (by rw [hidx]; exact h)).trans ?_
  exact congrArg di (congrArg ix1 (Fin.ext (congrArg BitVec.toNat hidx)))

/-- The gathered inverse square-root degree at a word in range. -/
theorem gath_dinv_apply (ei : S2x800000.Idx → BitVec 32) (w : S850000.Idx → BitVec 32) (e : Fin 850000) (h : (w (ix1 e)).toNat < 50048) :
    (gathArr (F := Ideal) (dinvArr (dstArr ei)) w : S850000.Idx → EReal) (ix1 e) = Cert.Spec.dinv (Cert.Spec.endpt ei 1) (w (ix1 e)).toNat :=
  (gathArr_apply _ w e h).trans (dinvArr_apply ei ⟨_, h⟩)

/-- The padded features: the rows, then zero rows. -/
theorem padArr_apply (x : S50000x128.Idx → EReal) (r : Fin 50048) (k : Fin 128) :
    (pad S50048x128 ![0, 0] ![48, 0] ![0, 0] x (sitofp (F := Ideal) .f32 (constantI S_ 32 0#32 : S_.Idx → BitVec 32) : S_.Idx → EReal)
        pads_S50000x128_S50048x128_0480_000 h_S_ : S50048x128.Idx → EReal) (ix2 r k) = Cert.Spec.rows x r.val k := by
  unfold Cert.Spec.rows
  by_cases h : r.val < 50000
  · rw [dif_pos h]
    refine pad_apply_of_inside _ _ _ x _ _ _ (ix2 r k) (ix2 ⟨r.val, h⟩ k) (fun a => ?_)
    match a with
    | ⟨0, _⟩ =>
      show r.val = 0 + r.val * (0 + 1)
      omega
    | ⟨1, _⟩ =>
      show k.val = 0 + k.val * (0 + 1)
      omega
  · rw [dif_neg h]
    refine (pad_apply_of_not_inside _ _ _ x _ _ _ (ix2 r k) (0 : Fin 2) (fun hh => h ?_)).trans ?_
    · have h3 : (r.val - 0) / (0 + 1) < 50000 := hh.2.2
      omega
    · show (((0#32 : BitVec 32).toInt : ℝ) : EReal) = 0
      simp

end AtIndex

/-! ## The buffers when the first kernel region is entered -/

section AtEntry
variable {F : FTy → Type} [FloatOps F]
variable (m : (ℓ : Loc nD τ sig) → Buf (Elt F) ℓ) (ρ : Dev nD → PrngReg) (c : Dev nD)

/-- A reference no host operation writes is as launched. -/
theorem W5_launch (r : Ref sig .tc) (h0 : r ∉ wr0) (h1 : r ∉ wr1) (h2 : r ∉ wr2) (h3 : r ∉ wr3) (h4 : r ∉ wr4) :
    W5 m ρ c (Proc.devRef .tc r) = m ((c.tc : Thread nD τ).loc r) :=
  (keep4 _ r h4).trans <| (keep3 _ r h3).trans <| (keep2 _ r h2).trans <| (keep1 _ r h1).trans <| (keep0 _ r h0).trans rfl

theorem W2_arg1 : (W2 m ρ c main_arg1 : S2x800000.Idx → BitVec 32) = m ((c.tc : Thread nD τ).loc main_arg1) :=
  (keep1 _ main_arg1 (by decide)).trans <| (keep0 _ main_arg1 (by decide)).trans rfl

theorem W3_v6 : (W3 m ρ c main_v6 : S850000.Idx → BitVec 32) = srcArr (m ((c.tc : Thread nD τ).loc main_arg1)) :=
  (s2_v6 (W2 m ρ c)).trans (congrArg srcArr (W2_arg1 m ρ c))
theorem W3_v7 : (W3 m ρ c main_v7 : S850000.Idx → BitVec 32) = dstArr (m ((c.tc : Thread nD τ).loc main_arg1)) :=
  (s2_v7 (W2 m ρ c)).trans (congrArg dstArr (W2_arg1 m ρ c))
theorem W4_v6 : (W4 m ρ c main_v6 : S850000.Idx → BitVec 32) = srcArr (m ((c.tc : Thread nD τ).loc main_arg1)) :=
  (keep3 _ main_v6 (by decide)).trans (W3_v6 m ρ c)
theorem W4_v7 : (W4 m ρ c main_v7 : S850000.Idx → BitVec 32) = dstArr (m ((c.tc : Thread nD τ).loc main_arg1)) :=
  (keep3 _ main_v7 (by decide)).trans (W3_v7 m ρ c)

theorem W4_v15 : (W4 m ρ c main_v15 : S50048.Idx → Elt F .f32) = dinvArr (dstArr (m ((c.tc : Thread nD τ).loc main_arg1))) := by
  refine (s3_v15 (W3 m ρ c)).trans ?_
  have e13 : (W3 m ρ c main_v13 : S50048.Idx → BitVec 1) = _ := s2_v13 (W2 m ρ c)
  have e14 : (W3 m ρ c main_v14 : S50048.Idx → Elt F .f32) = _ := s2_v14 (W2 m ρ c)
  have e2 : (W3 m ρ c main_cst_2 : S_.Idx → Elt F .f32) = _ := s2_cst2 (W2 m ρ c)
  rw [e13, e14, e2, W2_arg1]
  rfl

/-- The padded features. -/
theorem W5_v0 : (W5 m ρ c main_v0 : S50048x128.Idx → Elt F .f32)
    = pad S50048x128 ![0, 0] ![48, 0] ![0, 0] (m ((c.tc : Thread nD τ).loc main_arg0) : S50000x128.Idx → Elt F .f32)
        (sitofp .f32 (constantI S_ 32 0#32 : S_.Idx → BitVec 32) : S_.Idx → Elt F .f32) pads_S50000x128_S50048x128_0480_000 h_S_ :=
  (keep4 _ main_v0 (by decide)).trans <| (keep3 _ main_v0 (by decide)).trans <| (keep2 _ main_v0 (by decide)).trans <| s01_v0 (W0 m ρ c)

/-- The columns of words. -/
theorem W5_v31 : (W5 m ρ c main_v31 : S850000x1.Idx → BitVec 32)
    = shapeCast S850000x1 (srcArr (m ((c.tc : Thread nD τ).loc main_arg1))) shapeCasts_S850000_S850000x1 :=
  (s4_v31 (W4 m ρ c)).trans (congrArg (fun a => shapeCast S850000x1 a shapeCasts_S850000_S850000x1) (W4_v6 m ρ c))
theorem W5_v32 : (W5 m ρ c main_v32 : S850000x1.Idx → BitVec 32)
    = shapeCast S850000x1 (dstArr (m ((c.tc : Thread nD τ).loc main_arg1))) shapeCasts_S850000_S850000x1 :=
  (s4_v32 (W4 m ρ c)).trans (congrArg (fun a => shapeCast S850000x1 a shapeCasts_S850000_S850000x1) (W4_v7 m ρ c))

/-- The column of weights. -/
theorem W5_v33 : (W5 m ρ c main_v33 : S850000x1.Idx → Elt F .f32)
    = shapeCast S850000x1 (mulf (gathArr (dinvArr (dstArr (m ((c.tc : Thread nD τ).loc main_arg1)))) (srcArr (m ((c.tc : Thread nD τ).loc main_arg1))))
        (gathArr (dinvArr (dstArr (m ((c.tc : Thread nD τ).loc main_arg1)))) (dstArr (m ((c.tc : Thread nD τ).loc main_arg1))))) shapeCasts_S850000_S850000x1 := by
  refine (s4_v33 (W4 m ρ c)).trans ?_
  rw [W4_v15, W4_v6, W4_v7]

end AtEntry

/-! ## The statements, at the ideal instance -/

section Ideal
variable (m : (ℓ : Loc nD τ sig) → Buf (Elt Ideal) ℓ) (ρ : Dev nD → PrngReg) (c : Dev nD)

/-- A column of a flat array reads the array at the row. -/
theorem col_apply {α : Type} (w : S850000.Idx → α) (e : Fin 850000) :
    shapeCast S850000x1 w shapeCasts_S850000_S850000x1 (ix2 e (0 : Fin 1)) = w (ix1 e) := by
  refine shapeCast_apply w shapeCasts_S850000_S850000x1 (ix2 e (0 : Fin 1)) (ix1 e) ?_
  rw [Shape.rowMajor_val_two, Shape.rowMajor_val_one]
  show e.val = e.val * 1 + 0
  omega

/-- (a) The features the regions read: the rows, zero from row 50000 on. -/
theorem v0_apply (r : Fin 50048) (k : Fin 128) :
    (W5 m ρ c main_v0 : S50048x128.Idx → EReal) (ix2 r k)
      = Cert.Spec.rows (m ((c.tc : Thread nD τ).loc main_arg0) : S50000x128.Idx → EReal) r.val k := by
  rw [W5_v0 m ρ c]
  exact padArr_apply _ r k

/-- (b) The source column holds the source words … -/
theorem v31_apply (e : Fin 850000) :
    (W5 m ρ c main_v31 : S850000x1.Idx → BitVec 32) (ix2 e (0 : Fin 1))
      = Cert.Spec.endpt (m ((c.tc : Thread nD τ).loc main_arg1) : S2x800000.Idx → BitVec 32) 0 e := by
  rw [W5_v31 m ρ c, col_apply, srcArr_apply]

/-- … and the destination column the destination words. -/
theorem v32_apply (e : Fin 850000) :
    (W5 m ρ c main_v32 : S850000x1.Idx → BitVec 32) (ix2 e (0 : Fin 1))
      = Cert.Spec.endpt (m ((c.tc : Thread nD τ).loc main_arg1) : S2x800000.Idx → BitVec 32) 1 e := by
  rw [W5_v32 m ρ c, col_apply, dstArr_apply]

/-- (c) With every word naming a node, the weight column holds the symmetric normalisation weights. -/
theorem v33_apply
    (hr : ∀ e, (Cert.Spec.endpt (m ((c.tc : Thread nD τ).loc main_arg1) : S2x800000.Idx → BitVec 32) 0 e).toNat < 50000
      ∧ (Cert.Spec.endpt (m ((c.tc : Thread nD τ).loc main_arg1) : S2x800000.Idx → BitVec 32) 1 e).toNat < 50000)
    (e : Fin 850000) :
    (W5 m ρ c main_v33 : S850000x1.Idx → EReal) (ix2 e (0 : Fin 1))
      = Cert.Spec.norm (Cert.Spec.endpt (m ((c.tc : Thread nD τ).loc main_arg1) : S2x800000.Idx → BitVec 32) 0)
          (Cert.Spec.endpt (m ((c.tc : Thread nD τ).loc main_arg1) : S2x800000.Idx → BitVec 32) 1) e := by
  have hs : (srcArr (m ((c.tc : Thread nD τ).loc main_arg1)) (ix1 e)).toNat < 50048 := by
    rw [srcArr_apply]; have := (hr e).1; omega
  have hd : (dstArr (m ((c.tc : Thread nD τ).loc main_arg1)) (ix1 e)).toNat < 50048 := by
    rw [dstArr_apply]; have := (hr e).2; omega
  rw [W5_v33 m ρ c, col_apply]
  show (gathArr (F := Ideal) _ _ : S850000.Idx → EReal) (ix1 e) * (gathArr (F := Ideal) _ _ : S850000.Idx → EReal) (ix1 e) = _
  rw [gath_dinv_apply _ _ e hs, gath_dinv_apply _ _ e hd, srcArr_apply, dstArr_apply]
  rfl

/-- (d) The weights and biases are as launched. -/
theorem arg2_eq : W5 m ρ c (Proc.devRef .tc main_arg2) = m ((c.tc : Thread nD τ).loc main_arg2) :=
  W5_launch m ρ c main_arg2 (by decide) (by decide) (by decide) (by decide) (by decide)
theorem arg3_eq : W5 m ρ c (Proc.devRef .tc main_arg3) = m ((c.tc : Thread nD τ).loc main_arg3) :=
  W5_launch m ρ c main_arg3 (by decide) (by decide) (by decide) (by decide) (by decide)
theorem arg4_eq : W5 m ρ c (Proc.devRef .tc main_arg4) = m ((c.tc : Thread nD τ).loc main_arg4) :=
  W5_launch m ρ c main_arg4 (by decide) (by decide) (by decide) (by decide) (by decide)
theorem arg5_eq : W5 m ρ c (Proc.devRef .tc main_arg5) = m ((c.tc : Thread nD τ).loc main_arg5) :=
  W5_launch m ρ c main_arg5 (by decide) (by decide) (by decide) (by decide) (by decide)
theorem arg6_eq : W5 m ρ c (Proc.devRef .tc main_arg6) = m ((c.tc : Thread nD τ).loc main_arg6) :=
  W5_launch m ρ c main_arg6 (by decide) (by decide) (by decide) (by decide) (by decide)
theorem arg7_eq : W5 m ρ c (Proc.devRef .tc main_arg7) = m ((c.tc : Thread nD τ).loc main_arg7) :=
  W5_launch m ρ c main_arg7 (by decide) (by decide) (by decide) (by decide) (by decide)
theorem arg8_eq : W5 m ρ c (Proc.devRef .tc main_arg8) = m ((c.tc : Thread nD τ).loc main_arg8) :=
  W5_launch m ρ c main_arg8 (by decide) (by decide) (by decide) (by decide) (by decide)
theorem arg9_eq : W5 m ρ c (Proc.devRef .tc main_arg9) = m ((c.tc : Thread nD τ).loc main_arg9) :=
  W5_launch m ρ c main_arg9 (by decide) (by decide) (by decide) (by decide) (by decide)

end Ideal

end Cert.KernelIdeal.HostVal

end
-- ==== Proof.Val.Slice.lean ====
/-
  The program's last host operation reads the first 50000 rows of the padded column: the slice at row r is the column
  at row r.
-/
import proofs.«401039_j68436008894831_1_alg».proof.KernelIdeal
import Idealize.ShloMosaic.Lib.Pipeline.Value
import Idealize.ShloMosaic.Lib.ValueIdx

noncomputable section

namespace Cert.KernelIdeal.Slice

open Cert.KernelIdeal Idealize.ShloMosaic Idealize.ShloMosaic.ValueIdx

variable [Facts]
open Facts₀ Facts

/-- The slice of the first 50000 rows, read at (r, j), is the column at (r, j). -/
theorem slice_apply (X : FVec Ideal S50048x1 .f32) (r : Fin 50000) (j : Fin 1) :
    extractStridedSlice S50000x1 ![0, 0] X slices_S50048x1_S50000x1_0_0 (ix2 r j) = X (ix2 ⟨r.val, by omega⟩ j) := by
  refine extractStridedSlice_apply ![0, 0] X slices_S50048x1_S50000x1_0_0 (ix2 r j) (ix2 ⟨r.val, by omega⟩ j) fun a => ?_
  match a with
  | ⟨0, _⟩ => show r.val = 0 + r.val; omega
  | ⟨1, _⟩ => show j.val = 0 + j.val; omega

end Cert.KernelIdeal.Slice

end
-- ==== Proof.Val.Final0.lean ====
/-
  The value of the first dense region at the ideal instance: the result array after the run is the padded input
  (50048×128) times the first weight matrix (128×64), entry by entry as extended reals. The matrix unit's product into a
  zero accumulator is the plain sum over the contracted axis (0 + s = s holds for every extended real, and a change of
  float format is the identity); the tile of 3128 rows that grid point t multiplies is rows 3128·t … 3128·t + 3127 of the
  input, the weight matrix is read whole at every point, and the 16 tiles written back fill the 50048 rows.
-/
import proofs.«401039_j68436008894831_1_alg».proof.Proof.KI.R0
import proofs.«401039_j68436008894831_1_alg».proof.Proof.Val.KSpec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.DenseVal

open Cert.KernelIdeal Cert.KernelIdeal.Gen Cert.KernelIdeal.Hand
open Idealize.ShloMosaic Idealize.ShloMosaic.TcCoe Idealize.ShloMosaic.ValueIdx
open Idealize.ShloMosaic.Pipeline (Dat)

/-! ## The matrix unit's product read at one entry -/

theorem lhs0_0 (i : S3128x64.Idx) (q : dot_S3128x128_S128x64_S3128x64_1_0_0_1_n_n.contr.Idx) :
    (dot_S3128x128_S128x64_S3128x64_1_0_0_1_n_n.lhsIdx i q 0).val = (i 0).val := by
  unfold DotDims.lhsIdx
  rw [dif_neg (show ¬(0 : Fin S3128x128.rank) ∈ dot_S3128x128_S128x64_S3128x64_1_0_0_1_n_n.lhsBatch by decide), dif_pos (show (0 : Fin S3128x128.rank) ∈ dot_S3128x128_S128x64_S3128x64_1_0_0_1_n_n.lhsNonContracting by decide)]
  rfl
theorem lhs0_1 (i : S3128x64.Idx) (q : dot_S3128x128_S128x64_S3128x64_1_0_0_1_n_n.contr.Idx) :
    (dot_S3128x128_S128x64_S3128x64_1_0_0_1_n_n.lhsIdx i q 1).val = (q ⟨0, by decide⟩).val :=
  dot_S3128x128_S128x64_S3128x64_1_0_0_1_n_n.lhsIdx_val_of_single rfl i q
theorem rhs0_0 (i : S3128x64.Idx) (q : dot_S3128x128_S128x64_S3128x64_1_0_0_1_n_n.contr.Idx) :
    (dot_S3128x128_S128x64_S3128x64_1_0_0_1_n_n.rhsIdx i q 0).val = (q ⟨0, by decide⟩).val :=
  dot_S3128x128_S128x64_S3128x64_1_0_0_1_n_n.rhsIdx_val_of_single rfl i q
theorem rhs0_1 (i : S3128x64.Idx) (q : dot_S3128x128_S128x64_S3128x64_1_0_0_1_n_n.contr.Idx) :
    (dot_S3128x128_S128x64_S3128x64_1_0_0_1_n_n.rhsIdx i q 1).val = (i 1).val := by
  unfold DotDims.rhsIdx
  rw [dif_neg (show ¬(1 : Fin S128x64.rank) ∈ dot_S3128x128_S128x64_S3128x64_1_0_0_1_n_n.rhsBatch by decide), dif_pos (show (1 : Fin S128x64.rank) ∈ dot_S3128x128_S128x64_S3128x64_1_0_0_1_n_n.rhsNonContracting by decide)]
  rfl

/-- A product of a [3128,128] by a [128,64] matrix into a zero accumulator: entry (p, q) is the sum over the
    contracted axis of row p of the left factor against column q of the right one. -/
theorem mm0_apply (a : FVec Ideal S3128x128 .bf16) (b : FVec Ideal S128x64 .bf16) (p : Fin 3128) (q : Fin 64) :
    matmul dot_S3128x128_S128x64_S3128x64_1_0_0_1_n_n none a b (constant (F := Ideal) S3128x64 .f32 0x00000000#32) (ix2 p q) = ∑ k : Fin 128, a (ix2 p k) * b (ix2 k q) := by
  refine (Ideal.matmul_constant_zero_apply dot_S3128x128_S128x64_S3128x64_1_0_0_1_n_n none a b (ix2 p q)).trans ?_
  rw [← Equiv.sum_comp (contrEquiv1 dot_S3128x128_S128x64_S3128x64_1_0_0_1_n_n 128 rfl rfl).symm]
  refine Finset.sum_congr rfl fun k _ => ?_
  have hk := contrEquiv1_symm_val dot_S3128x128_S128x64_S3128x64_1_0_0_1_n_n 128 rfl rfl k
  have el : dot_S3128x128_S128x64_S3128x64_1_0_0_1_n_n.lhsIdx (ix2 p q) ((contrEquiv1 dot_S3128x128_S128x64_S3128x64_1_0_0_1_n_n 128 rfl rfl).symm k) = ix2 p k := funext fun a => Fin.ext (by
    match a with
    | ⟨0, _⟩ => exact lhs0_0 _ _
    | ⟨1, _⟩ => exact (lhs0_1 _ _).trans hk)
  have er : dot_S3128x128_S128x64_S3128x64_1_0_0_1_n_n.rhsIdx (ix2 p q) ((contrEquiv1 dot_S3128x128_S128x64_S3128x64_1_0_0_1_n_n 128 rfl rfl).symm k) = ix2 k q := funext fun a => Fin.ext (by
    match a with
    | ⟨0, _⟩ => exact (rhs0_0 _ _).trans hk
    | ⟨1, _⟩ => exact rhs0_1 _ _)
  rw [el, er]

/-- The body's stored value at entry (p, q): the format changes are the identity on extended reals. -/
theorem pay0_apply (x0 : Vec Ideal S3128x128 .f32) (x1 : Vec Ideal S128x64 .f32) (p : Fin 3128) (q : Fin 64) :
    k0_pay1 (F := Ideal) x0 x1 (ix2 p q) = ∑ k : Fin 128, x0 (ix2 p k) * x1 (ix2 k q) := by
  unfold k0_pay1
  refine (mm0_apply _ _ p q).trans ?_
  simp only [shapeCast_self]
  rfl

/-! ## The blocks of the three windows -/

theorem hz0 : (![0, 0] : Fin 2 → Nat) = fun _ => 0 := funext fun a => by fin_cases a <;> rfl

/-- The printed index maps over the 16 points: the row tile of the left factor and of the result is the point's
    number, the right factor is always its one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b))

/-- Row p of the left factor's tile at point t is row 3128·t + p of the padded input. -/
theorem iblk0_0_apply (c : Dev nD) (t : Fin cfg0.N) (p : Fin 3128) (k : Fin 128) (r : Fin 50048) (hr : r.val = t.val * 3128 + p.val) :
    (iblk0 (F := Ideal) V c 0 t : Vec Ideal S3128x128 .f32) (ix2 p k) = (V c main_v0 : S50048x128.Idx → EReal) (ix2 r k) := by
  obtain ⟨e0, e1, -⟩ := idx_facts0 t
  unfold iblk0
  rw [View.read_apply]
  show V c main_v0 _ = V c main_v0 _
  congr 1
  funext a
  apply Fin.ext
  match a with
  | ⟨0, _⟩ => show win0_0.index t (0 : Fin 2) * 3128 + 1 * p.val = r.val; rw [e0, hr]; omega
  | ⟨1, _⟩ => show win0_0.index t (1 : Fin 2) * 128 + 1 * k.val = k.val; rw [e1]; omega

/-- The right factor's block is the whole weight matrix at every point. -/
theorem iblk0_1_apply (c : Dev nD) (t : Fin cfg0.N) (k : Fin 128) (q : Fin 64) :
    (iblk0 (F := Ideal) V c 1 t : Vec Ideal S128x64 .f32) (ix2 k q) = (V c main_arg2 : S128x64.Idx → EReal) (ix2 k q) := by
  obtain ⟨-, -, e0, e1, -⟩ := idx_facts0 t
  unfold iblk0
  rw [View.read_apply]
  show V c main_arg2 _ = V c main_arg2 _
  congr 1
  funext a
  apply Fin.ext
  match a with
  | ⟨0, _⟩ => show win0_1.index t (0 : Fin 2) * 128 + 1 * k.val = k.val; rw [e0]; omega
  | ⟨1, _⟩ => show win0_1.index t (1 : Fin 2) * 64 + 1 * q.val = q.val; rw [e1]; omega

end

/-! ## From the blocks to the array -/

section
variable (V : (c : Dev nD) → (b : Ref sig .tc) → Buf (Elt Ideal) ((c : Thread nD τ).loc b))

/-- What point t writes back is tile t of the dense product of the two whole arrays the region finds. -/
theorem flushed0_eq (c : Dev nD) (t : Fin cfg0.N) :
    (dat0 (F := Ideal) V c).flushed 2 t
      = ((cfg0.win 2).blk t).view.read (Elt Ideal) (Cert.KSpec.lin (V c main_v0 : S50048x128.Idx → EReal) (V c main_arg2 : S128x64.Idx → EReal)) := by
  show (cfg0.win 2).cut (grid0.coords t) ((dat0 (F := Ideal) V c).after 2 t) = _
  rw [after0_2]
  unfold out0_2
  rw [View.canon_unit_zero hz0]
  simp only [View.ld_unit_zero (S := S3128x128) hz0, View.ld_unit_zero (S := S128x64) hz0]
  obtain ⟨-, -, -, -, e0, e1⟩ := idx_facts0 t
  funext j
  obtain ⟨p, q, rfl⟩ : ∃ (p : Fin 3128) (q : Fin 64), j = ix2 p q := ⟨j 0, j 1, eq_ix2 j⟩
  refine (pay0_apply (iblk0 (F := Ideal) V c 0 t) (iblk0 (F := Ideal) V c 1 t) p q).trans ?_
  rw [View.read_apply]
  have ht : t.val < 16 := by have h1 := t.isLt; have hN : cfg0.N = 16 := N_0; omega
  have hr : t.val * 3128 + p.val < 50048 := by have := p.isLt; omega
  have hemb : ((cfg0.win 2).blk t).view.emb (ix2 p q) = (ix2 (⟨t.val * 3128 + p.val, hr⟩ : Fin 50048) q : S50048x64.Idx) := by
    funext a
    apply Fin.ext
    match a with
    | ⟨0, _⟩ => show win0_2.index t (0 : Fin 2) * 3128 + 1 * p.val = t.val * 3128 + p.val; rw [e0]; omega
    | ⟨1, _⟩ => show win0_2.index t (1 : Fin 2) * 64 + 1 * q.val = q.val; rw [e1]; omega
  rw [hemb]
  unfold Cert.KSpec.lin
  refine Finset.sum_congr rfl fun k _ => ?_
  rw [iblk0_0_apply V c t p k ⟨t.val * 3128 + p.val, hr⟩ rfl, iblk0_1_apply V c t k q]

/-- An entry of the result array lies in point t's block iff each coordinate is in the block's range on its axis. -/
theorem mem_blk0 (t : Fin cfg0.N) (i : S50048x64.Idx) :
    i ∈ ((cfg0.win 2).blk t).view.set ↔ ∀ a : Fin 2, win0_2.index t a * S3128x64.size a ≤ (i a).val ∧ (i a).val < win0_2.index t a * S3128x64.size a + S3128x64.size a := by
  show i ∈ ((View.whole main_v34).slice (win0_2.rect t)).set ↔ _
  rw [View.set_slice_whole, Rect.mem_set_unit]
  exact Iff.rfl

/-- Row r of the result is written back by point r / 3128: the 16 tiles of 3128 rows fill the 50048 rows. -/
theorem cover0 (i : S50048x64.Idx) : ∃ t : Fin cfg0.N, (cfg0.win 2).flush t = true ∧ i ∈ ((cfg0.win 2).blk t).view.set := by
  have hi0 : (i 0).val < 50048 := (i 0).isLt
  have hi1 : (i 1).val < 64 := (i 1).isLt
  have hN : cfg0.N = 16 := N_0
  let t : Fin cfg0.N := ⟨(i 0).val / 3128, by rw [hN]; omega⟩
  obtain ⟨-, -, -, -, e0, e1⟩ := idx_facts0 t
  have ht : t.val = (i 0).val / 3128 := rfl
  refine ⟨t, flush0_2 t, ?_⟩
  rw [mem_blk0]
  intro a
  match a with
  | ⟨0, _⟩ => show win0_2.index t (0 : Fin 2) * 3128 ≤ (i 0).val ∧ (i 0).val < win0_2.index t (0 : Fin 2) * 3128 + 3128; rw [e0, ht]; omega
  | ⟨1, _⟩ => show win0_2.index t (1 : Fin 2) * 64 ≤ (i 1).val ∧ (i 1).val < win0_2.index t (1 : Fin 2) * 64 + 64; rw [e1]; omega

/-- The result array of the first dense region after its run: the padded input times the first weight matrix. -/
theorem final0 (c : Dev nD) :
    ((dat0 (F := Ideal) V c).arrAt 2 cfg0.N : S50048x64.Idx → EReal)
      = Cert.KSpec.lin (V c main_v0 : S50048x128.Idx → EReal) (V c main_arg2 : S128x64.Idx → EReal) :=
  (dat0 (F := Ideal) V c).arrAt_eq_of_cover 2 (Cert.KSpec.lin (V c main_v0 : S50048x128.Idx → EReal) (V c main_arg2 : S128x64.Idx → EReal))
    (fun t _ => flushed0_eq V c t) cover0

end

end Cert.KernelIdeal.DenseVal

end
-- ==== Proof.Val.Gather.lean ====
/-
  The gather regions' arithmetic, entry by entry, at the extended reals. An edge tile holds 2000 edges and a node block
  3128 rows of the [50048, 64] feature array. At node block `k` the body forms the 2000 × 3128 matrix whose entry
  (p, jj) is one when edge `p`'s source word, less `3128·k` in 32-bit arithmetic, equals `jj`, and zero otherwise, and adds
  its product with the block to the accumulator. Both words are below 2^32 and `k` is below 16, so the entry is one
  exactly when the source word, read as a natural number, is `3128·k + jj`. A product of a zero-or-one factor with any
  extended real is that real or zero, so the accumulate step adds, at (p, q), the one-hot sum over the block's rows; over
  the sixteen blocks, starting from zeros, the sums collapse to the single row of the whole array the word names (or
  to zero when it names none). The last step multiplies each row by the edge's weight.
-/
import proofs.«401039_j68436008894831_1_alg».proof.Proof.Gen.KernelIdeal.Skeleton
import Idealize.ShloMosaic.PureOps.Ideal.Laws
import Idealize.ShloMosaic.Lib.ValueIdx
import Idealize.ShloMosaic.Lib.Pipeline.Value

noncomputable section
open scoped BigOperators

namespace Cert.KernelIdeal.GatherVal

open Cert.KernelIdeal Cert.KernelIdeal.Gen Idealize.ShloMosaic Idealize.ShloMosaic.ValueIdx

/-! ## Words, and the three payloads' simple ends -/

theorem word_eq_iff (w : BitVec 32) (K jj : ℕ) (hK : K < 16) (hj : jj < 3128) :
    (IntOp.subi w (Scalar.muli (BitVec.ofNat 32 K) 3128#32) = BitVec.ofNat 32 jj) ↔ w.toNat = K * 3128 + jj := by
  unfold IntOp.subi Scalar.muli IntOp.muli
  have hw := w.isLt
  constructor
  · intro h
    have := congrArg BitVec.toNat h
    simp only [BitVec.toNat_sub, BitVec.toNat_mul, BitVec.toNat_ofNat] at this
    omega
  · intro h
    apply BitVec.eq_of_toNat_eq
    simp only [BitVec.toNat_sub, BitVec.toNat_mul, BitVec.toNat_ofNat]
    omega

theorem onehot_val (c : Bool) : ((((BitVec.ofBool c).setWidth 32).toInt : ℝ) : EReal) = if c then 1 else 0 := by
  cases c
  · have h : ((BitVec.ofBool false).setWidth 32).toInt = 0 := by decide
    rw [h]; simp
  · have h : ((BitVec.ofBool true).setWidth 32).toInt = 1 := by decide
    rw [h]; simp

theorem pay1_apply (p : Fin 2000) (q : Fin 64) : k1_pay1 (F := Ideal) (ix2 p q) = 0 := by
  unfold k1_pay1
  refine (congrFun (shapeCast_self _ _) (ix2 p q)).trans ?_
  exact Ideal.ofBits_zero_f32

theorem pay3_apply (v27 : Vec Ideal S2000x1 .f32) (v29 : Vec Ideal S2000x64 .f32) (p : Fin 2000) (q : Fin 64) :
    k1_pay3 v27 v29 (ix2 p q) = v29 (ix2 p q) * v27 (ix2 p 0) := by
  unfold k1_pay3
  refine (mulf_apply _ _ _).trans ?_
  refine congrArg (v29 (ix2 p q) * ·) ?_
  refine (broadcastTo_apply _ _ (ix2 p q) (ix2 p 0) (fun a => ?_)).trans ?_
  · match a with
    | ⟨0, _⟩ => show p.val = if (2000 : Nat) = 1 then 0 else p.val; rw [if_neg (by decide)]
    | ⟨1, _⟩ => rfl
  · exact congrFun (shapeCast_shapeCast v27 _ _) (ix2 p 0)

/-! ## The one-hot product on the matrix unit, read at an index -/

theorem lhs_ax0 (i : S2000x64.Idx) (k : dot_S2000x3128_S3128x64_S2000x64_1_0_0_1_n_n.contr.Idx) :
    (dot_S2000x3128_S3128x64_S2000x64_1_0_0_1_n_n.lhsIdx i k 0).val = (i 0).val := by
  unfold DotDims.lhsIdx
  rw [dif_neg (show ¬(0 : Fin S2000x3128.rank) ∈ dot_S2000x3128_S3128x64_S2000x64_1_0_0_1_n_n.lhsBatch by decide), dif_pos (show (0 : Fin S2000x3128.rank) ∈ dot_S2000x3128_S3128x64_S2000x64_1_0_0_1_n_n.lhsNonContracting by decide)]
  rfl
theorem lhs_ax1 (i : S2000x64.Idx) (k : dot_S2000x3128_S3128x64_S2000x64_1_0_0_1_n_n.contr.Idx) :
    (dot_S2000x3128_S3128x64_S2000x64_1_0_0_1_n_n.lhsIdx i k 1).val = (k ⟨0, by decide⟩).val :=
  dot_S2000x3128_S3128x64_S2000x64_1_0_0_1_n_n.lhsIdx_val_of_single rfl i k
theorem rhs_ax0 (i : S2000x64.Idx) (k : dot_S2000x3128_S3128x64_S2000x64_1_0_0_1_n_n.contr.Idx) :
    (dot_S2000x3128_S3128x64_S2000x64_1_0_0_1_n_n.rhsIdx i k 0).val = (k ⟨0, by decide⟩).val :=
  dot_S2000x3128_S3128x64_S2000x64_1_0_0_1_n_n.rhsIdx_val_of_single rfl i k
theorem rhs_ax1 (i : S2000x64.Idx) (k : dot_S2000x3128_S3128x64_S2000x64_1_0_0_1_n_n.contr.Idx) :
    (dot_S2000x3128_S3128x64_S2000x64_1_0_0_1_n_n.rhsIdx i k 1).val = (i 1).val := by
  unfold DotDims.rhsIdx
  rw [dif_neg (show ¬(1 : Fin S3128x64.rank) ∈ dot_S2000x3128_S3128x64_S2000x64_1_0_0_1_n_n.rhsBatch by decide), dif_pos (show (1 : Fin S3128x64.rank) ∈ dot_S2000x3128_S3128x64_S2000x64_1_0_0_1_n_n.rhsNonContracting by decide)]
  rfl

/-- A [2000, 3128] by [3128, 64] product into the zero accumulator, at (p, q): the sum over the 3128 middle coordinates. -/
theorem matmul_zero_ix (A : FVec Ideal S2000x3128 .bf16) (B : FVec Ideal S3128x64 .bf16) (p : Fin 2000) (q : Fin 64) :
    matmul dot_S2000x3128_S3128x64_S2000x64_1_0_0_1_n_n none A B (constant (F := Ideal) S2000x64 .f32 0x00000000#32) (ix2 p q)
      = ∑ jj : Fin 3128, A (ix2 p jj) * B (ix2 jj q) := by
  simp only [matmul]
  rw [Ideal.matmul_constant_zero_apply, ← Equiv.sum_comp (contrEquiv1 dot_S2000x3128_S3128x64_S2000x64_1_0_0_1_n_n 3128 rfl rfl).symm]
  refine Finset.sum_congr rfl fun k _ => ?_
  have hk := contrEquiv1_symm_val dot_S2000x3128_S3128x64_S2000x64_1_0_0_1_n_n 3128 rfl rfl k
  have el : dot_S2000x3128_S3128x64_S2000x64_1_0_0_1_n_n.lhsIdx (ix2 p q) ((contrEquiv1 dot_S2000x3128_S3128x64_S2000x64_1_0_0_1_n_n 3128 rfl rfl).symm k) = ix2 p k := funext fun a => Fin.ext (by
    match a with
    | ⟨0, _⟩ => exact lhs_ax0 _ _
    | ⟨1, _⟩ => exact (lhs_ax1 _ _).trans hk)
  have er : dot_S2000x3128_S3128x64_S2000x64_1_0_0_1_n_n.rhsIdx (ix2 p q) ((contrEquiv1 dot_S2000x3128_S3128x64_S2000x64_1_0_0_1_n_n 3128 rfl rfl).symm k) = ix2 k q := funext fun a => Fin.ext (by
    match a with
    | ⟨0, _⟩ => exact (rhs_ax0 _ _).trans hk
    | ⟨1, _⟩ => exact rhs_ax1 _ _)
  rw [el, er]

/-! ## The accumulate step -/

/-- The matrix unit's left operand: entry (p, jj) is one when the index column's word at row `p`, less `3128` times the
    node block's number, is the lane number `jj`, and zero otherwise. -/
def hot (K : BitVec 32) (v4 : Vec Ideal S2000x1 .i32) : FVec Ideal S2000x3128 .bf16 :=
  truncf .bf16 (sitofp .f32 (extui 32 (cmpi .eq
    (broadcastTo S2000x3128 (shapeCast S2000x1 (subi (shapeCast S2000 v4 shapeCasts_S2000x1_S2000) (broadcast S2000 (Scalar.muli K 3128#32)))
      shapeCasts_S2000_S2000x1) broadcasts_S2000x1_S2000x3128)
    (iota .tc S2000x3128 32 [1] iota_S2000x3128_d1_w32)) natLt_1_32)) bitsLt_bf16_f32

theorem hot_apply (K : BitVec 32) (v4 : Vec Ideal S2000x1 .i32) (p : Fin 2000) (jj : Fin 3128) :
    hot K v4 (ix2 p jj)
      = ((((IntOp.cmpi .eq (IntOp.subi (v4 (ix2 p 0)) (Scalar.muli K 3128#32)) (BitVec.ofNat 32 jj.val)).setWidth 32).toInt : ℝ) : EReal) := by
  unfold hot
  have e1 : iota .tc S2000x3128 32 [1] iota_S2000x3128_d1_w32 (ix2 p jj) = BitVec.ofNat 32 jj.val :=
    iota_single_apply .tc S2000x3128 32 1 iota_S2000x3128_d1_w32 (ix2 p jj)
  have e2 : broadcastTo S2000x3128 (shapeCast S2000x1 (subi (shapeCast S2000 v4 shapeCasts_S2000x1_S2000) (broadcast S2000 (Scalar.muli K 3128#32)))
      shapeCasts_S2000_S2000x1) broadcasts_S2000x1_S2000x3128 (ix2 p jj) = IntOp.subi (v4 (ix2 p 0)) (Scalar.muli K 3128#32) := by
    refine (broadcastTo_apply _ _ (ix2 p jj) (ix2 p 0) (fun a => ?_)).trans ?_
    · match a with
      | ⟨0, _⟩ => show p.val = if (2000 : Nat) = 1 then 0 else p.val; rw [if_neg (by decide)]
      | ⟨1, _⟩ => rfl
    refine (shapeCast_apply _ _ (ix2 p 0) (ix1 p) ?_).trans ?_
    · rw [Shape.rowMajor_val_one, Shape.rowMajor_val_two]; show p.val = p.val * 1 + 0; omega
    refine congrArg (IntOp.subi · (Scalar.muli K 3128#32)) ?_
    refine shapeCast_apply v4 _ (ix1 p) (ix2 p 0) ?_
    rw [Shape.rowMajor_val_one, Shape.rowMajor_val_two]; show p.val * 1 + 0 = p.val; omega
  show ((((IntOp.cmpi .eq (broadcastTo S2000x3128 _ _ (ix2 p jj)) (iota .tc S2000x3128 32 [1] _ (ix2 p jj))).setWidth 32).toInt : ℝ) : EReal) = _
  rw [e1, e2]

theorem pay2_apply (i : grid1.Coords) (v4 : Vec Ideal S2000x1 .i32) (v15 : Vec Ideal S3128x64 .f32) (v18 : Vec Ideal S2000x64 .f32)
    (p : Fin 2000) (q : Fin 64) :
    k1_pay2 i v4 v15 v18 (ix2 p q)
      = v18 (ix2 p q) + ∑ jj : Fin 3128, if (v4 (ix2 p 0) : BitVec 32).toNat = (i 1).val * 3128 + jj.val then v15 (ix2 jj q) else 0 := by
  have hK : (i 1).val < 16 := (i 1).isLt
  have e : k1_pay2 i v4 v15 v18 = shapeCast S2000x64 (addf v18 (matmul dot_S2000x3128_S3128x64_S2000x64_1_0_0_1_n_n none
      (hot (BitVec.ofNat 32 (i 1).val) v4) (truncf .bf16 (shapeCast S3128x64 v15 shapeCasts_S3128x64_S3128x64) bitsLt_bf16_f32)
      (constant S2000x64 .f32 0x00000000#32))) shapeCasts_S2000x64_S2000x64 := rfl
  rw [e, shapeCast_self]
  refine (addf_apply _ _ _).trans ?_
  refine congrArg (v18 (ix2 p q) + ·) ?_
  refine (matmul_zero_ix _ _ p q).trans ?_
  refine Finset.sum_congr rfl fun jj _ => ?_
  rw [hot_apply]
  have e3 : (truncf .bf16 (shapeCast S3128x64 v15 shapeCasts_S3128x64_S3128x64) bitsLt_bf16_f32 : FVec Ideal S3128x64 .bf16) (ix2 jj q) = v15 (ix2 jj q) :=
    congrFun (shapeCast_self v15 _) (ix2 jj q)
  rw [e3]
  unfold IntOp.cmpi
  rw [onehot_val]
  by_cases h : (v4 (ix2 p 0) : BitVec 32).toNat = (i 1).val * 3128 + jj.val
  · rw [if_pos h, if_pos (by simpa using (word_eq_iff _ _ _ hK jj.isLt).mpr h), one_mul]
  · rw [if_neg h, if_neg (by simpa using fun h' => h ((word_eq_iff _ _ _ hK jj.isLt).mp h')), zero_mul]

/-! ## Sixteen node blocks: the one-hot sums collapse to the row the word names -/

/-- A sum over `Fin N` of "is `W` this position" times a term is the term at `W`, or zero when `W` names no position. -/
theorem sum_hot_eq (N W : ℕ) (g : Fin N → EReal) :
    (∑ n : Fin N, if W = n.val then g n else 0) = if h : W < N then g ⟨W, h⟩ else 0 := by
  by_cases h : W < N
  · rw [dif_pos h, Finset.sum_eq_single (⟨W, h⟩ : Fin N)]
    · rw [if_pos rfl]
    · intro b _ hb
      rw [if_neg (fun e => hb (Fin.ext e.symm))]
    · intro hn; exact absurd (Finset.mem_univ _) hn
  · rw [dif_neg h]
    refine Finset.sum_eq_zero fun n _ => ?_
    rw [if_neg (fun e => h (by rw [e]; exact n.isLt))]

/-- The same with the positions shifted by a block's first row `B`. -/
theorem sum_hot_shift_eq (N B W : ℕ) (g : Fin N → EReal) :
    (∑ n : Fin N, if W = B + n.val then g n else 0) = if h : B ≤ W ∧ W < B + N then g ⟨W - B, by omega⟩ else 0 := by
  by_cases h : B ≤ W ∧ W < B + N
  · rw [dif_pos h, Finset.sum_eq_single (⟨W - B, by omega⟩ : Fin N)]
    · rw [if_pos (by show W = B + (W - B); omega)]
    · intro b _ hb
      rw [if_neg (fun e => hb (Fin.ext (by show b.val = W - B; omega)))]
    · intro hn; exact absurd (Finset.mem_univ _) hn
  · rw [dif_neg h]
    refine Finset.sum_eq_zero fun n _ => ?_
    have hn := n.isLt
    rw [if_neg (fun e => h (by omega))]

/-- Row `W` of a 50048-row column, or zero when `W` is no row. -/
def sel (W : ℕ) (g : Fin 50048 → EReal) : EReal := if h : W < 50048 then g ⟨W, h⟩ else 0

/-- Node block `k`'s one-hot sum is row `W` when `W` lies in the block, else zero. -/
theorem blk_hot_eq (W k : ℕ) (hk : k < 16) (b : Fin 3128 → EReal) (g : Fin 50048 → EReal)
    (hb : ∀ jj : Fin 3128, b jj = g ⟨k * 3128 + jj.val, by have := jj.isLt; omega⟩) :
    (∑ jj : Fin 3128, if W = k * 3128 + jj.val then b jj else 0) = if k * 3128 ≤ W ∧ W < (k + 1) * 3128 then sel W g else 0 := by
  rw [sum_hot_shift_eq]
  by_cases h : k * 3128 ≤ W ∧ W < (k + 1) * 3128
  · have h' : k * 3128 ≤ W ∧ W < k * 3128 + 3128 := by omega
    have h50 : W < 50048 := by omega
    rw [dif_pos h', if_pos h, hb]
    unfold sel
    rw [dif_pos h50]
    exact congrArg g (Fin.ext (by show k * 3128 + (W - k * 3128) = W; omega))
  · have h' : ¬ (k * 3128 ≤ W ∧ W < k * 3128 + 3128) := by omega
    rw [dif_neg h', if_neg h]

/-- One more block: "row `W` if below block `k + 1`'s first row" plus "row `W` if inside block `k + 1`" is "row `W` if below
    block `k + 2`'s first row". -/
theorem step_hot (W k : ℕ) (x : EReal) :
    (if W < (k + 1) * 3128 then x else 0) + (if (k + 1) * 3128 ≤ W ∧ W < (k + 1 + 1) * 3128 then x else 0)
      = if W < (k + 1 + 1) * 3128 then x else 0 := by
  have e : (k + 1 + 1) * 3128 = (k + 1) * 3128 + 3128 := Nat.succ_mul _ _
  rw [e]
  generalize (k + 1) * 3128 = B
  by_cases h1 : W < B
  · have h2 : W < B + 3128 := by omega
    have h3 : ¬ (B ≤ W ∧ W < B + 3128) := by omega
    rw [if_pos h1, if_neg h3, if_pos h2, add_zero]
  · by_cases h2 : W < B + 3128
    · have h3 : B ≤ W ∧ W < B + 3128 := by omega
      rw [if_neg h1, if_pos h3, if_pos h2, zero_add]
    · have h3 : ¬ (B ≤ W ∧ W < B + 3128) := by omega
      rw [if_neg h1, if_neg h3, if_neg h2, add_zero]

/-- The fold over the sixteen node blocks at one entry: starting from zero and adding, at block `k`, the one-hot sum over that
    block's 3128 rows, leaves the one-hot sum over all 50048 rows. -/
theorem fold16 (W : ℕ) (a : ℕ → EReal) (b : ℕ → Fin 3128 → EReal) (g : Fin 50048 → EReal)
    (h0 : a 0 = 0 + ∑ jj : Fin 3128, if W = 0 * 3128 + jj.val then b 0 jj else 0)
    (hs : ∀ k, k + 1 < 16 → a (k + 1) = a k + ∑ jj : Fin 3128, if W = (k + 1) * 3128 + jj.val then b (k + 1) jj else 0)
    (hb : ∀ k (hk : k < 16) (jj : Fin 3128), b k jj = g ⟨k * 3128 + jj.val, by have := jj.isLt; omega⟩) :
    a 15 = ∑ n : Fin 50048, if W = n.val then g n else 0 := by
  have inv : ∀ k, k < 16 → a k = if W < (k + 1) * 3128 then sel W g else 0 := by
    intro k
    induction k with
    | zero =>
      intro hk
      rw [h0, zero_add, blk_hot_eq W 0 hk (b 0) g (hb 0 hk)]
      by_cases h : W < (0 + 1) * 3128
      · have h' : 0 * 3128 ≤ W ∧ W < (0 + 1) * 3128 := by omega
        rw [if_pos h, if_pos h']
      · have h' : ¬ (0 * 3128 ≤ W ∧ W < (0 + 1) * 3128) := by omega
        rw [if_neg h, if_neg h']
    | succ k ih =>
      intro hk
      rw [hs k hk, ih (Nat.lt_of_succ_lt hk), blk_hot_eq W (k + 1) hk (b (k + 1)) g (hb (k + 1) hk)]
      exact step_hot W k (sel W g)
  rw [inv 15 (by decide), sum_hot_eq]
  show _ = sel W g
  by_cases h : W < (15 + 1) * 3128
  · rw [if_pos h]
  · have h' : ¬ W < 50048 := by omega
    rw [if_neg h]
    unfold sel
    rw [dif_neg h']

/-- The fold over whole vectors: the scratch after the sixteenth step is the row of the full [50048, 64] array that the
    tile's index word names, at every entry. -/
theorem fold16_vec (acc : ℕ → Vec Ideal S2000x64 .f32) (w : Fin 2000 → BitVec 32) (hblk : ℕ → Vec Ideal S3128x64 .f32)
    (hfull : (⟨2, ![50048, 64]⟩ : Shape).Idx → EReal)
    (h0 : ∀ p q, acc 0 (ix2 p q) = 0 + ∑ jj : Fin 3128, if (w p).toNat = 0 * 3128 + jj.val then hblk 0 (ix2 jj q) else 0)
    (hs : ∀ k, k + 1 < 16 → ∀ p q, acc (k + 1) (ix2 p q)
        = acc k (ix2 p q) + ∑ jj : Fin 3128, if (w p).toNat = (k + 1) * 3128 + jj.val then hblk (k + 1) (ix2 jj q) else 0)
    (hb : ∀ k (hk : k < 16) (jj : Fin 3128) (q : Fin 64),
        hblk k (ix2 jj q) = hfull (ix2 (⟨k * 3128 + jj.val, by have := jj.isLt; omega⟩ : Fin 50048) q))
    (p : Fin 2000) (q : Fin 64) :
    acc 15 (ix2 p q) = ∑ n : Fin 50048, if (w p).toNat = n.val then hfull (ix2 n q) else 0 :=
  fold16 (w p).toNat (fun k => acc k (ix2 p q)) (fun k jj => hblk k (ix2 jj q)) (fun n => hfull (ix2 n q))
    (h0 p q) (fun k hk => hs k hk p q) (fun k hk jj => hb k hk jj q)
/-! ## The second gather region: the same text under other names -/

theorem k4_pay1_eq : k4_pay1 (F := Ideal) = k1_pay1 (F := Ideal) := rfl
theorem k4_pay2_eq (i : grid4.Coords) (v4 : Vec Ideal S2000x1 .i32) (v15 : Vec Ideal S3128x64 .f32) (v18 : Vec Ideal S2000x64 .f32) :
    k4_pay2 i v4 v15 v18 = k1_pay2 i v4 v15 v18 := rfl
theorem k4_pay3_eq (v27 : Vec Ideal S2000x1 .f32) (v29 : Vec Ideal S2000x64 .f32) : k4_pay3 v27 v29 = k1_pay3 v27 v29 := rfl

theorem pay1_apply4 (p : Fin 2000) (q : Fin 64) : k4_pay1 (F := Ideal) (ix2 p q) = 0 := pay1_apply p q
theorem pay2_apply4 (i : grid4.Coords) (v4 : Vec Ideal S2000x1 .i32) (v15 : Vec Ideal S3128x64 .f32) (v18 : Vec Ideal S2000x64 .f32)
    (p : Fin 2000) (q : Fin 64) :
    k4_pay2 i v4 v15 v18 (ix2 p q)
      = v18 (ix2 p q) + ∑ jj : Fin 3128, if (v4 (ix2 p 0) : BitVec 32).toNat = (i 1).val * 3128 + jj.val then v15 (ix2 jj q) else 0 :=
  pay2_apply i v4 v15 v18 p q
theorem pay3_apply4 (v27 : Vec Ideal S2000x1 .f32) (v29 : Vec Ideal S2000x64 .f32) (p : Fin 2000) (q : Fin 64) :
    k4_pay3 v27 v29 (ix2 p q) = v29 (ix2 p q) * v27 (ix2 p 0) := pay3_apply v27 v29 p q

end Cert.KernelIdeal.GatherVal

end
-- ==== Proof.Val.Final1.lean ====
/-
  The first gather region's result array at the extended reals. Grid point t is (m, k) = (t / 16, t % 16): edge tile m
  (edges 2000·m … 2000·m + 1999) against node block k (rows 3128·k … 3128·k + 3127 of the feature array). Along a tile's
  sixteen points the accumulator starts from zeros and adds each block's one-hot sum; the source word of an edge is the
  same at all sixteen, so after the last block the accumulator holds, for each edge, the feature row its word names (or
  zero), and the tile's last point scales each row by the edge's weight and writes the tile back. The 425 tiles fill the
  850000 rows of the message array.
-/
import proofs.«401039_j68436008894831_1_alg».proof.Proof.KI.R1
import proofs.«401039_j68436008894831_1_alg».proof.Proof.Val.KSpec
import proofs.«401039_j68436008894831_1_alg».proof.Proof.Val.Gather
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.GatherVal

open Cert.KernelIdeal Cert.KernelIdeal.Gen Cert.KernelIdeal.Hand
open Idealize.ShloMosaic Idealize.ShloMosaic.TcCoe Idealize.ShloMosaic.ValueIdx
open Idealize.ShloMosaic.Pipeline (Dat)

/-! ## The blocks of the four windows -/

/-- The printed index maps over the 6800 points (m, k) = (t / 16, t % 16): the two edge columns and the result move with
    the edge tile `m`, the feature array with the node block `k`. -/
theorem idx_facts1 : ∀ t : Fin cfg1.N, win1_0.index t (0 : Fin 2) = t.val / 16 ∧ win1_0.index t (1 : Fin 2) = 0
    ∧ win1_1.index t (0 : Fin 2) = t.val / 16 ∧ win1_1.index t (1 : Fin 2) = 0
    ∧ win1_2.index t (0 : Fin 2) = t.val % 16 ∧ win1_2.index t (1 : Fin 2) = 0
    ∧ win1_3.index t (0 : Fin 2) = t.val / 16 ∧ win1_3.index t (1 : Fin 2) = 0 :=
  (by decide +kernel : ∀ t : Fin grid1.N, _)

section
variable (V : (c : Dev nD) → (b : Ref sig .tc) → Buf (Elt Ideal) ((c : Thread nD τ).loc b))

/-- The three arrays the region reads, as it finds them: the edges' source words, the edges' weights, the node features. -/
abbrev sArr (c : Dev nD) : S850000x1.Idx → BitVec 32 := V c main_v31
abbrev nArr (c : Dev nD) : S850000x1.Idx → EReal := V c main_v33
abbrev hArr (c : Dev nD) : S50048x64.Idx → EReal := V c main_v34

/-- Edge `p` of the source column's tile at point `t` is edge `2000·(t / 16) + p` of the column. -/
theorem iblk1_0_apply (c : Dev nD) (t : Fin cfg1.N) (p : Fin 2000) (r : Fin 850000) (hr : r.val = t.val / 16 * 2000 + p.val) :
    (iblk1 (F := Ideal) V c 0 t : Vec Ideal S2000x1 .i32) (ix2 p 0) = sArr V c (ix2 r 0) := by
  obtain ⟨e0, e1, -⟩ := idx_facts1 t
  unfold iblk1
  rw [View.read_apply]
  show V c main_v31 _ = V c main_v31 _
  congr 1
  funext a
  apply Fin.ext
  match a with
  | ⟨0, _⟩ => show win1_0.index t (0 : Fin 2) * 2000 + 1 * p.val = r.val; rw [e0, hr]; omega
  | ⟨1, _⟩ => show win1_0.index t (1 : Fin 2) * 1 + 1 * 0 = 0; rw [e1]

/-- The weight column's tile likewise. -/
theorem iblk1_1_apply (c : Dev nD) (t : Fin cfg1.N) (p : Fin 2000) (r : Fin 850000) (hr : r.val = t.val / 16 * 2000 + p.val) :
    (iblk1 (F := Ideal) V c 1 t : Vec Ideal S2000x1 .f32) (ix2 p 0) = nArr V c (ix2 r 0) := by
  obtain ⟨-, -, e0, e1, -⟩ := idx_facts1 t
  unfold iblk1
  rw [View.read_apply]
  show V c main_v33 _ = V c main_v33 _
  congr 1
  funext a
  apply Fin.ext
  match a with
  | ⟨0, _⟩ => show win1_1.index t (0 : Fin 2) * 2000 + 1 * p.val = r.val; rw [e0, hr]; omega
  | ⟨1, _⟩ => show win1_1.index t (1 : Fin 2) * 1 + 1 * 0 = 0; rw [e1]

/-- Row `jj` of the node block at point `t` is row `3128·(t % 16) + jj` of the feature array. -/
theorem iblk1_2_apply (c : Dev nD) (t : Fin cfg1.N) (jj : Fin 3128) (q : Fin 64) (r : Fin 50048) (hr : r.val = t.val % 16 * 3128 + jj.val) :
    (iblk1 (F := Ideal) V c 2 t : Vec Ideal S3128x64 .f32) (ix2 jj q) = hArr V c (ix2 r q) := by
  obtain ⟨-, -, -, -, e0, e1, -⟩ := idx_facts1 t
  unfold iblk1
  rw [View.read_apply]
  show V c main_v34 _ = V c main_v34 _
  congr 1
  funext a
  apply Fin.ext
  match a with
  | ⟨0, _⟩ => show win1_2.index t (0 : Fin 2) * 3128 + 1 * jj.val = r.val; rw [e0, hr]; omega
  | ⟨1, _⟩ => show win1_2.index t (1 : Fin 2) * 64 + 1 * q.val = q.val; rw [e1]; omega

end

/-! ## The accumulator along an edge tile's sixteen points -/

section
variable (V : (c : Dev nD) → (b : Ref sig .tc) → Buf (Elt Ideal) ((c : Thread nD τ).loc b))

/-- The accumulator after position `n`, as a function of every natural number (zero past the grid). -/
def accT (c : Dev nD) (n : ℕ) : Vec Ideal S2000x64 .f32 :=
  if h : n < cfg1.N then (outsAt1 (F := Ideal) V c n h).2 else fun _ => 0

theorem accT_of_lt (c : Dev nD) (n : ℕ) (h : n < cfg1.N) : accT V c n = (outsAt1 (F := Ideal) V c n h).2 := dif_pos h

/-- At an edge tile's first point: zeros plus the one-hot sum over node block 0. -/
theorem accT_first (c : Dev nD) (n : ℕ) (hn : n < cfg1.N) (h0 : n % 16 = 0) (p : Fin 2000) (q : Fin 64)
    (r : Fin 850000) (hr : r.val = n / 16 * 2000 + p.val) (ρ : Fin 3128 → Fin 50048) (hρ : ∀ jj, (ρ jj).val = 0 * 3128 + jj.val) :
    accT V c n (ix2 p q)
      = 0 + ∑ jj : Fin 3128, if (sArr V c (ix2 r 0)).toNat = 0 * 3128 + jj.val
          then hArr V c (ix2 (ρ jj) q) else 0 := by
  have hin : (grid1.coords ⟨n, hn⟩ 1).val = 0 := (inner1 ⟨n, hn⟩).trans h0
  rw [accT_of_lt V c n hn, acc1_reset V c ⟨n, hn⟩ h0]
  refine (pay2_apply (grid1.coords ⟨n, hn⟩) (iblk1 (F := Ideal) V c 0 ⟨n, hn⟩) (iblk1 (F := Ideal) V c 2 ⟨n, hn⟩) (k1_pay1 (F := Ideal)) p q).trans ?_
  rw [pay1_apply p q, hin, iblk1_0_apply V c ⟨n, hn⟩ p r hr]
  refine congrArg (0 + ·) (Finset.sum_congr rfl fun jj _ => ?_)
  rw [iblk1_2_apply V c ⟨n, hn⟩ jj q (ρ jj) (by rw [hρ jj]; show 0 * 3128 + jj.val = n % 16 * 3128 + jj.val; rw [h0])]

/-- At a later point of the tile, node block `kk`: what the point before left plus the one-hot sum over block `kk`. -/
theorem accT_next (c : Dev nD) (n : ℕ) (hn : n + 1 < cfg1.N) (kk : ℕ) (hk : (n + 1) % 16 = kk) (hkk : kk ≠ 0) (p : Fin 2000) (q : Fin 64)
    (r : Fin 850000) (hr : r.val = (n + 1) / 16 * 2000 + p.val) (ρ : Fin 3128 → Fin 50048) (hρ : ∀ jj, (ρ jj).val = kk * 3128 + jj.val) :
    accT V c (n + 1) (ix2 p q)
      = accT V c n (ix2 p q) + ∑ jj : Fin 3128, if (sArr V c (ix2 r 0)).toNat = kk * 3128 + jj.val
          then hArr V c (ix2 (ρ jj) q) else 0 := by
  have hne : ¬ (n + 1) % 16 = 0 := by rw [hk]; exact hkk
  have hin : (grid1.coords ⟨n + 1, hn⟩ 1).val = kk := (inner1 ⟨n + 1, hn⟩).trans hk
  rw [accT_of_lt V c (n + 1) hn, acc1_step V c ⟨n + 1, hn⟩ hne, accT_of_lt V c n (Nat.lt_of_succ_lt hn)]
  refine (pay2_apply (grid1.coords ⟨n + 1, hn⟩) (iblk1 (F := Ideal) V c 0 ⟨n + 1, hn⟩) (iblk1 (F := Ideal) V c 2 ⟨n + 1, hn⟩)
    (outsAt1 (F := Ideal) V c n (Nat.lt_of_succ_lt hn)).2 p q).trans ?_
  rw [hin, iblk1_0_apply V c ⟨n + 1, hn⟩ p r hr]
  refine congrArg ((outsAt1 (F := Ideal) V c n (Nat.lt_of_succ_lt hn)).2 (ix2 p q) + ·) (Finset.sum_congr rfl fun jj _ => ?_)
  rw [iblk1_2_apply V c ⟨n + 1, hn⟩ jj q (ρ jj) (by rw [hρ jj]; show kk * 3128 + jj.val = (n + 1) % 16 * 3128 + jj.val; rw [hk])]

/-- Row `3128·(k % 16) + jj` of the feature array. -/
def rowAt (k : ℕ) (jj : Fin 3128) : Fin 50048 := ⟨k % 16 * 3128 + jj.val, by have := jj.isLt; have := Nat.mod_lt k (show 0 < 16 by decide); omega⟩

/-- What the output block holds at an edge tile's last point, entry (p, q): the row of the feature array that edge
    `2000·m + p`'s source word names (zero if it names none), times the edge's weight. -/
theorem out_last_apply (c : Dev nD) (t : Fin cfg1.N) (h15 : t.val % 16 = 15) (p : Fin 2000) (q : Fin 64)
    (r : Fin 850000) (hr : r.val = t.val / 16 * 2000 + p.val) :
    (outsAt1 (F := Ideal) V c t.val t.isLt).1 (ix2 p q)
      = Cert.KSpec.gat (sArr V c) (nArr V c) (hArr V c) (ix2 r q) := by
  have hN : cfg1.N = 6800 := N_1
  have ht := t.isLt
  rw [out1_last V c t h15]
  refine (pay3_apply (iblk1 (F := Ideal) V c 1 t) (outsAt1 (F := Ideal) V c t.val t.isLt).2 p q).trans ?_
  rw [iblk1_1_apply V c t p r hr]
  show _ = (∑ n : Fin 50048, if (sArr V c (ix2 r 0)).toNat = n.val
      then hArr V c (ix2 n q) else 0) * nArr V c (ix2 r 0)
  refine congrArg (· * nArr V c (ix2 r 0)) ?_
  rw [← accT_of_lt V c t.val t.isLt]
  obtain ⟨t0, ht0⟩ : ∃ t0, t.val = t0 + 15 := ⟨t.val - 15, by omega⟩
  rw [ht0]
  refine fold16 (sArr V c (ix2 r 0)).toNat (fun k => accT V c (t0 + k) (ix2 p q))
    (fun k jj => hArr V c (ix2 (rowAt k jj) q)) (fun n => hArr V c (ix2 n q)) ?_ ?_ ?_
  · exact accT_first V c t0 (by omega) (by omega) p q r (by rw [hr]; omega) (rowAt 0) (fun jj => rfl)
  · intro k hk
    exact accT_next V c (t0 + k) (by omega) (k + 1) (by omega) (by omega) p q r (by rw [hr]; omega) (rowAt (k + 1))
      (fun jj => by show (k + 1) % 16 * 3128 + jj.val = _; rw [Nat.mod_eq_of_lt hk])
  · intro k hk jj
    exact congrArg (fun n => hArr V c (ix2 n q)) (Fin.ext (by show k % 16 * 3128 + jj.val = _; rw [Nat.mod_eq_of_lt hk]))

end

/-! ## From the blocks to the array -/

section
variable (V : (c : Dev nD) → (b : Ref sig .tc) → Buf (Elt Ideal) ((c : Thread nD τ).loc b))

/-- What an edge tile's last point writes back is that tile of the gathered and scaled messages. -/
theorem flushed1_eq (c : Dev nD) (t : Fin cfg1.N) (hf : (cfg1.win 3).flush t = true) :
    (dat1 (F := Ideal) V c).flushed 3 t
      = ((cfg1.win 3).blk t).view.read (Elt Ideal)
          (Cert.KSpec.gat (sArr V c) (nArr V c) (hArr V c)) := by
  have h15 : t.val % 16 = 15 := (flush1_3 t).mp hf
  have hN : cfg1.N = 6800 := N_1
  have ht := t.isLt
  show (cfg1.win 3).cut (grid1.coords t) ((dat1 (F := Ideal) V c).after 3 t) = _
  rw [after1_3]
  obtain ⟨-, -, -, -, -, -, e0, e1⟩ := idx_facts1 t
  funext j
  obtain ⟨p, q, rfl⟩ : ∃ (p : Fin 2000) (q : Fin 64), j = ix2 p q := ⟨j 0, j 1, eq_ix2 j⟩
  have hr : t.val / 16 * 2000 + p.val < 850000 := by have := p.isLt; omega
  refine (out_last_apply V c t h15 p q ⟨t.val / 16 * 2000 + p.val, hr⟩ rfl).trans ?_
  rw [View.read_apply]
  have hemb : ((cfg1.win 3).blk t).view.emb (ix2 p q) = (ix2 (⟨t.val / 16 * 2000 + p.val, hr⟩ : Fin 850000) q : S850000x64.Idx) := by
    funext a
    apply Fin.ext
    match a with
    | ⟨0, _⟩ => show win1_3.index t (0 : Fin 2) * 2000 + 1 * p.val = t.val / 16 * 2000 + p.val; rw [e0]; omega
    | ⟨1, _⟩ => show win1_3.index t (1 : Fin 2) * 64 + 1 * q.val = q.val; rw [e1]; omega
  rw [hemb]
  rfl

/-- An entry of the message array lies in point t's block iff each coordinate is in the block's range on its axis. -/
theorem mem_blk1 (t : Fin cfg1.N) (i : S850000x64.Idx) :
    i ∈ ((cfg1.win 3).blk t).view.set ↔ ∀ a : Fin 2, win1_3.index t a * S2000x64.size a ≤ (i a).val ∧ (i a).val < win1_3.index t a * S2000x64.size a + S2000x64.size a := by
  show i ∈ ((View.whole main_v35).slice (win1_3.rect t)).set ↔ _
  rw [View.set_slice_whole, Rect.mem_set_unit]
  exact Iff.rfl

/-- Edge e's row is written back by the last point of edge tile e / 2000: the 425 tiles of 2000 edges fill the 850000 rows. -/
theorem cover1 (i : S850000x64.Idx) : ∃ t : Fin cfg1.N, (cfg1.win 3).flush t = true ∧ i ∈ ((cfg1.win 3).blk t).view.set := by
  have hi0 : (i 0).val < 850000 := (i 0).isLt
  have hi1 : (i 1).val < 64 := (i 1).isLt
  have hN : cfg1.N = 6800 := N_1
  let t : Fin cfg1.N := ⟨(i 0).val / 2000 * 16 + 15, by rw [hN]; omega⟩
  obtain ⟨-, -, -, -, -, -, e0, e1⟩ := idx_facts1 t
  have ht : t.val = (i 0).val / 2000 * 16 + 15 := rfl
  refine ⟨t, (flush1_3 t).mpr (by rw [ht]; omega), ?_⟩
  rw [mem_blk1]
  intro a
  match a with
  | ⟨0, _⟩ => show win1_3.index t (0 : Fin 2) * 2000 ≤ (i 0).val ∧ (i 0).val < win1_3.index t (0 : Fin 2) * 2000 + 2000; rw [e0, ht]; omega
  | ⟨1, _⟩ => show win1_3.index t (1 : Fin 2) * 64 ≤ (i 1).val ∧ (i 1).val < win1_3.index t (1 : Fin 2) * 64 + 64; rw [e1]; omega

/-- The message array of the first gather region after its run: each edge's source row of the feature array, times the edge's weight. -/
theorem final1 (c : Dev nD) :
    ((dat1 (F := Ideal) V c).arrAt 3 cfg1.N : S850000x64.Idx → EReal)
      = Cert.KSpec.gat (sArr V c) (nArr V c) (hArr V c) :=
  (dat1 (F := Ideal) V c).arrAt_eq_of_cover 3
    (Cert.KSpec.gat (sArr V c) (nArr V c) (hArr V c))
    (fun t hf => flushed1_eq V c t hf) cover1

end

end Cert.KernelIdeal.GatherVal

end
-- ==== Proof.Val.Scatter.lean ====
/-
  The scatter regions' arithmetic, read at one entry of a node block, at the ideal values.

  A scatter region sums, for every node n, the messages of the edges whose destination word is n. Its grid walks the
  16 node blocks of 3128 rows and, inside each, the 425 edge tiles of 2000 edges. At a grid point the body builds the
  0/1 matrix "row p of this node block is edge ee's destination" — the 32-bit test (row counter = destination word −
  block number · 3128) widened and converted — and multiplies it into the tile of messages on the matrix unit, adding
  the product into a carried block that was zeroed at the block's first tile; at the last tile the bias row is added
  and tanh applied. Here: the zero block (pay1_apply); the accumulate step at (p, q) as the carried value plus the sum
  over the tile's edges that land on node (block number)·3128 + p (pay2_apply; the 32-bit test is that equation of
  naturals because both sides stay below 2^32, word_eq_iff); the finishing step (pay3_apply); and the fold over the
  425 tiles as ONE sum over all 850000 edges (fold_tiles, acc_total: tile m, edge ee is edge m·2000 + ee). Extended
  reals add and multiply commutatively and associatively, 0 · x = 0 and 0 + x = x for every x, so no finiteness is
  used. The second scatter region runs the same three terms (k5_pay1_eq, k5_pay2_eq, k5_pay3_eq).
-/
import proofs.«401039_j68436008894831_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.ScatterVal

open Cert.KernelIdeal Cert.KernelIdeal.Gen Idealize.ShloMosaic Idealize.ShloMosaic.ValueIdx

/-- The reset payload is the zero block. -/
theorem pay1_apply (p : Fin 3128) (q : Fin 64) : (k2_pay1 (F := Ideal)) (ix2 p q) = 0 := by
  unfold k2_pay1
  rw [shapeCast_self]
  exact Ideal.ofBits_zero_f32

/-- The finishing payload: the bias row added, then tanh. -/
theorem pay3_apply (s : Vec Ideal S3128x64 .f32) (b : Vec Ideal S64 .f32) (p : Fin 3128) (q : Fin 64) :
    k2_pay3 s b (ix2 p q) = Ideal.tanh (s (ix2 p q) + b (ix1 q)) := by
  unfold k2_pay3
  show Ideal.tanh (s (ix2 p q) + broadcastTo S3128x64 (shapeCast S1x64 b shapeCasts_S64_S1x64) broadcasts_S1x64_S3128x64 (ix2 p q)) = _
  rw [broadcastTo_1b_ab_apply, shapeCast_a_1a_apply]

/-- 32-bit arithmetic of the one-hot test: row p of node block nb is hit by word w exactly when w names node nb*3128+p. -/
theorem word_eq_iff (nb p : ℕ) (hnb : nb < 16) (hp : p < 3128) (w : BitVec 32) :
    (BitVec.ofNat 32 p = w - BitVec.ofNat 32 nb * 3128#32) ↔ w.toNat = nb * 3128 + p := by
  constructor
  · intro h
    have := congrArg BitVec.toNat h
    simp only [BitVec.toNat_ofNat, BitVec.toNat_sub, BitVec.toNat_mul] at this
    omega
  · intro h
    apply BitVec.eq_of_toNat_eq
    simp only [BitVec.toNat_ofNat, BitVec.toNat_sub, BitVec.toNat_mul]
    omega

/-- The matrix unit's record of the scatter product: [3128,2000] times [2000,64]. -/
abbrev DS := dot_S3128x2000_S2000x64_S3128x64_1_0_0_1_n_n

theorem lidx (p : Fin 3128) (q : Fin 64) (ee : Fin 2000) :
    DS.lhsIdx (ix2 p q) ((contrEquiv1 DS 2000 rfl rfl).symm ee) = ix2 p ee := by
  have c2 := contrEquiv1_symm_val DS 2000 rfl rfl ee
  funext ax; apply Fin.ext
  match ax with
  | ⟨0, _⟩ => simp [DotDims.lhsIdx, DS, dot_S3128x2000_S2000x64_S3128x64_1_0_0_1_n_n]; rfl
  | ⟨1, _⟩ => simp [DotDims.lhsIdx, DS, dot_S3128x2000_S2000x64_S3128x64_1_0_0_1_n_n]; exact c2

theorem ridx (p : Fin 3128) (q : Fin 64) (ee : Fin 2000) :
    DS.rhsIdx (ix2 p q) ((contrEquiv1 DS 2000 rfl rfl).symm ee) = ix2 ee q := by
  have c2 := contrEquiv1_symm_val DS 2000 rfl rfl ee
  funext ax; apply Fin.ext
  match ax with
  | ⟨0, _⟩ => simp [DotDims.rhsIdx, DS, dot_S3128x2000_S2000x64_S3128x64_1_0_0_1_n_n]; exact c2
  | ⟨1, _⟩ => simp [DotDims.rhsIdx, DS, dot_S3128x2000_S2000x64_S3128x64_1_0_0_1_n_n]; rfl

/-- A 32-bit equality test, widened and read as a number, is 1 where the words agree and 0 elsewhere. -/
theorem hot_word (x y : BitVec 32) :
    ((((IntOp.cmpi .eq x y).setWidth 32).toInt : ℝ) : EReal) = if x = y then 1 else 0 := by
  unfold IntOp.cmpi
  by_cases h : x = y
  · rw [if_pos h]
    have hb : (x == y) = true := by simpa using h
    have h1 : (BitVec.setWidth 32 (BitVec.ofBool (x == y))).toInt = 1 := by rw [hb]; decide
    rw [h1]; norm_num
  · rw [if_neg h]
    have hb : (x == y) = false := by simpa using h
    have h0 : (BitVec.setWidth 32 (BitVec.ofBool (x == y))).toInt = 0 := by rw [hb]; decide
    rw [h0]; norm_num

/-- The row counter of the one-hot matrix at (p, ee) is the word p. -/
theorem iota_apply (p : Fin 3128) (ee : Fin 2000) :
    iota .tc S3128x2000 32 [0] iota_S3128x2000_d0_w32 (ix2 p ee) = BitVec.ofNat 32 p.val := by
  show BitVec.ofNat 32 (0 * 3128 + p.val) = _
  rw [Nat.zero_mul, Nat.zero_add]

/-- The destination column as a flat vector. -/
theorem dcol_flat (d : Vec Ideal S2000x1 .i32) (ee : Fin 2000) :
    shapeCast S2000 d shapeCasts_S2000x1_S2000 (ix1 ee) = d (ix2 ee (0 : Fin 1)) :=
  shapeCast_apply d shapeCasts_S2000x1_S2000 (ix1 ee) (ix2 ee (0 : Fin 1)) (by
    rw [Shape.rowMajor_val_two, Shape.rowMajor_val_one]
    show ee.val * 1 + 0 = ee.val
    omega)

/-- The one-hot matrix of the scatter at (p, ee): 1 where the edge's word, less the block's base, is the row. -/
theorem onehot_apply (a0 : BitVec 32) (d : Vec Ideal S2000x1 .i32) (p : Fin 3128) (ee : Fin 2000) :
    (truncf .bf16 (sitofp (F := Ideal) .f32 (extui 32 (cmpi .eq (iota .tc S3128x2000 32 [0] iota_S3128x2000_d0_w32)
      (broadcastTo S3128x2000 (shapeCast S1x2000 (subi (shapeCast S2000 d shapeCasts_S2000x1_S2000) (broadcast S2000 a0))
        shapeCasts_S2000_S1x2000) broadcasts_S1x2000_S3128x2000)) natLt_1_32)) bitsLt_bf16_f32 : FVec Ideal S3128x2000 .bf16) (ix2 p ee)
    = if BitVec.ofNat 32 p.val = d (ix2 ee (0 : Fin 1)) - a0 then 1 else 0 := by
  show ((((IntOp.cmpi .eq (iota .tc S3128x2000 32 [0] iota_S3128x2000_d0_w32 (ix2 p ee))
    (broadcastTo S3128x2000 (shapeCast S1x2000 (subi (shapeCast S2000 d shapeCasts_S2000x1_S2000) (broadcast S2000 a0))
        shapeCasts_S2000_S1x2000) broadcasts_S1x2000_S3128x2000 (ix2 p ee))).setWidth 32).toInt : ℝ) : EReal) = _
  rw [broadcastTo_1b_ab_apply, shapeCast_a_1a_apply, iota_apply, hot_word]
  show (if BitVec.ofNat 32 p.val = shapeCast S2000 d shapeCasts_S2000x1_S2000 (ix1 ee) - a0 then (1 : EReal) else 0) = _
  rw [dcol_flat]

/-- The accumulate step at (p, q): the carried value plus the messages of this tile's edges that land on row p of node block (i 0). -/
theorem pay2_apply (i : grid2.Coords) (d : Vec Ideal S2000x1 .i32) (mt : Vec Ideal S2000x64 .f32) (s : Vec Ideal S3128x64 .f32)
    (p : Fin 3128) (q : Fin 64) :
    k2_pay2 i d mt s (ix2 p q)
      = s (ix2 p q) + ∑ ee : Fin 2000, if (d (ix2 ee (0 : Fin 1))).toNat = (i 0).val * 3128 + p.val then mt (ix2 ee q) else 0 := by
  have hi : (i 0).val < 16 := (i 0).isLt
  unfold k2_pay2
  dsimp only
  refine (congrFun (shapeCast_self _ _) (ix2 p q)).trans ?_
  refine congrArg (s (ix2 p q) + ·) ?_
  refine (Ideal.matmul_constant_zero_apply DS none _ _ (ix2 p q)).trans ?_
  rw [← Equiv.sum_comp (contrEquiv1 DS 2000 rfl rfl).symm]
  refine Finset.sum_congr rfl fun ee _ => ?_
  rw [lidx, ridx]
  refine (congrArg₂ (· * ·) (onehot_apply _ d p ee)
    (show (truncf .bf16 (shapeCast S2000x64 mt shapeCasts_S2000x64_S2000x64) bitsLt_bf16_f32 : FVec Ideal S2000x64 .bf16) (ix2 ee q) = mt (ix2 ee q) from
      congrFun (shapeCast_self mt _) (ix2 ee q))).trans ?_
  show (if BitVec.ofNat 32 p.val = d (ix2 ee (0 : Fin 1)) - BitVec.ofNat 32 (i 0).val * 3128#32 then (1 : EReal) else 0) * mt (ix2 ee q) = _
  by_cases h : (d (ix2 ee (0 : Fin 1))).toNat = (i 0).val * 3128 + p.val
  · rw [if_pos h, if_pos ((word_eq_iff _ _ hi p.isLt _).mpr h), one_mul]
  · rw [if_neg h, if_neg (fun h' => h ((word_eq_iff _ _ hi p.isLt _).mp h')), zero_mul]

/-! ## The second scatter region runs the same three payloads -/

theorem k5_pay1_eq : (k5_pay1 (F := Ideal)) = k2_pay1 := by unfold k5_pay1 k2_pay1; rfl
theorem k5_pay2_eq (i : grid5.Coords) (d : Vec Ideal S2000x1 .i32) (mt : Vec Ideal S2000x64 .f32) (s : Vec Ideal S3128x64 .f32) :
    k5_pay2 i d mt s = k2_pay2 i d mt s := by unfold k5_pay2 k2_pay2; rfl
theorem k5_pay3_eq (s : Vec Ideal S3128x64 .f32) (b : Vec Ideal S64 .f32) : k5_pay3 s b = k2_pay3 s b := by
  unfold k5_pay3 k2_pay3; rfl

/-- The second scatter region's three payloads at an entry. -/
theorem pay1_apply5 (p : Fin 3128) (q : Fin 64) : (k5_pay1 (F := Ideal)) (ix2 p q) = 0 :=
  (congrFun k5_pay1_eq (ix2 p q)).trans (pay1_apply p q)
theorem pay2_apply5 (i : grid5.Coords) (d : Vec Ideal S2000x1 .i32) (mt : Vec Ideal S2000x64 .f32) (s : Vec Ideal S3128x64 .f32)
    (p : Fin 3128) (q : Fin 64) :
    k5_pay2 i d mt s (ix2 p q)
      = s (ix2 p q) + ∑ ee : Fin 2000, if (d (ix2 ee (0 : Fin 1))).toNat = (i 0).val * 3128 + p.val then mt (ix2 ee q) else 0 :=
  (congrFun (k5_pay2_eq i d mt s) (ix2 p q)).trans (pay2_apply i d mt s p q)
theorem pay3_apply5 (s : Vec Ideal S3128x64 .f32) (b : Vec Ideal S64 .f32) (p : Fin 3128) (q : Fin 64) :
    k5_pay3 s b (ix2 p q) = Ideal.tanh (s (ix2 p q) + b (ix1 q)) :=
  (congrFun (k5_pay3_eq s b) (ix2 p q)).trans (pay3_apply s b p q)

/-! ## The 425 edge tiles of 2000 edges are the 850000 edges -/

/-- Tile m, edge ee inside it, is edge m*2000+ee. -/
def tileEquiv : Fin 425 × Fin 2000 ≃ Fin 850000 :=
  finProdFinEquiv.trans (finCongr (by norm_num))

theorem tileEquiv_val (m : Fin 425) (ee : Fin 2000) : (tileEquiv (m, ee)).val = m.val * 2000 + ee.val := by
  show ee.val + 2000 * m.val = _
  omega

/-- A sum over all edges is the sum over the tiles of the sums inside each tile. -/
theorem sum_tiles (f : Fin 850000 → EReal) :
    ∑ e, f e = ∑ m : Fin 425, ∑ ee : Fin 2000, f ⟨m.val * 2000 + ee.val, by have := m.isLt; have := ee.isLt; omega⟩ := by
  rw [← Equiv.sum_comp tileEquiv f, Fintype.sum_prod_type]
  exact Finset.sum_congr rfl fun m _ => Finset.sum_congr rfl fun ee _ => congrArg f (Fin.ext (tileEquiv_val m ee))

/-- A value that starts at zero plus tile 0's sum and gains tile m's sum at step m holds, after the last tile, the sum
    over every edge. -/
theorem fold_tiles (f : Fin 850000 → EReal) (g : ℕ → Fin 2000 → EReal)
    (hg : ∀ m (hm : m < 425) (ee : Fin 2000), g m ee = f ⟨m * 2000 + ee.val, by have := ee.isLt; omega⟩)
    (a : ℕ → EReal) (h0 : a 0 = 0 + ∑ ee, g 0 ee) (hs : ∀ m, m + 1 < 425 → a (m + 1) = a m + ∑ ee, g (m + 1) ee) :
    a 424 = ∑ e, f e := by
  have hk : ∀ M, M < 425 → a M = ∑ m ∈ Finset.range (M + 1), ∑ ee, g m ee := by
    intro M
    induction M with
    | zero => intro _; rw [h0, zero_add, Finset.sum_range_one]
    | succ M ih => intro hM; rw [hs M hM, ih (by omega), Finset.sum_range_succ (fun m => ∑ ee, g m ee) (M + 1)]
  rw [hk 424 (by norm_num), sum_tiles, ← Fin.sum_univ_eq_sum_range (fun m => ∑ ee, g m ee) 425]
  exact Finset.sum_congr rfl fun m _ => Finset.sum_congr rfl fun ee _ => hg m.val m.isLt ee

/-- The scratch block of node block nb after the last edge tile: at (p, q) the sum, over every edge whose destination
    word names node nb*3128+p, of the edge's message at q. The tiles' destination words and messages are rows
    m*2000+ee of the whole column and the whole message array. -/
theorem acc_total (nb : ℕ) (dfull : (⟨2, ![850000, 1]⟩ : Shape).Idx → BitVec 32)
    (mfull : (⟨2, ![850000, 64]⟩ : Shape).Idx → EReal)
    (dt : ℕ → Vec Ideal S2000x1 .i32) (mt : ℕ → Vec Ideal S2000x64 .f32)
    (hd : ∀ m (hm : m < 425) (ee : Fin 2000),
      dt m (ix2 ee (0 : Fin 1)) = dfull (ix2 (⟨m * 2000 + ee.val, by have := ee.isLt; omega⟩ : Fin 850000) (0 : Fin 1)))
    (hmt : ∀ m (hm : m < 425) (ee : Fin 2000) (q : Fin 64),
      mt m (ix2 ee q) = mfull (ix2 (⟨m * 2000 + ee.val, by have := ee.isLt; omega⟩ : Fin 850000) q))
    (acc : ℕ → Vec Ideal S3128x64 .f32)
    (h0 : ∀ (p : Fin 3128) (q : Fin 64), acc 0 (ix2 p q)
      = 0 + ∑ ee : Fin 2000, if (dt 0 (ix2 ee (0 : Fin 1))).toNat = nb * 3128 + p.val then mt 0 (ix2 ee q) else 0)
    (hs : ∀ m, m + 1 < 425 → ∀ (p : Fin 3128) (q : Fin 64), acc (m + 1) (ix2 p q)
      = acc m (ix2 p q) + ∑ ee : Fin 2000, if (dt (m + 1) (ix2 ee (0 : Fin 1))).toNat = nb * 3128 + p.val then mt (m + 1) (ix2 ee q) else 0)
    (p : Fin 3128) (q : Fin 64) :
    acc 424 (ix2 p q)
      = ∑ e : Fin 850000, if (dfull (ix2 e (0 : Fin 1))).toNat = nb * 3128 + p.val then mfull (ix2 e q) else 0 :=
  fold_tiles (fun e => if (dfull (ix2 e (0 : Fin 1))).toNat = nb * 3128 + p.val then mfull (ix2 e q) else 0)
    (fun m ee => if (dt m (ix2 ee (0 : Fin 1))).toNat = nb * 3128 + p.val then mt m (ix2 ee q) else 0)
    (fun m hm ee => by rw [hd m hm ee, hmt m hm ee q])
    (fun m => acc m (ix2 p q)) (h0 p q) (fun m hm => hs m hm p q)

end Cert.KernelIdeal.ScatterVal

end
-- ==== Proof.Val.Final2.lean ====
/-
  The value of the first scatter region at the ideal instance: the result array after the run is, at node n and
  feature q, tanh of (the sum over all 850000 edges whose destination word is n of the edge's message at q, plus the
  bias at q).

  Grid point t is edge tile t mod 425 of node block t / 425. Its destination words and messages are edges
  (t mod 425)·2000 … + 1999 of the whole destination column and message array; its bias block is the whole bias row;
  its result block is rows (t / 425)·3128 … + 3127 of the result. The carried block restarts from zero at a node
  block's first edge tile and gains one tile's one-hot product per point, so after the node block's last tile it holds
  the sum over every edge (Scatter.lean: the step at an entry, and the 425 tiles of 2000 edges re-indexed as the
  850000 edges); that point alone writes its block back, and the 16 blocks so written fill the 50048 rows.
-/
import proofs.«401039_j68436008894831_1_alg».proof.Proof.KI.R2
import proofs.«401039_j68436008894831_1_alg».proof.Proof.Val.KSpec
import proofs.«401039_j68436008894831_1_alg».proof.Proof.Val.Scatter
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.ScatterVal2

open Cert.KernelIdeal Cert.KernelIdeal.Gen Cert.KernelIdeal.Hand Cert.KernelIdeal.ScatterVal
open Idealize.ShloMosaic Idealize.ShloMosaic.TcCoe Idealize.ShloMosaic.ValueIdx
open Idealize.ShloMosaic.Pipeline (Dat)
open Idealize.SL Idealize.SL.RA Idealize.SL.BI Idealize.SL.Sem

/-! ## The blocks of the four windows -/

theorem hz2 : (![0, 0] : Fin 2 → Nat) = fun _ => 0 := funext fun a => by fin_cases a <;> rfl

/-- The printed index maps over the 6800 points: the destination words' and the messages' tile is the inner coordinate
    (the point's number mod 425), the bias is always its one block, the result's node block is the outer coordinate
    (the point's number over 425). -/
theorem idx_facts2 : ∀ t : Fin cfg2.N, win2_0.index t (0 : Fin 2) = t.val % 425 ∧ win2_0.index t (1 : Fin 2) = 0
    ∧ win2_1.index t (0 : Fin 2) = t.val % 425 ∧ win2_1.index t (1 : Fin 2) = 0
    ∧ win2_2.index t (0 : Fin 1) = 0
    ∧ win2_3.index t (0 : Fin 2) = t.val / 425 ∧ win2_3.index t (1 : Fin 2) = 0 :=
  (by decide +kernel : ∀ t : Fin grid2.N, _)

/-- The outer coordinate of the t-th grid point is t / 425. -/
theorem outer2 (t : Fin cfg2.N) : ((grid2.coords t) 0).val = t.val / 425 := by
  have ht : t.val < 6800 := by have h1 := t.isLt; have hN : cfg2.N = 6800 := N_2; omega
  show t.val / grid2.stride 0 % 16 = t.val / 425
  rw [show grid2.stride 0 = 425 from by decide]
  omega

section
variable (V : (c : Dev nD) → (b : Ref sig .tc) → Buf (Elt Ideal) ((c : Thread nD τ).loc b))

/-- The destination column, the message array and the bias row as the region finds them, at their literal types. -/
abbrev dArr (c : Dev nD) : S850000x1.Idx → BitVec 32 := V c main_v32
abbrev mArr (c : Dev nD) : S850000x64.Idx → EReal := V c main_v35
abbrev bArr (c : Dev nD) : S64.Idx → EReal := V c main_arg3

/-- Edge ee of the destination tile at point t is edge (t mod 425)·2000 + ee of the whole destination column. -/
theorem iblk2_0_apply (c : Dev nD) (t : Fin cfg2.N) (ee : Fin 2000) (e : Fin 850000) (he : e.val = t.val % 425 * 2000 + ee.val) :
    (iblk2 (F := Ideal) V c 0 t : Vec Ideal S2000x1 .i32) (ix2 ee (0 : Fin 1)) = dArr V c (ix2 e (0 : Fin 1)) := by
  obtain ⟨e0, e1, -⟩ := idx_facts2 t
  unfold iblk2
  rw [View.read_apply]
  show V c main_v32 _ = V c main_v32 _
  congr 1
  funext a
  apply Fin.ext
  match a with
  | ⟨0, _⟩ => show win2_0.index t (0 : Fin 2) * 2000 + 1 * ee.val = e.val; rw [e0, he]; omega
  | ⟨1, _⟩ => show win2_0.index t (1 : Fin 2) * 1 + 1 * 0 = 0; rw [e1]

/-- Edge ee of the message tile at point t is edge (t mod 425)·2000 + ee of the whole message array. -/
theorem iblk2_1_apply (c : Dev nD) (t : Fin cfg2.N) (ee : Fin 2000) (q : Fin 64) (e : Fin 850000) (he : e.val = t.val % 425 * 2000 + ee.val) :
    (iblk2 (F := Ideal) V c 1 t : Vec Ideal S2000x64 .f32) (ix2 ee q) = mArr V c (ix2 e q) := by
  obtain ⟨-, -, e0, e1, -⟩ := idx_facts2 t
  unfold iblk2
  rw [View.read_apply]
  show V c main_v35 _ = V c main_v35 _
  congr 1
  funext a
  apply Fin.ext
  match a with
  | ⟨0, _⟩ => show win2_1.index t (0 : Fin 2) * 2000 + 1 * ee.val = e.val; rw [e0, he]; omega
  | ⟨1, _⟩ => show win2_1.index t (1 : Fin 2) * 64 + 1 * q.val = q.val; rw [e1]; omega

/-- The bias block is the whole bias row at every point. -/
theorem iblk2_2_apply (c : Dev nD) (t : Fin cfg2.N) (q : Fin 64) :
    (iblk2 (F := Ideal) V c 2 t : Vec Ideal S64 .f32) (ix1 q) = bArr V c (ix1 q) := by
  obtain ⟨-, -, -, -, e0, -⟩ := idx_facts2 t
  unfold iblk2
  rw [View.read_apply]
  show V c main_arg3 _ = V c main_arg3 _
  congr 1
  funext a
  apply Fin.ext
  match a with
  | ⟨0, _⟩ => show win2_2.index t (0 : Fin 1) * 64 + 1 * q.val = q.val; rw [e0]; omega

end

/-! ## The carried block after a node block's last edge tile -/

section
variable (V : (c : Dev nD) → (b : Ref sig .tc) → Buf (Elt Ideal) ((c : Thread nD τ).loc b))

/-- One accumulate step at point t (edge tile m of node block n), at (p, q), over the whole arrays: the carried value
    plus the messages of the tile's edges, edges m·2000 … m·2000 + 1999 of the edge list, whose destination is node
    n·3128 + p. -/
theorem tile_term (c : Dev nD) (t : Fin cfg2.N) (n m : ℕ) (hm : t.val % 425 = m) (hn : t.val / 425 = n) (hm' : m < 425)
    (s : Vec Ideal S3128x64 .f32) (p : Fin 3128) (q : Fin 64) :
    k2_pay2 (grid2.coords t) (iblk2 (F := Ideal) V c 0 t) (iblk2 (F := Ideal) V c 1 t) s (ix2 p q)
      = s (ix2 p q) + ∑ ee : Fin 2000,
          if (dArr V c (ix2 (⟨m * 2000 + ee.val, by have := ee.isLt; omega⟩ : Fin 850000) (0 : Fin 1))).toNat
              = n * 3128 + p.val
          then mArr V c (ix2 (⟨m * 2000 + ee.val, by have := ee.isLt; omega⟩ : Fin 850000) q) else 0 := by
  refine (pay2_apply (grid2.coords t) (iblk2 (F := Ideal) V c 0 t) (iblk2 (F := Ideal) V c 1 t) s p q).trans ?_
  rw [outer2, hn]
  refine congrArg (s (ix2 p q) + ·) (Finset.sum_congr rfl fun ee _ => ?_)
  rw [iblk2_0_apply V c t ee ⟨m * 2000 + ee.val, by have := ee.isLt; omega⟩ (by show m * 2000 + ee.val = t.val % 425 * 2000 + ee.val; rw [hm]),
    iblk2_1_apply V c t ee q ⟨m * 2000 + ee.val, by have := ee.isLt; omega⟩ (by show m * 2000 + ee.val = t.val % 425 * 2000 + ee.val; rw [hm])]

/-- A carried block that restarts from zero at each node block's first edge tile and takes one accumulate step per
    point holds, after the node block's last edge tile, at (p, q) the sum over ALL edges whose destination is node
    (block number)·3128 + p of the edge's message at q. -/
theorem acc_final (c : Dev nD) (acc : (n : ℕ) → n < cfg2.N → Vec Ideal S3128x64 .f32)
    (hfirst : ∀ t : Fin cfg2.N, t.val % 425 = 0 →
      acc t.val t.isLt = k2_pay2 (grid2.coords t) (iblk2 (F := Ideal) V c 0 t) (iblk2 (F := Ideal) V c 1 t) (k2_pay1 (F := Ideal)))
    (hnext : ∀ t : Fin cfg2.N, ¬t.val % 425 = 0 →
      acc t.val t.isLt = k2_pay2 (grid2.coords t) (iblk2 (F := Ideal) V c 0 t) (iblk2 (F := Ideal) V c 1 t)
        (acc (t.val - 1) (Nat.lt_of_le_of_lt (Nat.sub_le _ _) t.isLt)))
    (t : Fin cfg2.N) (h424 : t.val % 425 = 424) (p : Fin 3128) (q : Fin 64) :
    acc t.val t.isLt (ix2 p q)
      = ∑ e : Fin 850000, if (dArr V c (ix2 e (0 : Fin 1))).toNat = t.val / 425 * 3128 + p.val
          then mArr V c (ix2 e q) else 0 := by
  have hN : cfg2.N = 6800 := N_2
  have ht : t.val < 6800 := by have := t.isLt; omega
  obtain ⟨n, hn⟩ : ∃ n, t.val / 425 = n := ⟨_, rfl⟩
  rw [hn]
  have hn16 : n < 16 := by omega
  have hb : ∀ m, m < 425 → n * 425 + m < cfg2.N := fun m hm => by rw [hN]; omega
  have acc_congr : ∀ (x y : ℕ) (hx : x < cfg2.N) (hy : y < cfg2.N), x = y → acc x hx = acc y hy := by
    intro x y hx hy h; subst h; rfl
  have key := fold_tiles
    (fun e : Fin 850000 => if (dArr V c (ix2 e (0 : Fin 1))).toNat = n * 3128 + p.val
      then mArr V c (ix2 e q) else 0)
    (fun m ee => if h : m < 425 then
        (if (dArr V c (ix2 (⟨m * 2000 + ee.val, by have := ee.isLt; omega⟩ : Fin 850000) (0 : Fin 1))).toNat = n * 3128 + p.val
          then mArr V c (ix2 (⟨m * 2000 + ee.val, by have := ee.isLt; omega⟩ : Fin 850000) q) else 0)
      else 0)
    (fun m hm ee => dif_pos hm)
    (fun m => if h : m < 425 then acc (n * 425 + m) (hb m h) (ix2 p q) else 0)
    (by
      rw [dif_pos (show 0 < 425 by norm_num)]
      simp only [dif_pos (show 0 < 425 by norm_num)]
      have h1 := congrFun (hfirst ⟨n * 425 + 0, hb 0 (by norm_num)⟩ (by show (n * 425 + 0) % 425 = 0; omega)) (ix2 p q)
      refine h1.trans ((tile_term V c ⟨n * 425 + 0, hb 0 (by norm_num)⟩ n 0 (by show (n * 425 + 0) % 425 = 0; omega)
        (by show (n * 425 + 0) / 425 = n; omega) (by norm_num) _ p q).trans ?_)
      rw [pay1_apply])
    (by
      intro m hm
      rw [dif_pos hm, dif_pos (show m < 425 by omega)]
      simp only [dif_pos hm]
      have h1 := congrFun (hnext ⟨n * 425 + (m + 1), hb (m + 1) hm⟩ (by show ¬(n * 425 + (m + 1)) % 425 = 0; omega)) (ix2 p q)
      refine h1.trans ((tile_term V c ⟨n * 425 + (m + 1), hb (m + 1) hm⟩ n (m + 1) (by show (n * 425 + (m + 1)) % 425 = m + 1; omega)
        (by show (n * 425 + (m + 1)) / 425 = n; omega) hm _ p q).trans ?_)
      exact congrArg (· + _) (congrFun (acc_congr _ _ _ _ (by show n * 425 + (m + 1) - 1 = n * 425 + m; omega)) (ix2 p q)))
  rw [dif_pos (show 424 < 425 by norm_num)] at key
  exact (congrFun (acc_congr _ _ t.isLt (hb 424 (by norm_num)) (by omega)) (ix2 p q)).trans key

end

/-! ## From the blocks to the array -/

/-- An entry of the result array lies in point t's block iff each coordinate is in the block's range on its axis. -/
theorem mem_blk2 (t : Fin cfg2.N) (i : S50048x64.Idx) :
    i ∈ ((cfg2.win 3).blk t).view.set ↔ ∀ a : Fin 2, win2_3.index t a * S3128x64.size a ≤ (i a).val ∧ (i a).val < win2_3.index t a * S3128x64.size a + S3128x64.size a := by
  show i ∈ ((View.whole main_v36).slice (win2_3.rect t)).set ↔ _
  rw [View.set_slice_whole, Rect.mem_set_unit]
  exact Iff.rfl

/-- Row r of the result is written back by the last edge tile of node block r / 3128: the 16 node blocks of 3128 rows
    fill the 50048 rows. -/
theorem cover2 (i : S50048x64.Idx) : ∃ t : Fin cfg2.N, (cfg2.win 3).flush t = true ∧ i ∈ ((cfg2.win 3).blk t).view.set := by
  have hi0 : (i 0).val < 50048 := (i 0).isLt
  have hi1 : (i 1).val < 64 := (i 1).isLt
  have hN : cfg2.N = 6800 := N_2
  let t : Fin cfg2.N := ⟨(i 0).val / 3128 * 425 + 424, by rw [hN]; omega⟩
  obtain ⟨-, -, -, -, -, e0, e1⟩ := idx_facts2 t
  have ht : t.val = (i 0).val / 3128 * 425 + 424 := rfl
  refine ⟨t, (flush2_3 t).mpr (by rw [ht]; omega), ?_⟩
  rw [mem_blk2]
  intro a
  match a with
  | ⟨0, _⟩ => show win2_3.index t (0 : Fin 2) * 3128 ≤ (i 0).val ∧ (i 0).val < win2_3.index t (0 : Fin 2) * 3128 + 3128; rw [e0, ht]; omega
  | ⟨1, _⟩ => show win2_3.index t (1 : Fin 2) * 64 ≤ (i 1).val ∧ (i 1).val < win2_3.index t (1 : Fin 2) * 64 + 64; rw [e1]; omega

/-- Point t's result block of a whole-array function, read at an entry, is the function at the entry's place in the
    array. -/
theorem read_blk2 (t : Fin cfg2.N) (G : S50048x64.Idx → EReal) (y : S3128x64.Idx) :
    ((cfg2.win 3).blk t).view.read (Elt Ideal) G y = G (((cfg2.win 3).blk t).view.emb y) := rfl

section
variable (V : (c : Dev nD) → (b : Ref sig .tc) → Buf (Elt Ideal) ((c : Thread nD τ).loc b))

/-- For any proof data whose output block after a point is tanh of the carried block plus the bias row: what a last
    edge tile writes back is its node block of the scatter sum of the whole arrays. -/
theorem flushed2_eq_of (c : Dev nD) (dat : Dat τ (Elt Ideal) Unit ℕ (UR sig nD τ) ℕ cfg2 c)
    (acc : (n : ℕ) → n < cfg2.N → Vec Ideal S3128x64 .f32)
    (hfirst : ∀ t : Fin cfg2.N, t.val % 425 = 0 →
      acc t.val t.isLt = k2_pay2 (grid2.coords t) (iblk2 (F := Ideal) V c 0 t) (iblk2 (F := Ideal) V c 1 t) (k2_pay1 (F := Ideal)))
    (hnext : ∀ t : Fin cfg2.N, ¬t.val % 425 = 0 →
      acc t.val t.isLt = k2_pay2 (grid2.coords t) (iblk2 (F := Ideal) V c 0 t) (iblk2 (F := Ideal) V c 1 t)
        (acc (t.val - 1) (Nat.lt_of_le_of_lt (Nat.sub_le _ _) t.isLt)))
    (hafter : ∀ t : Fin cfg2.N, dat.after 3 t = k2_pay3 (acc t.val t.isLt) (iblk2 (F := Ideal) V c 2 t))
    (t : Fin cfg2.N) (hf : (cfg2.win 3).flush t = true) :
    dat.flushed 3 t = ((cfg2.win 3).blk t).view.read (Elt Ideal) (Cert.KSpec.sca (dArr V c) (mArr V c) (bArr V c)) := by
  have h424 : t.val % 425 = 424 := (flush2_3 t).mp hf
  have hN : cfg2.N = 6800 := N_2
  have ht : t.val < 6800 := by have := t.isLt; omega
  obtain ⟨-, -, -, -, -, e0, e1⟩ := idx_facts2 t
  show (cfg2.win 3).cut (grid2.coords t) (dat.after 3 t) = _
  rw [hafter]
  funext j
  obtain ⟨p, q, rfl⟩ : ∃ (p : Fin 3128) (q : Fin 64), j = ix2 p q := ⟨j 0, j 1, eq_ix2 j⟩
  refine (pay3_apply (acc t.val t.isLt) (iblk2 (F := Ideal) V c 2 t) p q).trans ?_
  refine Eq.trans ?_ (read_blk2 t (Cert.KSpec.sca (dArr V c) (mArr V c) (bArr V c)) (ix2 p q)).symm
  have hr : t.val / 425 * 3128 + p.val < 50048 := by have := p.isLt; omega
  have hemb : ((cfg2.win 3).blk t).view.emb (ix2 p q) = (ix2 (⟨t.val / 425 * 3128 + p.val, hr⟩ : Fin 50048) q : S50048x64.Idx) := by
    funext a
    apply Fin.ext
    match a with
    | ⟨0, _⟩ => show win2_3.index t (0 : Fin 2) * 3128 + 1 * p.val = t.val / 425 * 3128 + p.val; rw [e0]; omega
    | ⟨1, _⟩ => show win2_3.index t (1 : Fin 2) * 64 + 1 * q.val = q.val; rw [e1]; omega
  rw [hemb]
  show _ = Ideal.tanh ((∑ e : Fin 850000, if (dArr V c (ix2 e (0 : Fin 1))).toNat = t.val / 425 * 3128 + p.val
    then mArr V c (ix2 e q) else 0) + bArr V c (ix1 q))
  rw [acc_final V c acc hfirst hnext t h424 p q, iblk2_2_apply V c t q]

end

section
variable (V : (c : Dev nD) → (b : Ref sig .tc) → Buf (Elt Ideal) ((c : Thread nD τ).loc b))

/-- What a last edge tile writes back is its node block of the scatter sum of the whole arrays. -/
theorem flushed2_eq (c : Dev nD) (t : Fin cfg2.N) (hf : (cfg2.win 3).flush t = true) :
    (dat2 (F := Ideal) V c).flushed 3 t
      = ((cfg2.win 3).blk t).view.read (Elt Ideal) (Cert.KSpec.sca (dArr V c) (mArr V c) (bArr V c)) :=
  flushed2_eq_of V c (dat2 (F := Ideal) V c) (acc2 (F := Ideal) V c) (acc2_at_first V c) (acc2_at_next V c)
    (fun t => (after2_3 V c t).trans (out2_eq V c t)) t hf

/-- The result array of the first scatter region after its run: the scatter sum of the messages by destination, plus
    the bias, through tanh. -/
theorem final2 (c : Dev nD) :
    ((dat2 (F := Ideal) V c).arrAt 3 cfg2.N : S50048x64.Idx → EReal)
      = Cert.KSpec.sca (V c main_v32) (V c main_v35) (V c main_arg3) :=
  (dat2 (F := Ideal) V c).arrAt_eq_of_cover 3 (Cert.KSpec.sca (dArr V c) (mArr V c) (bArr V c))
    (fun t hf => flushed2_eq V c t hf) cover2

end

end Cert.KernelIdeal.ScatterVal2

end
-- ==== Proof.Val.Final3.lean ====
/-
  The value of the second dense region at the ideal instance: the result array after the run is the hidden features
  (50048×64) times the second weight matrix (64×64), entry by entry as extended reals. The matrix unit's product into a
  zero accumulator is the plain sum over the contracted axis (0 + s = s holds for every extended real, and a change of
  float format is the identity); the tile of 3128 rows that grid point t multiplies is rows 3128·t … 3128·t + 3127 of the
  features, the weight matrix is read whole at every point, and the 16 tiles written back fill the 50048 rows.
-/
import proofs.«401039_j68436008894831_1_alg».proof.Proof.KI.R3
import proofs.«401039_j68436008894831_1_alg».proof.Proof.Val.KSpec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.DenseVal

open Cert.KernelIdeal Cert.KernelIdeal.Gen Cert.KernelIdeal.Hand
open Idealize.ShloMosaic Idealize.ShloMosaic.TcCoe Idealize.ShloMosaic.ValueIdx
open Idealize.ShloMosaic.Pipeline (Dat)

/-! ## The matrix unit's product read at one entry -/

theorem lhs3_0 (i : S3128x64.Idx) (q : dot_S3128x64_S64x64_S3128x64_1_0_0_1_n_n.contr.Idx) :
    (dot_S3128x64_S64x64_S3128x64_1_0_0_1_n_n.lhsIdx i q 0).val = (i 0).val := by
  unfold DotDims.lhsIdx
  rw [dif_neg (show ¬(0 : Fin S3128x64.rank) ∈ dot_S3128x64_S64x64_S3128x64_1_0_0_1_n_n.lhsBatch by decide), dif_pos (show (0 : Fin S3128x64.rank) ∈ dot_S3128x64_S64x64_S3128x64_1_0_0_1_n_n.lhsNonContracting by decide)]
  rfl
theorem lhs3_1 (i : S3128x64.Idx) (q : dot_S3128x64_S64x64_S3128x64_1_0_0_1_n_n.contr.Idx) :
    (dot_S3128x64_S64x64_S3128x64_1_0_0_1_n_n.lhsIdx i q 1).val = (q ⟨0, by decide⟩).val :=
  dot_S3128x64_S64x64_S3128x64_1_0_0_1_n_n.lhsIdx_val_of_single rfl i q
theorem rhs3_0 (i : S3128x64.Idx) (q : dot_S3128x64_S64x64_S3128x64_1_0_0_1_n_n.contr.Idx) :
    (dot_S3128x64_S64x64_S3128x64_1_0_0_1_n_n.rhsIdx i q 0).val = (q ⟨0, by decide⟩).val :=
  dot_S3128x64_S64x64_S3128x64_1_0_0_1_n_n.rhsIdx_val_of_single rfl i q
theorem rhs3_1 (i : S3128x64.Idx) (q : dot_S3128x64_S64x64_S3128x64_1_0_0_1_n_n.contr.Idx) :
    (dot_S3128x64_S64x64_S3128x64_1_0_0_1_n_n.rhsIdx i q 1).val = (i 1).val := by
  unfold DotDims.rhsIdx
  rw [dif_neg (show ¬(1 : Fin S64x64.rank) ∈ dot_S3128x64_S64x64_S3128x64_1_0_0_1_n_n.rhsBatch by decide), dif_pos (show (1 : Fin S64x64.rank) ∈ dot_S3128x64_S64x64_S3128x64_1_0_0_1_n_n.rhsNonContracting by decide)]
  rfl

/-- A product of a [3128,64] by a [64,64] matrix into a zero accumulator: entry (p, q) is the sum over the
    contracted axis of row p of the left factor against column q of the right one. -/
theorem mm3_apply (a : FVec Ideal S3128x64 .bf16) (b : FVec Ideal S64x64 .bf16) (p : Fin 3128) (q : Fin 64) :
    matmul dot_S3128x64_S64x64_S3128x64_1_0_0_1_n_n none a b (constant (F := Ideal) S3128x64 .f32 0x00000000#32) (ix2 p q) = ∑ k : Fin 64, a (ix2 p k) * b (ix2 k q) := by
  refine (Ideal.matmul_constant_zero_apply dot_S3128x64_S64x64_S3128x64_1_0_0_1_n_n none a b (ix2 p q)).trans ?_
  rw [← Equiv.sum_comp (contrEquiv1 dot_S3128x64_S64x64_S3128x64_1_0_0_1_n_n 64 rfl rfl).symm]
  refine Finset.sum_congr rfl fun k _ => ?_
  have hk := contrEquiv1_symm_val dot_S3128x64_S64x64_S3128x64_1_0_0_1_n_n 64 rfl rfl k
  have el : dot_S3128x64_S64x64_S3128x64_1_0_0_1_n_n.lhsIdx (ix2 p q) ((contrEquiv1 dot_S3128x64_S64x64_S3128x64_1_0_0_1_n_n 64 rfl rfl).symm k) = ix2 p k := funext fun a => Fin.ext (by
    match a with
    | ⟨0, _⟩ => exact lhs3_0 _ _
    | ⟨1, _⟩ => exact (lhs3_1 _ _).trans hk)
  have er : dot_S3128x64_S64x64_S3128x64_1_0_0_1_n_n.rhsIdx (ix2 p q) ((contrEquiv1 dot_S3128x64_S64x64_S3128x64_1_0_0_1_n_n 64 rfl rfl).symm k) = ix2 k q := funext fun a => Fin.ext (by
    match a with
    | ⟨0, _⟩ => exact (rhs3_0 _ _).trans hk
    | ⟨1, _⟩ => exact rhs3_1 _ _)
  rw [el, er]

/-- The body's stored value at entry (p, q): the format changes are the identity on extended reals. -/
theorem pay3_apply (x0 : Vec Ideal S3128x64 .f32) (x1 : Vec Ideal S64x64 .f32) (p : Fin 3128) (q : Fin 64) :
    k3_pay1 (F := Ideal) x0 x1 (ix2 p q) = ∑ k : Fin 64, x0 (ix2 p k) * x1 (ix2 k q) := by
  unfold k3_pay1
  refine (mm3_apply _ _ p q).trans ?_
  simp only [shapeCast_self]
  rfl

/-! ## The blocks of the three windows -/

theorem hz3 : (![0, 0] : Fin 2 → Nat) = fun _ => 0 := funext fun a => by fin_cases a <;> rfl

/-- The printed index maps over the 16 points: the row tile of the left factor and of the result is the point's
    number, the right factor is always its one block. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

section
variable (V : (c : Dev nD) → (b : Ref sig .tc) → Buf (Elt Ideal) ((c : Thread nD τ).loc b))

/-- Row p of the left factor's tile at point t is row 3128·t + p of the hidden features. -/
theorem iblk3_0_apply (c : Dev nD) (t : Fin cfg3.N) (p : Fin 3128) (k : Fin 64) (r : Fin 50048) (hr : r.val = t.val * 3128 + p.val) :
    (iblk3 (F := Ideal) V c 0 t : Vec Ideal S3128x64 .f32) (ix2 p k) = (V c main_v36 : S50048x64.Idx → EReal) (ix2 r k) := by
  obtain ⟨e0, e1, -⟩ := idx_facts3 t
  unfold iblk3
  rw [View.read_apply]
  show V c main_v36 _ = V c main_v36 _
  congr 1
  funext a
  apply Fin.ext
  match a with
  | ⟨0, _⟩ => show win3_0.index t (0 : Fin 2) * 3128 + 1 * p.val = r.val; rw [e0, hr]; omega
  | ⟨1, _⟩ => show win3_0.index t (1 : Fin 2) * 64 + 1 * k.val = k.val; rw [e1]; omega

/-- The right factor's block is the whole weight matrix at every point. -/
theorem iblk3_1_apply (c : Dev nD) (t : Fin cfg3.N) (k : Fin 64) (q : Fin 64) :
    (iblk3 (F := Ideal) V c 1 t : Vec Ideal S64x64 .f32) (ix2 k q) = (V c main_arg4 : S64x64.Idx → EReal) (ix2 k q) := by
  obtain ⟨-, -, e0, e1, -⟩ := idx_facts3 t
  unfold iblk3
  rw [View.read_apply]
  show V c main_arg4 _ = V c main_arg4 _
  congr 1
  funext a
  apply Fin.ext
  match a with
  | ⟨0, _⟩ => show win3_1.index t (0 : Fin 2) * 64 + 1 * k.val = k.val; rw [e0]; omega
  | ⟨1, _⟩ => show win3_1.index t (1 : Fin 2) * 64 + 1 * q.val = q.val; rw [e1]; omega

end

/-! ## From the blocks to the array -/

section
variable (V : (c : Dev nD) → (b : Ref sig .tc) → Buf (Elt Ideal) ((c : Thread nD τ).loc b))

/-- What point t writes back is tile t of the dense product of the two whole arrays the region finds. -/
theorem flushed3_eq (c : Dev nD) (t : Fin cfg3.N) :
    (dat3 (F := Ideal) V c).flushed 2 t
      = ((cfg3.win 2).blk t).view.read (Elt Ideal) (Cert.KSpec.lin (V c main_v36 : S50048x64.Idx → EReal) (V c main_arg4 : S64x64.Idx → EReal)) := by
  show (cfg3.win 2).cut (grid3.coords t) ((dat3 (F := Ideal) V c).after 2 t) = _
  rw [after3_2]
  unfold out3_2
  rw [View.canon_unit_zero hz3]
  simp only [View.ld_unit_zero (S := S3128x64) hz3, View.ld_unit_zero (S := S64x64) hz3]
  obtain ⟨-, -, -, -, e0, e1⟩ := idx_facts3 t
  funext j
  obtain ⟨p, q, rfl⟩ : ∃ (p : Fin 3128) (q : Fin 64), j = ix2 p q := ⟨j 0, j 1, eq_ix2 j⟩
  refine (pay3_apply (iblk3 (F := Ideal) V c 0 t) (iblk3 (F := Ideal) V c 1 t) p q).trans ?_
  rw [View.read_apply]
  have ht : t.val < 16 := by have h1 := t.isLt; have hN : cfg3.N = 16 := N_3; omega
  have hr : t.val * 3128 + p.val < 50048 := by have := p.isLt; omega
  have hemb : ((cfg3.win 2).blk t).view.emb (ix2 p q) = (ix2 (⟨t.val * 3128 + p.val, hr⟩ : Fin 50048) q : S50048x64.Idx) := by
    funext a
    apply Fin.ext
    match a with
    | ⟨0, _⟩ => show win3_2.index t (0 : Fin 2) * 3128 + 1 * p.val = t.val * 3128 + p.val; rw [e0]; omega
    | ⟨1, _⟩ => show win3_2.index t (1 : Fin 2) * 64 + 1 * q.val = q.val; rw [e1]; omega
  rw [hemb]
  unfold Cert.KSpec.lin
  refine Finset.sum_congr rfl fun k _ => ?_
  rw [iblk3_0_apply V c t p k ⟨t.val * 3128 + p.val, hr⟩ rfl, iblk3_1_apply V c t k q]

/-- An entry of the result array lies in point t's block iff each coordinate is in the block's range on its axis. -/
theorem mem_blk3 (t : Fin cfg3.N) (i : S50048x64.Idx) :
    i ∈ ((cfg3.win 2).blk t).view.set ↔ ∀ a : Fin 2, win3_2.index t a * S3128x64.size a ≤ (i a).val ∧ (i a).val < win3_2.index t a * S3128x64.size a + S3128x64.size a := by
  show i ∈ ((View.whole main_v37).slice (win3_2.rect t)).set ↔ _
  rw [View.set_slice_whole, Rect.mem_set_unit]
  exact Iff.rfl

/-- Row r of the result is written back by point r / 3128: the 16 tiles of 3128 rows fill the 50048 rows. -/
theorem cover3 (i : S50048x64.Idx) : ∃ t : Fin cfg3.N, (cfg3.win 2).flush t = true ∧ i ∈ ((cfg3.win 2).blk t).view.set := by
  have hi0 : (i 0).val < 50048 := (i 0).isLt
  have hi1 : (i 1).val < 64 := (i 1).isLt
  have hN : cfg3.N = 16 := N_3
  let t : Fin cfg3.N := ⟨(i 0).val / 3128, by rw [hN]; omega⟩
  obtain ⟨-, -, -, -, e0, e1⟩ := idx_facts3 t
  have ht : t.val = (i 0).val / 3128 := rfl
  refine ⟨t, flush3_2 t, ?_⟩
  rw [mem_blk3]
  intro a
  match a with
  | ⟨0, _⟩ => show win3_2.index t (0 : Fin 2) * 3128 ≤ (i 0).val ∧ (i 0).val < win3_2.index t (0 : Fin 2) * 3128 + 3128; rw [e0, ht]; omega
  | ⟨1, _⟩ => show win3_2.index t (1 : Fin 2) * 64 ≤ (i 1).val ∧ (i 1).val < win3_2.index t (1 : Fin 2) * 64 + 64; rw [e1]; omega

/-- The result array of the second dense region after its run: the hidden features times the second weight matrix. -/
theorem final3 (c : Dev nD) :
    ((dat3 (F := Ideal) V c).arrAt 2 cfg3.N : S50048x64.Idx → EReal)
      = Cert.KSpec.lin (V c main_v36 : S50048x64.Idx → EReal) (V c main_arg4 : S64x64.Idx → EReal) :=
  (dat3 (F := Ideal) V c).arrAt_eq_of_cover 2 (Cert.KSpec.lin (V c main_v36 : S50048x64.Idx → EReal) (V c main_arg4 : S64x64.Idx → EReal))
    (fun t _ => flushed3_eq V c t) cover3

end

end Cert.KernelIdeal.DenseVal

end
-- ==== Proof.Val.Final4.lean ====
/-
  The second gather region's result array at the extended reals. Grid point t is (m, k) = (t / 16, t % 16): edge tile m
  (edges 2000·m … 2000·m + 1999) against node block k (rows 3128·k … 3128·k + 3127 of the feature array). Along a tile's
  sixteen points the accumulator starts from zeros and adds each block's one-hot sum; the source word of an edge is the
  same at all sixteen, so after the last block the accumulator holds, for each edge, the feature row its word names (or
  zero), and the tile's last point scales each row by the edge's weight and writes the tile back. The 425 tiles fill the
  850000 rows of the message array.
-/
import proofs.«401039_j68436008894831_1_alg».proof.Proof.KI.R4
import proofs.«401039_j68436008894831_1_alg».proof.Proof.Val.KSpec
import proofs.«401039_j68436008894831_1_alg».proof.Proof.Val.Gather
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.GatherVal

open Cert.KernelIdeal Cert.KernelIdeal.Gen Cert.KernelIdeal.Hand
open Idealize.ShloMosaic Idealize.ShloMosaic.TcCoe Idealize.ShloMosaic.ValueIdx
open Idealize.ShloMosaic.Pipeline (Dat)

/-! ## The blocks of the four windows -/

/-- The printed index maps over the 6800 points (m, k) = (t / 16, t % 16): the two edge columns and the result move with
    the edge tile `m`, the feature array with the node block `k`. -/
theorem idx_facts4 : ∀ t : Fin cfg4.N, win4_0.index t (0 : Fin 2) = t.val / 16 ∧ win4_0.index t (1 : Fin 2) = 0
    ∧ win4_1.index t (0 : Fin 2) = t.val / 16 ∧ win4_1.index t (1 : Fin 2) = 0
    ∧ win4_2.index t (0 : Fin 2) = t.val % 16 ∧ win4_2.index t (1 : Fin 2) = 0
    ∧ win4_3.index t (0 : Fin 2) = t.val / 16 ∧ win4_3.index t (1 : Fin 2) = 0 :=
  (by decide +kernel : ∀ t : Fin grid4.N, _)

section
variable (V : (c : Dev nD) → (b : Ref sig .tc) → Buf (Elt Ideal) ((c : Thread nD τ).loc b))

/-- The three arrays the region reads, as it finds them: the edges' source words, the edges' weights, the node features. -/
abbrev sArr4 (c : Dev nD) : S850000x1.Idx → BitVec 32 := V c main_v31
abbrev nArr4 (c : Dev nD) : S850000x1.Idx → EReal := V c main_v33
abbrev hArr4 (c : Dev nD) : S50048x64.Idx → EReal := V c main_v37

/-- Edge `p` of the source column's tile at point `t` is edge `2000·(t / 16) + p` of the column. -/
theorem iblk4_0_apply (c : Dev nD) (t : Fin cfg4.N) (p : Fin 2000) (r : Fin 850000) (hr : r.val = t.val / 16 * 2000 + p.val) :
    (iblk4 (F := Ideal) V c 0 t : Vec Ideal S2000x1 .i32) (ix2 p 0) = sArr4 V c (ix2 r 0) := by
  obtain ⟨e0, e1, -⟩ := idx_facts4 t
  unfold iblk4
  rw [View.read_apply]
  show V c main_v31 _ = V c main_v31 _
  congr 1
  funext a
  apply Fin.ext
  match a with
  | ⟨0, _⟩ => show win4_0.index t (0 : Fin 2) * 2000 + 1 * p.val = r.val; rw [e0, hr]; omega
  | ⟨1, _⟩ => show win4_0.index t (1 : Fin 2) * 1 + 1 * 0 = 0; rw [e1]

/-- The weight column's tile likewise. -/
theorem iblk4_1_apply (c : Dev nD) (t : Fin cfg4.N) (p : Fin 2000) (r : Fin 850000) (hr : r.val = t.val / 16 * 2000 + p.val) :
    (iblk4 (F := Ideal) V c 1 t : Vec Ideal S2000x1 .f32) (ix2 p 0) = nArr4 V c (ix2 r 0) := by
  obtain ⟨-, -, e0, e1, -⟩ := idx_facts4 t
  unfold iblk4
  rw [View.read_apply]
  show V c main_v33 _ = V c main_v33 _
  congr 1
  funext a
  apply Fin.ext
  match a with
  | ⟨0, _⟩ => show win4_1.index t (0 : Fin 2) * 2000 + 1 * p.val = r.val; rw [e0, hr]; omega
  | ⟨1, _⟩ => show win4_1.index t (1 : Fin 2) * 1 + 1 * 0 = 0; rw [e1]

/-- Row `jj` of the node block at point `t` is row `3128·(t % 16) + jj` of the feature array. -/
theorem iblk4_2_apply (c : Dev nD) (t : Fin cfg4.N) (jj : Fin 3128) (q : Fin 64) (r : Fin 50048) (hr : r.val = t.val % 16 * 3128 + jj.val) :
    (iblk4 (F := Ideal) V c 2 t : Vec Ideal S3128x64 .f32) (ix2 jj q) = hArr4 V c (ix2 r q) := by
  obtain ⟨-, -, -, -, e0, e1, -⟩ := idx_facts4 t
  unfold iblk4
  rw [View.read_apply]
  show V c main_v37 _ = V c main_v37 _
  congr 1
  funext a
  apply Fin.ext
  match a with
  | ⟨0, _⟩ => show win4_2.index t (0 : Fin 2) * 3128 + 1 * jj.val = r.val; rw [e0, hr]; omega
  | ⟨1, _⟩ => show win4_2.index t (1 : Fin 2) * 64 + 1 * q.val = q.val; rw [e1]; omega

end

/-! ## The accumulator along an edge tile's sixteen points -/

section
variable (V : (c : Dev nD) → (b : Ref sig .tc) → Buf (Elt Ideal) ((c : Thread nD τ).loc b))

/-- The accumulator after position `n`, as a function of every natural number (zero past the grid). -/
def accT4 (c : Dev nD) (n : ℕ) : Vec Ideal S2000x64 .f32 :=
  if h : n < cfg4.N then (outsAt4 (F := Ideal) V c n h).2 else fun _ => 0

theorem accT4_of_lt (c : Dev nD) (n : ℕ) (h : n < cfg4.N) : accT4 V c n = (outsAt4 (F := Ideal) V c n h).2 := dif_pos h

/-- At an edge tile's first point: zeros plus the one-hot sum over node block 0. -/
theorem accT4_first (c : Dev nD) (n : ℕ) (hn : n < cfg4.N) (h0 : n % 16 = 0) (p : Fin 2000) (q : Fin 64)
    (r : Fin 850000) (hr : r.val = n / 16 * 2000 + p.val) (ρ : Fin 3128 → Fin 50048) (hρ : ∀ jj, (ρ jj).val = 0 * 3128 + jj.val) :
    accT4 V c n (ix2 p q)
      = 0 + ∑ jj : Fin 3128, if (sArr4 V c (ix2 r 0)).toNat = 0 * 3128 + jj.val
          then hArr4 V c (ix2 (ρ jj) q) else 0 := by
  have hin : (grid4.coords ⟨n, hn⟩ 1).val = 0 := (inner4 ⟨n, hn⟩).trans h0
  rw [accT4_of_lt V c n hn, acc4_reset V c ⟨n, hn⟩ h0]
  refine (pay2_apply4 (grid4.coords ⟨n, hn⟩) (iblk4 (F := Ideal) V c 0 ⟨n, hn⟩) (iblk4 (F := Ideal) V c 2 ⟨n, hn⟩) (k4_pay1 (F := Ideal)) p q).trans ?_
  rw [pay1_apply4 p q, hin, iblk4_0_apply V c ⟨n, hn⟩ p r hr]
  refine congrArg (0 + ·) (Finset.sum_congr rfl fun jj _ => ?_)
  rw [iblk4_2_apply V c ⟨n, hn⟩ jj q (ρ jj) (by rw [hρ jj]; show 0 * 3128 + jj.val = n % 16 * 3128 + jj.val; rw [h0])]

/-- At a later point of the tile, node block `kk`: what the point before left plus the one-hot sum over block `kk`. -/
theorem accT4_next (c : Dev nD) (n : ℕ) (hn : n + 1 < cfg4.N) (kk : ℕ) (hk : (n + 1) % 16 = kk) (hkk : kk ≠ 0) (p : Fin 2000) (q : Fin 64)
    (r : Fin 850000) (hr : r.val = (n + 1) / 16 * 2000 + p.val) (ρ : Fin 3128 → Fin 50048) (hρ : ∀ jj, (ρ jj).val = kk * 3128 + jj.val) :
    accT4 V c (n + 1) (ix2 p q)
      = accT4 V c n (ix2 p q) + ∑ jj : Fin 3128, if (sArr4 V c (ix2 r 0)).toNat = kk * 3128 + jj.val
          then hArr4 V c (ix2 (ρ jj) q) else 0 := by
  have hne : ¬ (n + 1) % 16 = 0 := by rw [hk]; exact hkk
  have hin : (grid4.coords ⟨n + 1, hn⟩ 1).val = kk := (inner4 ⟨n + 1, hn⟩).trans hk
  rw [accT4_of_lt V c (n + 1) hn, acc4_step V c ⟨n + 1, hn⟩ hne, accT4_of_lt V c n (Nat.lt_of_succ_lt hn)]
  refine (pay2_apply4 (grid4.coords ⟨n + 1, hn⟩) (iblk4 (F := Ideal) V c 0 ⟨n + 1, hn⟩) (iblk4 (F := Ideal) V c 2 ⟨n + 1, hn⟩)
    (outsAt4 (F := Ideal) V c n (Nat.lt_of_succ_lt hn)).2 p q).trans ?_
  rw [hin, iblk4_0_apply V c ⟨n + 1, hn⟩ p r hr]
  refine congrArg ((outsAt4 (F := Ideal) V c n (Nat.lt_of_succ_lt hn)).2 (ix2 p q) + ·) (Finset.sum_congr rfl fun jj _ => ?_)
  rw [iblk4_2_apply V c ⟨n + 1, hn⟩ jj q (ρ jj) (by rw [hρ jj]; show kk * 3128 + jj.val = (n + 1) % 16 * 3128 + jj.val; rw [hk])]

/-- Row `3128·(k % 16) + jj` of the feature array. -/
def rowAt4 (k : ℕ) (jj : Fin 3128) : Fin 50048 := ⟨k % 16 * 3128 + jj.val, by have := jj.isLt; have := Nat.mod_lt k (show 0 < 16 by decide); omega⟩

/-- What the output block holds at an edge tile's last point, entry (p, q): the row of the feature array that edge
    `2000·m + p`'s source word names (zero if it names none), times the edge's weight. -/
theorem out_last_apply4 (c : Dev nD) (t : Fin cfg4.N) (h15 : t.val % 16 = 15) (p : Fin 2000) (q : Fin 64)
    (r : Fin 850000) (hr : r.val = t.val / 16 * 2000 + p.val) :
    (outsAt4 (F := Ideal) V c t.val t.isLt).1 (ix2 p q)
      = Cert.KSpec.gat (sArr4 V c) (nArr4 V c) (hArr4 V c) (ix2 r q) := by
  have hN : cfg4.N = 6800 := N_4
  have ht := t.isLt
  rw [out4_last V c t h15]
  refine (pay3_apply4 (iblk4 (F := Ideal) V c 1 t) (outsAt4 (F := Ideal) V c t.val t.isLt).2 p q).trans ?_
  rw [iblk4_1_apply V c t p r hr]
  show _ = (∑ n : Fin 50048, if (sArr4 V c (ix2 r 0)).toNat = n.val
      then hArr4 V c (ix2 n q) else 0) * nArr4 V c (ix2 r 0)
  refine congrArg (· * nArr4 V c (ix2 r 0)) ?_
  rw [← accT4_of_lt V c t.val t.isLt]
  obtain ⟨t0, ht0⟩ : ∃ t0, t.val = t0 + 15 := ⟨t.val - 15, by omega⟩
  rw [ht0]
  refine fold16 (sArr4 V c (ix2 r 0)).toNat (fun k => accT4 V c (t0 + k) (ix2 p q))
    (fun k jj => hArr4 V c (ix2 (rowAt4 k jj) q)) (fun n => hArr4 V c (ix2 n q)) ?_ ?_ ?_
  · exact accT4_first V c t0 (by omega) (by omega) p q r (by rw [hr]; omega) (rowAt4 0) (fun jj => rfl)
  · intro k hk
    exact accT4_next V c (t0 + k) (by omega) (k + 1) (by omega) (by omega) p q r (by rw [hr]; omega) (rowAt4 (k + 1))
      (fun jj => by show (k + 1) % 16 * 3128 + jj.val = _; rw [Nat.mod_eq_of_lt hk])
  · intro k hk jj
    exact congrArg (fun n => hArr4 V c (ix2 n q)) (Fin.ext (by show k % 16 * 3128 + jj.val = _; rw [Nat.mod_eq_of_lt hk]))

end

/-! ## From the blocks to the array -/

section
variable (V : (c : Dev nD) → (b : Ref sig .tc) → Buf (Elt Ideal) ((c : Thread nD τ).loc b))

/-- What an edge tile's last point writes back is that tile of the gathered and scaled messages. -/
theorem flushed4_eq (c : Dev nD) (t : Fin cfg4.N) (hf : (cfg4.win 3).flush t = true) :
    (dat4 (F := Ideal) V c).flushed 3 t
      = ((cfg4.win 3).blk t).view.read (Elt Ideal)
          (Cert.KSpec.gat (sArr4 V c) (nArr4 V c) (hArr4 V c)) := by
  have h15 : t.val % 16 = 15 := (flush4_3 t).mp hf
  have hN : cfg4.N = 6800 := N_4
  have ht := t.isLt
  show (cfg4.win 3).cut (grid4.coords t) ((dat4 (F := Ideal) V c).after 3 t) = _
  rw [after4_3]
  obtain ⟨-, -, -, -, -, -, e0, e1⟩ := idx_facts4 t
  funext j
  obtain ⟨p, q, rfl⟩ : ∃ (p : Fin 2000) (q : Fin 64), j = ix2 p q := ⟨j 0, j 1, eq_ix2 j⟩
  have hr : t.val / 16 * 2000 + p.val < 850000 := by have := p.isLt; omega
  refine (out_last_apply4 V c t h15 p q ⟨t.val / 16 * 2000 + p.val, hr⟩ rfl).trans ?_
  rw [View.read_apply]
  have hemb : ((cfg4.win 3).blk t).view.emb (ix2 p q) = (ix2 (⟨t.val / 16 * 2000 + p.val, hr⟩ : Fin 850000) q : S850000x64.Idx) := by
    funext a
    apply Fin.ext
    match a with
    | ⟨0, _⟩ => show win4_3.index t (0 : Fin 2) * 2000 + 1 * p.val = t.val / 16 * 2000 + p.val; rw [e0]; omega
    | ⟨1, _⟩ => show win4_3.index t (1 : Fin 2) * 64 + 1 * q.val = q.val; rw [e1]; omega
  rw [hemb]
  rfl

/-- An entry of the message array lies in point t's block iff each coordinate is in the block's range on its axis. -/
theorem mem_blk4 (t : Fin cfg4.N) (i : S850000x64.Idx) :
    i ∈ ((cfg4.win 3).blk t).view.set ↔ ∀ a : Fin 2, win4_3.index t a * S2000x64.size a ≤ (i a).val ∧ (i a).val < win4_3.index t a * S2000x64.size a + S2000x64.size a := by
  show i ∈ ((View.whole main_v38).slice (win4_3.rect t)).set ↔ _
  rw [View.set_slice_whole, Rect.mem_set_unit]
  exact Iff.rfl

/-- Edge e's row is written back by the last point of edge tile e / 2000: the 425 tiles of 2000 edges fill the 850000 rows. -/
theorem cover4 (i : S850000x64.Idx) : ∃ t : Fin cfg4.N, (cfg4.win 3).flush t = true ∧ i ∈ ((cfg4.win 3).blk t).view.set := by
  have hi0 : (i 0).val < 850000 := (i 0).isLt
  have hi1 : (i 1).val < 64 := (i 1).isLt
  have hN : cfg4.N = 6800 := N_4
  let t : Fin cfg4.N := ⟨(i 0).val / 2000 * 16 + 15, by rw [hN]; omega⟩
  obtain ⟨-, -, -, -, -, -, e0, e1⟩ := idx_facts4 t
  have ht : t.val = (i 0).val / 2000 * 16 + 15 := rfl
  refine ⟨t, (flush4_3 t).mpr (by rw [ht]; omega), ?_⟩
  rw [mem_blk4]
  intro a
  match a with
  | ⟨0, _⟩ => show win4_3.index t (0 : Fin 2) * 2000 ≤ (i 0).val ∧ (i 0).val < win4_3.index t (0 : Fin 2) * 2000 + 2000; rw [e0, ht]; omega
  | ⟨1, _⟩ => show win4_3.index t (1 : Fin 2) * 64 ≤ (i 1).val ∧ (i 1).val < win4_3.index t (1 : Fin 2) * 64 + 64; rw [e1]; omega

/-- The message array of the second gather region after its run: each edge's source row of the feature array, times the edge's weight. -/
theorem final4 (c : Dev nD) :
    ((dat4 (F := Ideal) V c).arrAt 3 cfg4.N : S850000x64.Idx → EReal)
      = Cert.KSpec.gat (sArr4 V c) (nArr4 V c) (hArr4 V c) :=
  (dat4 (F := Ideal) V c).arrAt_eq_of_cover 3
    (Cert.KSpec.gat (sArr4 V c) (nArr4 V c) (hArr4 V c))
    (fun t hf => flushed4_eq V c t hf) cover4

end

end Cert.KernelIdeal.GatherVal

end
-- ==== Proof.Val.Final5.lean ====
/-
  The value of the second scatter region at the ideal instance: the result array after the run is, at node n and
  feature q, tanh of (the sum over all 850000 edges whose destination word is n of the edge's message at q, plus the
  bias at q).

  Grid point t is edge tile t mod 425 of node block t / 425. Its destination words and messages are edges
  (t mod 425)·2000 … + 1999 of the whole destination column and message array; its bias block is the whole bias row;
  its result block is rows (t / 425)·3128 … + 3127 of the result. The carried block restarts from zero at a node
  block's first edge tile and gains one tile's one-hot product per point, so after the node block's last tile it holds
  the sum over every edge (Scatter.lean: the step at an entry, and the 425 tiles of 2000 edges re-indexed as the
  850000 edges); that point alone writes its block back, and the 16 blocks so written fill the 50048 rows.
-/
import proofs.«401039_j68436008894831_1_alg».proof.Proof.KI.R5
import proofs.«401039_j68436008894831_1_alg».proof.Proof.Val.KSpec
import proofs.«401039_j68436008894831_1_alg».proof.Proof.Val.Scatter
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.ScatterVal5

open Cert.KernelIdeal Cert.KernelIdeal.Gen Cert.KernelIdeal.Hand Cert.KernelIdeal.ScatterVal
open Idealize.ShloMosaic Idealize.ShloMosaic.TcCoe Idealize.ShloMosaic.ValueIdx
open Idealize.ShloMosaic.Pipeline (Dat)
open Idealize.SL Idealize.SL.RA Idealize.SL.BI Idealize.SL.Sem

/-! ## The blocks of the four windows -/

theorem hz5 : (![0, 0] : Fin 2 → Nat) = fun _ => 0 := funext fun a => by fin_cases a <;> rfl

/-- The printed index maps over the 6800 points: the destination words' and the messages' tile is the inner coordinate
    (the point's number mod 425), the bias is always its one block, the result's node block is the outer coordinate
    (the point's number over 425). -/
theorem idx_facts5 : ∀ t : Fin cfg5.N, win5_0.index t (0 : Fin 2) = t.val % 425 ∧ win5_0.index t (1 : Fin 2) = 0
    ∧ win5_1.index t (0 : Fin 2) = t.val % 425 ∧ win5_1.index t (1 : Fin 2) = 0
    ∧ win5_2.index t (0 : Fin 1) = 0
    ∧ win5_3.index t (0 : Fin 2) = t.val / 425 ∧ win5_3.index t (1 : Fin 2) = 0 :=
  (by decide +kernel : ∀ t : Fin grid5.N, _)

/-- The outer coordinate of the t-th grid point is t / 425. -/
theorem outer5 (t : Fin cfg5.N) : ((grid5.coords t) 0).val = t.val / 425 := by
  have ht : t.val < 6800 := by have h1 := t.isLt; have hN : cfg5.N = 6800 := N_5; omega
  show t.val / grid5.stride 0 % 16 = t.val / 425
  rw [show grid5.stride 0 = 425 from by decide]
  omega

section
variable (V : (c : Dev nD) → (b : Ref sig .tc) → Buf (Elt Ideal) ((c : Thread nD τ).loc b))

/-- The destination column, the message array and the bias row as the region finds them, at their literal types. -/
abbrev dArr (c : Dev nD) : S850000x1.Idx → BitVec 32 := V c main_v32
abbrev mArr (c : Dev nD) : S850000x64.Idx → EReal := V c main_v38
abbrev bArr (c : Dev nD) : S64.Idx → EReal := V c main_arg5

/-- Edge ee of the destination tile at point t is edge (t mod 425)·2000 + ee of the whole destination column. -/
theorem iblk5_0_apply (c : Dev nD) (t : Fin cfg5.N) (ee : Fin 2000) (e : Fin 850000) (he : e.val = t.val % 425 * 2000 + ee.val) :
    (iblk5 (F := Ideal) V c 0 t : Vec Ideal S2000x1 .i32) (ix2 ee (0 : Fin 1)) = dArr V c (ix2 e (0 : Fin 1)) := by
  obtain ⟨e0, e1, -⟩ := idx_facts5 t
  unfold iblk5
  rw [View.read_apply]
  show V c main_v32 _ = V c main_v32 _
  congr 1
  funext a
  apply Fin.ext
  match a with
  | ⟨0, _⟩ => show win5_0.index t (0 : Fin 2) * 2000 + 1 * ee.val = e.val; rw [e0, he]; omega
  | ⟨1, _⟩ => show win5_0.index t (1 : Fin 2) * 1 + 1 * 0 = 0; rw [e1]

/-- Edge ee of the message tile at point t is edge (t mod 425)·2000 + ee of the whole message array. -/
theorem iblk5_1_apply (c : Dev nD) (t : Fin cfg5.N) (ee : Fin 2000) (q : Fin 64) (e : Fin 850000) (he : e.val = t.val % 425 * 2000 + ee.val) :
    (iblk5 (F := Ideal) V c 1 t : Vec Ideal S2000x64 .f32) (ix2 ee q) = mArr V c (ix2 e q) := by
  obtain ⟨-, -, e0, e1, -⟩ := idx_facts5 t
  unfold iblk5
  rw [View.read_apply]
  show V c main_v38 _ = V c main_v38 _
  congr 1
  funext a
  apply Fin.ext
  match a with
  | ⟨0, _⟩ => show win5_1.index t (0 : Fin 2) * 2000 + 1 * ee.val = e.val; rw [e0, he]; omega
  | ⟨1, _⟩ => show win5_1.index t (1 : Fin 2) * 64 + 1 * q.val = q.val; rw [e1]; omega

/-- The bias block is the whole bias row at every point. -/
theorem iblk5_2_apply (c : Dev nD) (t : Fin cfg5.N) (q : Fin 64) :
    (iblk5 (F := Ideal) V c 2 t : Vec Ideal S64 .f32) (ix1 q) = bArr V c (ix1 q) := by
  obtain ⟨-, -, -, -, e0, -⟩ := idx_facts5 t
  unfold iblk5
  rw [View.read_apply]
  show V c main_arg5 _ = V c main_arg5 _
  congr 1
  funext a
  apply Fin.ext
  match a with
  | ⟨0, _⟩ => show win5_2.index t (0 : Fin 1) * 64 + 1 * q.val = q.val; rw [e0]; omega

end

/-! ## The carried block after a node block's last edge tile -/

section
variable (V : (c : Dev nD) → (b : Ref sig .tc) → Buf (Elt Ideal) ((c : Thread nD τ).loc b))

/-- One accumulate step at point t (edge tile m of node block n), at (p, q), over the whole arrays: the carried value
    plus the messages of the tile's edges, edges m·2000 … m·2000 + 1999 of the edge list, whose destination is node
    n·3128 + p. -/
theorem tile_term (c : Dev nD) (t : Fin cfg5.N) (n m : ℕ) (hm : t.val % 425 = m) (hn : t.val / 425 = n) (hm' : m < 425)
    (s : Vec Ideal S3128x64 .f32) (p : Fin 3128) (q : Fin 64) :
    k5_pay2 (grid5.coords t) (iblk5 (F := Ideal) V c 0 t) (iblk5 (F := Ideal) V c 1 t) s (ix2 p q)
      = s (ix2 p q) + ∑ ee : Fin 2000,
          if (dArr V c (ix2 (⟨m * 2000 + ee.val, by have := ee.isLt; omega⟩ : Fin 850000) (0 : Fin 1))).toNat
              = n * 3128 + p.val
          then mArr V c (ix2 (⟨m * 2000 + ee.val, by have := ee.isLt; omega⟩ : Fin 850000) q) else 0 := by
  refine (pay2_apply5 (grid5.coords t) (iblk5 (F := Ideal) V c 0 t) (iblk5 (F := Ideal) V c 1 t) s p q).trans ?_
  rw [outer5, hn]
  refine congrArg (s (ix2 p q) + ·) (Finset.sum_congr rfl fun ee _ => ?_)
  rw [iblk5_0_apply V c t ee ⟨m * 2000 + ee.val, by have := ee.isLt; omega⟩ (by show m * 2000 + ee.val = t.val % 425 * 2000 + ee.val; rw [hm]),
    iblk5_1_apply V c t ee q ⟨m * 2000 + ee.val, by have := ee.isLt; omega⟩ (by show m * 2000 + ee.val = t.val % 425 * 2000 + ee.val; rw [hm])]

/-- A carried block that restarts from zero at each node block's first edge tile and takes one accumulate step per
    point holds, after the node block's last edge tile, at (p, q) the sum over ALL edges whose destination is node
    (block number)·3128 + p of the edge's message at q. -/
theorem acc_final (c : Dev nD) (acc : (n : ℕ) → n < cfg5.N → Vec Ideal S3128x64 .f32)
    (hfirst : ∀ t : Fin cfg5.N, t.val % 425 = 0 →
      acc t.val t.isLt = k5_pay2 (grid5.coords t) (iblk5 (F := Ideal) V c 0 t) (iblk5 (F := Ideal) V c 1 t) (k5_pay1 (F := Ideal)))
    (hnext : ∀ t : Fin cfg5.N, ¬t.val % 425 = 0 →
      acc t.val t.isLt = k5_pay2 (grid5.coords t) (iblk5 (F := Ideal) V c 0 t) (iblk5 (F := Ideal) V c 1 t)
        (acc (t.val - 1) (Nat.lt_of_le_of_lt (Nat.sub_le _ _) t.isLt)))
    (t : Fin cfg5.N) (h424 : t.val % 425 = 424) (p : Fin 3128) (q : Fin 64) :
    acc t.val t.isLt (ix2 p q)
      = ∑ e : Fin 850000, if (dArr V c (ix2 e (0 : Fin 1))).toNat = t.val / 425 * 3128 + p.val
          then mArr V c (ix2 e q) else 0 := by
  have hN : cfg5.N = 6800 := N_5
  have ht : t.val < 6800 := by have := t.isLt; omega
  obtain ⟨n, hn⟩ : ∃ n, t.val / 425 = n := ⟨_, rfl⟩
  rw [hn]
  have hn16 : n < 16 := by omega
  have hb : ∀ m, m < 425 → n * 425 + m < cfg5.N := fun m hm => by rw [hN]; omega
  have acc_congr : ∀ (x y : ℕ) (hx : x < cfg5.N) (hy : y < cfg5.N), x = y → acc x hx = acc y hy := by
    intro x y hx hy h; subst h; rfl
  have key := fold_tiles
    (fun e : Fin 850000 => if (dArr V c (ix2 e (0 : Fin 1))).toNat = n * 3128 + p.val
      then mArr V c (ix2 e q) else 0)
    (fun m ee => if h : m < 425 then
        (if (dArr V c (ix2 (⟨m * 2000 + ee.val, by have := ee.isLt; omega⟩ : Fin 850000) (0 : Fin 1))).toNat = n * 3128 + p.val
          then mArr V c (ix2 (⟨m * 2000 + ee.val, by have := ee.isLt; omega⟩ : Fin 850000) q) else 0)
      else 0)
    (fun m hm ee => dif_pos hm)
    (fun m => if h : m < 425 then acc (n * 425 + m) (hb m h) (ix2 p q) else 0)
    (by
      rw [dif_pos (show 0 < 425 by norm_num)]
      simp only [dif_pos (show 0 < 425 by norm_num)]
      have h1 := congrFun (hfirst ⟨n * 425 + 0, hb 0 (by norm_num)⟩ (by show (n * 425 + 0) % 425 = 0; omega)) (ix2 p q)
      refine h1.trans ((tile_term V c ⟨n * 425 + 0, hb 0 (by norm_num)⟩ n 0 (by show (n * 425 + 0) % 425 = 0; omega)
        (by show (n * 425 + 0) / 425 = n; omega) (by norm_num) _ p q).trans ?_)
      rw [pay1_apply5])
    (by
      intro m hm
      rw [dif_pos hm, dif_pos (show m < 425 by omega)]
      simp only [dif_pos hm]
      have h1 := congrFun (hnext ⟨n * 425 + (m + 1), hb (m + 1) hm⟩ (by show ¬(n * 425 + (m + 1)) % 425 = 0; omega)) (ix2 p q)
      refine h1.trans ((tile_term V c ⟨n * 425 + (m + 1), hb (m + 1) hm⟩ n (m + 1) (by show (n * 425 + (m + 1)) % 425 = m + 1; omega)
        (by show (n * 425 + (m + 1)) / 425 = n; omega) hm _ p q).trans ?_)
      exact congrArg (· + _) (congrFun (acc_congr _ _ _ _ (by show n * 425 + (m + 1) - 1 = n * 425 + m; omega)) (ix2 p q)))
  rw [dif_pos (show 424 < 425 by norm_num)] at key
  exact (congrFun (acc_congr _ _ t.isLt (hb 424 (by norm_num)) (by omega)) (ix2 p q)).trans key

end

/-! ## From the blocks to the array -/

/-- An entry of the result array lies in point t's block iff each coordinate is in the block's range on its axis. -/
theorem mem_blk5 (t : Fin cfg5.N) (i : S50048x64.Idx) :
    i ∈ ((cfg5.win 3).blk t).view.set ↔ ∀ a : Fin 2, win5_3.index t a * S3128x64.size a ≤ (i a).val ∧ (i a).val < win5_3.index t a * S3128x64.size a + S3128x64.size a := by
  show i ∈ ((View.whole main_v39).slice (win5_3.rect t)).set ↔ _
  rw [View.set_slice_whole, Rect.mem_set_unit]
  exact Iff.rfl

/-- Row r of the result is written back by the last edge tile of node block r / 3128: the 16 node blocks of 3128 rows
    fill the 50048 rows. -/
theorem cover5 (i : S50048x64.Idx) : ∃ t : Fin cfg5.N, (cfg5.win 3).flush t = true ∧ i ∈ ((cfg5.win 3).blk t).view.set := by
  have hi0 : (i 0).val < 50048 := (i 0).isLt
  have hi1 : (i 1).val < 64 := (i 1).isLt
  have hN : cfg5.N = 6800 := N_5
  let t : Fin cfg5.N := ⟨(i 0).val / 3128 * 425 + 424, by rw [hN]; omega⟩
  obtain ⟨-, -, -, -, -, e0, e1⟩ := idx_facts5 t
  have ht : t.val = (i 0).val / 3128 * 425 + 424 := rfl
  refine ⟨t, (flush5_3 t).mpr (by rw [ht]; omega), ?_⟩
  rw [mem_blk5]
  intro a
  match a with
  | ⟨0, _⟩ => show win5_3.index t (0 : Fin 2) * 3128 ≤ (i 0).val ∧ (i 0).val < win5_3.index t (0 : Fin 2) * 3128 + 3128; rw [e0, ht]; omega
  | ⟨1, _⟩ => show win5_3.index t (1 : Fin 2) * 64 ≤ (i 1).val ∧ (i 1).val < win5_3.index t (1 : Fin 2) * 64 + 64; rw [e1]; omega

/-- Point t's result block of a whole-array function, read at an entry, is the function at the entry's place in the
    array. -/
theorem read_blk5 (t : Fin cfg5.N) (G : S50048x64.Idx → EReal) (y : S3128x64.Idx) :
    ((cfg5.win 3).blk t).view.read (Elt Ideal) G y = G (((cfg5.win 3).blk t).view.emb y) := rfl

section
variable (V : (c : Dev nD) → (b : Ref sig .tc) → Buf (Elt Ideal) ((c : Thread nD τ).loc b))

/-- For any proof data whose output block after a point is tanh of the carried block plus the bias row: what a last
    edge tile writes back is its node block of the scatter sum of the whole arrays. -/
theorem flushed5_eq_of (c : Dev nD) (dat : Dat τ (Elt Ideal) Unit ℕ (UR sig nD τ) ℕ cfg5 c)
    (acc : (n : ℕ) → n < cfg5.N → Vec Ideal S3128x64 .f32)
    (hfirst : ∀ t : Fin cfg5.N, t.val % 425 = 0 →
      acc t.val t.isLt = k5_pay2 (grid5.coords t) (iblk5 (F := Ideal) V c 0 t) (iblk5 (F := Ideal) V c 1 t) (k5_pay1 (F := Ideal)))
    (hnext : ∀ t : Fin cfg5.N, ¬t.val % 425 = 0 →
      acc t.val t.isLt = k5_pay2 (grid5.coords t) (iblk5 (F := Ideal) V c 0 t) (iblk5 (F := Ideal) V c 1 t)
        (acc (t.val - 1) (Nat.lt_of_le_of_lt (Nat.sub_le _ _) t.isLt)))
    (hafter : ∀ t : Fin cfg5.N, dat.after 3 t = k5_pay3 (acc t.val t.isLt) (iblk5 (F := Ideal) V c 2 t))
    (t : Fin cfg5.N) (hf : (cfg5.win 3).flush t = true) :
    dat.flushed 3 t = ((cfg5.win 3).blk t).view.read (Elt Ideal) (Cert.KSpec.sca (dArr V c) (mArr V c) (bArr V c)) := by
  have h424 : t.val % 425 = 424 := (flush5_3 t).mp hf
  have hN : cfg5.N = 6800 := N_5
  have ht : t.val < 6800 := by have := t.isLt; omega
  obtain ⟨-, -, -, -, -, e0, e1⟩ := idx_facts5 t
  show (cfg5.win 3).cut (grid5.coords t) (dat.after 3 t) = _
  rw [hafter]
  funext j
  obtain ⟨p, q, rfl⟩ : ∃ (p : Fin 3128) (q : Fin 64), j = ix2 p q := ⟨j 0, j 1, eq_ix2 j⟩
  refine (pay3_apply5 (acc t.val t.isLt) (iblk5 (F := Ideal) V c 2 t) p q).trans ?_
  refine Eq.trans ?_ (read_blk5 t (Cert.KSpec.sca (dArr V c) (mArr V c) (bArr V c)) (ix2 p q)).symm
  have hr : t.val / 425 * 3128 + p.val < 50048 := by have := p.isLt; omega
  have hemb : ((cfg5.win 3).blk t).view.emb (ix2 p q) = (ix2 (⟨t.val / 425 * 3128 + p.val, hr⟩ : Fin 50048) q : S50048x64.Idx) := by
    funext a
    apply Fin.ext
    match a with
    | ⟨0, _⟩ => show win5_3.index t (0 : Fin 2) * 3128 + 1 * p.val = t.val / 425 * 3128 + p.val; rw [e0]; omega
    | ⟨1, _⟩ => show win5_3.index t (1 : Fin 2) * 64 + 1 * q.val = q.val; rw [e1]; omega
  rw [hemb]
  show _ = Ideal.tanh ((∑ e : Fin 850000, if (dArr V c (ix2 e (0 : Fin 1))).toNat = t.val / 425 * 3128 + p.val
    then mArr V c (ix2 e q) else 0) + bArr V c (ix1 q))
  rw [acc_final V c acc hfirst hnext t h424 p q, iblk5_2_apply V c t q]

end

section
variable (V : (c : Dev nD) → (b : Ref sig .tc) → Buf (Elt Ideal) ((c : Thread nD τ).loc b))

/-- What a last edge tile writes back is its node block of the scatter sum of the whole arrays. -/
theorem flushed5_eq (c : Dev nD) (t : Fin cfg5.N) (hf : (cfg5.win 3).flush t = true) :
    (dat5 (F := Ideal) V c).flushed 3 t
      = ((cfg5.win 3).blk t).view.read (Elt Ideal) (Cert.KSpec.sca (dArr V c) (mArr V c) (bArr V c)) :=
  flushed5_eq_of V c (dat5 (F := Ideal) V c) (acc5 (F := Ideal) V c) (acc5_at_first V c) (acc5_at_next V c)
    (fun t => (after5_3 V c t).trans (out5_eq V c t)) t hf

/-- The result array of the second scatter region after its run: the scatter sum of the messages by destination, plus
    the bias, through tanh. -/
theorem final5 (c : Dev nD) :
    ((dat5 (F := Ideal) V c).arrAt 3 cfg5.N : S50048x64.Idx → EReal)
      = Cert.KSpec.sca (V c main_v32) (V c main_v38) (V c main_arg5) :=
  (dat5 (F := Ideal) V c).arrAt_eq_of_cover 3 (Cert.KSpec.sca (dArr V c) (mArr V c) (bArr V c))
    (fun t hf => flushed5_eq V c t hf) cover5

end

end Cert.KernelIdeal.ScatterVal5

end
-- ==== Proof.Val.FcPay.lean ====
/-
  The perceptron region's stored payload read at an index, at the ideal instance: two dense products into zero
  accumulators, each the sum over its one contraction axis of the operands' products; the bias rows are a vector cast to
  one row and that row repeated down the block; the format changes are the identity on extended reals. So the payload at
  row p, column j is  (∑ k, tanh ((∑ q, x p q * w1 q k) + b1 k) * w2 k j) + b2 j.
-/
import proofs.«401039_j68436008894831_1_alg».proof.Proof.Gen.KernelIdeal.Skeleton
import proofs.«401039_j68436008894831_1_alg».proof.Proof.Val.KSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.FcPay

open Cert.KernelIdeal Cert.KernelIdeal.Gen
open Idealize.ShloMosaic Idealize.SL.Sem Idealize.ShloMosaic.ValueIdx

/-! ## The first product: [3128 × 64] by [64 × 32] -/

/-- The first product's dimension numbers. -/
abbrev dA : DotDims S3128x64 S64x32 S3128x32 := dot_S3128x64_S64x32_S3128x32_1_0_0_1_n_n

theorem lhsA_0 (i : S3128x32.Idx) (q : dA.contr.Idx) : (dA.lhsIdx i q 0).val = (i 0).val := by
  unfold DotDims.lhsIdx
  rw [dif_neg (show ¬(0 : Fin S3128x64.rank) ∈ dA.lhsBatch by decide), dif_pos (show (0 : Fin S3128x64.rank) ∈ dA.lhsNonContracting by decide)]
  rfl
theorem lhsA_1 (i : S3128x32.Idx) (q : dA.contr.Idx) : (dA.lhsIdx i q 1).val = (q ⟨0, by decide⟩).val :=
  dA.lhsIdx_val_of_single rfl i q
theorem rhsA_0 (i : S3128x32.Idx) (q : dA.contr.Idx) : (dA.rhsIdx i q 0).val = (q ⟨0, by decide⟩).val :=
  dA.rhsIdx_val_of_single rfl i q
theorem rhsA_1 (i : S3128x32.Idx) (q : dA.contr.Idx) : (dA.rhsIdx i q 1).val = (i 1).val := by
  unfold DotDims.rhsIdx
  rw [dif_neg (show ¬(1 : Fin S64x32.rank) ∈ dA.rhsBatch by decide), dif_pos (show (1 : Fin S64x32.rank) ∈ dA.rhsNonContracting by decide)]
  rfl

/-- The first product into the zero accumulator, at (p, k): the sum over the 64 contraction coordinates. -/
theorem mmA_apply (x : FVec Ideal S3128x64 .bf16) (w : FVec Ideal S64x32 .bf16) (p : Fin 3128) (k : Fin 32) :
    FloatOps.matmul dA none x w (constant (F := Ideal) S3128x32 .f32 0x00000000#32) (ix2 p k)
      = ∑ q : Fin 64, x (ix2 p q) * w (ix2 q k) := by
  rw [Ideal.matmul_constant_zero_apply, ← Equiv.sum_comp (contrEquiv1 dA 64 rfl rfl).symm]
  refine Finset.sum_congr rfl fun q _ => ?_
  have hk := contrEquiv1_symm_val dA 64 rfl rfl q
  have el : dA.lhsIdx (ix2 p k) ((contrEquiv1 dA 64 rfl rfl).symm q) = ix2 p q := funext fun a => Fin.ext (by
    match a with
    | ⟨0, _⟩ => exact lhsA_0 _ _
    | ⟨1, _⟩ => exact (lhsA_1 _ _).trans hk)
  have er : dA.rhsIdx (ix2 p k) ((contrEquiv1 dA 64 rfl rfl).symm q) = ix2 q k := funext fun a => Fin.ext (by
    match a with
    | ⟨0, _⟩ => exact (rhsA_0 _ _).trans hk
    | ⟨1, _⟩ => exact rhsA_1 _ _)
  rw [el, er]

/-! ## The second product: [3128 × 32] by [32 × 1] -/

/-- The second product's dimension numbers. -/
abbrev dB : DotDims S3128x32 S32x1 S3128x1 := dot_S3128x32_S32x1_S3128x1_1_0_0_1_n_n

theorem lhsB_0 (i : S3128x1.Idx) (q : dB.contr.Idx) : (dB.lhsIdx i q 0).val = (i 0).val := by
  unfold DotDims.lhsIdx
  rw [dif_neg (show ¬(0 : Fin S3128x32.rank) ∈ dB.lhsBatch by decide), dif_pos (show (0 : Fin S3128x32.rank) ∈ dB.lhsNonContracting by decide)]
  rfl
theorem lhsB_1 (i : S3128x1.Idx) (q : dB.contr.Idx) : (dB.lhsIdx i q 1).val = (q ⟨0, by decide⟩).val :=
  dB.lhsIdx_val_of_single rfl i q
theorem rhsB_0 (i : S3128x1.Idx) (q : dB.contr.Idx) : (dB.rhsIdx i q 0).val = (q ⟨0, by decide⟩).val :=
  dB.rhsIdx_val_of_single rfl i q
theorem rhsB_1 (i : S3128x1.Idx) (q : dB.contr.Idx) : (dB.rhsIdx i q 1).val = (i 1).val := by
  unfold DotDims.rhsIdx
  rw [dif_neg (show ¬(1 : Fin S32x1.rank) ∈ dB.rhsBatch by decide), dif_pos (show (1 : Fin S32x1.rank) ∈ dB.rhsNonContracting by decide)]
  rfl

/-- The second product into the zero accumulator, at (p, j): the sum over the 32 contraction coordinates. -/
theorem mmB_apply (x : FVec Ideal S3128x32 .bf16) (w : FVec Ideal S32x1 .bf16) (p : Fin 3128) (j : Fin 1) :
    FloatOps.matmul dB none x w (constant (F := Ideal) S3128x1 .f32 0x00000000#32) (ix2 p j)
      = ∑ k : Fin 32, x (ix2 p k) * w (ix2 k j) := by
  rw [Ideal.matmul_constant_zero_apply, ← Equiv.sum_comp (contrEquiv1 dB 32 rfl rfl).symm]
  refine Finset.sum_congr rfl fun k _ => ?_
  have hk := contrEquiv1_symm_val dB 32 rfl rfl k
  have el : dB.lhsIdx (ix2 p j) ((contrEquiv1 dB 32 rfl rfl).symm k) = ix2 p k := funext fun a => Fin.ext (by
    match a with
    | ⟨0, _⟩ => exact lhsB_0 _ _
    | ⟨1, _⟩ => exact (lhsB_1 _ _).trans hk)
  have er : dB.rhsIdx (ix2 p j) ((contrEquiv1 dB 32 rfl rfl).symm k) = ix2 k j := funext fun a => Fin.ext (by
    match a with
    | ⟨0, _⟩ => exact (rhsB_0 _ _).trans hk
    | ⟨1, _⟩ => exact rhsB_1 _ _)
  rw [el, er]

/-! ## The bias rows -/

/-- A vector cast to one row and repeated down a block reads, at (p, c), the vector at c. -/
theorem bias_apply {a b : ℕ} (v : FVec Ideal ⟨1, ![b]⟩ .f32) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ v h₁) h₂ (ix2 p c) = v (ix1 c) :=
  (broadcastTo_1b_ab_apply _ h₂ p c).trans (shapeCast_a_1a_apply v h₁ 0 c)

/-! ## The payload -/

/-- The hidden layer of the payload: the first product plus its bias row, through `tanh`. -/
def hid (x : FVec Ideal S3128x64 .f32) (w1 : FVec Ideal S64x32 .f32) (b1 : FVec Ideal S32 .f32) : FVec Ideal S3128x32 .f32 :=
  tanh (addf (matmul dA none (truncf .bf16 (shapeCast S3128x64 x Facts₀.shapeCasts_S3128x64_S3128x64) Facts₀.bitsLt_bf16_f32)
      (truncf .bf16 w1 Facts₀.bitsLt_bf16_f32) (constant S3128x32 .f32 0x00000000#32))
    (broadcastTo S3128x32 (shapeCast S1x32 b1 Facts₀.shapeCasts_S32_S1x32) Facts₀.broadcasts_S1x32_S3128x32))

theorem hid_apply (x : FVec Ideal S3128x64 .f32) (w1 : FVec Ideal S64x32 .f32) (b1 : FVec Ideal S32 .f32) (p : Fin 3128) (k : Fin 32) :
    hid x w1 b1 (ix2 p k) = Ideal.tanh ((∑ q : Fin 64, x (ix2 p q) * w1 (ix2 q k)) + b1 (ix1 k)) := by
  show Ideal.tanh (FloatOps.matmul dA none (truncf .bf16 (shapeCast S3128x64 x Facts₀.shapeCasts_S3128x64_S3128x64) Facts₀.bitsLt_bf16_f32)
      (truncf .bf16 w1 Facts₀.bitsLt_bf16_f32) (constant (F := Ideal) S3128x32 .f32 0x00000000#32) (ix2 p k)
    + broadcastTo S3128x32 (shapeCast S1x32 b1 Facts₀.shapeCasts_S32_S1x32) Facts₀.broadcasts_S1x32_S3128x32 (ix2 p k)) = _
  rw [mmA_apply, bias_apply, shapeCast_self]
  rfl

/-- THE PAYLOAD AT AN INDEX. -/
theorem k6_pay1_apply (x : FVec Ideal S3128x64 .f32) (w1 : FVec Ideal S64x32 .f32) (b1 : FVec Ideal S32 .f32)
    (w2 : FVec Ideal S32x1 .f32) (b2 : FVec Ideal S1 .f32) (p : Fin 3128) (j : Fin 1) :
    k6_pay1 (F := Ideal) x w1 b1 w2 b2 (ix2 p j)
      = (∑ k : Fin 32, Ideal.tanh ((∑ q : Fin 64, x (ix2 p q) * w1 (ix2 q k)) + b1 (ix1 k)) * w2 (ix2 k j)) + b2 (ix1 j) := by
  show FloatOps.matmul dB none (truncf .bf16 (hid x w1 b1) Facts₀.bitsLt_bf16_f32) (truncf .bf16 w2 Facts₀.bitsLt_bf16_f32)
      (constant (F := Ideal) S3128x1 .f32 0x00000000#32) (ix2 p j)
    + broadcastTo S3128x1 (shapeCast S1x1 b2 Facts₀.shapeCasts_S1_S1x1) Facts₀.broadcasts_S1x1_S3128x1 (ix2 p j) = _
  rw [mmB_apply, bias_apply]
  refine congrArg (fun t => t + b2 (ix1 j)) ?_
  exact Finset.sum_congr rfl fun k _ => congrArg (fun t => t * w2 (ix2 k j)) (hid_apply x w1 b1 p k)

end Cert.KernelIdeal.FcPay

end
-- ==== Proof.Val.Final6.lean ====
/-
  The perceptron region's output array after its sixteen points: every row of the padded node axis lies in exactly one
  point's block of 3128 rows, each point writes back the perceptron tail of its block of node features and of the whole
  weight and bias arrays, so the array ends holding the perceptron tail of the arrays the region finds, row by row.
-/
import proofs.«401039_j68436008894831_1_alg».proof.Proof.KI.R6
import proofs.«401039_j68436008894831_1_alg».proof.Proof.Val.FcPay
import proofs.«401039_j68436008894831_1_alg».proof.Proof.Val.KSpec
import Idealize.ShloMosaic.Lib.Pipeline.Value
import Idealize.ShloMosaic.Lib.ValueIdx

noncomputable section

open scoped BigOperators

namespace Cert.KernelIdeal.Final6

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- What the body leaves in the output block is the payload of the five blocks it finds. -/
theorem out6_5_eq (x0 : Vec Ideal S3128x64 .f32) (x1 : Vec Ideal S64x32 .f32) (x2 : Vec Ideal S32 .f32) (x3 : Vec Ideal S32x1 .f32)
    (x4 : Vec Ideal S1 .f32) : out6_5 x0 x1 x2 x3 x4 = k6_pay1 x0 x1 x2 x3 x4 := by
  unfold out6_5
  rw [View.canon_unit_zero hz2]
  simp only [View.ld_unit_zero (S := S3128x64) hz2, View.ld_unit_zero (S := S64x32) hz2, View.ld_unit_zero (S := S32) hz1,
    View.ld_unit_zero (S := S32x1) hz2, View.ld_unit_zero (S := S1) hz1]

/-- The printed index maps, decided over the sixteen points: the feature and output windows move one block of rows a
    point; the weight and bias windows stay at the whole array. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 1) = 0
    ∧ win6_3.index t (0 : Fin 2) = 0 ∧ win6_3.index t (1 : Fin 2) = 0
    ∧ win6_4.index t (0 : Fin 1) = 0
    ∧ win6_5.index t (0 : Fin 2) = t.val ∧ win6_5.index t (1 : Fin 2) = 0 :=
  (by decide +kernel : ∀ t : Fin grid6.N, _)

/-- The function the array ends holding: the perceptron tail of the arrays the region finds. -/
abbrev G6 (c : Dev nD) : S50048x1.Idx → EReal :=
  Cert.KSpec.fc (V c main_v39) (V c main_arg6) (V c main_arg7) (V c main_arg8) (V c main_arg9)

/-- The payload of a block of rows of the features and of the whole weight and bias arrays is the perceptron tail of
    the arrays at the block's row. -/
theorem pay_at (A : Cert.KSpec.Arr2 50048 64) (w1 : Cert.KSpec.Arr2 64 32) (b1 : Cert.KSpec.Arr1 32) (w2 : Cert.KSpec.Arr2 32 1)
    (b2 : Cert.KSpec.Arr1 1) (x0 : FVec Ideal S3128x64 .f32) (x1 : FVec Ideal S64x32 .f32) (x2 : FVec Ideal S32 .f32)
    (x3 : FVec Ideal S32x1 .f32) (x4 : FVec Ideal S1 .f32) (T : ℕ) (p : Fin 3128) (j : Fin 1) (hr : T * 3128 + p.val < 50048)
    (h0 : ∀ q : Fin 64, x0 (ix2 p q) = A (ix2 ⟨T * 3128 + p.val, hr⟩ q))
    (h1 : x1 = w1) (h2 : x2 = b1) (h3 : x3 = w2) (h4 : x4 = b2) :
    k6_pay1 (F := Ideal) x0 x1 x2 x3 x4 (ix2 p j) = Cert.KSpec.fc A w1 b1 w2 b2 (ix2 ⟨T * 3128 + p.val, hr⟩ j) := by
  subst h1 h2 h3 h4
  refine (FcPay.k6_pay1_apply x0 x1 x2 x3 x4 p j).trans ?_
  show _ = (∑ k : Fin 32, Ideal.tanh ((∑ q : Fin 64, A (ix2 ⟨T * 3128 + p.val, hr⟩ q) * x1 (ix2 q k)) + x2 (ix1 k)) * x3 (ix2 k j))
    + x4 (ix1 j)
  simp only [h0]

/-- The feature window's block at point t is rows t·3128 … of the feature array. -/
theorem blk0_apply (c : Dev nD) (t : Fin cfg6.N) (p : Fin 3128) (q : Fin 64) (hr : t.val * 3128 + p.val < 50048) :
    iblk6 (F := Ideal) V c 0 t (ix2 p q) = V c main_v39 (ix2 ⟨t.val * 3128 + p.val, hr⟩ q) := by
  obtain ⟨e00, e01, -⟩ := idx_facts t
  show V c main_v39 (((cfg6.win 0).blk t).view.emb (ix2 p q)) = _
  refine congrArg (V c main_v39) (funext fun a => Fin.ext ?_)
  match a with
  | ⟨0, _⟩ => show win6_0.index t (0 : Fin 2) * 3128 + 1 * p.val = t.val * 3128 + p.val; omega
  | ⟨1, _⟩ => show win6_0.index t (1 : Fin 2) * 64 + 1 * q.val = q.val; omega

/-- The four weight and bias windows' blocks are their whole arrays at every point. -/
theorem blk1_eq (c : Dev nD) (t : Fin cfg6.N) : (iblk6 (F := Ideal) V c 1 t : S64x32.Idx → EReal) = V c main_arg6 := by
  obtain ⟨-, -, e10, e11, -⟩ := idx_facts t
  funext y
  show V c main_arg6 (((cfg6.win 1).blk t).view.emb y) = V c main_arg6 y
  refine congrArg (V c main_arg6) (funext fun a => Fin.ext ?_)
  match a with
  | ⟨0, _⟩ => show win6_1.index t (0 : Fin 2) * 64 + 1 * (y 0).val = (y 0).val; omega
  | ⟨1, _⟩ => show win6_1.index t (1 : Fin 2) * 32 + 1 * (y 1).val = (y 1).val; omega
theorem blk2_eq (c : Dev nD) (t : Fin cfg6.N) : (iblk6 (F := Ideal) V c 2 t : S32.Idx → EReal) = V c main_arg7 := by
  obtain ⟨-, -, -, -, e2, -⟩ := idx_facts t
  funext y
  show V c main_arg7 (((cfg6.win 2).blk t).view.emb y) = V c main_arg7 y
  refine congrArg (V c main_arg7) (funext fun a => Fin.ext ?_)
  match a with
  | ⟨0, _⟩ => show win6_2.index t (0 : Fin 1) * 32 + 1 * (y 0).val = (y 0).val; omega
theorem blk3_eq (c : Dev nD) (t : Fin cfg6.N) : (iblk6 (F := Ideal) V c 3 t : S32x1.Idx → EReal) = V c main_arg8 := by
  obtain ⟨-, -, -, -, -, e30, e31, -⟩ := idx_facts t
  funext y
  show V c main_arg8 (((cfg6.win 3).blk t).view.emb y) = V c main_arg8 y
  refine congrArg (V c main_arg8) (funext fun a => Fin.ext ?_)
  match a with
  | ⟨0, _⟩ => show win6_3.index t (0 : Fin 2) * 32 + 1 * (y 0).val = (y 0).val; omega
  | ⟨1, _⟩ => show win6_3.index t (1 : Fin 2) * 1 + 1 * (y 1).val = (y 1).val; omega
theorem blk4_eq (c : Dev nD) (t : Fin cfg6.N) : (iblk6 (F := Ideal) V c 4 t : S1.Idx → EReal) = V c main_arg9 := by
  obtain ⟨-, -, -, -, -, -, -, e4, -⟩ := idx_facts t
  funext y
  show V c main_arg9 (((cfg6.win 4).blk t).view.emb y) = V c main_arg9 y
  refine congrArg (V c main_arg9) (funext fun a => Fin.ext ?_)
  match a with
  | ⟨0, _⟩ => show win6_4.index t (0 : Fin 1) * 1 + 1 * (y 0).val = (y 0).val; omega

/-- WHAT POINT t WRITES BACK is block t of the perceptron tail of the arrays. -/
theorem flushed6_eq (c : Dev nD) (t : Fin cfg6.N) :
    (dat6 (F := Ideal) V c).flushed 5 t = ((cfg6.win 5).blk t).view.read (Elt Ideal) (G6 V c) := by
  show (cfg6.win 5).cut (grid6.coords t) ((dat6 (F := Ideal) V c).after 5 t) = _
  rw [after6_5]
  refine funext fun (j : S3128x1.Idx) => ?_
  obtain ⟨p, q, rfl⟩ : ∃ (p : Fin 3128) (q : Fin 1), j = ix2 p q := ⟨j 0, j 1, eq_ix2 j⟩
  obtain ⟨-, -, -, -, -, -, -, -, e50, e51⟩ := idx_facts t
  have ht : t.val < 16 := lt_of_lt_of_eq t.isLt N_6
  have hp : p.val < 3128 := p.isLt
  have hr : t.val * 3128 + p.val < 50048 := by omega
  have hemb : ((cfg6.win 5).blk t).view.emb (ix2 p q) = ix2 ⟨t.val * 3128 + p.val, hr⟩ q := funext fun a => Fin.ext (by
    match a with
    | ⟨0, _⟩ => show win6_5.index t (0 : Fin 2) * 3128 + 1 * p.val = t.val * 3128 + p.val; omega
    | ⟨1, _⟩ => show win6_5.index t (1 : Fin 2) * 1 + 1 * q.val = q.val; omega)
  show out6_5 (iblk6 V c 0 t) (iblk6 V c 1 t) (iblk6 V c 2 t) (iblk6 V c 3 t) (iblk6 V c 4 t) (ix2 p q)
    = G6 V c (((cfg6.win 5).blk t).view.emb (ix2 p q))
  rw [hemb]
  refine (congrFun (out6_5_eq (iblk6 V c 0 t) (iblk6 V c 1 t) (iblk6 V c 2 t) (iblk6 V c 3 t) (iblk6 V c 4 t)) (ix2 p q)).trans ?_
  exact pay_at (V c main_v39) (V c main_arg6) (V c main_arg7) (V c main_arg8) (V c main_arg9)
    (iblk6 V c 0 t) (iblk6 V c 1 t) (iblk6 V c 2 t) (iblk6 V c 3 t) (iblk6 V c 4 t) t.val p q hr
    (fun q' => blk0_apply V c t p q' hr) (blk1_eq V c t) (blk2_eq V c t) (blk3_eq V c t) (blk4_eq V c t)

/-- An index of the output array is in point t's block iff each coordinate is in the block's range on its axis. -/
theorem mem_blk (t : Fin cfg6.N) (i : S50048x1.Idx) :
    i ∈ ((cfg6.win 5).blk t).view.set ↔ ∀ a : Fin 2, win6_5.index t a * S3128x1.size a ≤ (i a).val
      ∧ (i a).val < win6_5.index t a * S3128x1.size a + S3128x1.size a := by
  show i ∈ ((View.whole main_v40).slice (win6_5.rect t)).set ↔ _
  rw [View.set_slice_whole, Rect.mem_set_unit]
  exact Iff.rfl

/-- Every row of the output array is in the block of the point its row number divided by 3128 names. -/
theorem cover (i : S50048x1.Idx) : ∃ t : Fin cfg6.N, (cfg6.win 5).flush t = true ∧ i ∈ ((cfg6.win 5).blk t).view.set := by
  have hi0 : (i 0).val < 50048 := (i 0).isLt
  have hi1 : (i 1).val < 1 := (i 1).isLt
  have hN : (i 0).val / 3128 < cfg6.N := lt_of_lt_of_eq (by omega) N_6.symm
  obtain ⟨-, -, -, -, -, -, -, -, e50, e51⟩ := idx_facts ⟨(i 0).val / 3128, hN⟩
  have e50' : win6_5.index ⟨(i 0).val / 3128, hN⟩ (0 : Fin 2) = (i 0).val / 3128 := e50
  refine ⟨⟨(i 0).val / 3128, hN⟩, flush6_5 _, ?_⟩
  rw [mem_blk]
  intro a
  match a with
  | ⟨0, _⟩ =>
    show win6_5.index ⟨(i 0).val / 3128, hN⟩ (0 : Fin 2) * 3128 ≤ (i 0).val
      ∧ (i 0).val < win6_5.index ⟨(i 0).val / 3128, hN⟩ (0 : Fin 2) * 3128 + 3128
    omega
  | ⟨1, _⟩ =>
    show win6_5.index ⟨(i 0).val / 3128, hN⟩ (1 : Fin 2) * 1 ≤ (i 1).val
      ∧ (i 1).val < win6_5.index ⟨(i 0).val / 3128, hN⟩ (1 : Fin 2) * 1 + 1
    omega

/-- THE OUTPUT ARRAY after the region: the perceptron tail of the arrays the region finds. -/
theorem final6 (c : Dev nD) :
    ((dat6 (F := Ideal) V c).arrAt 5 cfg6.N : S50048x1.Idx → EReal)
      = Cert.KSpec.fc (V c main_v39) (V c main_arg6) (V c main_arg7) (V c main_arg8) (V c main_arg9) :=
  (dat6 (F := Ideal) V c).arrAt_eq_of_cover 5 (G6 V c) (fun t _ => flushed6_eq V c t) cover

end Cert.KernelIdeal.Final6

end
-- ==== Proof.Val.KValue.lean ====
/-
  The idealized kernel program's result value, closed: the assembly of Val/KAssemble.lean with each region's value,
  the host prefix's arrays read at an index, and the final slice put in. Under the domain condition that every
  endpoint word of the extended edge list names a node, every row of the result is the network of Spec on that row.
  At the ideal instance.
-/
import proofs.«401039_j68436008894831_1_alg».proof.Proof.Val.KAssemble
import proofs.«401039_j68436008894831_1_alg».proof.Proof.Val.KHost
import proofs.«401039_j68436008894831_1_alg».proof.Proof.Val.Slice
import proofs.«401039_j68436008894831_1_alg».proof.Proof.Val.Final0
import proofs.«401039_j68436008894831_1_alg».proof.Proof.Val.Final1
import proofs.«401039_j68436008894831_1_alg».proof.Proof.Val.Final2
import proofs.«401039_j68436008894831_1_alg».proof.Proof.Val.Final3
import proofs.«401039_j68436008894831_1_alg».proof.Proof.Val.Final4
import proofs.«401039_j68436008894831_1_alg».proof.Proof.Val.Final5
import proofs.«401039_j68436008894831_1_alg».proof.Proof.Val.Final6

set_option maxRecDepth 16384

noncomputable section

namespace Cert.KernelIdeal.Assemble

open Cert.KernelIdeal Cert.KernelIdeal.Gen Cert.KernelIdeal.Hand
open Idealize.ShloMosaic Idealize.ShloMosaic.TcCoe Idealize.ShloMosaic.ValueIdx

/-- THE KERNEL PROGRAM'S VALUE: with every endpoint word of the extended edge list naming a node, row `r` of the
    program's result is the network of Spec, over the launched features, edge list and parameters, on row `r`. -/
theorem kernel_value (m : (ℓ : Loc nD τ sig) → Buf (Elt Ideal) ℓ) (ρ : Dev nD → PrngReg) (c : Dev nD)
    (hr : ∀ e : Fin 850000,
      (Cert.Spec.endpt (m ((c.tc : Thread nD τ).loc main_arg1) : S2x800000.Idx → BitVec 32) 0 e).toNat < 50000
        ∧ (Cert.Spec.endpt (m ((c.tc : Thread nD τ).loc main_arg1) : S2x800000.Idx → BitVec 32) 1 e).toNat < 50000) :
    ∀ r : Fin 50000, (W13 m ρ c (Proc.devRef .tc main_v41) : S50000x1.Idx → EReal) (ix2 r 0)
      = Cert.Spec.net (Cert.Spec.endpt (m ((c.tc : Thread nD τ).loc main_arg1) : S2x800000.Idx → BitVec 32) 0)
          (Cert.Spec.endpt (m ((c.tc : Thread nD τ).loc main_arg1) : S2x800000.Idx → BitVec 32) 1)
          (Cert.Spec.rows (m ((c.tc : Thread nD τ).loc main_arg0) : S50000x128.Idx → EReal))
          (Cert.Spec.mat (m ((c.tc : Thread nD τ).loc main_arg2) : S128x64.Idx → EReal)) (Cert.Spec.vec (m ((c.tc : Thread nD τ).loc main_arg3) : S64.Idx → EReal))
          (Cert.Spec.mat (m ((c.tc : Thread nD τ).loc main_arg4) : S64x64.Idx → EReal)) (Cert.Spec.vec (m ((c.tc : Thread nD τ).loc main_arg5) : S64.Idx → EReal))
          (Cert.Spec.mat (m ((c.tc : Thread nD τ).loc main_arg6) : S64x32.Idx → EReal)) (Cert.Spec.vec (m ((c.tc : Thread nD τ).loc main_arg7) : S32.Idx → EReal))
          (Cert.Spec.mat (m ((c.tc : Thread nD τ).loc main_arg8) : S32x1.Idx → EReal)) (Cert.Spec.vec (m ((c.tc : Thread nD τ).loc main_arg9) : S1.Idx → EReal))
          r.val 0 :=
  kernel_value_of m ρ c
    (fun V c => Cert.KernelIdeal.DenseVal.final0 V c)
    (fun V c => Cert.KernelIdeal.GatherVal.final1 V c)
    (fun V c => Cert.KernelIdeal.ScatterVal2.final2 V c)
    (fun V c => Cert.KernelIdeal.DenseVal.final3 V c)
    (fun V c => Cert.KernelIdeal.GatherVal.final4 V c)
    (fun V c => Cert.KernelIdeal.ScatterVal5.final5 V c)
    (fun V c => Cert.KernelIdeal.Final6.final6 V c)
    _ _ _ hr
    (fun r k => Cert.KernelIdeal.HostVal.v0_apply m ρ c r k)
    (fun e => Cert.KernelIdeal.HostVal.v31_apply m ρ c e)
    (fun e => Cert.KernelIdeal.HostVal.v32_apply m ρ c e)
    (fun e => Cert.KernelIdeal.HostVal.v33_apply m ρ c hr e)
    (fun X r j h => Cert.KernelIdeal.Slice.slice_apply X r j)

end Cert.KernelIdeal.Assemble

end
-- ==== Proof.Val.LibIdx2.lean ====
/-
  Rows of a table read and accumulated through a COLUMN of index words: what `x[idx]` and `zeros.at[idx].add(u)` of a
  rank-2 array of `N` rows of `C` entries at `E` indices lower to once the indices are laid out as an `[E, 1]` array, each
  read at one index. The gather's row `e` is the operand's row at the `e`-th word, read signed and clamped into
  `[0, N − 1]`; the accumulating scatter at row `n`, column `c` is the operand's entry plus the sum, over all `E` update
  rows, of column `c` of the rows whose word, read signed and not clamped, is `n`. For 32-bit words below `N ≤ 2³¹` the
  signed reading is the unsigned one. A word in that range is also left as it is by the wrap
  `select (w <s 0) (w + K) w` that precedes such a gather.
-/
import Idealize.ShloMosaic.PureOps.Ideal
import Idealize.ShloMosaic.Lib.ValueIdx

noncomputable section

open scoped BigOperators

namespace Cert.LibIdx2

open Idealize.ShloMosaic Idealize.ShloMosaic.ValueIdx

/-! ## 32-bit words read signed -/

/-- A 32-bit word read signed is the natural number `n < 2³¹` exactly when it is `n` read unsigned. -/
theorem toInt_eq_natCast_iff (v : BitVec 32) (n : ℕ) (hn : n < 2 ^ 31) : v.toInt = (n : ℤ) ↔ v.toNat = n := by
  rw [BitVec.toInt_eq_toNat_cond]
  have := v.isLt
  split <;> omega

/-- A 32-bit word below `2³¹` read signed, then as a natural number, is the word read unsigned. -/
theorem toInt_toNat_of_lt (v : BitVec 32) (hv : v.toNat < 2 ^ 31) : v.toInt.toNat = v.toNat := by
  rw [BitVec.toInt_eq_toNat_cond]
  split <;> omega

/-- A 32-bit word below `2³¹` is not negative read signed, so the wrap of negative indices leaves it alone. -/
theorem wrap_of_lt (v K : BitVec 32) (hv : v.toNat < 2 ^ 31) :
    Scalar.select (IntOp.cmpi .slt v 0#32) (IntOp.addi v K) v = v := by
  have h0 : v.slt 0#32 = false := by
    unfold BitVec.slt
    rw [decide_eq_false_iff_not, BitVec.toInt_eq_toNat_cond]
    have : (0#32 : BitVec 32).toInt = 0 := by decide
    rw [this]
    split <;> omega
  unfold Scalar.select IntOp.cmpi
  rw [if_neg]
  simp only [h0]
  decide

/-! ## The gather of rows -/

section Gather
variable {α : Type}

/-- The dimension numbers of `x[idx]` for an operand `[N, C]`, start indices `[E, 1]` and result `[E, C]`: the operand's
    row axis collapsed and named by the start index map, the index vector along axis 1, slices of one whole row. -/
abbrev gatherRows (N E C : ℕ) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The gather read at row `e`, column `j`: the operand's column `j` in the row the word `idx[e, 0]` names, read signed
    and clamped into `[0, N − 1]`. -/
theorem gatherRows_apply {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (gatherRows N E C wf) x idx (ix2 e j)
      = x (ix2 ⟨min (idx (ix2 e (0 : Fin 1))).toInt.toNat (N - 1), by omega⟩ j) := by
  unfold Host.gather
  congr 1
  funext a
  refine Fin.ext ?_
  match a with
  | ⟨0, _⟩ =>
    show (gatherRows N E C wf).start (ix2 e j) idx 0 + (gatherRows N E C wf).batchCoord (ix2 e j) 0
      + (gatherRows N E C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRows N E C wf).startIndexMap from List.mem_singleton.mpr rfl)]
    have hsi : (gatherRows N E C wf).siIdx (ix2 e j) ⟨List.idxOf (0 : Fin 2) (gatherRows N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gatherRows N E C wf).start (ix2 e j) idx 1 + (gatherRows N E C wf).batchCoord (ix2 e j) 1
      + (gatherRows N E C wf).offCoord (ix2 e j) 1 = j.val
    have hst : (gatherRows N E C wf).start (ix2 e j) idx 1 = 0 := by
      unfold GatherDims.start
      rw [dif_neg]
      show (1 : Fin 2) ∉ [(0 : Fin 2)]
      decide
    have hmem : (1 : Fin 2) ∈ (gatherRows N E C wf).sKept :=
      (GatherDims.mem_sKept _ _).mpr ⟨by show (1 : Fin 2) ∉ [(0 : Fin 2)]; decide, List.not_mem_nil⟩
    rw [hst, GatherDims.batchCoord_eq_zero _ _ _ List.not_mem_nil]
    unfold GatherDims.offCoord
    rw [dif_pos hmem]
    refine (Nat.zero_add _).trans ?_
    rfl

/-- At a 32-bit word below `N ≤ 2³¹` the gather reads the operand's row at that word. -/
theorem gatherRows_apply_of_lt {N E C : ℕ} (hN : N ≤ 2 ^ 31)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ 32) (e : Fin E) (j : Fin C)
    (h : (idx (ix2 e (0 : Fin 1))).toNat < N) :
    Host.gather (gatherRows N E C wf) x idx (ix2 e j) = x (ix2 ⟨(idx (ix2 e (0 : Fin 1))).toNat, h⟩ j) := by
  rw [gatherRows_apply (by omega) wf x idx e j]
  congr 1
  refine congrArg (fun r => ix2 r j) (Fin.ext ?_)
  show min (idx (ix2 e (0 : Fin 1))).toInt.toNat (N - 1) = (idx (ix2 e (0 : Fin 1))).toNat
  rw [toInt_toNat_of_lt _ (by omega)]
  omega

end Gather

/-! ## The accumulating scatter of rows -/

section Scatter

/-- The dimension numbers of `x.at[idx].add(u)` for an operand `[N, C]`, scatter indices `[E, 1]` and updates `[E, C]`:
    the updates' column axis a window axis, the operand's row axis inserted and named by the scatter map, the index
    vector along axis 1. -/
abbrev scatterRows (N E C : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : ℕ} (wf : ScatterDims.WF ⟨2, ![N, C]⟩ ⟨2, ![E, 1]⟩ ⟨2, ![E, C]⟩ [1] [0] [0] 1)

/-- Update `j`'s start on the operand's row axis is its row's word, read signed. -/
theorem scatterRows_start0 (j : (⟨2, ![E, C]⟩ : Shape).Idx) (idx : IVec ⟨2, ![E, 1]⟩ w) :
    (scatterRows N E C wf).start j idx 0 = (idx (ix2 (j 0) (0 : Fin 1))).toInt := by
  unfold ScatterDims.start
  rw [dif_pos (show (0 : Fin 2) ∈ (scatterRows N E C wf).scatterDimsToOperandDims from List.mem_singleton.mpr rfl)]
  have hsi : (scatterRows N E C wf).siIdx j ⟨List.idxOf (0 : Fin 2) (scatterRows N E C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis, which the scatter map does not name, the start is zero. -/
theorem scatterRows_start1 (j : (⟨2, ![E, C]⟩ : Shape).Idx) (idx : IVec ⟨2, ![E, 1]⟩ w) :
    (scatterRows N E C wf).start j idx 1 = 0 := by
  unfold ScatterDims.start
  rw [dif_neg]
  show (1 : Fin 2) ∉ [(0 : Fin 2)]
  decide

/-- The row axis is inserted: no window coordinate there. -/
theorem scatterRows_window0 (j : (⟨2, ![E, C]⟩ : Shape).Idx) : (scatterRows N E C wf).window j 0 = 0 := by
  unfold ScatterDims.window
  rw [dif_neg]
  simp [ScatterDims.sKept, Shape.kept, List.mem_filter]

/-- The window coordinate on the column axis is the update's column. -/
theorem scatterRows_window1 (j : (⟨2, ![E, C]⟩ : Shape).Idx) : (scatterRows N E C wf).window j 1 = (j 1).val := by
  unfold ScatterDims.window
  rw [dif_pos (by simp [ScatterDims.sKept, Shape.kept, List.mem_filter])]
  rfl

/-- Update `j` lands on `i` exactly when its row's word, read signed, is `i`'s row and its column is `i`'s column. -/
theorem scatterRows_resultIdx?_eq_some_iff (j : (⟨2, ![E, C]⟩ : Shape).Idx) (idx : IVec ⟨2, ![E, 1]⟩ w)
    (i : (⟨2, ![N, C]⟩ : Shape).Idx) :
    (scatterRows N E C wf).resultIdx? j idx = some i
      ↔ (idx (ix2 (j 0) (0 : Fin 1))).toInt = ((i 0).val : ℤ) ∧ (j 1).val = (i 1).val := by
  have hs0 := scatterRows_start0 wf j idx
  have hs1 := scatterRows_start1 wf j idx
  have hw0 := scatterRows_window0 wf j
  have hw1 := scatterRows_window1 wf j
  have hi0 : (i 0).val < N := (i 0).isLt
  have hi1 : (i 1).val < C := (i 1).isLt
  have hj1 : (j 1).val < C := (j 1).isLt
  unfold ScatterDims.resultIdx?
  split
  · next h =>
    rw [Option.some.injEq]
    constructor
    · intro he
      have e0 := congrArg (fun f => (f 0).val) he
      have e1 := congrArg (fun f => (f 1).val) he
      have h0 := (h 0).1
      simp only [hs0, hw0] at e0 h0
      simp only [hs1, hw1] at e1
      constructor <;> omega
    · rintro ⟨he0, he1⟩
      funext a
      refine Fin.ext ?_
      match a with
      | ⟨0, _⟩ =>
        show ((scatterRows N E C wf).start j idx 0 + ((scatterRows N E C wf).window j 0 : ℤ)).toNat = (i 0).val
        rw [hs0, hw0, he0]
        omega
      | ⟨1, _⟩ =>
        show ((scatterRows N E C wf).start j idx 1 + ((scatterRows N E C wf).window j 1 : ℤ)).toNat = (i 1).val
        rw [hs1, hw1]
        omega
  · next h =>
    constructor
    · intro he; exact absurd he (by simp)
    · rintro ⟨he0, he1⟩
      exfalso
      apply h
      intro a
      match a with
      | ⟨0, _⟩ =>
        show 0 ≤ (scatterRows N E C wf).start j idx 0 + ((scatterRows N E C wf).window j 0 : ℤ)
          ∧ (scatterRows N E C wf).start j idx 0 + ((scatterRows N E C wf).window j 0 : ℤ) < (N : ℤ)
        rw [hs0, hw0, he0]
        omega
      | ⟨1, _⟩ =>
        show 0 ≤ (scatterRows N E C wf).start j idx 1 + ((scatterRows N E C wf).window j 1 : ℤ)
          ∧ (scatterRows N E C wf).start j idx 1 + ((scatterRows N E C wf).window j 1 : ℤ) < (C : ℤ)
        rw [hs1, hw1]
        omega

/-- THE SCATTER READ AT ROW `n`, COLUMN `c`, at the ideal instance: the operand's entry plus column `c` of the update
    rows whose word is `n`, each update row entering the sum once whether or not it lands. -/
theorem scatterAddRows_apply {φ : FTy} (x : (⟨2, ![N, C]⟩ : Shape).Idx → EReal) (idx : IVec ⟨2, ![E, 1]⟩ w)
    (upd : (⟨2, ![E, C]⟩ : Shape).Idx → EReal) (n : Fin N) (c : Fin C) :
    (Host.scatterAdd (F := Ideal) (φ := φ) (scatterRows N E C wf) x idx upd : (⟨2, ![N, C]⟩ : Shape).Idx → EReal) (ix2 n c)
      = x (ix2 n c) + ∑ e : Fin E, if (idx (ix2 e (0 : Fin 1))).toInt = (n.val : ℤ) then upd (ix2 e c) else 0 := by
  show x (ix2 n c) + ∑ j ∈ Finset.univ.filter (fun j => (scatterRows N E C wf).resultIdx? j idx = some (ix2 n c)), upd j = _
  congr 1
  rw [Finset.sum_filter, sum_idx2]
  refine Finset.sum_congr rfl fun e _ => ?_
  have hiff : ∀ b : Fin C, (scatterRows N E C wf).resultIdx? (ix2 e b) idx = some (ix2 n c)
      ↔ ((idx (ix2 e (0 : Fin 1))).toInt = (n.val : ℤ) ∧ b = c) := fun b =>
    (scatterRows_resultIdx?_eq_some_iff wf (ix2 e b) idx (ix2 n c)).trans
      (and_congr Iff.rfl (show b.val = c.val ↔ b = c from Fin.val_inj))
  rw [Finset.sum_congr rfl (fun b _ => if_congr (hiff b) rfl rfl)]
  by_cases hT : (idx (ix2 e (0 : Fin 1))).toInt = (n.val : ℤ)
  · simp [hT]
  · simp [hT]

/-- The same for 32-bit words and `N ≤ 2³¹` rows, the words read unsigned. -/
theorem scatterAddRows_apply32 {φ : FTy} (wf : ScatterDims.WF ⟨2, ![N, C]⟩ ⟨2, ![E, 1]⟩ ⟨2, ![E, C]⟩ [1] [0] [0] 1)
    (hN : N ≤ 2 ^ 31) (x : (⟨2, ![N, C]⟩ : Shape).Idx → EReal) (idx : IVec ⟨2, ![E, 1]⟩ 32)
    (upd : (⟨2, ![E, C]⟩ : Shape).Idx → EReal) (n : Fin N) (c : Fin C) :
    (Host.scatterAdd (F := Ideal) (φ := φ) (scatterRows N E C wf) x idx upd : (⟨2, ![N, C]⟩ : Shape).Idx → EReal) (ix2 n c)
      = x (ix2 n c) + ∑ e : Fin E, if (idx (ix2 e (0 : Fin 1))).toNat = n.val then upd (ix2 e c) else 0 := by
  rw [scatterAddRows_apply wf x idx upd n c]
  congr 1
  refine Finset.sum_congr rfl fun e _ => ?_
  exact if_congr (toInt_eq_natCast_iff _ _ (by have := n.isLt; omega)) rfl rfl

end Scatter

end Cert.LibIdx2

end
-- ==== Proof.Val.RefLayers.lean ====
/-
  The reference program read index by index at the ideal instance (extended reals, exact operations). Its extended
  edge list is the 800000 given source and destination words followed by one self loop per node; under the
  assumption that every word names a node (is below 50000 read unsigned) the wrap of negative indices is the
  identity and every gather reads the row its word names. The degree buffer is, node by node, the number of edges
  landing there as a sum of ones; the weight buffer is, edge by edge, the product of the inverse square roots of the
  degrees of its endpoints. A convolution layer gathers the rows of the features times the weights by source word,
  scales them by the edge's weight, sums them at their destinations, adds the bias and applies `tanh`; the tail is a
  two-layer perceptron. Row by row this is `Cert.Spec.net`.
-/
import proofs.«401039_j68436008894831_1_alg».proof.Proof.Ref.Read
import proofs.«401039_j68436008894831_1_alg».proof.Proof.Val.Spec
import proofs.«401039_j68436008894831_1_alg».proof.Proof.Val.LibIdx
import proofs.«401039_j68436008894831_1_alg».proof.Proof.Val.LibIdx2
import Idealize.ShloMosaic.PureOps.Ideal.Laws
import Idealize.ShloMosaic.Lib.Pipeline.Value

set_option Elab.async false

noncomputable section

open scoped BigOperators

namespace Cert.ReferenceIdeal.RefLayers

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx

/-! ## Rows of a table by natural number -/

/-- Below the table's end a row read by number is the table's row. -/
theorem rows_of_lt {R C : ℕ} (a : (⟨2, ![R, C]⟩ : Shape).Idx → EReal) (n : ℕ) (h : n < R) (j : Fin C) :
    Spec.rows a n j = a (ix2 ⟨n, h⟩ j) := by
  unfold Spec.rows
  rw [dif_pos h]

/-- Past the table's end it is zero. -/
theorem rows_of_ge {R C : ℕ} (a : (⟨2, ![R, C]⟩ : Shape).Idx → EReal) (n : ℕ) (h : ¬ n < R) (j : Fin C) :
    Spec.rows a n j = 0 := by
  unfold Spec.rows
  rw [dif_neg h]

/-- The column index `[e, 0]` of an `[850000, 1]` array, carried to the `[850000]` array it broadcasts, is `[e]`. -/
theorem col_idx (f : S850000x1.Idx → S850000.Idx) (hf : ∀ i, (f i 0).val = (i 0).val) (e : Fin 850000) :
    f (ix2 e (0 : Fin 1)) = ix1 e := by
  funext a
  obtain rfl : a = 0 := Subsingleton.elim _ _
  exact Fin.ext (hf _)

variable (x0 : (⟨S50000x128, .f32⟩ : BufTy).Contents (Elt Ideal)) (x1 : (⟨S2x800000, .i32⟩ : BufTy).Contents (Elt Ideal))
  (x2 : (⟨S128x64, .f32⟩ : BufTy).Contents (Elt Ideal)) (x3 : (⟨S64, .f32⟩ : BufTy).Contents (Elt Ideal))
  (x4 : (⟨S64x64, .f32⟩ : BufTy).Contents (Elt Ideal)) (x5 : (⟨S64, .f32⟩ : BufTy).Contents (Elt Ideal))
  (x6 : (⟨S64x32, .f32⟩ : BufTy).Contents (Elt Ideal)) (x7 : (⟨S32, .f32⟩ : BufTy).Contents (Elt Ideal))
  (x8 : (⟨S32x1, .f32⟩ : BufTy).Contents (Elt Ideal)) (x9 : (⟨S1, .f32⟩ : BufTy).Contents (Elt Ideal))

/-! ## The extended edge list -/

/-- 800000 given words followed by the 50000 node numbers, at entry `e`: the given word below 800000, else the
    node number `e − 800000`. -/
theorem concat_apply (a : (⟨S800000, .i32⟩ : BufTy).Contents (Elt Ideal)) (e : Fin 850000) :
    (concatenate S850000 0 [⟨S800000, a⟩, ⟨S50000, (iotaInDim S50000 32 0 : (⟨S50000, .i32⟩ : BufTy).Contents (Elt Ideal))⟩]
        concatenates_S800000_S50000_S850000_d0 : (⟨S850000, .i32⟩ : BufTy).Contents (Elt Ideal)) (ix1 e)
      = if h : e.val < 800000 then a (ix1 ⟨e.val, h⟩) else BitVec.ofNat 32 (e.val - 800000) := by
  by_cases h : e.val < 800000
  · rw [dif_pos h]
    exact concatenate_pair_apply_left (t := S850000) (s₁ := S800000) (s₂ := S50000) _ a _ _ (ix1 e) rfl (ix1 ⟨e.val, h⟩)
      (fun b => by obtain rfl : b = 0 := Subsingleton.elim _ _; rfl)
  · rw [dif_neg h]
    refine (concatenate_pair_apply_right (t := S850000) (s₁ := S800000) (s₂ := S50000) _ a _ _ (ix1 e) rfl rfl
      (ix1 ⟨e.val - 800000, by have := e.isLt; omega⟩) (fun b hb => absurd (Subsingleton.elim _ _) hb) ?_).trans rfl
    show e.val - 800000 + 800000 = e.val
    omega

/-- The source words of the extended edge list. -/
theorem v5_apply (e : Fin 850000) : val_main_v5 (F := Ideal) x1 (ix1 e) = Spec.endpt x1 0 e := by
  unfold val_main_v5 Spec.endpt
  refine (concat_apply (val_main_v1 (F := Ideal) x1) e).trans ?_
  by_cases h : e.val < 800000
  · simp only [dif_pos h]
    rw [val_main_v1_apply, val_main_v0_apply]
    congr 1
    funext a
    match a with
    | ⟨0, _⟩ => rfl
    | ⟨1, _⟩ => exact Fin.ext (Nat.mod_eq_of_lt h)
  · simp only [dif_neg h]

/-- The destination words of the extended edge list. -/
theorem v6_apply (e : Fin 850000) : val_main_v6 (F := Ideal) x1 (ix1 e) = Spec.endpt x1 1 e := by
  unfold val_main_v6 Spec.endpt
  refine (concat_apply (val_main_v3 (F := Ideal) x1) e).trans ?_
  by_cases h : e.val < 800000
  · simp only [dif_pos h]
    rw [val_main_v3_apply, val_main_v2_apply]
    congr 1
    funext a
    match a with
    | ⟨0, _⟩ => rfl
    | ⟨1, _⟩ => exact Fin.ext (Nat.mod_eq_of_lt h)
  · simp only [dif_neg h]

/-! A word that names a node is not negative, so the wrap before each gather leaves it as it is. -/

theorem v19_apply (e : Fin 850000) (hs : (Spec.endpt x1 0 e).toNat < 50000) :
    val_main_v19 (F := Ideal) x1 (ix1 e) = Spec.endpt x1 0 e := by
  rw [val_main_v19_apply, val_main_v16_apply, val_main_v18_apply, val_main_v15_apply, val_main_c_apply, v5_apply]
  exact LibIdx2.wrap_of_lt _ _ (by omega)

theorem v26_apply (e : Fin 850000) (hd : (Spec.endpt x1 1 e).toNat < 50000) :
    val_main_v26 (F := Ideal) x1 (ix1 e) = Spec.endpt x1 1 e := by
  rw [val_main_v26_apply, val_main_v23_apply, val_main_v25_apply, val_main_v22_apply, val_main_c_4_apply, v6_apply]
  exact LibIdx2.wrap_of_lt _ _ (by omega)

theorem v35_apply (e : Fin 850000) (hs : (Spec.endpt x1 0 e).toNat < 50000) :
    val_main_v35 (F := Ideal) x1 (ix1 e) = Spec.endpt x1 0 e := by
  rw [val_main_v35_apply, val_main_v32_apply, val_main_v34_apply, val_main_v31_apply, val_main_c_6_apply, v5_apply]
  exact LibIdx2.wrap_of_lt _ _ (by omega)

/-! ## Degrees, their inverse square roots, and the edge weights -/

/-- The destination words as the column the degree scatter reads. -/
theorem v9_apply (e : Fin 850000) : val_main_v9 (F := Ideal) x1 (ix2 e (0 : Fin 1)) = Spec.endpt x1 1 e := by
  rw [val_main_v9_apply, col_idx idx_main_v9 (fun _ => rfl), v6_apply]

/-- The degree buffer: ones summed at the destination words. -/
theorem v10_apply (n : Fin 50000) : val_main_v10 (F := Ideal) x1 (ix1 n) = Spec.deg (Spec.endpt x1 1) n.val := by
  have hsc : val_main_v10 (F := Ideal) x1 (ix1 n) = val_main_v8 (F := Ideal) (ix1 n)
      + ∑ e : Fin 850000, if (val_main_v9 (F := Ideal) x1 (ix2 e (0 : Fin 1))).toNat = n.val then val_main_v7 (F := Ideal) (ix1 e) else 0 :=
    LibIdx.scatterAddCol_apply32 _ (by norm_num) _ _ _ n
  rw [hsc, val_main_v8_apply, val_main_cst_0_apply, Ideal.ofBits_def, Ideal.ofBits_zero_f32, zero_add]
  unfold Spec.deg
  refine Finset.sum_congr rfl fun e _ => ?_
  rw [v9_apply, val_main_v7_apply, val_main_cst_apply]
  rfl

/-- The inverse square-root degrees: `where (deg > 0) (rsqrt deg) 0`. -/
theorem v14_apply (n : Fin 50000) : val_main_v14 (F := Ideal) x1 (ix1 n) = Spec.dinv (Spec.endpt x1 1) n.val := by
  rw [val_main_v14_apply, val_main_v12_apply, val_main_v13_apply, val_main_v11_apply, val_main_cst_1_apply,
    val_main_call0_v1_apply, val_main_call0_v0_apply, val_main_cst_2_apply, v10_apply]
  rfl

/-- The inverse square-root degree at an edge's source. -/
theorem v21_apply (e : Fin 850000) (hs : (Spec.endpt x1 0 e).toNat < 50000) :
    val_main_v21 (F := Ideal) x1 (ix1 e) = Spec.dinv (Spec.endpt x1 1) (Spec.endpt x1 0 e).toNat := by
  have hw : val_main_v20 (F := Ideal) x1 (ix2 e (0 : Fin 1)) = Spec.endpt x1 0 e := by
    rw [val_main_v20_apply, col_idx idx_main_v20 (fun _ => rfl), v19_apply x1 e hs]
  have hlt : (val_main_v20 (F := Ideal) x1 (ix2 e (0 : Fin 1))).toNat < 50000 := by rw [hw]; exact hs
  have hg : val_main_v21 (F := Ideal) x1 (ix1 e)
      = val_main_v14 (F := Ideal) x1 (ix1 ⟨(val_main_v20 (F := Ideal) x1 (ix2 e (0 : Fin 1))).toNat, hlt⟩) :=
    LibIdx.gatherCol_apply_of_lt (by norm_num) _ _ _ e hlt
  rw [hg, v14_apply]
  show Spec.dinv _ (val_main_v20 (F := Ideal) x1 (ix2 e (0 : Fin 1))).toNat = _
  rw [hw]

/-- The inverse square-root degree at an edge's destination. -/
theorem v28_apply (e : Fin 850000) (hd : (Spec.endpt x1 1 e).toNat < 50000) :
    val_main_v28 (F := Ideal) x1 (ix1 e) = Spec.dinv (Spec.endpt x1 1) (Spec.endpt x1 1 e).toNat := by
  have hw : val_main_v27 (F := Ideal) x1 (ix2 e (0 : Fin 1)) = Spec.endpt x1 1 e := by
    rw [val_main_v27_apply, col_idx idx_main_v27 (fun _ => rfl), v26_apply x1 e hd]
  have hlt : (val_main_v27 (F := Ideal) x1 (ix2 e (0 : Fin 1))).toNat < 50000 := by rw [hw]; exact hd
  have hg : val_main_v28 (F := Ideal) x1 (ix1 e)
      = val_main_v14 (F := Ideal) x1 (ix1 ⟨(val_main_v27 (F := Ideal) x1 (ix2 e (0 : Fin 1))).toNat, hlt⟩) :=
    LibIdx.gatherCol_apply_of_lt (by norm_num) _ _ _ e hlt
  rw [hg, v14_apply]
  show Spec.dinv _ (val_main_v27 (F := Ideal) x1 (ix2 e (0 : Fin 1))).toNat = _
  rw [hw]

/-- The edge weights. -/
theorem v29_apply (e : Fin 850000) (hs : (Spec.endpt x1 0 e).toNat < 50000) (hd : (Spec.endpt x1 1 e).toNat < 50000) :
    val_main_v29 (F := Ideal) x1 (ix1 e) = Spec.norm (Spec.endpt x1 0) (Spec.endpt x1 1) e := by
  rw [val_main_v29_apply, v21_apply x1 e hs, v28_apply x1 e hd]
  rfl

/-! ## One convolution layer, over any feature table

Both layers of the program are this function of the edge words, a feature table `h` already multiplied by the
layer's weights, and the layer's bias: the second layer's buffers repeat the first's operation by operation. -/

/-- The messages: the rows of `h` gathered by source word, scaled by the edge weights. -/
def msgs (h : (⟨S50000x64, .f32⟩ : BufTy).Contents (Elt Ideal)) : (⟨S850000x64, .f32⟩ : BufTy).Contents (Elt Ideal) :=
  mulf (F := Ideal) (φ := .f32)
    (Host.gather gather_S50000x64_S850000x1_S850000x64_1_0_n_n_0_1_164 h (val_main_v36 (F := Ideal) x1)) (val_main_v39 (F := Ideal) x1)

/-- The messages summed at their destination words. -/
def aggr (h : (⟨S50000x64, .f32⟩ : BufTy).Contents (Elt Ideal)) : (⟨S50000x64, .f32⟩ : BufTy).Contents (Elt Ideal) :=
  Host.scatterAdd (F := Ideal) (φ := .f32) scatter_S50000x64_S850000x1_S850000x64_1_0_0_1 (val_main_v41 (F := Ideal))
    (val_main_v42 (F := Ideal) x1) (msgs x1 h)

/-- The layer: the sums plus the bias, through `tanh`. -/
def layer (h : (⟨S50000x64, .f32⟩ : BufTy).Contents (Elt Ideal)) (b : (⟨S64, .f32⟩ : BufTy).Contents (Elt Ideal)) :
    (⟨S50000x64, .f32⟩ : BufTy).Contents (Elt Ideal) :=
  Host.tanh (F := Ideal) (φ := .f32) (addf (F := Ideal) (φ := .f32) (aggr x1 h) (val_main_v45 (F := Ideal) b))

/-- The first layer's output buffer is the layer on `x · W₁` and `b₁`. -/
theorem v47_eq : val_main_v47 (F := Ideal) x0 x1 x2 x3 = layer x1 (val_main_v30 (F := Ideal) x0 x2) x3 := rfl

/-- The second layer's output buffer is the layer on `(first layer) · W₂` and `b₂`. -/
theorem v91_eq : val_main_v91 (F := Ideal) x0 x1 x2 x3 x4 x5 = layer x1 (val_main_v74 (F := Ideal) x0 x1 x2 x3 x4) x5 := rfl

/-- An edge's message is its source row times its weight. -/
theorem msgs_apply (hr : ∀ e : Fin 850000, (Spec.endpt x1 0 e).toNat < 50000 ∧ (Spec.endpt x1 1 e).toNat < 50000)
    (h : (⟨S50000x64, .f32⟩ : BufTy).Contents (Elt Ideal)) (e : Fin 850000) (j : Fin 64) :
    msgs x1 h (ix2 e j) = Spec.msg (Spec.endpt x1 0) (Spec.endpt x1 1) (Spec.rows (R := 50000) (C := 64) h) e j := by
  have hw : val_main_v36 (F := Ideal) x1 (ix2 e (0 : Fin 1)) = Spec.endpt x1 0 e := by
    rw [val_main_v36_apply, col_idx idx_main_v36 (fun _ => rfl), v35_apply x1 e (hr e).1]
  have hlt : (val_main_v36 (F := Ideal) x1 (ix2 e (0 : Fin 1))).toNat < 50000 := by rw [hw]; exact (hr e).1
  have hg : Host.gather gather_S50000x64_S850000x1_S850000x64_1_0_n_n_0_1_164 h (val_main_v36 (F := Ideal) x1) (ix2 e j)
      = h (ix2 ⟨(val_main_v36 (F := Ideal) x1 (ix2 e (0 : Fin 1))).toNat, hlt⟩ j) :=
    LibIdx2.gatherRows_apply_of_lt (by norm_num) _ h _ e j hlt
  have hi : idx_main_v38 (idx_main_v39 (ix2 e j)) = ix1 e := by
    funext a
    obtain rfl : a = 0 := Subsingleton.elim _ _
    rfl
  have hn : val_main_v39 (F := Ideal) x1 (ix2 e j) = Spec.norm (Spec.endpt x1 0) (Spec.endpt x1 1) e := by
    rw [val_main_v39_apply, val_main_v38_apply, hi, v29_apply x1 e (hr e).1 (hr e).2]
  have hd : msgs x1 h (ix2 e j)
      = Host.gather gather_S50000x64_S850000x1_S850000x64_1_0_n_n_0_1_164 h (val_main_v36 (F := Ideal) x1) (ix2 e j)
        * val_main_v39 (F := Ideal) x1 (ix2 e j) := rfl
  have hrow : (⟨(val_main_v36 (F := Ideal) x1 (ix2 e (0 : Fin 1))).toNat, hlt⟩ : Fin 50000)
      = ⟨(Spec.endpt x1 0 e).toNat, (hr e).1⟩ := Fin.ext (congrArg BitVec.toNat hw)
  rw [hd, hg, hn, hrow]
  unfold Spec.msg
  rw [rows_of_lt h _ (hr e).1 j]

/-- A node's sum: the messages of the edges whose destination word names it. -/
theorem aggr_apply (hr : ∀ e : Fin 850000, (Spec.endpt x1 0 e).toNat < 50000 ∧ (Spec.endpt x1 1 e).toNat < 50000)
    (h : (⟨S50000x64, .f32⟩ : BufTy).Contents (Elt Ideal)) (r : Fin 50000) (j : Fin 64) :
    aggr x1 h (ix2 r j) = ∑ e : Fin 850000, if (Spec.endpt x1 1 e).toNat = r.val
      then Spec.msg (Spec.endpt x1 0) (Spec.endpt x1 1) (Spec.rows (R := 50000) (C := 64) h) e j else 0 := by
  have hsc : aggr x1 h (ix2 r j) = val_main_v41 (F := Ideal) (ix2 r j)
      + ∑ e : Fin 850000, if (val_main_v42 (F := Ideal) x1 (ix2 e (0 : Fin 1))).toNat = r.val then msgs x1 h (ix2 e j) else 0 :=
    LibIdx2.scatterAddRows_apply32 _ (by norm_num) _ _ _ r j
  rw [hsc, val_main_v41_apply, val_main_cst_8_apply, Ideal.ofBits_def, Ideal.ofBits_zero_f32, zero_add]
  refine Finset.sum_congr rfl fun e _ => ?_
  rw [val_main_v42_apply, col_idx idx_main_v42 (fun _ => rfl), v6_apply, msgs_apply x1 hr h e j]

/-- `tanh` of a sum of two arrays, at an index. -/
theorem tanh_addf_apply {s : Shape} (A B : FVec Ideal s .f32) (i : s.Idx) :
    Host.tanh (F := Ideal) (φ := .f32) (addf (F := Ideal) (φ := .f32) A B) i = Ideal.tanh (A i + B i) := by
  unfold Host.tanh
  rw [Ideal.hostUnary_tanh_def, addf_apply]

/-- The aggregation of `Cert.Spec` spelt out. -/
theorem agg_def {D : ℕ} (d : Fin 850000 → BitVec 32) (mg : Fin 850000 → Fin D → EReal) (b : Fin D → EReal) (n : ℕ) (j : Fin D) :
    Spec.agg d mg b n j = Ideal.tanh ((∑ e : Fin 850000, if (d e).toNat = n then mg e j else 0) + b j) := by
  unfold Spec.agg
  rfl

/-- The layer, row by row: `tanh` of the node's sum plus the bias. -/
theorem layer_apply (hr : ∀ e : Fin 850000, (Spec.endpt x1 0 e).toNat < 50000 ∧ (Spec.endpt x1 1 e).toNat < 50000)
    (h : (⟨S50000x64, .f32⟩ : BufTy).Contents (Elt Ideal)) (b : (⟨S64, .f32⟩ : BufTy).Contents (Elt Ideal))
    (r : Fin 50000) (j : Fin 64) :
    layer x1 h b (ix2 r j) = Spec.agg (Spec.endpt x1 1)
      (Spec.msg (Spec.endpt x1 0) (Spec.endpt x1 1) (Spec.rows (R := 50000) (C := 64) h)) (Spec.vec (C := 64) b) r.val j := by
  have hi : idx_main_v44 (idx_main_v45 (ix2 r j)) = ix1 j := by
    funext a
    obtain rfl : a = 0 := Subsingleton.elim _ _
    rfl
  have hb : val_main_v45 (F := Ideal) b (ix2 r j) = Spec.vec (C := 64) b j := by
    rw [val_main_v45_apply, val_main_v44_apply, hi]
    unfold Spec.vec
    rfl
  unfold layer
  refine (tanh_addf_apply (aggr x1 h) (val_main_v45 (F := Ideal) b) (ix2 r j)).trans ?_
  refine Eq.trans (congrArg Ideal.tanh ?_) (agg_def _ _ _ _ _).symm
  rw [aggr_apply x1 hr h r j, hb]

/-! ## The dense products -/

/-- The first layer's features times its weights, on every row number. -/
theorem rows_v30 : Spec.rows (R := 50000) (C := 64) (val_main_v30 (F := Ideal) x0 x2)
    = Spec.lin (Spec.rows (R := 50000) (C := 128) x0) (Spec.mat (R := 128) (C := 64) x2) := by
  funext n j
  unfold Spec.lin
  by_cases h : n < 50000
  · rw [rows_of_lt _ n h j, val_main_v30_apply]
    refine Finset.sum_congr rfl fun k _ => ?_
    have hl : lidx_main_v30 (ix2 ⟨n, h⟩ j) k = ix2 ⟨n, h⟩ k := by
      funext a
      match a with
      | ⟨0, _⟩ => rfl
      | ⟨1, _⟩ => rfl
    have hrr : ridx_main_v30 (ix2 (⟨n, h⟩ : Fin 50000) j) k = ix2 k j := by
      funext a
      match a with
      | ⟨0, _⟩ => rfl
      | ⟨1, _⟩ => rfl
    rw [hl, hrr, rows_of_lt x0 n h k]
    rfl
  · rw [rows_of_ge _ n h j]
    symm
    refine Finset.sum_eq_zero fun k _ => ?_
    rw [rows_of_ge x0 n h k, zero_mul]

/-- The second layer's features times its weights, on every row number. -/
theorem rows_v74 : Spec.rows (R := 50000) (C := 64) (val_main_v74 (F := Ideal) x0 x1 x2 x3 x4)
    = Spec.lin (Spec.rows (R := 50000) (C := 64) (val_main_v47 (F := Ideal) x0 x1 x2 x3)) (Spec.mat (R := 64) (C := 64) x4) := by
  funext n j
  unfold Spec.lin
  by_cases h : n < 50000
  · rw [rows_of_lt _ n h j, val_main_v74_apply]
    refine Finset.sum_congr rfl fun k _ => ?_
    have hl : lidx_main_v74 (ix2 ⟨n, h⟩ j) k = ix2 ⟨n, h⟩ k := by
      funext a
      match a with
      | ⟨0, _⟩ => rfl
      | ⟨1, _⟩ => rfl
    have hrr : ridx_main_v74 (ix2 (⟨n, h⟩ : Fin 50000) j) k = ix2 k j := by
      funext a
      match a with
      | ⟨0, _⟩ => rfl
      | ⟨1, _⟩ => rfl
    rw [hl, hrr, rows_of_lt _ n h k]
    rfl
  · rw [rows_of_ge _ n h j]
    symm
    refine Finset.sum_eq_zero fun k _ => ?_
    rw [rows_of_ge _ n h k, zero_mul]

/-! ## The two layers -/

/-- A convolution reads its features only at the rows that source words name. -/
theorem conv_congr (s d : Fin 850000 → BitVec 32) (hs : ∀ e, (s e).toNat < 50000) {K D : ℕ} (x x' : ℕ → Fin K → EReal)
    (hx : ∀ n, n < 50000 → ∀ k, x n k = x' n k) (W : Fin K → Fin D → EReal) (b : Fin D → EReal) :
    Spec.conv s d x W b = Spec.conv s d x' W b := by
  funext n j
  unfold Spec.conv Spec.agg
  refine congrArg Ideal.tanh (congrArg (fun t => t + b j) (Finset.sum_congr rfl fun e _ => ?_))
  by_cases hd : (d e).toNat = n
  · rw [if_pos hd, if_pos hd]
    unfold Spec.msg Spec.lin
    refine congrArg (fun t => t * Spec.norm s d e) (Finset.sum_congr rfl fun k _ => ?_)
    rw [hx _ (hs e) k]
  · rw [if_neg hd, if_neg hd]

section Layers
variable (hr : ∀ e : Fin 850000, (Spec.endpt x1 0 e).toNat < 50000 ∧ (Spec.endpt x1 1 e).toNat < 50000)
include hr

/-- The first layer, row by row. -/
theorem v47_apply (r : Fin 50000) (j : Fin 64) :
    val_main_v47 (F := Ideal) x0 x1 x2 x3 (ix2 r j)
      = Spec.conv (Spec.endpt x1 0) (Spec.endpt x1 1) (Spec.rows (R := 50000) (C := 128) x0) (Spec.mat (R := 128) (C := 64) x2)
          (Spec.vec (C := 64) x3) r.val j := by
  rw [v47_eq, layer_apply x1 hr _ x3 r j, rows_v30]
  rfl

/-- The second layer, row by row: its messages read the first layer only at rows that source words name. -/
theorem v91_apply (r : Fin 50000) (j : Fin 64) :
    val_main_v91 (F := Ideal) x0 x1 x2 x3 x4 x5 (ix2 r j)
      = Spec.conv (Spec.endpt x1 0) (Spec.endpt x1 1)
          (Spec.conv (Spec.endpt x1 0) (Spec.endpt x1 1) (Spec.rows (R := 50000) (C := 128) x0) (Spec.mat (R := 128) (C := 64) x2)
            (Spec.vec (C := 64) x3))
          (Spec.mat (R := 64) (C := 64) x4) (Spec.vec (C := 64) x5) r.val j := by
  rw [v91_eq, layer_apply x1 hr _ x5 r j, rows_v74]
  exact congrFun (congrFun (conv_congr (Spec.endpt x1 0) (Spec.endpt x1 1) (fun e => (hr e).1)
    (Spec.rows (R := 50000) (C := 64) (val_main_v47 (F := Ideal) x0 x1 x2 x3)) _
    (fun n hn k => (rows_of_lt _ n hn k).trans (v47_apply x0 x1 x2 x3 hr ⟨n, hn⟩ k))
    (Spec.mat (R := 64) (C := 64) x4) (Spec.vec (C := 64) x5)) r.val) j

end Layers

end Cert.ReferenceIdeal.RefLayers

end
-- ==== Proof.Val.RefVal.lean ====
/-
  The perceptron tail of the reference program and its whole value: on each row the result buffer is two dense
  layers, the first through `tanh`, applied to the second convolution layer's features; with the two layers read
  row by row this is `Cert.Spec.net` on the extended edge list and the argument arrays.
-/
import proofs.«401039_j68436008894831_1_alg».proof.Proof.Val.RefLayers

set_option Elab.async false

noncomputable section

open scoped BigOperators

namespace Cert.ReferenceIdeal.RefVal

open Cert.ReferenceIdeal Cert.ReferenceIdeal.Gen Cert.ReferenceIdeal.ReadP Cert.ReferenceIdeal.RefLayers Idealize.ShloMosaic
  Idealize.ShloMosaic.TcCoe Idealize.SL.Sem Idealize.ShloMosaic.StableHlo Idealize.ShloMosaic.ValueIdx

variable (x0 : (⟨S50000x128, .f32⟩ : BufTy).Contents (Elt Ideal)) (x1 : (⟨S2x800000, .i32⟩ : BufTy).Contents (Elt Ideal))
  (x2 : (⟨S128x64, .f32⟩ : BufTy).Contents (Elt Ideal)) (x3 : (⟨S64, .f32⟩ : BufTy).Contents (Elt Ideal))
  (x4 : (⟨S64x64, .f32⟩ : BufTy).Contents (Elt Ideal)) (x5 : (⟨S64, .f32⟩ : BufTy).Contents (Elt Ideal))
  (x6 : (⟨S64x32, .f32⟩ : BufTy).Contents (Elt Ideal)) (x7 : (⟨S32, .f32⟩ : BufTy).Contents (Elt Ideal))
  (x8 : (⟨S32x1, .f32⟩ : BufTy).Contents (Elt Ideal)) (x9 : (⟨S1, .f32⟩ : BufTy).Contents (Elt Ideal))

/-- The two convolution layers on the argument arrays, by row number. -/
abbrev feats : ℕ → Fin 64 → EReal :=
  Spec.conv (Spec.endpt x1 0) (Spec.endpt x1 1)
    (Spec.conv (Spec.endpt x1 0) (Spec.endpt x1 1) (Spec.rows (R := 50000) (C := 128) x0) (Spec.mat (R := 128) (C := 64) x2)
      (Spec.vec (C := 64) x3))
    (Spec.mat (R := 64) (C := 64) x4) (Spec.vec (C := 64) x5)

/-- The perceptron of `Cert.Spec` spelt out. -/
theorem mlp_def (x : ℕ → Fin 64 → EReal) (Wf1 : Fin 64 → Fin 32 → EReal) (bf1 : Fin 32 → EReal) (Wf2 : Fin 32 → Fin 1 → EReal)
    (bf2 : Fin 1 → EReal) (r : ℕ) (j : Fin 1) :
    Spec.mlp x Wf1 bf1 Wf2 bf2 r j
      = (∑ k : Fin 32, Ideal.tanh ((∑ q : Fin 64, x r q * Wf1 q k) + bf1 k) * Wf2 k j) + bf2 j := by
  unfold Spec.mlp
  rfl

section Net
variable (hr : ∀ e : Fin 850000, (Spec.endpt x1 0 e).toNat < 50000 ∧ (Spec.endpt x1 1 e).toNat < 50000)
include hr

/-- A hidden unit of the perceptron on row `r`. -/
theorem v96_apply (r : Fin 50000) (k : Fin 32) :
    val_main_v96 (F := Ideal) x0 x1 x2 x3 x4 x5 x6 x7 (ix2 r k)
      = Ideal.tanh ((∑ q : Fin 64, feats x0 x1 x2 x3 x4 x5 r.val q * Spec.mat (R := 64) (C := 32) x6 q k)
          + Spec.vec (C := 32) x7 k) := by
  have h94 : idx_main_v93 (idx_main_v94 (ix2 r k)) = ix1 k := by
    funext a
    obtain rfl : a = 0 := Subsingleton.elim _ _
    rfl
  have hq : ∀ q : Fin 64, val_main_v91 (F := Ideal) x0 x1 x2 x3 x4 x5 (lidx_main_v92 (ix2 r k) q) * x6 (ridx_main_v92 (ix2 r k) q)
      = feats x0 x1 x2 x3 x4 x5 r.val q * Spec.mat (R := 64) (C := 32) x6 q k := fun q => by
    have hl : lidx_main_v92 (ix2 r k) q = ix2 r q := by
      funext a
      match a with
      | ⟨0, _⟩ => rfl
      | ⟨1, _⟩ => rfl
    have hrr : ridx_main_v92 (ix2 r k) q = ix2 q k := by
      funext a
      match a with
      | ⟨0, _⟩ => rfl
      | ⟨1, _⟩ => rfl
    unfold Spec.mat
    rw [hl, hrr, v91_apply x0 x1 x2 x3 x4 x5 hr r q]
  have hb : val_main_v94 (F := Ideal) x7 (ix2 r k) = Spec.vec (C := 32) x7 k := by
    rw [val_main_v94_apply, val_main_v93_apply, h94]
    unfold Spec.vec
    rfl
  unfold val_main_v96 val_main_v95
  refine (tanh_addf_apply (val_main_v92 (F := Ideal) x0 x1 x2 x3 x4 x5 x6) (val_main_v94 (F := Ideal) x7) (ix2 r k)).trans
    (congrArg Ideal.tanh ?_)
  rw [val_main_v92_apply, hb, Finset.sum_congr rfl (fun q _ => hq q)]

/-- The result buffer, row by row, is the network. -/
theorem v100_apply (r : Fin 50000) :
    val_main_v100 (F := Ideal) x0 x1 x2 x3 x4 x5 x6 x7 x8 x9 (ix2 r (0 : Fin 1))
      = Spec.net (Spec.endpt x1 0) (Spec.endpt x1 1) (Spec.rows (R := 50000) (C := 128) x0) (Spec.mat (R := 128) (C := 64) x2)
          (Spec.vec (C := 64) x3) (Spec.mat (R := 64) (C := 64) x4) (Spec.vec (C := 64) x5) (Spec.mat (R := 64) (C := 32) x6)
          (Spec.vec (C := 32) x7) (Spec.mat (R := 32) (C := 1) x8) (Spec.vec (C := 1) x9) r.val 0 := by
  have h99 : idx_main_v98 (idx_main_v99 (ix2 r (0 : Fin 1))) = ix1 (0 : Fin 1) := by
    funext a
    obtain rfl : a = 0 := Subsingleton.elim _ _
    rfl
  have hk : ∀ k : Fin 32, val_main_v96 (F := Ideal) x0 x1 x2 x3 x4 x5 x6 x7 (lidx_main_v97 (ix2 r (0 : Fin 1)) k)
        * x8 (ridx_main_v97 (ix2 r (0 : Fin 1)) k)
      = Ideal.tanh ((∑ q : Fin 64, feats x0 x1 x2 x3 x4 x5 r.val q * Spec.mat (R := 64) (C := 32) x6 q k)
          + Spec.vec (C := 32) x7 k) * Spec.mat (R := 32) (C := 1) x8 k 0 := fun k => by
    have hl : lidx_main_v97 (ix2 r (0 : Fin 1)) k = ix2 r k := by
      funext a
      match a with
      | ⟨0, _⟩ => rfl
      | ⟨1, _⟩ => rfl
    have hrr : ridx_main_v97 (ix2 r (0 : Fin 1)) k = ix2 k (0 : Fin 1) := by
      funext a
      match a with
      | ⟨0, _⟩ => rfl
      | ⟨1, _⟩ => rfl
    rw [hl, hrr, v96_apply x0 x1 x2 x3 x4 x5 x6 x7 hr r k]
    rfl
  have hb : val_main_v99 (F := Ideal) x9 (ix2 r (0 : Fin 1)) = Spec.vec (C := 1) x9 0 := by
    rw [val_main_v99_apply, val_main_v98_apply, h99]
    unfold Spec.vec
    rfl
  unfold Spec.net
  refine Eq.trans ?_ (mlp_def _ _ _ _ _ _ _).symm
  rw [val_main_v100_apply, Ideal.addf_def, val_main_v97_apply, hb, Finset.sum_congr rfl (fun k _ => hk k)]

end Net

/-- THE REFERENCE'S VALUE: on every device, from launch memory `m` whose edge words all name nodes, row `r` of the
    result is the network of `Cert.Spec` on the extended edge list and the argument arrays. -/
theorem res_apply (m : (ℓ : Loc nD τ sig) → Buf (Elt Ideal) ℓ) (c : Dev nD)
    (hr : ∀ e : Fin 850000, (Spec.endpt (m ((c.tc : Thread nD τ).loc main_arg1)) 0 e).toNat < 50000
      ∧ (Spec.endpt (m ((c.tc : Thread nD τ).loc main_arg1)) 1 e).toNat < 50000) (r : Fin 50000) :
    Cert.ReferenceIdeal.ValueP.res_main_v100 m c (ix2 r (0 : Fin 1))
      = Spec.net (Spec.endpt (m ((c.tc : Thread nD τ).loc main_arg1)) 0) (Spec.endpt (m ((c.tc : Thread nD τ).loc main_arg1)) 1)
          (Spec.rows (R := 50000) (C := 128) (m ((c.tc : Thread nD τ).loc main_arg0)))
          (Spec.mat (R := 128) (C := 64) (m ((c.tc : Thread nD τ).loc main_arg2)))
          (Spec.vec (C := 64) (m ((c.tc : Thread nD τ).loc main_arg3)))
          (Spec.mat (R := 64) (C := 64) (m ((c.tc : Thread nD τ).loc main_arg4)))
          (Spec.vec (C := 64) (m ((c.tc : Thread nD τ).loc main_arg5)))
          (Spec.mat (R := 64) (C := 32) (m ((c.tc : Thread nD τ).loc main_arg6)))
          (Spec.vec (C := 32) (m ((c.tc : Thread nD τ).loc main_arg7)))
          (Spec.mat (R := 32) (C := 1) (m ((c.tc : Thread nD τ).loc main_arg8)))
          (Spec.vec (C := 1) (m ((c.tc : Thread nD τ).loc main_arg9))) r.val 0 := by
  rw [val_main_v100_eq]
  exact v100_apply (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) hr r

end Cert.ReferenceIdeal.RefVal

end
-- ==== Proof.Val.Algebraic.lean ====
/-
  The certificate's algebraic claim, assembled: at the ideal instance the kernel program's result array and the
  reference program's are one function of the argument arrays. The kernel's run ends with every unscoped buffer at the
  last boundary's contents, its result there the network of Spec on every row; the reference's run ends with its result
  at the same network of its own arguments, which are the kernel's; the integer precondition makes every endpoint word
  of the extended edge list name a node, which both value theorems ask for.
-/
import proofs.«401039_j68436008894831_1_alg».proof.Defs
import proofs.«401039_j68436008894831_1_alg».proof.Proof.Gen.KernelIdeal
import proofs.«401039_j68436008894831_1_alg».proof.Proof.Gen.ReferenceIdeal
import proofs.«401039_j68436008894831_1_alg».proof.Proof.Gen.Pre_finite_inputs
import proofs.«401039_j68436008894831_1_alg».proof.Proof.KI.Keep
import proofs.«401039_j68436008894831_1_alg».proof.Proof.Ref.Read
import proofs.«401039_j68436008894831_1_alg».proof.Proof.Val.Pre
import proofs.«401039_j68436008894831_1_alg».proof.Proof.Val.Spec
import proofs.«401039_j68436008894831_1_alg».proof.Proof.Val.KValue
import proofs.«401039_j68436008894831_1_alg».proof.Proof.Val.RefVal
import Idealize.ShloMosaic.Lib.ValueIdx

noncomputable section

namespace Cert.Proof.Alg

open Idealize.ShloMosaic Idealize.ShloMosaic.TcCoe Idealize.SL.Sem Idealize.ShloMosaic.ValueIdx

/-- At the ideal instance the kernel program's result and the reference program's are one function of the argument
    arrays: on every row the network of Spec, the endpoint words naming nodes by the integer precondition. -/
theorem algebraic : Cert.algebraic_KernelIdeal_ReferenceIdeal := by
  intro m ρ m' ρ' hpre hagree
  refine ⟨fun c => Cert.KernelIdeal.Hand.W13 m ρ c (Proc.devRef .tc Cert.KernelIdeal.main_v41), ?_, ?_⟩
  · exact (θ_run Cert.KernelIdeal.defs _ _).mono (fun r h c =>
      ⟨h c _ (Cert.KernelIdeal.Hand.mem_uc Cert.KernelIdeal.main_v41 (by decide)),
       (h c _ (Cert.KernelIdeal.Hand.mem_uc Cert.KernelIdeal.main_arg0 (by decide))).trans (Cert.KernelIdeal.Hand.W13_main_arg0 m ρ c),
       (h c _ (Cert.KernelIdeal.Hand.mem_uc Cert.KernelIdeal.main_arg1 (by decide))).trans (Cert.KernelIdeal.Hand.W13_main_arg1 m ρ c),
       (h c _ (Cert.KernelIdeal.Hand.mem_uc Cert.KernelIdeal.main_arg2 (by decide))).trans (Cert.KernelIdeal.Hand.W13_main_arg2 m ρ c),
       (h c _ (Cert.KernelIdeal.Hand.mem_uc Cert.KernelIdeal.main_arg3 (by decide))).trans (Cert.KernelIdeal.Hand.W13_main_arg3 m ρ c),
       (h c _ (Cert.KernelIdeal.Hand.mem_uc Cert.KernelIdeal.main_arg4 (by decide))).trans (Cert.KernelIdeal.Hand.W13_main_arg4 m ρ c),
       (h c _ (Cert.KernelIdeal.Hand.mem_uc Cert.KernelIdeal.main_arg5 (by decide))).trans (Cert.KernelIdeal.Hand.W13_main_arg5 m ρ c),
       (h c _ (Cert.KernelIdeal.Hand.mem_uc Cert.KernelIdeal.main_arg6 (by decide))).trans (Cert.KernelIdeal.Hand.W13_main_arg6 m ρ c),
       (h c _ (Cert.KernelIdeal.Hand.mem_uc Cert.KernelIdeal.main_arg7 (by decide))).trans (Cert.KernelIdeal.Hand.W13_main_arg7 m ρ c),
       (h c _ (Cert.KernelIdeal.Hand.mem_uc Cert.KernelIdeal.main_arg8 (by decide))).trans (Cert.KernelIdeal.Hand.W13_main_arg8 m ρ c),
       (h c _ (Cert.KernelIdeal.Hand.mem_uc Cert.KernelIdeal.main_arg9 (by decide))).trans (Cert.KernelIdeal.Hand.W13_main_arg9 m ρ c)⟩)
      (Cert.KernelIdeal.Hand.run_all m ρ)
  · refine (θ_run Cert.ReferenceIdeal.defs _ _).mono (fun _ h c => ⟨(h c).1.trans ?_, (h c).2⟩)
      (Cert.ReferenceIdeal.ValueP.run (F := Ideal) m' ρ')
    have hr := Cert.PreVal.range_of_pre _ _ _ _ _ _ _ _ _ _ (hpre c)
    obtain ⟨h0, h1, h2, h3, h4, h5, h6, h7, h8, h9⟩ := hagree c
    have hr' : (∀ e : Fin 850000, (Cert.Spec.endpt (m' ((c.tc : Thread Cert.ReferenceIdeal.nD Cert.ReferenceIdeal.τ).loc Cert.ReferenceIdeal.main_arg1)) 0 e).toNat < 50000 ∧ (Cert.Spec.endpt (m' ((c.tc : Thread Cert.ReferenceIdeal.nD Cert.ReferenceIdeal.τ).loc Cert.ReferenceIdeal.main_arg1)) 1 e).toNat < 50000) := by
      rw [h1]; exact hr
    funext i
    obtain ⟨r, j, rfl⟩ : ∃ (r : Fin 50000) (j : Fin 1), i = ix2 r j := ⟨i 0, i 1, eq_ix2 i⟩
    obtain rfl : j = 0 := Subsingleton.elim _ _
    refine (Cert.ReferenceIdeal.RefVal.res_apply m' c hr' r).trans ?_
    refine Eq.trans ?_ (Cert.KernelIdeal.Assemble.kernel_value m ρ c hr r).symm
    rw [h0, h1, h2, h3, h4, h5, h6, h7, h8, h9]

end Cert.Proof.Alg

end
-- ==== Proof.lean ====
/-
  The certificate's claims, assembled. Both programs compute a two-layer graph convolution with self loops and
  symmetric degree normalisation followed by a two-layer perceptron. The kernel program does the gather of source rows
  and the scatter-add at destinations as tiled products against one-hot matrices built from index comparisons, over a
  node axis padded from 50000 to 50048 rows, and slices the padding off at the end. At the ideal instance a one-hot row
  times a block is the selected row (0 · x = 0 and 0 + x = x for every extended real), sums may be taken in any order
  and grouping, and format changes are the identity; so on edge words in range — every word of the edge list in
  [0, 50000), the precondition's last conjunct, outside which the reference itself indexes out of range — both programs
  compute the network of Val/Spec.lean row by row (Val/Algebraic.lean). The frames: each kernel program runs its six
  stretches of host operations and seven kernel regions to the end with every argument array as launched
  (K/Keep.lean at the word level, KI/Keep.lean at the ideal instance); the reference's frame is its run read back.
-/
import proofs.«401039_j68436008894831_1_alg».proof.Defs
import proofs.«401039_j68436008894831_1_alg».proof.Proof.Gen.Kernel
import proofs.«401039_j68436008894831_1_alg».proof.Proof.Gen.KernelIdeal
import proofs.«401039_j68436008894831_1_alg».proof.Proof.Gen.ReferenceIdeal
import proofs.«401039_j68436008894831_1_alg».proof.Proof.Gen.Pre_finite_inputs
import proofs.«401039_j68436008894831_1_alg».proof.Proof.K.Keep
import proofs.«401039_j68436008894831_1_alg».proof.Proof.KI.Keep
import proofs.«401039_j68436008894831_1_alg».proof.Proof.Ref.Read
import proofs.«401039_j68436008894831_1_alg».proof.Proof.Val.Algebraic
import Idealize.ShloMosaic.Adequacy
import Idealize.ShloMosaic.Init

noncomputable section

namespace Cert.Proof

open Idealize.ShloMosaic Idealize.SL.Sem

/-- The word-level kernel program runs to the end and leaves its arguments as launched. -/
theorem frame_k : Cert.frame_Kernel := fun m ρ _ => Cert.Kernel.Hand.frame_all (F := Bits) m ρ
/-- So does its idealization. -/
theorem frame_ki : Cert.frame_KernelIdeal := fun m ρ _ => Cert.KernelIdeal.Hand.frame_all (F := Ideal) m ρ
/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, Cert.Proof.Alg.algebraic⟩

end Cert.Proof

end
